-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![1024, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  main_v3
-- ==== Pre_finite_inputs_ReferenceIdeal.lean ====
abbrev S1024x8192 : Shape := ⟨2, ![1024, 8192]⟩
abbrev S_ : Shape := ⟨0, ![]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel

variable [Facts]

def fn {F : FTy → Type} [FloatOps F] (main_arg0 : FVec F S1024x8192 .f32) : IVec S_ 1 :=
  let main_v0 : FVec F S1024x8192 .f32 := Host.absf main_arg0
  let main_cst : FVec F S_ .f32 := constant S_ .f32 0x7F800000#32
  let main_v1 : FVec F S1024x8192 .f32 := broadcastInDim S1024x8192 ![] bcast_S_S1024x8192 main_cst
  let main_v2 : IVec S1024x8192 1 := cmpf .olt main_v0 main_v1
  let main_c : IVec S_ 1 := constantI S_ 1 1#1
  let main_v3 : IVec S_ 1 := (fun x v => Host.reduce IntOp.andi x v reducesTo_S1024x8192_S_d0_1 h_S_) main_v2 main_c
  main_v3
-- ==== Kernel.lean ====
abbrev S1024x1024 : Shape := ⟨2, ![1024, 1024]⟩
abbrev S8x2x1024 : Shape := ⟨3, ![8, 2, 1024]⟩
abbrev S7 : Shape := ⟨1, ![7]⟩
abbrev S8 : Shape := ⟨1, ![8]⟩
abbrev S_ : Shape := ⟨0, ![]⟩
abbrev S1024 : Shape := ⟨1, ![1024]⟩
abbrev S1024x1 : Shape := ⟨2, ![1024, 1]⟩
abbrev S1024x2 : Shape := ⟨2, ![1024, 2]⟩
abbrev S2x1024 : Shape := ⟨2, ![2, 1024]⟩
abbrev S1x2x1024 : Shape := ⟨3, ![1, 2, 1024]⟩
abbrev S1 : Shape := ⟨1, ![1]⟩
abbrev S8x1x1024 : Shape := ⟨3, ![8, 1, 1024]⟩
abbrev S1x1024 : Shape := ⟨2, ![1, 1024]⟩
abbrev S1x1x1024 : Shape := ⟨3, ![1, 1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S8x2x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v114 : Index := Scalar.indexCast v2
  let c0_69 : Index := 0#32
  let c0_70 : Index := 0#32
  ![v114.toNat, 0, 0]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_82 : BitVec 32 := 0#32
  let c0_i32_83 : BitVec 32 := 0#32
  ![v2.toNat, 0, 0]
def k0_dev8 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_72 : BitVec 32 := 1#32
  let v118 : BitVec 32 := Scalar.addi v2 c1_i32_72
  let c8_i32_73 : BitVec 32 := 8#32
  let c0_i32_74 : BitVec 32 := 0#32
  let v119 : BitVec 1 := Scalar.cmpi .eq c8_i32_73 c0_i32_74
  let c1_i32_75 : BitVec 32 := 1#32
  let v120 : BitVec 32 := Scalar.select v119 c1_i32_75 c8_i32_73
  let v121 : BitVec 32 := Scalar.remsi v118 v120
  let c0_i32_77 : BitVec 32 := 0#32
  let v123 : BitVec 1 := Scalar.cmpi .slt v121 c0_i32_77
  let c0_i32_78 : BitVec 32 := 0#32
  let v124 : BitVec 1 := Scalar.cmpi .slt v120 c0_i32_78
  let v125 : BitVec 1 := Scalar.xori v123 v124
  let c0_i32_76 : BitVec 32 := 0#32
  let v122 : BitVec 1 := Scalar.cmpi .ne v121 c0_i32_76
  let v126 : BitVec 1 := Scalar.andi v125 v122
  let v127 : BitVec 32 := Scalar.addi v121 v120
  let v128 : BitVec 32 := Scalar.select v126 v127 v121
  let c1_i32_80 : BitVec 32 := 1#32
  let v129 : BitVec 32 := Scalar.muli v128 c1_i32_80
  let v130 : BitVec 32 := Scalar.addi c0_i32_81 v129
  v130.toNat
def k0_dev9 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_86 : BitVec 32 := 2#32
  let v139 : BitVec 32 := Scalar.addi v2 c2_i32_86
  let c8_i32_87 : BitVec 32 := 8#32
  let c0_i32_88 : BitVec 32 := 0#32
  let v140 : BitVec 1 := Scalar.cmpi .eq c8_i32_87 c0_i32_88
  let c1_i32_89 : BitVec 32 := 1#32
  let v141 : BitVec 32 := Scalar.select v140 c1_i32_89 c8_i32_87
  let v142 : BitVec 32 := Scalar.remsi v139 v141
  let c0_i32_91 : BitVec 32 := 0#32
  let v144 : BitVec 1 := Scalar.cmpi .slt v142 c0_i32_91
  let c0_i32_92 : BitVec 32 := 0#32
  let v145 : BitVec 1 := Scalar.cmpi .slt v141 c0_i32_92
  let v146 : BitVec 1 := Scalar.xori v144 v145
  let c0_i32_90 : BitVec 32 := 0#32
  let v143 : BitVec 1 := Scalar.cmpi .ne v142 c0_i32_90
  let v147 : BitVec 1 := Scalar.andi v146 v143
  let v148 : BitVec 32 := Scalar.addi v142 v141
  let v149 : BitVec 32 := Scalar.select v147 v148 v142
  let c1_i32_94 : BitVec 32 := 1#32
  let v150 : BitVec 32 := Scalar.muli v149 c1_i32_94
  let v151 : BitVec 32 := Scalar.addi c0_i32_95 v150
  v151.toNat
def k0_dev10 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_100 : BitVec 32 := 3#32
  let v160 : BitVec 32 := Scalar.addi v2 c3_i32_100
  let c8_i32_101 : BitVec 32 := 8#32
  let c0_i32_102 : BitVec 32 := 0#32
  let v161 : BitVec 1 := Scalar.cmpi .eq c8_i32_101 c0_i32_102
  let c1_i32_103 : BitVec 32 := 1#32
  let v162 : BitVec 32 := Scalar.select v161 c1_i32_103 c8_i32_101
  let v163 : BitVec 32 := Scalar.remsi v160 v162
  let c0_i32_105 : BitVec 32 := 0#32
  let v165 : BitVec 1 := Scalar.cmpi .slt v163 c0_i32_105
  let c0_i32_106 : BitVec 32 := 0#32
  let v166 : BitVec 1 := Scalar.cmpi .slt v162 c0_i32_106
  let v167 : BitVec 1 := Scalar.xori v165 v166
  let c0_i32_104 : BitVec 32 := 0#32
  let v164 : BitVec 1 := Scalar.cmpi .ne v163 c0_i32_104
  let v168 : BitVec 1 := Scalar.andi v167 v164
  let v169 : BitVec 32 := Scalar.addi v163 v162
  let v170 : BitVec 32 := Scalar.select v168 v169 v163
  let c1_i32_108 : BitVec 32 := 1#32
  let v171 : BitVec 32 := Scalar.muli v170 c1_i32_108
  let v172 : BitVec 32 := Scalar.addi c0_i32_109 v171
  v172.toNat
def k0_dev11 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_114 : BitVec 32 := 4#32
  let v181 : BitVec 32 := Scalar.addi v2 c4_i32_114
  let c8_i32_115 : BitVec 32 := 8#32
  let c0_i32_116 : BitVec 32 := 0#32
  let v182 : BitVec 1 := Scalar.cmpi .eq c8_i32_115 c0_i32_116
  let c1_i32_117 : BitVec 32 := 1#32
  let v183 : BitVec 32 := Scalar.select v182 c1_i32_117 c8_i32_115
  let v184 : BitVec 32 := Scalar.remsi v181 v183
  let c0_i32_119 : BitVec 32 := 0#32
  let v186 : BitVec 1 := Scalar.cmpi .slt v184 c0_i32_119
  let c0_i32_120 : BitVec 32 := 0#32
  let v187 : BitVec 1 := Scalar.cmpi .slt v183 c0_i32_120
  let v188 : BitVec 1 := Scalar.xori v186 v187
  let c0_i32_118 : BitVec 32 := 0#32
  let v185 : BitVec 1 := Scalar.cmpi .ne v184 c0_i32_118
  let v189 : BitVec 1 := Scalar.andi v188 v185
  let v190 : BitVec 32 := Scalar.addi v184 v183
  let v191 : BitVec 32 := Scalar.select v189 v190 v184
  let c1_i32_122 : BitVec 32 := 1#32
  let v192 : BitVec 32 := Scalar.muli v191 c1_i32_122
  let v193 : BitVec 32 := Scalar.addi c0_i32_123 v192
  v193.toNat
def k0_dev12 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_128 : BitVec 32 := 5#32
  let v202 : BitVec 32 := Scalar.addi v2 c5_i32_128
  let c8_i32_129 : BitVec 32 := 8#32
  let c0_i32_130 : BitVec 32 := 0#32
  let v203 : BitVec 1 := Scalar.cmpi .eq c8_i32_129 c0_i32_130
  let c1_i32_131 : BitVec 32 := 1#32
  let v204 : BitVec 32 := Scalar.select v203 c1_i32_131 c8_i32_129
  let v205 : BitVec 32 := Scalar.remsi v202 v204
  let c0_i32_133 : BitVec 32 := 0#32
  let v207 : BitVec 1 := Scalar.cmpi .slt v205 c0_i32_133
  let c0_i32_134 : BitVec 32 := 0#32
  let v208 : BitVec 1 := Scalar.cmpi .slt v204 c0_i32_134
  let v209 : BitVec 1 := Scalar.xori v207 v208
  let c0_i32_132 : BitVec 32 := 0#32
  let v206 : BitVec 1 := Scalar.cmpi .ne v205 c0_i32_132
  let v210 : BitVec 1 := Scalar.andi v209 v206
  let v211 : BitVec 32 := Scalar.addi v205 v204
  let v212 : BitVec 32 := Scalar.select v210 v211 v205
  let c1_i32_136 : BitVec 32 := 1#32
  let v213 : BitVec 32 := Scalar.muli v212 c1_i32_136
  let v214 : BitVec 32 := Scalar.addi c0_i32_137 v213
  v214.toNat
def k0_dev13 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_142 : BitVec 32 := 6#32
  let v223 : BitVec 32 := Scalar.addi v2 c6_i32_142
  let c8_i32_143 : BitVec 32 := 8#32
  let c0_i32_144 : BitVec 32 := 0#32
  let v224 : BitVec 1 := Scalar.cmpi .eq c8_i32_143 c0_i32_144
  let c1_i32_145 : BitVec 32 := 1#32
  let v225 : BitVec 32 := Scalar.select v224 c1_i32_145 c8_i32_143
  let v226 : BitVec 32 := Scalar.remsi v223 v225
  let c0_i32_147 : BitVec 32 := 0#32
  let v228 : BitVec 1 := Scalar.cmpi .slt v226 c0_i32_147
  let c0_i32_148 : BitVec 32 := 0#32
  let v229 : BitVec 1 := Scalar.cmpi .slt v225 c0_i32_148
  let v230 : BitVec 1 := Scalar.xori v228 v229
  let c0_i32_146 : BitVec 32 := 0#32
  let v227 : BitVec 1 := Scalar.cmpi .ne v226 c0_i32_146
  let v231 : BitVec 1 := Scalar.andi v230 v227
  let v232 : BitVec 32 := Scalar.addi v226 v225
  let v233 : BitVec 32 := Scalar.select v231 v232 v226
  let c1_i32_150 : BitVec 32 := 1#32
  let v234 : BitVec 32 := Scalar.muli v233 c1_i32_150
  let v235 : BitVec 32 := Scalar.addi c0_i32_151 v234
  v235.toNat
def k0_dev14 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_156 : BitVec 32 := 7#32
  let v244 : BitVec 32 := Scalar.addi v2 c7_i32_156
  let c8_i32_157 : BitVec 32 := 8#32
  let c0_i32_158 : BitVec 32 := 0#32
  let v245 : BitVec 1 := Scalar.cmpi .eq c8_i32_157 c0_i32_158
  let c1_i32_159 : BitVec 32 := 1#32
  let v246 : BitVec 32 := Scalar.select v245 c1_i32_159 c8_i32_157
  let v247 : BitVec 32 := Scalar.remsi v244 v246
  let c0_i32_161 : BitVec 32 := 0#32
  let v249 : BitVec 1 := Scalar.cmpi .slt v247 c0_i32_161
  let c0_i32_162 : BitVec 32 := 0#32
  let v250 : BitVec 1 := Scalar.cmpi .slt v246 c0_i32_162
  let v251 : BitVec 1 := Scalar.xori v249 v250
  let c0_i32_160 : BitVec 32 := 0#32
  let v248 : BitVec 1 := Scalar.cmpi .ne v247 c0_i32_160
  let v252 : BitVec 1 := Scalar.andi v251 v248
  let v253 : BitVec 32 := Scalar.addi v247 v246
  let v254 : BitVec 32 := Scalar.select v252 v253 v247
  let c1_i32_164 : BitVec 32 := 1#32
  let v255 : BitVec 32 := Scalar.muli v254 c1_i32_164
  let v256 : BitVec 32 := Scalar.addi c0_i32_165 v255
  v256.toNat
def k0_off4 (d0 : Dev nD) (c1_i32_170 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v265 : BitVec 32 := Scalar.subi v2 c1_i32_170
  let c8_i32_171 : BitVec 32 := 8#32
  let c0_i32_172 : BitVec 32 := 0#32
  let v266 : BitVec 1 := Scalar.cmpi .eq c8_i32_171 c0_i32_172
  let c1_i32_173 : BitVec 32 := 1#32
  let v267 : BitVec 32 := Scalar.select v266 c1_i32_173 c8_i32_171
  let v268 : BitVec 32 := Scalar.remsi v265 v267
  let c0_i32_175 : BitVec 32 := 0#32
  let v270 : BitVec 1 := Scalar.cmpi .slt v268 c0_i32_175
  let c0_i32_176 : BitVec 32 := 0#32
  let v271 : BitVec 1 := Scalar.cmpi .slt v267 c0_i32_176
  let v272 : BitVec 1 := Scalar.xori v270 v271
  let c0_i32_174 : BitVec 32 := 0#32
  let v269 : BitVec 1 := Scalar.cmpi .ne v268 c0_i32_174
  let v273 : BitVec 1 := Scalar.andi v272 v269
  let v274 : BitVec 32 := Scalar.addi v268 v267
  let v275 : BitVec 32 := Scalar.select v273 v274 v268
  ![v275.toNat]
def k0_off5 (d0 : Dev nD) (c1_i32_170 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v265 : BitVec 32 := Scalar.subi v2 c1_i32_170
  let c8_i32_171 : BitVec 32 := 8#32
  let c0_i32_172 : BitVec 32 := 0#32
  let v266 : BitVec 1 := Scalar.cmpi .eq c8_i32_171 c0_i32_172
  let c1_i32_173 : BitVec 32 := 1#32
  let v267 : BitVec 32 := Scalar.select v266 c1_i32_173 c8_i32_171
  let v268 : BitVec 32 := Scalar.remsi v265 v267
  let c0_i32_175 : BitVec 32 := 0#32
  let v270 : BitVec 1 := Scalar.cmpi .slt v268 c0_i32_175
  let c0_i32_176 : BitVec 32 := 0#32
  let v271 : BitVec 1 := Scalar.cmpi .slt v267 c0_i32_176
  let v272 : BitVec 1 := Scalar.xori v270 v271
  let c0_i32_174 : BitVec 32 := 0#32
  let v269 : BitVec 1 := Scalar.cmpi .ne v268 c0_i32_174
  let v273 : BitVec 1 := Scalar.andi v272 v269
  let v274 : BitVec 32 := Scalar.addi v268 v267
  let v275 : BitVec 32 := Scalar.select v273 v274 v268
  let c0_i32_180 : BitVec 32 := 0#32
  let c0_i32_181 : BitVec 32 := 0#32
  ![v275.toNat, 0, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  iota_S1024x1024_d0_w32 : S1024x1024.Iotas .tc 32 [0]
  iota_S1024x1024_d1_w32 : S1024x1024.Iotas .tc 32 [1]
  natLt_1_32 : 1 < 32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  concatenates_S1024x1_S1024x1_S1024x2_d1 : Shape.Concatenates [S1024x1, S1024x1] S1024x2 1
  h_S1x2x1024 : 0 < S1x2x1024.numel
  shapeCasts_S1x2x1024_S2x1024 : S1x2x1024.ShapeCasts S2x1024
  shapeCasts_S2x1024_S1x2x1024 : S2x1024.ShapeCasts S1x2x1024
  hamt_7 : (7#32 : BitVec 32).msb = false
  inb_S7_S1_0 : ∀ a, (![0] : Fin 1 → Nat) a + S1.size a ≤ S7.size a
  squeezes_S1_S_ : S1.Squeezes S_
  squeezes_S1x2x1024_S2x1024 : S1x2x1024.Squeezes S2x1024
  inb_S7_S1_1 : ∀ a, (![1] : Fin 1 → Nat) a + S1.size a ≤ S7.size a
  inb_S7_S1_2 : ∀ a, (![2] : Fin 1 → Nat) a + S1.size a ≤ S7.size a
  inb_S7_S1_3 : ∀ a, (![3] : Fin 1 → Nat) a + S1.size a ≤ S7.size a
  inb_S7_S1_4 : ∀ a, (![4] : Fin 1 → Nat) a + S1.size a ≤ S7.size a
  inb_S7_S1_5 : ∀ a, (![5] : Fin 1 → Nat) a + S1.size a ≤ S7.size a
  inb_S7_S1_6 : ∀ a, (![6] : Fin 1 → Nat) a + S1.size a ≤ S7.size a
  inb_S8x2x1024_S8x2x1024_0_0_0 : ∀ a, (![0, 0, 0] : Fin 3 → Nat) a + S8x2x1024.size a ≤ S8x2x1024.size a
  h_S8x2x1024 : 0 < S8x2x1024.numel
  slices_S8x2x1024_o0_0_0_S8x1x1024 : S8x2x1024.Slices ![0, 0, 0] S8x1x1024
  slices_S8x2x1024_o0_1_0_S8x1x1024 : S8x2x1024.Slices ![0, 1, 0] S8x1x1024
  reduces_S8x1x1024_S1x1024 : S8x1x1024.Reduces [0] S1x1024
  shapeCasts_S1x1024_S1x1x1024 : S1x1024.ShapeCasts S1x1x1024
  broadcasts_S1x1x1024_S8x1x1024 : S1x1x1024.Broadcasts S8x1x1024
  slices_S2x1024_o0_0_S1x1024 : S2x1024.Slices ![0, 0] S1x1024
  dot_S1024x2_S1024x1024_S2x1024_0_0_1_1_n_n_wf : DotDims.WF S1024x2 S1024x1024 S2x1024 [0] [0] [1] [1] [] []
  dot_S1024x1024_S1x1024_S1024x1_1_1_0_0_n_n_wf : DotDims.WF S1024x1024 S1x1024 S1024x1 [1] [1] [0] [0] [] []
  hcc0_scratch1 : 2 + S7.numel ≤ 17
  hcc0_scratch2 : 9 + S8.numel ≤ 17
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ a, (k0_off1 d0) a + S1x2x1024.size a ≤ S8x2x1024.size a
  k0_off2_inb : ∀ d0 : Dev nD, ∀ a, (k0_off2 d0) a + S1.size a ≤ S8.size a
  k0_off3_inb : ∀ d0 : Dev nD, ∀ a, (k0_off3 d0) a + S1x2x1024.size a ≤ S8x2x1024.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off4_inb : ∀ d0 : Dev nD, ∀ (r : Fin 7), ∀ a, (k0_off4 d0 (BitVec.ofNat 32 (1 + r.val))) a + S1.size a ≤ S8.size a
  k0_off5_inb : ∀ d0 : Dev nD, ∀ (r : Fin 7), ∀ a, (k0_off5 d0 (BitVec.ofNat 32 (1 + r.val))) a + S1x2x1024.size a ≤ S8x2x1024.size a
  hstage0_0 : ∀ j, (stage0_0 j).IsWhole
  hstage0_1 : ∀ j, (stage0_1 j).IsWhole

variable [Facts₀]

abbrev cc0_scratch1 : DmaSems sig S7 := SemArray.consecutive 2 S7 hcc0_scratch1
abbrev cc0_scratch2 : DmaSems sig S8 := SemArray.consecutive 9 S8 hcc0_scratch2
def dot_S1024x2_S1024x1024_S2x1024_0_0_1_1_n_n : DotDims S1024x2 S1024x1024 S2x1024 where
  lhsContracting := [0]
  rhsContracting := [0]
  lhsNonContracting := [1]
  rhsNonContracting := [1]
  lhsBatch := []
  rhsBatch := []
  wf := dot_S1024x2_S1024x1024_S2x1024_0_0_1_1_n_n_wf
def dot_S1024x1024_S1x1024_S1024x1_1_1_0_0_n_n : DotDims S1024x1024 S1x1024 S1024x1 where
  lhsContracting := [1]
  rhsContracting := [1]
  lhsNonContracting := [0]
  rhsNonContracting := [0]
  lhsBatch := []
  rhsBatch := []
  wf := dot_S1024x1024_S1x1024_S1024x1_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x8192 : Shape := ⟨2, ![1024, 8192]⟩
abbrev S_ : Shape := ⟨0, ![]⟩
abbrev S1024 : Shape := ⟨1, ![1024]⟩
abbrev S1024x1 : Shape := ⟨2, ![1024, 1]⟩

abbrev nBuf : Space → Nat
  | .hbm => 12
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S_, .f32⟩
  | .hbm, ⟨2, _⟩ => ⟨S1024, .f32⟩
  | .hbm, ⟨3, _⟩ => ⟨S1024x1, .f32⟩
  | .hbm, ⟨4, _⟩ => ⟨S1024x8192, .f32⟩
  | .hbm, ⟨5, _⟩ => ⟨S1024x8192, .f32⟩
  | .hbm, ⟨6, _⟩ => ⟨S1024x8192, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x8192, .f32⟩
  | .hbm, ⟨11, _⟩ => ⟨S1024x8192, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  reducesTo_S1024x8192_S1024_d1 : S1024x8192.ReducesTo [1] S1024
  h_S_ : 0 < S_.numel
  bcast_S1024_S1024x1_0 : S1024.BroadcastsInDim S1024x1 (![0] : Fin 1 → Fin S1024x1.rank)
  bcast_S1024x1_S1024x8192_0_1 : S1024x1.BroadcastsInDim S1024x8192 (![0, 1] : Fin 2 → Fin S1024x8192.rank)

variable [Facts₀]

class Facts : Prop extends Facts₀ where

variable [Facts]
-- ==== Proof.KernelFn.lean ====
/-
  What each device of the column-sharded softmax computes, as closed terms over the kernel's payloads, for any float
  instance. A device holds a block `x` of 1024 rows by 1024 columns. Its STATISTICS are the 2 x 1024 array whose row 0
  is the row maxima of `x` and whose row 1 is the row sums of `exp (x - max)` (the kernel forms the 1024 x 2 array
  [max | sum] and transposes it by a product with the identity matrix). The TABLE is the 8 x 2 x 1024 array whose slot
  `s` is device `s`'s statistics: after the exchange every device holds the same table. The RESULT on device `c` is
  `exp (x - max_c)` scaled row by row by `exp (max_c - gmax) / gsum`, where `gmax` is the maximum over the slots of
  row 0 and `gsum` the sum over the slots of `sum_s * exp (max_s - gmax)`.
-/
import proofs.«901054_g7700000000001055_dist_softmax_colshard_i_m1024_n1024_v7x_i8_f32_1_alg».proof.Proof.Gen.KernelIdeal.Skeleton
import Idealize.ShloMosaic.Lib.ValueIdx

noncomputable section

namespace Cert.KernelIdeal.Fn

open Idealize.ShloMosaic Cert.KernelIdeal Cert.KernelIdeal.Gen

variable {F : FTy → Type} [FloatOps F]

/-- The column number of each entry of a 1024 x 1024 array. -/
abbrev col : IVec S1024x1024 32 := iota .tc S1024x1024 32 [1] iota_S1024x1024_d1_w32

/-- The identity matrix: 1 where the row number equals the column number, 0 elsewhere. -/
def eye : FVec F S1024x1024 .f32 := k0_pay2 (F := F) col k0_pay1

/-- A device's statistics: row 0 the row maxima of its block, row 1 the row sums of `exp (x - max)`. -/
def stats (x : Vec F S1024x1024 .f32) : FVec F S2x1024 .f32 := k0_pay6 col k0_pay1 x

/-- The same, as the 1 x 2 x 1024 array a device stores into its own slot of the table. -/
def statsSlot (x : Vec F S1024x1024 .f32) : FVec F S1x2x1024 .f32 := k0_pay7 col k0_pay1 x

/-- The table of all devices' statistics: slot `s` holds the statistics of device `s`'s block. -/
def tbl (xs : Dev nD → Vec F S1024x1024 .f32) : Vec F S8x2x1024 .f32 :=
  fun i => statsSlot (xs (i 0)) (ValueIdx.ix3 (0 : Fin 1) (i 1) (i 2))

/-- Device `c`'s result: its `exp (x - max_c)` times `exp (max_c - gmax) / gsum`, the global maximum and sum
    read off the table. -/
def out (xs : Dev nD → Vec F S1024x1024 .f32) (c : Dev nD) : FVec F S1024x1024 .f32 :=
  k0_pay12 (eye (F := F)) (k0_pay10 (tbl xs)) (k0_pay11 (stats (xs c)) (tbl xs)) (k0_pay5 (xs c))

end Cert.KernelIdeal.Fn

end
-- ==== Proof.ColumnForms.lean ====
/-
  Layout operations read at an index by coordinates, in the three forms a row statistic kept as a column needs: a
  vector of length `a` viewed as a column `[a, 1]`; a column `[a, 1]` broadcast along the rows to `[a, b]`; one slab
  `[1, 1, c]` broadcast over `a` slabs. And the sum of a sequence against a 0/1 sequence that is 1 at one place: the
  term at that place, on the extended reals (`x * 0 = 0` and `x * 1 = x` there for every `x`).
-/
import Idealize.ShloMosaic.Lib.ValueLayout
import Idealize.ShloMosaic.PureOps.Ideal.Laws

noncomputable section

open scoped BigOperators

namespace Cert.ValueLeg.Forms

open Idealize.ShloMosaic Idealize.ShloMosaic.ValueIdx

variable {α : Type}

/-- A vector of length `a` viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, 1, c]` slab broadcast over `a` slabs reads, at `(s, u, r)`, the slab at `r`. -/
theorem broadcastTo_11c_a1c_apply {a c : ℕ} (v : (⟨3, ![1, 1, c]⟩ : Shape).Idx → α) (h : (⟨3, ![1, 1, c]⟩ : Shape).Broadcasts ⟨3, ![a, 1, c]⟩)
    (s : Fin a) (u : Fin 1) (r : Fin c) : broadcastTo ⟨3, ![a, 1, c]⟩ v h (ix3 s u r) = v (ix3 (0 : Fin 1) (0 : Fin 1) r) := by
  refine broadcastTo_apply v h (ix3 s u r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- A sum against a 0/1 row that is 1 at `r` alone picks the term at `r` (extended reals: `x * 0 = 0`, `x * 1 = x`). -/
theorem sum_mul_delta {n : ℕ} (v : Fin n → EReal) (δ : Fin n → EReal) (r : Fin n) (h1 : δ r = 1) (h0 : ∀ k, k ≠ r → δ k = 0) :
    ∑ k, v k * δ k = v r := by
  rw [Finset.sum_eq_single r (fun k _ hk => by rw [h0 k hk, mul_zero]) (fun h => absurd (Finset.mem_univ r) h), h1, mul_one]

theorem sum_delta_mul {n : ℕ} (v : Fin n → EReal) (δ : Fin n → EReal) (r : Fin n) (h1 : δ r = 1) (h0 : ∀ k, k ≠ r → δ k = 0) :
    ∑ k, δ k * v k = v r := by
  rw [Finset.sum_eq_single r (fun k _ hk => by rw [h0 k hk, zero_mul]) (fun h => absurd (Finset.mem_univ r) h), h1, one_mul]

end Cert.ValueLeg.Forms

end
-- ==== Proof.KernelRead.lean ====
/-
  The kernel's payloads read at an index, at the extended reals. A block `x` of 1024 rows by 1024 columns has, for
  each row `r`, the maximum `bmax x r` of its entries and the sum `bsum x r` of `exp (entry - maximum)`. The
  statistics of a block are these two as the rows of a 2 x 1024 array (the product of `[max | sum]` with the identity
  matrix is its transpose: `∑ k, L (k, a) * δ (k, b) = L (b, a)`); the table's slot `s` is device `s`'s statistics;
  and device `c`'s result at `(r, k)` is
  `exp (x_c (r, k) - bmax x_c r) * (exp (bmax x_c r - G) / ∑ s, bsum x_s r * exp (bmax x_s r - G))`
  with `G` the largest of the eight maxima of row `r` (the scale row comes back as a column by the second product
  with the identity matrix: `∑ k, δ (a, k) * R (0, k) = R (0, a)`).
-/
import proofs.«901054_g7700000000001055_dist_softmax_colshard_i_m1024_n1024_v7x_i8_f32_1_alg».proof.Proof.KernelFn
import proofs.«901054_g7700000000001055_dist_softmax_colshard_i_m1024_n1024_v7x_i8_f32_1_alg».proof.Proof.ColumnForms
import Idealize.ShloMosaic.Lib.ValueLayout
import Idealize.ShloMosaic.PureOps.Ideal.Laws

noncomputable section

open scoped BigOperators

namespace Cert.ValueLeg.Kern

open Idealize.ShloMosaic Idealize.ShloMosaic.ValueIdx Cert.KernelIdeal Cert.KernelIdeal.Gen Cert.KernelIdeal.Fn Cert.ValueLeg.Forms

/-- The identity matrix at `(r, k)`: 1 on the diagonal, 0 off it. -/
theorem eye_apply (r k : Fin 1024) : Fn.eye (F := Ideal) (ix2 r k) = if r = k then (1 : EReal) else 0 := by
  unfold Fn.eye k0_pay2 k0_pay1
  simp only [sitofp_apply, extui_apply, cmpi, addi, broadcast, iota_single_apply]
  have h0 := iota_single_apply .tc S1024x1024 32 0 iota_S1024x1024_d0_w32 (ix2 r k)
  rw [h0]
  show (((BitVec.setWidth 32 (IntOp.cmpi .eq (IntOp.addi (BitVec.ofNat 32 r.val) 0#32) (BitVec.ofNat 32 k.val))).toInt : ℝ) : EReal) = _
  have hr : (BitVec.ofNat 32 r.val = BitVec.ofNat 32 k.val) ↔ r = k := by
    constructor
    · intro h
      have := congrArg BitVec.toNat h
      simp only [BitVec.toNat_ofNat] at this
      have h1 := r.isLt; have h2 := k.isLt
      exact Fin.ext (by omega)
    · intro h; rw [h]
  by_cases h : r = k
  · subst h
    simp [IntOp.cmpi, IntOp.addi]
  · have hne : ¬ (BitVec.ofNat 32 r.val = BitVec.ofNat 32 k.val) := fun e => h (hr.mp e)
    have hb : (BitVec.ofNat 32 r.val == BitVec.ofNat 32 k.val) = false := beq_eq_false_iff_ne.mpr hne
    simp [IntOp.cmpi, IntOp.addi, h, hb]

/-- The pattern of minus infinity is the bottom of the extended reals. -/
theorem ofBits_neg_inf : Ideal.ofBits .f32 0xFF800000#32 = ⊥ := by simp [Ideal.ofBits, Ideal.ieee]

/-- A row's maximum: the lane reduction of a block along its columns, at row `r`. -/
theorem rowmax_apply (x : FVec Ideal S1024x1024 .f32) (h : S1024x1024.Reduces [1] S1024) (hφ : FKind.Formats .f32)
    (hacc : (0xFF800000#32 : BitVec 32) = 0xFF800000#32) (r : Fin 1024) :
    multiReduction .maximumf [1] S1024 x 0xFF800000#32 h hφ hacc (ix1 r)
      = Finset.univ.fold max ⊥ (fun k : Fin 1024 => x (ix2 r k)) := by
  refine (Ideal.multiReduction_maximumf_single x 0xFF800000#32 h hφ hacc (ix1 r)).trans ?_
  show (Finset.univ : Finset (Fin 1024)).fold max (Ideal.ofBits .f32 0xFF800000#32) (fun k => x (h.lift (ix1 r) k)) = _
  rw [ofBits_neg_inf]
  refine congrArg (Finset.fold max ⊥ · Finset.univ) (funext fun k => congrArg x ?_)
  funext a; refine Fin.ext ?_
  match a with
  | ⟨0, _⟩ => rfl
  | ⟨1, _⟩ => rfl

/-- A row's sum: the lane reduction of a block along its columns, at row `r`. -/
theorem rowsum_apply (x : FVec Ideal S1024x1024 .f32) (h : S1024x1024.Reduces [1] S1024) (hφ : FKind.Formats .f32)
    (hacc : (0x00000000#32 : BitVec 32) = 0x00000000#32) (r : Fin 1024) :
    multiReduction .add [1] S1024 x 0x00000000#32 h hφ hacc (ix1 r) = ∑ k : Fin 1024, x (ix2 r k) := by
  refine (Ideal.multiReduction_add_single x 0x00000000#32 h hφ hacc (ix1 r)).trans ?_
  show ∑ k : Fin 1024, x (h.lift (ix1 r) k) = _
  refine Finset.sum_congr rfl fun k _ => congrArg x ?_
  funext a; refine Fin.ext ?_
  match a with
  | ⟨0, _⟩ => rfl
  | ⟨1, _⟩ => rfl

/-- The maximum over the eight slots, at `(u, r)`. -/
theorem slotmax_apply (x : FVec Ideal S8x1x1024 .f32) (h : S8x1x1024.Reduces [0] S1x1024) (hφ : FKind.Formats .f32)
    (hacc : (0xFF800000#32 : BitVec 32) = 0xFF800000#32) (u : Fin 1) (r : Fin 1024) :
    multiReduction .maximumf [0] S1x1024 x 0xFF800000#32 h hφ hacc (ix2 u r)
      = Finset.univ.fold max ⊥ (fun s : Fin 8 => x (ix3 s u r)) := by
  refine (Ideal.multiReduction_maximumf_single x 0xFF800000#32 h hφ hacc (ix2 u r)).trans ?_
  show (Finset.univ : Finset (Fin 8)).fold max (Ideal.ofBits .f32 0xFF800000#32) (fun s => x (h.lift (ix2 u r) s)) = _
  rw [ofBits_neg_inf]
  refine congrArg (Finset.fold max ⊥ · Finset.univ) (funext fun s => congrArg x ?_)
  funext a; refine Fin.ext ?_
  match a with
  | ⟨0, _⟩ => rfl
  | ⟨1, _⟩ => rfl
  | ⟨2, _⟩ => rfl

/-- The sum over the eight slots, at `(u, r)`. -/
theorem slotsum_apply (x : FVec Ideal S8x1x1024 .f32) (h : S8x1x1024.Reduces [0] S1x1024) (hφ : FKind.Formats .f32)
    (hacc : (0x00000000#32 : BitVec 32) = 0x00000000#32) (u : Fin 1) (r : Fin 1024) :
    multiReduction .add [0] S1x1024 x 0x00000000#32 h hφ hacc (ix2 u r) = ∑ s : Fin 8, x (ix3 s u r) := by
  refine (Ideal.multiReduction_add_single x 0x00000000#32 h hφ hacc (ix2 u r)).trans ?_
  show ∑ s : Fin 8, x (h.lift (ix2 u r) s) = _
  refine Finset.sum_congr rfl fun s _ => congrArg x ?_
  funext a; refine Fin.ext ?_
  match a with
  | ⟨0, _⟩ => rfl
  | ⟨1, _⟩ => rfl
  | ⟨2, _⟩ => rfl

/-! The two products with the identity matrix. The first contracts the rows of `[max | sum]` (1024 x 2) with the rows of
the identity: its element `(a, b)` is `∑ k, L (k, a) * E (k, b) = L (b, a)`, the transpose. The second contracts the
columns of the identity with the columns of the scale row (1 x 1024): its element `(a, 0)` is
`∑ k, E (a, k) * R (0, k) = R (0, a)`, the row as a column. -/

abbrev DT := dot_S1024x2_S1024x1024_S2x1024_0_0_1_1_n_n
abbrev DC := dot_S1024x1024_S1x1024_S1024x1_1_1_0_0_n_n

theorem lhsT_0 (j : S2x1024.Idx) (k : DT.contr.Idx) : (DT.lhsIdx j k 0 : ℕ) = k ⟨0, by decide⟩ := by
  simp [DotDims.lhsIdx, DT, dot_S1024x2_S1024x1024_S2x1024_0_0_1_1_n_n]; rfl
theorem lhsT_1 (j : S2x1024.Idx) (k : DT.contr.Idx) : (DT.lhsIdx j k 1 : ℕ) = j 0 := by
  simp [DotDims.lhsIdx, DT, dot_S1024x2_S1024x1024_S2x1024_0_0_1_1_n_n]; rfl
theorem rhsT_0 (j : S2x1024.Idx) (k : DT.contr.Idx) : (DT.rhsIdx j k 0 : ℕ) = k ⟨0, by decide⟩ := by
  simp [DotDims.rhsIdx, DT, dot_S1024x2_S1024x1024_S2x1024_0_0_1_1_n_n]; rfl
theorem rhsT_1 (j : S2x1024.Idx) (k : DT.contr.Idx) : (DT.rhsIdx j k 1 : ℕ) = j 1 := by
  simp [DotDims.rhsIdx, DT, dot_S1024x2_S1024x1024_S2x1024_0_0_1_1_n_n]; rfl

theorem lhsC_0 (j : S1024x1.Idx) (k : DC.contr.Idx) : (DC.lhsIdx j k 0 : ℕ) = j 0 := by
  simp [DotDims.lhsIdx, DC, dot_S1024x1024_S1x1024_S1024x1_1_1_0_0_n_n]; rfl
theorem lhsC_1 (j : S1024x1.Idx) (k : DC.contr.Idx) : (DC.lhsIdx j k 1 : ℕ) = k ⟨0, by decide⟩ := by
  simp [DotDims.lhsIdx, DC, dot_S1024x1024_S1x1024_S1024x1_1_1_0_0_n_n]; rfl
theorem rhsC_0 (j : S1024x1.Idx) (k : DC.contr.Idx) : (DC.rhsIdx j k 0 : ℕ) = 0 := by
  have h := (DC.rhsIdx j k 0).isLt
  have h1 : S1x1024.size 0 = 1 := rfl
  omega
theorem rhsC_1 (j : S1024x1.Idx) (k : DC.contr.Idx) : (DC.rhsIdx j k 1 : ℕ) = k ⟨0, by decide⟩ := by
  simp [DotDims.rhsIdx, DC, dot_S1024x1024_S1x1024_S1024x1_1_1_0_0_n_n]; rfl

/-- The product of `[max | sum]` with the identity matrix is its transpose. -/
theorem matmulT_apply (Lm : FVec Ideal S1024x2 .f32) (E : FVec Ideal S1024x1024 .f32)
    (hE : ∀ r k : Fin 1024, E (ix2 r k) = if r = k then (1 : EReal) else 0) (a : Fin 2) (b : Fin 1024) :
    matmul DT none Lm E (constant (F := Ideal) S2x1024 .f32 0x00000000#32) (ix2 a b) = Lm (ix2 b a) := by
  refine (Ideal.matmul_constant_zero_apply DT none Lm E (ix2 a b)).trans ?_
  rw [← Equiv.sum_comp (contrEquiv1 DT 1024 (by decide) (by decide)).symm]
  have hl : ∀ k : Fin 1024, DT.lhsIdx (ix2 a b) ((contrEquiv1 DT 1024 (by decide) (by decide)).symm k) = ix2 k a := fun k => by
    funext ax; refine Fin.ext ?_
    match ax with
    | ⟨0, _⟩ => exact (lhsT_0 _ _).trans (contrEquiv1_symm_val DT 1024 _ _ k)
    | ⟨1, _⟩ => exact lhsT_1 _ _
  have hr : ∀ k : Fin 1024, DT.rhsIdx (ix2 a b) ((contrEquiv1 DT 1024 (by decide) (by decide)).symm k) = ix2 k b := fun k => by
    funext ax; refine Fin.ext ?_
    match ax with
    | ⟨0, _⟩ => exact (rhsT_0 _ _).trans (contrEquiv1_symm_val DT 1024 _ _ k)
    | ⟨1, _⟩ => exact rhsT_1 _ _
  simp only [hl, hr]
  exact sum_mul_delta (fun k => Lm (ix2 k a)) (fun k => E (ix2 k b)) b (by rw [hE, if_pos rfl]) (fun k hk => by rw [hE, if_neg hk])

/-- The product of the identity matrix with a row is the row as a column. -/
theorem matmulC_apply (E : FVec Ideal S1024x1024 .f32) (R : FVec Ideal S1x1024 .f32)
    (hE : ∀ r k : Fin 1024, E (ix2 r k) = if r = k then (1 : EReal) else 0) (a : Fin 1024) (u : Fin 1) :
    matmul DC none E R (constant (F := Ideal) S1024x1 .f32 0x00000000#32) (ix2 a u) = R (ix2 (0 : Fin 1) a) := by
  refine (Ideal.matmul_constant_zero_apply DC none E R (ix2 a u)).trans ?_
  rw [← Equiv.sum_comp (contrEquiv1 DC 1024 (by decide) (by decide)).symm]
  have hl : ∀ k : Fin 1024, DC.lhsIdx (ix2 a u) ((contrEquiv1 DC 1024 (by decide) (by decide)).symm k) = ix2 a k := fun k => by
    funext ax; refine Fin.ext ?_
    match ax with
    | ⟨0, _⟩ => exact lhsC_0 _ _
    | ⟨1, _⟩ => exact (lhsC_1 _ _).trans (contrEquiv1_symm_val DC 1024 _ _ k)
  have hr : ∀ k : Fin 1024, DC.rhsIdx (ix2 a u) ((contrEquiv1 DC 1024 (by decide) (by decide)).symm k) = ix2 (0 : Fin 1) k := fun k => by
    funext ax; refine Fin.ext ?_
    match ax with
    | ⟨0, _⟩ => exact rhsC_0 _ _
    | ⟨1, _⟩ => exact (rhsC_1 _ _).trans (contrEquiv1_symm_val DC 1024 _ _ k)
  simp only [hl, hr]
  exact sum_delta_mul (fun k => R (ix2 (0 : Fin 1) k)) (fun k => E (ix2 a k)) a (by rw [hE, if_pos rfl])
    (fun k hk => by rw [hE, if_neg (Ne.symm hk)])

/-- Row `r` of a block: its maximum, -/
def bmax (x : Vec Ideal S1024x1024 .f32) (r : Fin 1024) : EReal := Finset.univ.fold max ⊥ (fun k : Fin 1024 => x (ix2 r k))
/-- and its sum of `exp (entry - maximum)`. -/
def bsum (x : Vec Ideal S1024x1024 .f32) (r : Fin 1024) : EReal := ∑ k : Fin 1024, Ideal.exp (x (ix2 r k) - bmax x r)

theorem pay3_eq (x : Vec Ideal S1024x1024 .f32) : k0_pay3 (F := Ideal) x = x := shapeCast_self x _

theorem pay4_apply (x : Vec Ideal S1024x1024 .f32) (r : Fin 1024) (u : Fin 1) :
    k0_pay4 (F := Ideal) x (ix2 r u) = bmax x r := by
  unfold k0_pay4
  refine (shapeCast_a_a1_apply _ _ r u).trans ?_
  rw [pay3_eq]
  exact rowmax_apply x _ _ _ r

theorem pay5_apply (x : Vec Ideal S1024x1024 .f32) (r k : Fin 1024) :
    k0_pay5 (F := Ideal) x (ix2 r k) = Ideal.exp (x (ix2 r k) - bmax x r) := by
  unfold k0_pay5
  show Ideal.exp (k0_pay3 (F := Ideal) x (ix2 r k) - broadcastTo S1024x1024 (k0_pay4 (F := Ideal) x) broadcasts_S1024x1_S1024x1024 (ix2 r k)) = _
  rw [broadcastTo_a1_ab_apply, pay4_apply, pay3_eq]

/-- Row 0 of a device's statistics is its block's row maxima. -/
theorem stats_max (x : Vec Ideal S1024x1024 .f32) (r : Fin 1024) : Fn.stats (F := Ideal) x (ix2 (0 : Fin 2) r) = bmax x r := by
  unfold Fn.stats k0_pay6
  refine (matmulT_apply _ _ eye_apply 0 r).trans ?_
  refine (concatenate_pair_apply_left (t := S1024x2) (s₁ := S1024x1) (s₂ := S1024x1) 1 _ _ _ (ix2 r (0 : Fin 2)) rfl (ix2 r (0 : Fin 1))
    (fun b => by match b with | ⟨0, _⟩ => rfl | ⟨1, _⟩ => rfl)).trans ?_
  exact pay4_apply x r 0

/-- Row 1 of a device's statistics is its block's row sums. -/
theorem stats_sum (x : Vec Ideal S1024x1024 .f32) (r : Fin 1024) : Fn.stats (F := Ideal) x (ix2 (1 : Fin 2) r) = bsum x r := by
  unfold Fn.stats k0_pay6
  refine (matmulT_apply _ _ eye_apply 1 r).trans ?_
  refine (concatenate_pair_apply_right (t := S1024x2) (s₁ := S1024x1) (s₂ := S1024x1) 1 _ _ _ (ix2 r (1 : Fin 2)) rfl rfl (ix2 r (0 : Fin 1))
    (fun b => by match b with | ⟨0, _⟩ => exact fun _ => rfl | ⟨1, _⟩ => exact fun hb => absurd rfl hb) rfl).trans ?_
  refine (shapeCast_a_a1_apply _ _ r 0).trans ?_
  refine (rowsum_apply (k0_pay5 (F := Ideal) x) _ _ _ r).trans ?_
  exact Finset.sum_congr rfl fun k _ => pay5_apply x r k

theorem statsSlot_apply (x : Vec Ideal S1024x1024 .f32) (a : Fin 2) (r : Fin 1024) :
    Fn.statsSlot (F := Ideal) x (ix3 (0 : Fin 1) a r) = Fn.stats (F := Ideal) x (ix2 a r) := by
  unfold Fn.statsSlot k0_pay7 Fn.stats
  exact shapeCast_ab_1ab_apply _ _ 0 a r

/-- Slot `s` of the table is device `s`'s statistics. -/
theorem tbl_apply (xs : Dev nD → Vec Ideal S1024x1024 .f32) (s : Fin 8) (a : Fin 2) (r : Fin 1024) :
    Fn.tbl (F := Ideal) xs (ix3 s a r) = Fn.stats (F := Ideal) (xs s) (ix2 a r) :=
  statsSlot_apply (xs s) a r

/-- The maxima rows of the table's slots. -/
theorem pay8_apply (T : Vec Ideal S8x2x1024 .f32) (s : Fin 8) (u : Fin 1) (r : Fin 1024) :
    k0_pay8 (F := Ideal) T (ix3 s u r) = T (ix3 s (0 : Fin 2) r) := by
  unfold k0_pay8
  exact slice3_axis1_apply 0 T _ s u r (0 : Fin 2) (by show 0 = 0 + u.val; omega)

/-- The largest of the slots' maxima. -/
theorem pay9_apply (T : Vec Ideal S8x2x1024 .f32) (u : Fin 1) (r : Fin 1024) :
    k0_pay9 (F := Ideal) T (ix2 u r) = Finset.univ.fold max ⊥ (fun s : Fin 8 => T (ix3 s (0 : Fin 2) r)) := by
  unfold k0_pay9
  refine (slotmax_apply (k0_pay8 (F := Ideal) T) _ _ _ u r).trans ?_
  exact congrArg (Finset.fold max ⊥ · Finset.univ) (funext fun s => pay8_apply T s u r)

/-- The slots' sums, each scaled to the largest maximum, added up. -/
theorem pay10_apply (T : Vec Ideal S8x2x1024 .f32) (u : Fin 1) (r : Fin 1024) :
    k0_pay10 (F := Ideal) T (ix2 u r)
      = ∑ s : Fin 8, T (ix3 s (1 : Fin 2) r)
          * Ideal.exp (T (ix3 s (0 : Fin 2) r) - Finset.univ.fold max ⊥ (fun s' : Fin 8 => T (ix3 s' (0 : Fin 2) r))) := by
  unfold k0_pay10
  refine (slotsum_apply _ _ _ _ u r).trans ?_
  refine Finset.sum_congr rfl fun s _ => ?_
  show extractStridedSlice S8x1x1024 ![0, 1, 0] T slices_S8x2x1024_o0_1_0_S8x1x1024 (ix3 s u r)
      * Ideal.exp (k0_pay8 (F := Ideal) T (ix3 s u r)
          - broadcastTo S8x1x1024 (shapeCast S1x1x1024 (k0_pay9 (F := Ideal) T) shapeCasts_S1x1024_S1x1x1024) broadcasts_S1x1x1024_S8x1x1024 (ix3 s u r)) = _
  rw [slice3_axis1_apply 1 T _ s u r (1 : Fin 2) (by show 1 = 1 + u.val; omega), pay8_apply, broadcastTo_11c_a1c_apply,
    shapeCast_ab_1ab_apply, pay9_apply]

/-- A device's own maximum less the largest. -/
theorem pay11_apply (St : FVec Ideal S2x1024 .f32) (T : Vec Ideal S8x2x1024 .f32) (u : Fin 1) (r : Fin 1024) :
    k0_pay11 (F := Ideal) St T (ix2 u r) = St (ix2 (0 : Fin 2) r) - k0_pay9 (F := Ideal) T (ix2 u r) := by
  unfold k0_pay11
  show extractStridedSlice S1x1024 ![0, 0] St slices_S2x1024_o0_0_S1x1024 (ix2 u r) - k0_pay9 (F := Ideal) T (ix2 u r) = _
  rw [slice2_axis0_apply 0 St _ u r (0 : Fin 2) (by show 0 = 0 + u.val; omega)]

/-- The result: each entry of `e` times its row's scale `exp d / g`. -/
theorem pay12_apply (E : FVec Ideal S1024x1024 .f32) (hE : ∀ r k : Fin 1024, E (ix2 r k) = if r = k then (1 : EReal) else 0)
    (g d : FVec Ideal S1x1024 .f32) (e : Vec Ideal S1024x1024 .f32) (r k : Fin 1024) :
    k0_pay12 (F := Ideal) E g d e (ix2 r k)
      = e (ix2 r k) * Ideal.div (Ideal.exp (d (ix2 (0 : Fin 1) r))) (g (ix2 (0 : Fin 1) r)) := by
  unfold k0_pay12
  show shapeCast S1024x1024 e shapeCasts_S1024x1024_S1024x1024 (ix2 r k)
      * broadcastTo S1024x1024 (matmul DC none E (divf (exp d) g) (constant (F := Ideal) S1024x1 .f32 0x00000000#32))
          broadcasts_S1024x1_S1024x1024 (ix2 r k) = _
  rw [shapeCast_self, broadcastTo_a1_ab_apply, matmulC_apply _ _ hE]
  rfl

/-- Device `c`'s result at `(r, k)`, in the blocks' row maxima and row sums. -/
theorem out_apply (xs : Dev nD → Vec Ideal S1024x1024 .f32) (c : Fin 8) (r k : Fin 1024) :
    Fn.out (F := Ideal) xs c (ix2 r k)
      = Ideal.exp (xs c (ix2 r k) - bmax (xs c) r)
          * Ideal.div (Ideal.exp (bmax (xs c) r - Finset.univ.fold max ⊥ (fun s : Fin 8 => bmax (xs s) r)))
              (∑ s : Fin 8, bsum (xs s) r * Ideal.exp (bmax (xs s) r - Finset.univ.fold max ⊥ (fun s' : Fin 8 => bmax (xs s') r))) := by
  unfold Fn.out
  rw [pay12_apply _ eye_apply, pay5_apply, pay10_apply, pay11_apply, pay9_apply, stats_max]
  simp only [tbl_apply, stats_max, stats_sum]

end Cert.ValueLeg.Kern

end
-- ==== Proof.RefRead.lean ====
/-
  The reference's softmax read at an index, at the extended reals: at `(r, n)` it is
  `exp (X (r, n) - M) / (0 + ∑ k, exp (X (r, k) - M))` with `M` the maximum of row `r`'s 8192 entries, the fold of
  `max` from minus infinity.
-/
import proofs.«901054_g7700000000001055_dist_softmax_colshard_i_m1024_n1024_v7x_i8_f32_1_alg».proof.Proof.Gen.ReferenceIdeal.Read
import Idealize.ShloMosaic.Lib.ValueIdx
import Idealize.ShloMosaic.PureOps.Ideal.Laws

noncomputable section

open scoped BigOperators

namespace Cert.ValueLeg.Ref

open Idealize.ShloMosaic Idealize.ShloMosaic.ValueIdx Cert.ReferenceIdeal Cert.ReferenceIdeal.Gen Cert.ReferenceIdeal.Read

theorem ofBits_neg_inf : Ideal.ofBits .f32 0xFF800000#32 = ⊥ := by simp [Ideal.ofBits, Ideal.ieee]

/-- The reference's row maximum: the fold of `max` from minus infinity over the row's 8192 entries. -/
theorem rowmax_ref (X : (⟨S1024x8192, .f32⟩ : BufTy).Contents (Elt Ideal)) (r : Fin 1024) :
    val_main_v0 (F := Ideal) X (ix1 r) = Finset.univ.fold max ⊥ (fun k : Fin 8192 => X (ix2 r k)) := by
  unfold val_main_v0
  have hR : S1024x8192.Reduces [1] S1024 := by decide
  refine (Host.reduce_eq_fold_single (FloatOps.maximumf (F := Ideal) (φ := .f32)) X (val_main_cst (F := Ideal)) reducesTo_S1024x8192_S1024_d1 hR h_S_ (ix1 r)).trans ?_
  show (Finset.univ : Finset (Fin 8192)).fold max (Ideal.ofBits .f32 0xFF800000#32) (fun k => X (hR.lift (ix1 r) k)) = _
  rw [ofBits_neg_inf]
  refine congrArg (Finset.fold max ⊥ · Finset.univ) (funext fun k => congrArg X ?_)
  funext a; refine Fin.ext ?_
  match a with
  | ⟨0, _⟩ => rfl
  | ⟨1, _⟩ => rfl

theorem idx12 (r : Fin 1024) (n : Fin 8192) : idx_main_v1 (idx_main_v2 (ix2 r n)) = ix1 r :=
  funext fun a => Fin.ext (by match a with | ⟨0, _⟩ => rfl)
theorem idx67 (r : Fin 1024) (n : Fin 8192) : idx_main_v6 (idx_main_v7 (ix2 r n)) = ix1 r :=
  funext fun a => Fin.ext (by match a with | ⟨0, _⟩ => rfl)
theorem idx5 (r : Fin 1024) (k : Fin 8192) : idx_main_v5 (ix1 r) k = ix2 r k :=
  funext fun a => Fin.ext (by match a with | ⟨0, _⟩ => rfl | ⟨1, _⟩ => rfl)

/-- The reference's result at `(r, n)`: `exp (x - row maximum)` over the row's sum of them. -/
theorem ref_apply (X : (⟨S1024x8192, .f32⟩ : BufTy).Contents (Elt Ideal)) (r : Fin 1024) (n : Fin 8192) :
    val_main_v8 (F := Ideal) X (ix2 r n)
      = Ideal.div (Ideal.exp (X (ix2 r n) - Finset.univ.fold max ⊥ (fun k : Fin 8192 => X (ix2 r k))))
          (0 + ∑ k : Fin 8192, Ideal.exp (X (ix2 r k) - Finset.univ.fold max ⊥ (fun k' : Fin 8192 => X (ix2 r k')))) := by
  rw [val_main_v8_apply, val_main_v7_apply, val_main_v6_apply, val_main_v5_apply, val_main_v4_apply, val_main_v3_apply,
    val_main_v2_apply, val_main_v1_apply, val_main_cst_0_apply]
  simp only [val_main_v4_apply, val_main_v3_apply, val_main_v2_apply, val_main_v1_apply, idx12, idx67, idx5, rowmax_ref,
    Ideal.hostDivf_def, Ideal.hostUnary_exp_def, Ideal.subf_def, Ideal.ofBits_def, Ideal.ofBits_zero_f32]

end Cert.ValueLeg.Ref

end
-- ==== Proof.SoftmaxSpec.lean ====
import Idealize.ShloMosaic.PureOps.Ideal
import Mathlib.Data.Finset.Lattice.Fold
import Mathlib.Data.Fintype.BigOperators
import Mathlib.Data.EReal.Operations
import Mathlib.Analysis.Complex.Exponential
import Mathlib.Algebra.Order.BigOperators.Group.Finset
import Mathlib.Tactic.Ring

/-!
# A softmax row computed shard by shard

A row of real entries is cut into shards. Each shard keeps its own maximum and its own sum of
`exp (entry - its maximum)`. Rescaling every shard's sum by `exp (its maximum - the largest maximum)`
and adding gives the whole row's sum of `exp (entry - row maximum)`, because
`exp (x - m) * exp (m - G) = exp (x - G)`; the same identity turns the shard's numerator, times the
rescaling over the total, into the whole row's quotient.
-/

namespace Cert.SoftmaxSpec
open Idealize.ShloMosaic

/-- Folding `max` from `⊥` over a finite set is the set's supremum. -/
theorem fold_max_eq_sup {ι : Type} (s : Finset ι) (f : ι → EReal) :
    s.fold max ⊥ f = s.sup f := rfl

/-- Over a nonempty finite type the supremum of real entries is attained, hence real. -/
theorem sup_univ_real {ι : Type} [Fintype ι] [Nonempty ι] (f : ι → EReal)
    (hf : ∀ i, ∃ r : ℝ, f i = (r : EReal)) : ∃ r : ℝ, Finset.univ.sup f = (r : EReal) := by
  obtain ⟨i, -, hi⟩ := Finset.exists_mem_eq_sup Finset.univ Finset.univ_nonempty f
  obtain ⟨r, hr⟩ := hf i
  exact ⟨r, hi.trans hr⟩

/-- The embedding of the reals carries a finite sum to the sum of the embedded terms. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert i s hi ih => rw [Finset.sum_insert hi, Finset.sum_insert hi, EReal.coe_add, ih]

/-- A supremum over pairs, numbered by `e`, is the supremum over shards of each shard's supremum. -/
theorem sup_pairs {D J N : Type} [Fintype D] [Fintype J] [Fintype N]
    (e : D × J ≃ N) (a : D → J → EReal) (A : N → EReal) (hA : ∀ s j, A (e (s, j)) = a s j) :
    Finset.univ.sup A = Finset.univ.sup (fun s => Finset.univ.sup (a s)) := by
  apply le_antisymm
  · refine Finset.sup_le fun n _ => ?_
    obtain ⟨⟨s, j⟩, rfl⟩ := e.surjective n
    rw [hA]
    exact (Finset.le_sup (f := a s) (Finset.mem_univ j)).trans
      (Finset.le_sup (f := fun s => Finset.univ.sup (a s)) (Finset.mem_univ s))
  · refine Finset.sup_le fun s _ => Finset.sup_le fun j _ => ?_
    rw [← hA s j]
    exact Finset.le_sup (Finset.mem_univ _)

/-- A row of a softmax computed shard by shard. The row's entries are a(s, j), shard s and column j, all real; A lists the same entries along the whole row (e numbers the pairs). Each shard has its own maximum and its own sum of exp (entry - its maximum); the shards' sums, each scaled by exp (its maximum - the largest maximum), add up to the whole row's sum of exp (entry - row maximum), and exp(a - m_c) * (exp(m_c - G) / total) = exp(a - G) / total. -/
theorem sharded_softmax {D J N : Type} [Fintype D] [Fintype J] [Fintype N] [Nonempty D] [Nonempty J]
    (e : D × J ≃ N) (a : D → J → EReal) (A : N → EReal)
    (hA : ∀ s j, A (e (s, j)) = a s j)
    (hfin : ∀ s j, ∃ r : ℝ, a s j = (r : EReal)) (c : D) (j : J) :
    Ideal.exp (a c j - Finset.univ.fold max ⊥ (a c))
        * Ideal.div (Ideal.exp (Finset.univ.fold max ⊥ (a c) - Finset.univ.fold max ⊥ (fun s => Finset.univ.fold max ⊥ (a s))))
            (∑ s, (∑ j', Ideal.exp (a s j' - Finset.univ.fold max ⊥ (a s)))
                    * Ideal.exp (Finset.univ.fold max ⊥ (a s) - Finset.univ.fold max ⊥ (fun s' => Finset.univ.fold max ⊥ (a s'))))
      = Ideal.div (Ideal.exp (A (e (c, j)) - Finset.univ.fold max ⊥ A))
          (0 + ∑ n, Ideal.exp (A n - Finset.univ.fold max ⊥ A)) := by
  simp only [fold_max_eq_sup]
  -- every shard's maximum is a real, and so is the largest of them
  have hm : ∀ s, ∃ r : ℝ, Finset.univ.sup (a s) = (r : EReal) := fun s => sup_univ_real (a s) (hfin s)
  choose mr hmr using hm
  obtain ⟨Gr, hG⟩ := sup_univ_real (fun s => Finset.univ.sup (a s)) (fun s => ⟨mr s, hmr s⟩)
  choose ar har using hfin
  -- the whole row's maximum is the largest shard maximum, and its sum runs over the pairs
  have hGA : Finset.univ.sup A = (Gr : EReal) := (sup_pairs e a A hA).trans hG
  have hsumA : ∑ n, Ideal.exp (A n - (Gr : EReal)) = ∑ s, ∑ j', Ideal.exp (a s j' - (Gr : EReal)) := by
    rw [← Equiv.sum_comp e, Fintype.sum_prod_type]
    simp only [hA]
  rw [hGA, hsumA, hA, hG]
  simp only [hmr, har, ← EReal.coe_sub, Ideal.exp_coe, ← EReal.coe_mul, ← coe_sum, zero_add]
  -- in the reals: exp (x - m) * exp (m - G) = exp (x - G), under the sums and in the numerator
  have hsum : ∑ s, (∑ j', Real.exp (ar s j' - mr s)) * Real.exp (mr s - Gr)
      = ∑ s, ∑ j', Real.exp (ar s j' - Gr) := by
    refine Finset.sum_congr rfl fun s _ => ?_
    rw [Finset.sum_mul]
    refine Finset.sum_congr rfl fun j' _ => ?_
    rw [← Real.exp_add]
    congr 1
    ring
  have hpos : 0 < ∑ s, ∑ j', Real.exp (ar s j' - Gr) :=
    Finset.sum_pos (fun s _ => Finset.sum_pos (fun j' _ => Real.exp_pos _) Finset.univ_nonempty)
      Finset.univ_nonempty
  rw [hsum, Ideal.div_coe hpos.ne', Ideal.div_coe hpos.ne', ← EReal.coe_mul, ← EReal.coe_mul,
    ← EReal.coe_mul, ← mul_assoc, ← Real.exp_add]
  congr 3
  ring

end Cert.SoftmaxSpec
-- ==== Proof.ValueLeg.lean ====
/-
  The value leg: over the extended reals, with every input finite, device `c`'s result is block `c` of the
  reference's softmax of the whole array.

  Row `r` of the whole array is cut into eight shards of 1024 columns, shard `s` holding columns `1024 s .. 1024 s +
  1023`. Device `c` computes `exp (x - m_c) * (exp (m_c - G) / T)` with `m_s` the shards' maxima, `G` the largest of
  them and `T = ∑ s, (∑ j, exp (x_s j - m_s)) * exp (m_s - G)`; the reference computes `exp (x - M) / ∑ n, exp (X n - M)`
  with `M` the row's maximum. The maximum of the shards' maxima is the row's maximum, and
  `exp (a - m) * exp (m - G) = exp (a - G)` on reals turns each shard's scaled sum into its part of the row's sum.
-/
import proofs.«901054_g7700000000001055_dist_softmax_colshard_i_m1024_n1024_v7x_i8_f32_1_alg».proof.Proof.KernelFn
import proofs.«901054_g7700000000001055_dist_softmax_colshard_i_m1024_n1024_v7x_i8_f32_1_alg».proof.Proof.KernelRead
import proofs.«901054_g7700000000001055_dist_softmax_colshard_i_m1024_n1024_v7x_i8_f32_1_alg».proof.Proof.RefRead
import proofs.«901054_g7700000000001055_dist_softmax_colshard_i_m1024_n1024_v7x_i8_f32_1_alg».proof.Proof.SoftmaxSpec
import proofs.«901054_g7700000000001055_dist_softmax_colshard_i_m1024_n1024_v7x_i8_f32_1_alg».proof.Proof.Gen.ReferenceIdeal.Read
import proofs.«901054_g7700000000001055_dist_softmax_colshard_i_m1024_n1024_v7x_i8_f32_1_alg».proof.Pre_finite_inputs_Kernel
import proofs.«901054_g7700000000001055_dist_softmax_colshard_i_m1024_n1024_v7x_i8_f32_1_alg».proof.Proof.Gen.Pre_finite_inputs_Kernel
import Idealize.ShloMosaic.Lib.Layout
import Idealize.ShloMosaic.Lib.ReduceAll
import Idealize.ShloMosaic.Lib.ValueIdx

noncomputable section

namespace Cert.ValueLeg

open Idealize.ShloMosaic

/-- The pattern of plus infinity is the top of the extended reals. -/
theorem ofBits_pos_inf : Ideal.ofBits .f32 0x7F800000#32 = ⊤ := by simp [Ideal.ofBits, Ideal.ieee]

/-- The precondition on one device's block says every entry is a real number: it is the conjunction over all entries of
    `|x| < +∞`, and on the extended reals `max x (-x) < ⊤` excludes both infinities. -/
theorem finite_of_pre [Cert.Pre_finite_inputs_Kernel.Facts] (xb : (⟨Cert.KernelIdeal.S1024x1024, .f32⟩ : BufTy).Contents (Elt Ideal))
    (h : Cert.Pre_finite_inputs_Kernel.fn (F := Ideal) xb = (fun _ => 1#1)) :
    ∀ i, ∃ r : ℝ, xb i = (r : EReal) := by
  intro i
  have h0 := congrFun h ValueIdx.ix0
  dsimp only [Cert.Pre_finite_inputs_Kernel.fn] at h0
  have hsub : Subsingleton Cert.Pre_finite_inputs_Kernel.S_.Idx := ⟨fun a b => funext fun d => d.elim0⟩
  have h1 := Host.reduce_andi_all _ _ _ _ _ h0 i
  have h2 : Ideal.cmp .olt (max (xb i) (-(xb i))) (Ideal.ofBits .f32 0x7F800000#32) = 1#1 := h1
  rw [ofBits_pos_inf] at h2
  have h3 : max (xb i) (-(xb i)) < ⊤ := by
    by_contra hn
    simp [Ideal.cmp, hn] at h2
  induction hx : xb i using EReal.rec with
  | bot => rw [hx] at h3; simp at h3
  | top => rw [hx] at h3; simp at h3
  | coe r => exact ⟨r, rfl⟩

/-- Shard `s`, column `j` of a row is column `1024 s + j` of the whole row. -/
def rowEquiv : Fin 8 × Fin 1024 ≃ Fin 8192 where
  toFun p := ⟨p.1.val * 1024 + p.2.val, by have := p.1.isLt; have := p.2.isLt; omega⟩
  invFun n := (⟨n.val / 1024, by have := n.isLt; omega⟩, ⟨n.val % 1024, by omega⟩)
  left_inv p := by
    have h1 := p.1.isLt; have h2 := p.2.isLt
    refine Prod.ext (Fin.ext ?_) (Fin.ext ?_)
    · show (p.1.val * 1024 + p.2.val) / 1024 = p.1.val
      omega
    · show (p.1.val * 1024 + p.2.val) % 1024 = p.2.val
      omega
  right_inv n := by
    refine Fin.ext ?_
    show n.val / 1024 * 1024 + n.val % 1024 = n.val
    omega

/-- Where block `c`'s entry `(r, k)` sits in the whole array: row `r`, column `1024 c + k`. -/
theorem block_idx (hT : Layout.Tiles ⟨2, ![1024, 1024]⟩ ⟨2, ![1024, 8192]⟩ 1 8) (c : Fin 8) (r k : Fin 1024) :
    hT.idx c (ValueIdx.ix2 r k) = ValueIdx.ix2 r (rowEquiv (c, k)) := by
  funext a; refine Fin.ext ?_
  match a with
  | ⟨0, _⟩ => rfl
  | ⟨1, _⟩ => rfl

/-- Device `c`'s result, computed from the eight blocks of a whole array `X` all of whose entries are real, is block
    `c` of the reference's result on `X`. -/
theorem value_leg [Cert.ReferenceIdeal.Facts] (X : (⟨Cert.ReferenceIdeal.S1024x8192, .f32⟩ : BufTy).Contents (Elt Ideal))
    (hfin : ∀ (s : Fin 8) (i : Cert.KernelIdeal.S1024x1024.Idx), ∃ r : ℝ, (Layout.block ⟨2, ![1024, 1024]⟩ ⟨2, ![1024, 8192]⟩ 1 8 s X) i = (r : EReal))
    (c : Dev Cert.KernelIdeal.nD) :
    Cert.KernelIdeal.Fn.out (F := Ideal) (fun s => Layout.block ⟨2, ![1024, 1024]⟩ ⟨2, ![1024, 8192]⟩ 1 8 s X) c
      = Layout.block ⟨2, ![1024, 1024]⟩ ⟨2, ![1024, 8192]⟩ 1 8 c (Cert.ReferenceIdeal.Read.val_main_v8 (F := Ideal) X) := by
  funext i
  obtain ⟨r, k, rfl⟩ : ∃ (r k : Fin 1024), i = ValueIdx.ix2 r k := ⟨i 0, i 1, ValueIdx.eq_ix2 i⟩
  have hR : (Layout.block ⟨2, ![1024, 1024]⟩ ⟨2, ![1024, 8192]⟩ 1 8 c (Cert.ReferenceIdeal.Read.val_main_v8 (F := Ideal) X)) (ValueIdx.ix2 r k)
      = Cert.ReferenceIdeal.Read.val_main_v8 (F := Ideal) X (ValueIdx.ix2 r (rowEquiv (c, k))) := by
    rw [Layout.block_apply, block_idx]
  rw [Kern.out_apply, hR, Ref.ref_apply]
  simp only [Kern.bmax, Kern.bsum]
  exact Cert.SoftmaxSpec.sharded_softmax rowEquiv
    (fun s j => (Layout.block ⟨2, ![1024, 1024]⟩ ⟨2, ![1024, 8192]⟩ 1 8 s X) (ValueIdx.ix2 r j))
    (fun n => X (ValueIdx.ix2 r n))
    (fun s j => by rw [Layout.block_apply, block_idx])
    (fun s j => hfin s (ValueIdx.ix2 r j)) c k

end Cert.ValueLeg

end
-- ==== Proof.Claims.lean ====
/-
  The five claims, assembled from the two kernel runs, the reference's generated run and the value leg.

  The frames are runs with the results dropped. Over the extended reals the kernel's result on device `c` is the closed
  term `Fn.out` of the eight devices' blocks; the blocks are the blocks of the reference's whole array, every entry of
  which is a real number by the precondition, and there the value leg says `Fn.out … c` is block `c` of the reference's
  softmax, which is what the reference's run leaves in its result.
-/
import proofs.«901054_g7700000000001055_dist_softmax_colshard_i_m1024_n1024_v7x_i8_f32_1_alg».proof.Defs
import proofs.«901054_g7700000000001055_dist_softmax_colshard_i_m1024_n1024_v7x_i8_f32_1_alg».proof.Proof.Gen.Kernel
import proofs.«901054_g7700000000001055_dist_softmax_colshard_i_m1024_n1024_v7x_i8_f32_1_alg».proof.Proof.Gen.KernelIdeal
import proofs.«901054_g7700000000001055_dist_softmax_colshard_i_m1024_n1024_v7x_i8_f32_1_alg».proof.Proof.Gen.ReferenceIdeal
import proofs.«901054_g7700000000001055_dist_softmax_colshard_i_m1024_n1024_v7x_i8_f32_1_alg».proof.Proof.Gen.Pre_finite_inputs_Kernel
import proofs.«901054_g7700000000001055_dist_softmax_colshard_i_m1024_n1024_v7x_i8_f32_1_alg».proof.Proof.Gen.Pre_finite_inputs_ReferenceIdeal
import proofs.«901054_g7700000000001055_dist_softmax_colshard_i_m1024_n1024_v7x_i8_f32_1_alg».proof.Proof.Gen.ReferenceIdeal.Read
import proofs.«901054_g7700000000001055_dist_softmax_colshard_i_m1024_n1024_v7x_i8_f32_1_alg».proof.Proof.ValueLeg

noncomputable section

namespace Cert.Proof.Claims

open Idealize.ShloMosaic Idealize.SL.Sem

/-- The idealized kernel's run: every device's result ends at the closed term of the eight devices' argument blocks, the
    arguments unchanged. -/
def RunIdeal : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v1)
            = Cert.KernelIdeal.Fn.out (fun s => m ((s.tc : Thread Cert.KernelIdeal.nD Cert.KernelIdeal.τ).loc Cert.KernelIdeal.main_arg0)) c
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0))

/-- The word-level kernel's run: the arguments end unchanged. -/
def RunBits : Prop :=
  ∀ (m : (ℓ : Loc Cert.Kernel.nD Cert.Kernel.τ Cert.Kernel.sig) → Buf (Elt Bits) ℓ) (ρ : Dev Cert.Kernel.nD → PrngReg),
    θ_run (Cert.Kernel.defs (F := Bits)) (onTc (τ := Cert.Kernel.τ) (Cert.Kernel.main (F := Bits))) ⟨m, fun _ => 0, ρ⟩
      (fun r => ∀ c : Dev Cert.Kernel.nD,
        r.2.mem ((c.tc : Thread Cert.Kernel.nD Cert.Kernel.τ).loc Cert.Kernel.main_arg0)
          = m ((c.tc : Thread Cert.Kernel.nD Cert.Kernel.τ).loc Cert.Kernel.main_arg0))

theorem frame_Kernel (hrun : RunBits) : Cert.frame_Kernel := fun m ρ _ => hrun m ρ

theorem frame_KernelIdeal (hrun : RunIdeal) : Cert.frame_KernelIdeal := fun m ρ _ =>
  (θ_run Cert.KernelIdeal.defs _ _).mono (fun _ h c => (h c).2) (hrun m ρ)

theorem frame_ReferenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both run; the reference's result ends at its softmax of the whole array, and each device's at its block of that. -/
theorem algebraic (hrun : RunIdeal) : Cert.algebraic_KernelIdeal_ReferenceIdeal := by
  intro m ρ m' ρ' hpre hagree
  have hblk : (fun s : Dev Cert.KernelIdeal.nD => m ((s.tc : Thread Cert.KernelIdeal.nD Cert.KernelIdeal.τ).loc Cert.KernelIdeal.main_arg0))
      = fun s => Layout.block ⟨2, ![1024, 1024]⟩ ⟨2, ![1024, 8192]⟩ 1 8 s
          (m' (((0 : Dev Cert.ReferenceIdeal.nD).tc : Thread Cert.ReferenceIdeal.nD Cert.ReferenceIdeal.τ).loc Cert.ReferenceIdeal.main_arg0)) :=
    funext hagree
  have hfin : ∀ (s : Fin 8) (i : Cert.KernelIdeal.S1024x1024.Idx), ∃ r : ℝ,
      (Layout.block ⟨2, ![1024, 1024]⟩ ⟨2, ![1024, 8192]⟩ 1 8 s
        (m' (((0 : Dev Cert.ReferenceIdeal.nD).tc : Thread Cert.ReferenceIdeal.nD Cert.ReferenceIdeal.τ).loc Cert.ReferenceIdeal.main_arg0))) i = (r : EReal) :=
    fun s i => by
      have h := Cert.ValueLeg.finite_of_pre _ (hpre s) i
      rw [hagree s] at h
      exact h
  refine ⟨Cert.ReferenceIdeal.Read.val_main_v8 (F := Ideal)
      (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h c).1.trans ?_, (h c).2⟩) (hrun m ρ)
    rw [hblk]
    exact Cert.ValueLeg.value_leg _ hfin c
  · exact (θ_run Cert.ReferenceIdeal.defs _ _).mono
      (fun _ h => ⟨(h 0).1.trans (Cert.ReferenceIdeal.Read.val_main_v8_eq _), (h 0).2⟩)
      (Cert.ReferenceIdeal.Value.run (F := Ideal) m' ρ')

/-- The certificate's claim, from the two kernel runs. -/
theorem claim_of (hrunIdeal : RunIdeal) (hrunBits : RunBits) : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_Kernel hrunBits, frame_KernelIdeal hrunIdeal, frame_ReferenceIdeal, preserves, algebraic hrunIdeal⟩

end Cert.Proof.Claims

end
-- ==== Proof.Proto.lean ====
/-
  The exchange of statistics among the eight devices, as a one-round schedule.

  Device `c` signals every other device's barrier semaphore once, stores its own statistics into slot `c` of its
  table, waits for seven units on its own barrier semaphore, copies slot `c` of its table into slot `c` of every
  other device's table, waits for the seven copies addressed to it, and reads the whole table.

  A device's signal to device `t` hands `t` the signaller's slot `t`: that is the slot `t`'s copy will write, and
  once seven units have arrived every peer is inside the kernel and has given its slot up. The copy from `c` to `t`
  hands `t` that slot back holding `c`'s statistics (on `t`'s receive semaphore number `c`) and hands `c` back the
  share of its own slot the copy read from (on `c`'s send semaphore). Every slot, on every device, ends holding the
  one table `tblAll` restricted to it.
-/
import proofs.«901054_g7700000000001055_dist_softmax_colshard_i_m1024_n1024_v7x_i8_f32_1_alg».proof.Proof.KernelFn
import proofs.«901054_g7700000000001055_dist_softmax_colshard_i_m1024_n1024_v7x_i8_f32_1_alg».proof.Proof.Gen.KernelIdeal.Launch
import proofs.«901054_g7700000000001055_dist_softmax_colshard_i_m1024_n1024_v7x_i8_f32_1_alg».proof.Proof.Gen.KernelIdeal.Points
import proofs.«901054_g7700000000001055_dist_softmax_colshard_i_m1024_n1024_v7x_i8_f32_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdealProto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (duties numbered 0..6) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The peers -/

/-- The device `d + 1` places after `c` round the mesh: whom `c`'s signal and copy number `d` address. -/
def peer (d : Fin 7) (c : Dev nD) : Dev nD := ⟨(c.val + d.val + 1) % 8, Nat.mod_lt _ (by decide)⟩
/-- The device `d + 1` places before `c`: whose signal and copy number `d` address `c`. -/
def from_ (d : Fin 7) (c : Dev nD) : Dev nD := ⟨(c.val + 7 - d.val) % 8, Nat.mod_lt _ (by decide)⟩

theorem from_peer (d : Fin 7) (c : Dev nD) : from_ d (peer d c) = c := by revert d c; decide
theorem peer_from (d : Fin 7) (c : Dev nD) : peer d (from_ d c) = c := by revert d c; decide
theorem peer_ne (d : Fin 7) (c : Dev nD) : peer d c ≠ c := by revert d c; decide
theorem from_ne (d : Fin 7) (c : Dev nD) : from_ d c ≠ c := by revert d c; decide
theorem peer_inj (c : Dev nD) : Function.Injective (fun d => peer d c) := by revert c; decide
theorem from_inj (c : Dev nD) : Function.Injective (fun d => from_ d c) := by revert c; decide
/-- The copy `c` sends to `peer d c` lands in the slot that peer gave up with its signal number `6 - d`. -/
theorem from_rev (d : Fin 7) (c : Dev nD) : from_ (Fin.rev d) c = peer d c := by revert d c; decide

/-- The printed device chains: signal number `d` and copy number `d` both address `peer d c`. -/
theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 3 c := by revert c; decide +kernel
theorem dev5_eq (c : Dev nD) : (⟨k0_dev5 c, k0_dev5_lt c⟩ : Dev nD) = peer 4 c := by revert c; decide +kernel
theorem dev6_eq (c : Dev nD) : (⟨k0_dev6 c, k0_dev6_lt c⟩ : Dev nD) = peer 5 c := by revert c; decide +kernel
theorem dev7_eq (c : Dev nD) : (⟨k0_dev7 c, k0_dev7_lt c⟩ : Dev nD) = peer 6 c := by revert c; decide +kernel
theorem dev8_eq (c : Dev nD) : (⟨k0_dev8 c, k0_dev8_lt c⟩ : Dev nD) = peer 0 c := by revert c; decide +kernel
theorem dev9_eq (c : Dev nD) : (⟨k0_dev9 c, k0_dev9_lt c⟩ : Dev nD) = peer 1 c := by revert c; decide +kernel
theorem dev10_eq (c : Dev nD) : (⟨k0_dev10 c, k0_dev10_lt c⟩ : Dev nD) = peer 2 c := by revert c; decide +kernel
theorem dev11_eq (c : Dev nD) : (⟨k0_dev11 c, k0_dev11_lt c⟩ : Dev nD) = peer 3 c := by revert c; decide +kernel
theorem dev12_eq (c : Dev nD) : (⟨k0_dev12 c, k0_dev12_lt c⟩ : Dev nD) = peer 4 c := by revert c; decide +kernel
theorem dev13_eq (c : Dev nD) : (⟨k0_dev13 c, k0_dev13_lt c⟩ : Dev nD) = peer 5 c := by revert c; decide +kernel
theorem dev14_eq (c : Dev nD) : (⟨k0_dev14 c, k0_dev14_lt c⟩ : Dev nD) = peer 6 c := by revert c; decide +kernel

/-- The slot the receive wait number `r` names is the slot of the device `r + 1` places before. -/
theorem off5_eq (c : Dev nD) (r : Fin 7) : k0_off5 c (BitVec.ofNat 32 (1 + r.val)) = ![(from_ r c).val, 0, 0] := by revert c r; decide +kernel
theorem off4_eq (c : Dev nD) (r : Fin 7) : k0_off4 c (BitVec.ofNat 32 (1 + r.val)) = ![(from_ r c).val] := by revert c r; decide +kernel

/-! ## The memrefs and cells -/

abbrev xM : Memref sig .tc .vmem S1024x1024 .f32 := Memref.whole cc0_stg0_0
abbrev oM : Memref sig .tc .vmem S1024x1024 .f32 := Memref.whole cc0_stg1_0
abbrev tM : Memref sig .tc .vmem S8x2x1024 .f32 := Memref.whole cc0_scratch0

/-- Slot `s` of a table, as the 2 x 1024 view the copies and their waits name. -/
abbrev slotM (s : Dev nD) : Memref sig .tc .vmem S2x1024 .f32 :=
  (tM.slice (Rect.unit (s := S8x2x1024) (k0_off3 s) S1x2x1024.size (k0_off3_inb s)) (fun _ => rfl)).squeeze S2x1024 squeezes_S1x2x1024_S2x1024

/-- The table's location on device `c`, and the elements of slot `s` in it. -/
abbrev tLoc (c : Dev nD) : Loc nD τ sig := (c : Thread nD τ).loc cc0_scratch0
abbrev slotSet (c s : Dev nD) : Finset (Idx (tLoc c)) := (slotM s).view.set

/-- The runtime's barrier semaphore of collective id 0 (not scoped); the seven send and eight receive DMA semaphores. -/
abbrev barS : Sem sig := (SemArray.scalar (sig.barrier 0 rfl) : Sems sig S_).sem
abbrev sendQ (d : Fin 7) : DmaSem sig := ⟨2 + d.val, by have := d.isLt; show 2 + d.val < 17; omega⟩
abbrev recvQ (s : Dev nD) : DmaSem sig := ⟨9 + s.val, by have h : s.val < 8 := s.isLt; show 9 + s.val < 17; omega⟩

abbrev barCell (c : Dev nD) : GSem nD τ sig := ((c : Thread nD τ), .reg barS)
abbrev sendCell (c : Dev nD) (d : Fin 7) : GSem nD τ sig := ((c : Thread nD τ), .dma (sendQ d))
/-- Device `c`'s receive cell number `s`: credited by the copy from device `s`. -/
abbrev recvCell (c s : Dev nD) : GSem nD τ sig := ((c : Thread nD τ), .dma (recvQ s))

/-- The credit of one slot's copy. -/
abbrev N : ℕ := (slotM (0 : Dev nD)).view.dmaCredit
theorem N_pos : 0 < N := View.dmaCredit_pos _ (by decide)
theorem slot_credit (s : Dev nD) : (slotM s).view.dmaCredit = N := rfl

/-! ## Contents -/

/-- Device `c`'s block of the input as the region finds it staged. -/
abbrev xblk (c : Dev nD) : Vec F S1024x1024 .f32 := iblk m c 0 t0_0

/-- The table every device ends with: slot `s` holds device `s`'s statistics. -/
def tblAll : Vec F S8x2x1024 .f32 := Fn.tbl (fun s => xblk m s)

/-- Device `c`'s result. -/
def outAt (c : Dev nD) : Vec F S1024x1024 .f32 := Fn.out (fun s => xblk m s) c

/-- The shares of its own slot a device lends to its seven copies: halves of halves of the right half; and what is
    left of the right half after them. -/
def rem : ℕ → PosShare TreeShare
  | 0 => fullShare.right
  | n + 1 => (rem n).right
def shr (d : Fin 7) : PosShare TreeShare := (rem d.val).left

/-- Slot `s` of device `c`'s table holding the final table, at share `q`. -/
def slotPts (c s : Dev nD) (q : PosShare TreeShare) : sProp 𝕄 := tLoc c ↦[slotSet c s]{q} tblAll m
/-- Slot `s` of device `c`'s table at arbitrary contents, owned whole. -/
def slotAny (c s : Dev nD) : sProp 𝕄 := iprop(∃ f : Buf (Elt F) (tLoc c), tLoc c ↦[slotSet c s]{fullShare} f)

instance slotPts_storable (c s : Dev nD) (q) : BI.Storable (upEmb : UEmb _ 𝕄) (slotPts (F := F) m c s q) := by unfold slotPts; infer_instance
instance slotAny_storable (c s : Dev nD) : BI.Storable (upEmb : UEmb _ 𝕄) (slotAny (F := F) c s) := by unfold slotAny; infer_instance

/-! ## The schedule -/

/-- Signal number `d` arriving at `c` comes from `from_ d c` and hands over that device's slot `c`. -/
def barPay (c : Dev nD) (d : Fin 7) : sProp 𝕄 := slotAny (from_ d c) c
/-- The copy from `s` has landed: slot `s` of `c`'s table holds the final table. -/
def recvPay (c s : Dev nD) : sProp 𝕄 := slotPts m c s fullShare
/-- Copy number `d` has read its source: the share of `c`'s own slot it borrowed. -/
def sendPay (c : Dev nD) (d : Fin 7) : sProp 𝕄 := slotPts m c c (shr d)

abbrev IsBar (g : GSem nD τ sig) : Prop := g.1.2 = .tc ∧ g.2 = .reg barS
abbrev IsXfer (g : GSem nD τ sig) : Prop := g.1.2 = .tc ∧ ∃ q : DmaSem sig, g.2 = .dma q ∧ 2 ≤ q.val

/-- What a cell's one round hands its owner, by the cell. -/
def payOf (g : GSem nD τ sig) (d : Fin 7) : sProp 𝕄 :=
  match g.2 with
  | .reg _ => barPay g.1.1 d
  | .dma q =>
    if h : 9 ≤ q.val then recvPay m g.1.1 ⟨q.val - 9, by have h17 : q.val < 17 := q.isLt; show q.val - 9 < 8; omega⟩
    else if h2 : 2 ≤ q.val then sendPay m g.1.1 ⟨q.val - 2, by omega⟩
    else iprop(emp)

/-- One round, round 0: a barrier cell has the seven unit duties, one per peer; a send or receive cell one duty of a
    slot's credit. -/
def sched : Rounds.Schedule (GSem nD τ sig) (Fin 7) 𝕄 where
  duties g r := if r = 0 ∧ IsBar g then Finset.univ else if r = 0 ∧ IsXfer g then {0} else ∅
  unitless _ := False
  amount g _ _ := if g.2 = .reg barS then 1 else N
  payload g _ d := payOf m g d
  amount_pos g _ _ _ := by
    by_cases h : g.2 = .reg barS
    · rw [if_pos h]; exact Nat.one_pos
    · rw [if_neg h]; exact N_pos

instance sched_payload_storable (g : GSem nD τ sig) (r : ℕ) (d : Fin 7) :
    BI.Storable (upEmb : UEmb _ 𝕄) ((sched (F := F) m).payload g r d) := by
  show BI.Storable upEmb (payOf m g d)
  unfold payOf barPay recvPay sendPay
  (repeat' split) <;> infer_instance

/-! ## What each device owes at launch; the levels -/

/-- A device's fourteen payments in program order: the seven signals (a unit on each peer's barrier cell), then the
    seven copies (a slot's credit on each peer's receive cell number `c`). -/
def term (c : Dev nD) (j : ℕ) : CellTallies nD τ sig Unit :=
  if h : j < 7 then tallyAt (barCell (peer ⟨j, h⟩ c)) () 1
  else if h2 : j < 14 then tallyAt (recvCell (peer ⟨j - 7, by omega⟩ c) c) () N
  else 0
/-- What is still owed when `n` payments remain: the last `n` of the fourteen, the next to make outermost. -/
def owe (c : Dev nD) : ℕ → CellTallies nD τ sig Unit
  | 0 => 0
  | n + 1 => owe c n + term c (13 - n)
def O₀ (c : Dev nD) : CellTallies nD τ sig Unit := owe c 14

def L (g : GSem nD τ sig) : Finset Unit := if g.1.2 = .tc then {()} else ∅
/-- Barrier cells at 1, receive cells at 2, everything else (staging, send) at 0. -/
def lv (g : GSem nD τ sig) (_ : Unit) : ℕ :=
  match g.2 with
  | .reg _ => 1
  | .dma q => if 9 ≤ q.val then 2 else 0

/-! ## The cells of the exchange, numbered per device: 0 the barrier, 1 + d the send cell `d`, 8 + r the receive
    cell credited by the device `r + 1` places before (the receive cell bearing the device's own number is never
    used and is no cell of the exchange) -/

abbrev sIdx (d : Fin 7) : Fin 15 := ⟨1 + d.val, by omega⟩
abbrev rIdx (r : Fin 7) : Fin 15 := ⟨8 + r.val, by omega⟩
def kcell (ck : Dev nD × Fin 15) : GSem nD τ sig :=
  if h0 : ck.2.val = 0 then barCell ck.1
  else if h1 : ck.2.val < 8 then sendCell ck.1 ⟨ck.2.val - 1, by omega⟩
  else recvCell ck.1 (from_ ⟨ck.2.val - 8, by have := ck.2.isLt; omega⟩ ck.1)

theorem kcell_bar (c : Dev nD) : kcell (c, 0) = barCell c := rfl
theorem kcell_send (c : Dev nD) (d : Fin 7) : kcell (c, sIdx d) = sendCell c d := by
  unfold kcell; rw [dif_neg (by show ¬ (1 + d.val = 0); omega), dif_pos (by show 1 + d.val < 8; omega)]
  exact congrArg (sendCell c) (Fin.ext (by show 1 + d.val - 1 = d.val; omega))
theorem kcell_recv (c : Dev nD) (r : Fin 7) : kcell (c, rIdx r) = recvCell c (from_ r c) := by
  unfold kcell; rw [dif_neg (by show ¬ (8 + r.val = 0); omega), dif_neg (by show ¬ (8 + r.val < 8); omega)]
  exact congrArg (fun r' => recvCell c (from_ r' c)) (Fin.ext (by show 8 + r.val - 8 = r.val; omega))

/-! ## The ghost state a device's body starts from -/

/-- The invariants of the cells device `c`'s body opens, under the names `K` the launch allocated them at: its own
    fifteen, every peer's barrier cell (its signals), every peer's receive cell number `c` (its copies). -/
def invs (K : Dev nD × Fin 15 → ℕ) (c : Dev nD) : sProp 𝕄 :=
  iprop(cellInv ER (sched m) (K (c, 0)) (barCell c)
    ∗ (bigSep Finset.univ fun d : Fin 7 => cellInv ER (sched m) (K (c, sIdx d)) (sendCell c d))
    ∗ (bigSep Finset.univ fun r : Fin 7 => cellInv ER (sched m) (K (c, rIdx r)) (recvCell c (from_ r c)))
    ∗ (bigSep Finset.univ fun d : Fin 7 => cellInv ER (sched m) (K (peer d c, 0)) (barCell (peer d c)))
    ∗ (bigSep Finset.univ fun d : Fin 7 => cellInv ER (sched m) (K (peer d c, rIdx d)) (recvCell (peer d c) c)))

instance invs_persistent (K : Dev nD × Fin 15 → ℕ) (c : Dev nD) : BI.Persistent (invs m K c) := by unfold invs; infer_instance

/-- That round 0 is reached at every cell the device pays. -/
def reacheds (c : Dev nD) : sProp 𝕄 :=
  iprop((bigSep Finset.univ fun d : Fin 7 => reached ER (barCell (peer d c)) 0)
    ∗ (bigSep Finset.univ fun d : Fin 7 => reached ER (sendCell c d) 0)
    ∗ (bigSep Finset.univ fun d : Fin 7 => reached ER (recvCell (peer d c) c) 0))

instance reacheds_persistent (c : Dev nD) : BI.Persistent (reacheds (F := F) c) := by unfold reacheds; infer_instance

/-- The device's positions at round 0 of its own fifteen cells. -/
def positions (c : Dev nD) : sProp 𝕄 :=
  iprop(atPos ER (barCell c) 0 ∅ 0
    ∗ (bigSep Finset.univ fun d : Fin 7 => atPos ER (sendCell c d) 0 ∅ 0)
    ∗ (bigSep Finset.univ fun r : Fin 7 => atPos ER (recvCell c (from_ r c)) 0 ∅ 0))

/-- The tokens of the duties the device pays: duty `d` of peer `d`'s barrier cell, its own send cells' duties, the
    duty of each peer's receive cell number `c`. -/
def payToks (c : Dev nD) : sProp 𝕄 :=
  iprop((bigSep Finset.univ fun d : Fin 7 => dutyTok ER (barCell (peer d c)) 0 d)
    ∗ (bigSep Finset.univ fun d : Fin 7 => dutyTok ER (sendCell c d) 0 0)
    ∗ (bigSep Finset.univ fun d : Fin 7 => dutyTok ER (recvCell (peer d c) c) 0 0))

def ghost (K : Dev nD × Fin 15 → ℕ) (c : Dev nD) : sProp 𝕄 :=
  iprop(invs m K c ∗ reacheds c ∗ positions c ∗ payToks c)

/-- What device `c`'s body starts from: the ghost state at some names; the credit tokens of its barrier cell's seven
    units and of its seven receive cells; the level facts; and the counter of the receive semaphore it never uses. -/
def start (c : Dev nD) : sProp 𝕄 :=
  iprop((∃ K, ghost m K c) ∗ cred (tallyAt (barCell c) () 7)
    ∗ (bigSep Finset.univ fun r : Fin 7 => cred (tallyAt (recvCell c (from_ r c)) () N))
    ∗ levAts L lv ∗ semVal (recvCell c c) 0)

/-- Before the point: that, and the table at arbitrary contents. -/
def Φ₀ (c : Dev nD) : sProp 𝕄 := iprop(start m c ∗ ∃ f : Buf (Elt F) (tLoc c), tLoc c ↦{fullShare} f)
/-- After the point: the table whole again, and the fifteen own semaphores at zero, their cells closed. -/
def Φ₁ (c : Dev nD) : sProp 𝕄 :=
  iprop((∃ f : Buf (Elt F) (tLoc c), tLoc c ↦{fullShare} f)
    ∗ (bigSep Finset.univ fun d : Fin 7 => semVal (sendCell c d) 0)
    ∗ (bigSep Finset.univ fun s : Dev nD => semVal (recvCell c s) 0))

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdealProto

end
-- ==== Proof.LaunchGhost.lean ====
/-
  The launch of the exchange: the ghost state of its cells, minted once for the whole mesh and dealt to the devices.

  Every device owns fifteen cells of the exchange (its barrier cell, seven send cells, seven receive cells) and a
  sixteenth receive semaphore, the one bearing its own number, that no copy ever credits. The launch element holds
  every cell at round 0 together with the tokens of all duties. Each device opens an invariant per cell from its
  semaphores at zero; the invariants and the reached-marks are persistent and are shared by all; the duty tokens
  travel from the cell's owner to the duty's payer: duty `d` of a barrier cell to the device `d + 1` places before
  its owner, the duty of a receive cell to the device whose number it bears; a send cell's duty stays home.
-/
import proofs.«901054_g7700000000001055_dist_softmax_colshard_i_m1024_n1024_v7x_i8_f32_1_alg».proof.Proof.Proto
import Idealize.ShloMosaic.Lib.Pipeline.Launch
import Idealize.ShloMosaic.Lib.Pipeline.Kit
import Idealize.ShloMosaic.Lib.Tactic

noncomputable section

namespace Cert.KernelIdealProto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own semaphores -/

/-- The kernel's own (scoped) semaphores: the DMA semaphores 2 to 16, seven send then eight receive. -/
abbrev osem : Fin 15 → SemLoc sig := fun k => .dma ⟨2 + k.val, by have := k.isLt; show 2 + k.val < 17; omega⟩

theorem ownSemFacts : Pipeline.OwnSemFacts cfg0.spec osem := by decide

/-! ## The cells and the tokens of the launch element -/

/-- Every index below fifteen is the barrier's, a send cell's or a receive cell's. -/
theorem fin15_cases (k : Fin 15) : k = 0 ∨ (∃ d : Fin 7, k = sIdx d) ∨ (∃ r : Fin 7, k = rIdx r) := by
  revert k; decide

theorem kcell_dev (ck : Dev nD × Fin 15) : (kcell ck).1.1 = ck.1 := by
  unfold kcell; split
  · rfl
  · split <;> rfl

theorem kcell_injective : Function.Injective (kcell : Dev nD × Fin 15 → GSem nD τ sig) := by
  rintro ⟨c, k⟩ ⟨c', k'⟩ h
  have h1 : c = c' := by have := congrArg (fun g : GSem nD τ sig => g.1.1) h; simpa only [kcell_dev] using this
  subst h1
  have h2 : (kcell (c, k)).2 = (kcell (c, k')).2 := congrArg Prod.snd h
  have : k = k' := by
    rcases fin15_cases k with rfl | ⟨d, rfl⟩ | ⟨r, rfl⟩ <;> rcases fin15_cases k' with rfl | ⟨d', rfl⟩ | ⟨r', rfl⟩
    · rfl
    · rw [kcell_bar, kcell_send] at h2; cases h2
    · rw [kcell_bar, kcell_recv] at h2; cases h2
    · rw [kcell_send, kcell_bar] at h2; cases h2
    · rw [kcell_send, kcell_send] at h2
      have h3 : 2 + d.val = 2 + d'.val := congrArg (fun q : DmaSem sig => q.val) (SemLoc.dma.inj h2)
      have : d = d' := Fin.ext (by omega)
      subst this; rfl
    · rw [kcell_send, kcell_recv] at h2
      have h3 : 2 + d.val = 9 + (from_ r' c).val := congrArg (fun q : DmaSem sig => q.val) (SemLoc.dma.inj h2)
      have := d.isLt; omega
    · rw [kcell_recv, kcell_bar] at h2; cases h2
    · rw [kcell_recv, kcell_send] at h2
      have h3 : 9 + (from_ r c).val = 2 + d'.val := congrArg (fun q : DmaSem sig => q.val) (SemLoc.dma.inj h2)
      have := d'.isLt; omega
    · rw [kcell_recv, kcell_recv] at h2
      have h3 : 9 + (from_ r c).val = 9 + (from_ r' c).val := congrArg (fun q : DmaSem sig => q.val) (SemLoc.dma.inj h2)
      have h4 : from_ r c = from_ r' c := Fin.ext (by omega)
      have : r = r' := from_inj c h4
      subst this; rfl
  subst this; rfl

def ringCells : Finset (GSem nD τ sig) := Finset.univ.map ⟨kcell, kcell_injective⟩

/-- Token number `j` of a device sits on its cell number `kOf j` and is that cell's duty `dOf j`: the barrier
    cell's seven duties first, then duty 0 of each send cell, then duty 0 of each receive cell. -/
def kOf (j : Fin 21) : Fin 15 := ⟨if j.val < 7 then 0 else j.val - 6, by have := j.isLt; split <;> omega⟩
def dOf (j : Fin 21) : Fin 7 := ⟨if j.val < 7 then j.val else 0, by split <;> omega⟩

theorem kdOf_injective : Function.Injective (fun j : Fin 21 => (kOf j, dOf j)) := by decide

/-- A device's own cells' duty tokens as minted. -/
def tokOf (cj : Dev nD × Fin 21) : GSem nD τ sig × ℕ × Fin 7 := (kcell (cj.1, kOf cj.2), 0, dOf cj.2)

theorem tokOf_injective : Function.Injective (tokOf : Dev nD × Fin 21 → GSem nD τ sig × ℕ × Fin 7) := by
  rintro ⟨c, j⟩ ⟨c', j'⟩ h
  have hk : (c, kOf j) = (c', kOf j') := kcell_injective (congrArg (fun x : GSem nD τ sig × ℕ × Fin 7 => x.1) h)
  have hd : dOf j = dOf j' := congrArg (fun x : GSem nD τ sig × ℕ × Fin 7 => x.2.2) h
  have h1 : c = c' := congrArg Prod.fst hk
  have h2 : j = j' := kdOf_injective (Prod.ext (congrArg Prod.snd hk) hd)
  rw [h1, h2]

def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun k : Fin 7 => dutyTok ER (barCell c) 0 k)
    ∗ (bigSep Finset.univ fun d : Fin 7 => dutyTok ER (sendCell c d) 0 0)
    ∗ (bigSep Finset.univ fun r : Fin 7 => dutyTok ER (recvCell c (from_ r c)) 0 0))

/-- What the launch element deals device `c`. -/
def G (c : Dev nD) : sProp 𝕄 :=
  iprop((bigSep Finset.univ fun k : Fin 15 => roundState ER (sched m) (kcell (c, k)) 0)
    ∗ (bigSep Finset.univ fun k : Fin 15 => iprop(atPos ER (kcell (c, k)) 0 ∅ 0 ∗ reached ER (kcell (c, k)) 0)) ∗ toks c)

/-- What the global step makes of it. -/
def G' (c : Dev nD) : sProp 𝕄 := iprop((∃ K, ghost m K c) ∗ semVal (recvCell c c) 0)

/-! ## Conjunctions over the fifteen cells, the twenty-one tokens, the eight devices, split by kind -/

/-- The fifteen indices: the barrier's, the seven send cells', the seven receive cells'. -/
def e15 : Unit ⊕ (Fin 7 ⊕ Fin 7) ≃ Fin 15 where
  toFun := fun | .inl _ => 0 | .inr (.inl d) => sIdx d | .inr (.inr r) => rIdx r
  invFun k := if k.val = 0 then .inl () else if h : k.val < 8 then .inr (.inl ⟨k.val - 1, by omega⟩) else .inr (.inr ⟨k.val - 8, by have := k.isLt; omega⟩)
  left_inv := by decide
  right_inv := by decide

/-- The twenty-one token numbers: seven on the barrier cell, one on each send cell, one on each receive cell. -/
def e21 : Fin 7 ⊕ (Fin 7 ⊕ Fin 7) ≃ Fin 21 where
  toFun := fun | .inl k => ⟨k.val, by omega⟩ | .inr (.inl d) => ⟨7 + d.val, by omega⟩ | .inr (.inr r) => ⟨14 + r.val, by omega⟩
  invFun j := if h : j.val < 7 then .inl ⟨j.val, h⟩ else if h' : j.val < 14 then .inr (.inl ⟨j.val - 7, by omega⟩) else .inr (.inr ⟨j.val - 14, by have := j.isLt; omega⟩)
  left_inv := by decide
  right_inv := by decide

omit [FloatOps F] in
theorem bigSep_fin15 (Φ : Fin 15 → sProp 𝕄) :
    bigSep Finset.univ Φ = iprop(Φ 0 ∗ (bigSep Finset.univ fun d : Fin 7 => Φ (sIdx d)) ∗ bigSep Finset.univ fun r : Fin 7 => Φ (rIdx r)) := by
  rw [bigSep_univ_equiv e15 Φ, bigSep_univ_sum, bigSep_univ_sum, bigSep_univ_of_subsingleton ()]; rfl

omit [FloatOps F] in
theorem bigSep_fin21 (Φ : Fin 21 → sProp 𝕄) :
    bigSep Finset.univ Φ = iprop((bigSep Finset.univ fun k : Fin 7 => Φ ⟨k.val, by omega⟩) ∗ (bigSep Finset.univ fun d : Fin 7 => Φ ⟨7 + d.val, by omega⟩)
      ∗ bigSep Finset.univ fun r : Fin 7 => Φ ⟨14 + r.val, by omega⟩) := by
  rw [bigSep_univ_equiv e21 Φ, bigSep_univ_sum, bigSep_univ_sum]; rfl

omit [FloatOps F] in
/-- A conjunction over a device's fifteen cells, by kind. -/
theorem bigSep_kcell (c : Dev nD) (Ψ : GSem nD τ sig → sProp 𝕄) :
    bigSep Finset.univ (fun k : Fin 15 => Ψ (kcell (c, k)))
      = iprop(Ψ (barCell c) ∗ (bigSep Finset.univ fun d : Fin 7 => Ψ (sendCell c d)) ∗ bigSep Finset.univ fun r : Fin 7 => Ψ (recvCell c (from_ r c))) := by
  rw [bigSep_fin15, kcell_bar, bigSep_congr (fun d _ => by rw [kcell_send]), bigSep_congr (s := Finset.univ) (Φ := fun r : Fin 7 => Ψ (kcell (c, rIdx r))) (fun r _ => by rw [kcell_recv])]

theorem others_eq (c : Dev nD) : (Finset.univ.erase c : Finset (Dev nD)) = Finset.univ.map ⟨fun r : Fin 7 => from_ r c, from_inj c⟩ := by
  revert c; decide

omit [FloatOps F] in
/-- A conjunction over the eight devices: `c` itself, then the seven others by their distance before `c`. -/
theorem bigSep_dev (c : Dev nD) (Φ : Dev nD → sProp 𝕄) :
    bigSep Finset.univ Φ = iprop(Φ c ∗ bigSep Finset.univ fun r : Fin 7 => Φ (from_ r c)) := by
  rw [bigSep_univ_at Φ c, others_eq, bigSep_map]; rfl

/-! ## Funding -/

theorem tokOf_bar (c : Dev nD) (k : Fin 7) : tokOf (c, ⟨k.val, by omega⟩) = (barCell c, 0, k) := by
  have h1 : kOf ⟨k.val, by omega⟩ = 0 := Fin.ext (if_pos k.isLt)
  have h2 : dOf ⟨k.val, by omega⟩ = k := Fin.ext (if_pos k.isLt)
  unfold tokOf; rw [h1, h2]; rfl
theorem tokOf_send (c : Dev nD) (d : Fin 7) : tokOf (c, ⟨7 + d.val, by omega⟩) = (sendCell c d, 0, 0) := by
  have h1 : kOf ⟨7 + d.val, by omega⟩ = sIdx d := Fin.ext (by show (if 7 + d.val < 7 then 0 else 7 + d.val - 6) = 1 + d.val; rw [if_neg (by omega)]; omega)
  have h2 : dOf ⟨7 + d.val, by omega⟩ = 0 := Fin.ext (by show (if 7 + d.val < 7 then 7 + d.val else 0) = 0; rw [if_neg (by omega)])
  unfold tokOf; rw [h1, h2, kcell_send]
theorem tokOf_recv (c : Dev nD) (r : Fin 7) : tokOf (c, ⟨14 + r.val, by omega⟩) = (recvCell c (from_ r c), 0, 0) := by
  have h1 : kOf ⟨14 + r.val, by omega⟩ = rIdx r := Fin.ext (by show (if 14 + r.val < 7 then 0 else 14 + r.val - 6) = 8 + r.val; rw [if_neg (by omega)]; omega)
  have h2 : dOf ⟨14 + r.val, by omega⟩ = 0 := Fin.ext (by show (if 14 + r.val < 7 then 14 + r.val else 0) = 0; rw [if_neg (by omega)])
  unfold tokOf; rw [h1, h2, kcell_recv]

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks; rw [bigSep_fin21]
      refine congrArg₂ _ (bigSep_congr fun k _ => ?_) (congrArg₂ _ (bigSep_congr fun d _ => ?_) (bigSep_congr fun r _ => ?_))
      · show (dutyTok ER (tokOf (c, ⟨k.val, _⟩)).1 (tokOf (c, ⟨k.val, _⟩)).2.1 (tokOf (c, ⟨k.val, _⟩)).2.2 : sProp 𝕄) = _; rw [tokOf_bar]
      · show (dutyTok ER (tokOf (c, ⟨7 + d.val, _⟩)).1 (tokOf (c, ⟨7 + d.val, _⟩)).2.1 (tokOf (c, ⟨7 + d.val, _⟩)).2.2 : sProp 𝕄) = _; rw [tokOf_send]
      · show (dutyTok ER (tokOf (c, ⟨14 + r.val, _⟩)).1 (tokOf (c, ⟨14 + r.val, _⟩)).2.1 (tokOf (c, ⟨14 + r.val, _⟩)).2.2 : sProp 𝕄) = _; rw [tokOf_recv]
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

/-- The fifteen own semaphores: seven send, eight receive. -/
def e78 : Fin 7 ⊕ Dev nD ≃ Fin 15 where
  toFun := fun | .inl d => ⟨d.val, by omega⟩ | .inr s => ⟨7 + s.val, by have h : s.val < 8 := s.isLt; omega⟩
  invFun k := if h : k.val < 7 then .inl ⟨k.val, h⟩ else .inr ⟨k.val - 7, by have := k.isLt; show k.val - 7 < 8; omega⟩
  left_inv := by decide
  right_inv := by decide

omit [FloatOps F] in
/-- The kernel's own semaphores are the seven send cells' and the eight receive semaphores; -/
theorem ownSems0_eq (c : Dev nD) : (Pipeline.ownSems0 (Ix := Unit) (Name := ℕ) (U := UU) (Lvl := ℕ) (Val := Elt F) (τ := τ) osem c : sProp 𝕄)
    = iprop((bigSep Finset.univ fun d : Fin 7 => semVal (sendCell c d) 0) ∗ bigSep Finset.univ fun s : Dev nD => semVal (recvCell c s) 0) := by
  unfold Pipeline.ownSems0
  rw [bigSep_univ_equiv e78, bigSep_univ_sum]
  refine congrArg₂ _ (bigSep_congr fun d _ => ?_) (bigSep_congr fun s _ => ?_)
  · rfl
  · exact congrArg (fun q : DmaSem sig => (semVal ((c : Thread nD τ), SemLoc.dma q) 0 : sProp 𝕄)) (Fin.ext (by show 2 + (7 + s.val) = 9 + s.val; omega))

omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's semaphores at zero: its fifteen cells', and the receive semaphore bearing its own number. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 15 => semVal (kcell (c, k)) 0) ∗ semVal (recvCell c c) 0) : sProp 𝕄) := by
  rw [ownSems0_eq, unscopedSems0_eq, bigSep_kcell c (fun g => (semVal g 0 : sProp 𝕄)), bigSep_dev c (fun s => (semVal (recvCell c s) 0 : sProp 𝕄))]
  iintro ⟨⟨HS, HVc, HV⟩, HB⟩
  isplitr [HVc]
  · isplitl [HB]; · iexact HB
    isplitl [HS] <;> iassumption
  · iexact HVc

/-- Each device opens its fifteen invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ semVal (recvCell c c) 0) := by
  unfold G
  iintro ⟨Hos, Hus, Hst, Hat, Htok⟩
  ihave Hv := (sems0_eq (F := F) c) $$ [Hos Hus]
  · isplitl [Hos] <;> iassumption
  icases Hv with ⟨Hv, Hself⟩
  imod (show iprop((bigSep Finset.univ fun k : Fin 15 => semVal (kcell (c, k)) 0) ∗ bigSep Finset.univ fun k : Fin 15 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hself

/-- What every device shares: all invariants under their names, and that every cell has reached round 0. -/
def records (K : Dev nD × Fin 15 → ℕ) : sProp 𝕄 :=
  iprop((bigSep Finset.univ fun ck : Dev nD × Fin 15 => cellInv ER (sched m) (K ck) (kcell ck))
    ∗ bigSep Finset.univ fun ck : Dev nD × Fin 15 => reached ER (kcell ck) 0)

instance records_persistent (K : Dev nD × Fin 15 → ℕ) : BI.Persistent (records m K) := by unfold records; infer_instance

theorem inv_at (K : Dev nD × Fin 15 → ℕ) (ck : Dev nD × Fin 15) :
    (bigSep Finset.univ fun ck : Dev nD × Fin 15 => (cellInv ER (sched m) (K ck) (kcell ck) : sProp 𝕄)) ⊢ cellInv ER (sched m) (K ck) (kcell ck) :=
  bigSep_elim (Finset.mem_univ ck)
omit [FloatOps F] in
theorem reached_at (ck : Dev nD × Fin 15) :
    (bigSep Finset.univ fun ck : Dev nD × Fin 15 => (reached ER (kcell ck) 0 : sProp 𝕄)) ⊢ reached ER (kcell ck) 0 :=
  bigSep_elim (Finset.mem_univ ck)

theorem inv_send (K : Dev nD × Fin 15 → ℕ) (c : Dev nD) (d : Fin 7) :
    (bigSep Finset.univ fun ck : Dev nD × Fin 15 => (cellInv ER (sched m) (K ck) (kcell ck) : sProp 𝕄)) ⊢ cellInv ER (sched m) (K (c, sIdx d)) (sendCell c d) := by
  have h := inv_at m K (c, sIdx d); rwa [kcell_send] at h
theorem inv_recv (K : Dev nD × Fin 15 → ℕ) (c : Dev nD) (r : Fin 7) :
    (bigSep Finset.univ fun ck : Dev nD × Fin 15 => (cellInv ER (sched m) (K ck) (kcell ck) : sProp 𝕄)) ⊢ cellInv ER (sched m) (K (c, rIdx r)) (recvCell c (from_ r c)) := by
  have h := inv_at m K (c, rIdx r); rwa [kcell_recv] at h
theorem inv_pbar (K : Dev nD × Fin 15 → ℕ) (c : Dev nD) (d : Fin 7) :
    (bigSep Finset.univ fun ck : Dev nD × Fin 15 => (cellInv ER (sched m) (K ck) (kcell ck) : sProp 𝕄)) ⊢ cellInv ER (sched m) (K (peer d c, 0)) (barCell (peer d c)) :=
  inv_at m K (peer d c, 0)
theorem inv_precv (K : Dev nD × Fin 15 → ℕ) (c : Dev nD) (d : Fin 7) :
    (bigSep Finset.univ fun ck : Dev nD × Fin 15 => (cellInv ER (sched m) (K ck) (kcell ck) : sProp 𝕄)) ⊢ cellInv ER (sched m) (K (peer d c, rIdx d)) (recvCell (peer d c) c) := by
  have h := inv_at m K (peer d c, rIdx d); rwa [kcell_recv, from_peer] at h

omit [FloatOps F] in
theorem reached_send (c : Dev nD) (d : Fin 7) :
    (bigSep Finset.univ fun ck : Dev nD × Fin 15 => (reached ER (kcell ck) 0 : sProp 𝕄)) ⊢ reached ER (sendCell c d) 0 := by
  have h := reached_at (F := F) (c, sIdx d); rwa [kcell_send] at h
omit [FloatOps F] in
theorem reached_pbar (c : Dev nD) (d : Fin 7) :
    (bigSep Finset.univ fun ck : Dev nD × Fin 15 => (reached ER (kcell ck) 0 : sProp 𝕄)) ⊢ reached ER (barCell (peer d c)) 0 :=
  reached_at (F := F) (peer d c, 0)
omit [FloatOps F] in
theorem reached_precv (c : Dev nD) (d : Fin 7) :
    (bigSep Finset.univ fun ck : Dev nD × Fin 15 => (reached ER (kcell ck) 0 : sProp 𝕄)) ⊢ reached ER (recvCell (peer d c) c) 0 := by
  have h := reached_at (F := F) (peer d c, rIdx d); rwa [kcell_recv, from_peer] at h

omit [FloatOps F] in
/-- A persistent fact yields any finite family of its consequences. -/
theorem pick {J : Type} [Fintype J] [DecidableEq J] {R : sProp 𝕄} [BI.Persistent R] {Ψ : J → sProp 𝕄} (h : ∀ j, R ⊢ Ψ j) :
    R ⊢ bigSep Finset.univ Ψ :=
  (BI.bigSep_of_persistent Finset.univ R).trans (bigSep_mono fun j _ => h j)

/-- What stays with device `c`: its positions, the tokens of the duties it pays, its unused receive semaphore. -/
def linear (c : Dev nD) : sProp 𝕄 := iprop(positions c ∗ payToks c ∗ semVal (recvCell c c) 0)

theorem ghost_intro (K : Dev nD × Fin 15 → ℕ) (c : Dev nD) : iprop(records m K ∗ linear c) ⊢ G' m c := by
  unfold records linear G' ghost invs reacheds
  iintro ⟨⟨#HI, #HR⟩, Hpos, Htok, Hself⟩
  isplitr [Hself]
  · iexists K
    isplitr
    · isplitr; · iapply (inv_at m K (c, 0)); iexact HI
      isplitr; · iapply (pick fun d => inv_send m K c d); iexact HI
      isplitr; · iapply (pick fun r => inv_recv m K c r); iexact HI
      isplitr; · iapply (pick fun d => inv_pbar m K c d); iexact HI
      iapply (pick fun d => inv_precv m K c d); iexact HI
    isplitr
    · isplitr; · iapply (pick fun d => reached_pbar (F := F) c d); iexact HR
      isplitr; · iapply (pick fun d => reached_send (F := F) c d); iexact HR
      iapply (pick fun d => reached_precv (F := F) c d); iexact HR
    isplitl [Hpos]; · iexact Hpos
    iexact Htok
  · iexact Hself

/-- Duty `d` goes `d + 1` places round the mesh. -/
def σ : Dev nD × Fin 7 ≃ Dev nD × Fin 7 where
  toFun cd := (peer cd.2 cd.1, cd.2)
  invFun cd := (from_ cd.2 cd.1, cd.2)
  left_inv cd := Prod.ext (from_peer cd.2 cd.1) rfl
  right_inv cd := Prod.ext (peer_from cd.2 cd.1) rfl

omit [FloatOps F] in
theorem around (a : Dev nD × Fin 7 → sProp 𝕄) :
    (bigSep Finset.univ fun c : Dev nD => bigSep Finset.univ fun d : Fin 7 => a (c, d))
      = bigSep Finset.univ fun c : Dev nD => bigSep Finset.univ fun d : Fin 7 => a (peer d c, d) :=
  (bigSep_univ_prod a).symm.trans ((bigSep_univ_equiv σ a).trans (bigSep_univ_prod fun cd => a (σ cd)))

omit [FloatOps F] in
/-- The tokens dealt round the mesh: duty `d` of a barrier cell to the device `d + 1` places before its owner, a
    receive cell's token to the device whose number the cell bears; a send cell's token stays. -/
theorem toks_around : (bigSep Finset.univ fun c : Dev nD => (toks c : sProp 𝕄)) ⊢ bigSep Finset.univ fun c : Dev nD => payToks c := by
  have hB := around (fun cd => (dutyTok ER (barCell cd.1) 0 cd.2 : sProp 𝕄))
  have hR := around (fun cd => (dutyTok ER (recvCell cd.1 (from_ cd.2 cd.1)) 0 0 : sProp 𝕄))
  simp only [from_peer] at hR
  dsimp only at hB
  unfold toks payToks
  rw [bigSep_sep', bigSep_sep', bigSep_sep', bigSep_sep']
  iintro ⟨H1, H2, H3⟩
  isplitl [H1]; · iapply (Entails.of_eq hB); iexact H1
  isplitl [H2]; · iexact H2
  iapply (Entails.of_eq hR); iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem positions_eq (c : Dev nD) : (positions c : sProp 𝕄) = bigSep Finset.univ fun k : Fin 15 => atPos ER (kcell (c, k)) 0 ∅ 0 := by
  unfold positions; rw [bigSep_kcell c (fun g => (atPos ER g 0 ∅ 0 : sProp 𝕄))]

omit [FloatOps F] in
theorem linear_all :
    iprop((bigSep Finset.univ fun c : Dev nD => bigSep Finset.univ fun k : Fin 15 => atPos ER (kcell (c, k)) 0 ∅ 0)
        ∗ (bigSep Finset.univ fun c : Dev nD => payToks c) ∗ bigSep Finset.univ fun c : Dev nD => semVal (recvCell c c) 0)
      ⊢ (bigSep Finset.univ fun c : Dev nD => linear c : sProp 𝕄) := by
  unfold linear
  rw [bigSep_sep', bigSep_sep', bigSep_congr (s := Finset.univ) (fun (c : Dev nD) _ => positions_eq (F := F) c)]

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ semVal (recvCell c c) 0) : sProp 𝕄)
      ⊢ bigSep Finset.univ (G' m) := by
  rw [bigSep_sep', bigSep_sep', bigSep_sep', ← bigSep_univ_prod (fun ck : Dev nD × Fin 15 => iprop(∃ κ : ℕ, cellInv ER (sched m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok, Hself⟩
  ihave HK := (BI.bigSep_exists_pi Finset.univ (fun (ck : Dev nD × Fin 15) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (linear_all (F := F))
    isplitl [Hat]; · iexact Hat
    isplitl [Htk]; · iexact Htk
    iexact Hself

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.KernelIdealProto.fund_ring' depends on axioms: [propext, Classical.choice, Quot.sound] -/
#guard_msgs in #print axioms fund_ring

/-- info: 'Cert.KernelIdealProto.glob' depends on axioms: [propext, Classical.choice, Quot.sound] -/
#guard_msgs in #print axioms glob

end Cert.KernelIdealProto

end
-- ==== Proof.ProtoLemmas.lean ====
/-
  The tables of the exchange's schedule, cell by cell; the levels; and what the launch deals each device.

  Round 0 is the only round. A barrier cell has seven unit duties, one per peer, each handing over the peer's copy of the
  owner's slot; a send cell one duty of a slot's credit, handing back the share of the own slot the copy read; a receive
  cell one duty of a slot's credit, handing over the slot filled. A device owes its seven signals and then its seven copies;
  its barrier cell is credited seven units at launch and each receive cell it uses one slot's credit.
-/
import proofs.«901054_g7700000000001055_dist_softmax_colshard_i_m1024_n1024_v7x_i8_f32_1_alg».proof.Proof.Proto
import Idealize.ShloMosaic.Lib.Pipeline.Launch
import Idealize.ShloMosaic.Lib.Pipeline.Kit
import Idealize.ShloMosaic.Lib.Tactic
import Mathlib.Algebra.BigOperators.Fin

noncomputable section

namespace Cert.KernelIdealProto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The sixteen semaphores are different cells -/

theorem sendQ_inj : Function.Injective (sendQ : Fin 7 → DmaSem sig) := by decide
theorem recvQ_inj : Function.Injective (recvQ : Dev nD → DmaSem sig) := by decide
theorem sendQ_ne_recvQ (d : Fin 7) (s : Dev nD) : sendQ d ≠ recvQ s := by revert d s; decide
theorem recvQ_ne_sendQ (s : Dev nD) (d : Fin 7) : recvQ s ≠ sendQ d := by revert d s; decide
theorem dma_ne_bar (q : DmaSem sig) : (SemLoc.dma q : SemLoc sig) ≠ .reg barS := fun h => by cases h
theorem bar_ne_dma (q : DmaSem sig) : (SemLoc.reg barS : SemLoc sig) ≠ .dma q := fun h => by cases h
theorem dma_send_inj : Function.Injective (fun d : Fin 7 => (SemLoc.dma (sendQ d) : SemLoc sig)) :=
  fun a b h => sendQ_inj (SemLoc.dma.inj h)
theorem dma_recv_inj : Function.Injective (fun s : Dev nD => (SemLoc.dma (recvQ s) : SemLoc sig)) :=
  fun a b h => recvQ_inj (SemLoc.dma.inj h)
theorem dma_send_ne_recv (d : Fin 7) (s : Dev nD) : (SemLoc.dma (sendQ d) : SemLoc sig) ≠ .dma (recvQ s) :=
  fun h => sendQ_ne_recvQ d s (SemLoc.dma.inj h)

/-! ## The schedule's tables -/

section Sched
variable (c : Dev nD)

theorem not_bar_send (d : Fin 7) : ¬ IsBar (sendCell c d) := fun h => dma_ne_bar _ h.2
theorem not_bar_recv (s : Dev nD) : ¬ IsBar (recvCell c s) := fun h => dma_ne_bar _ h.2

theorem duties_bar : (sched (F := F) m).duties (barCell c) 0 = Finset.univ := by dsimp only [sched]; exact if_pos ⟨rfl, rfl, rfl⟩
theorem duties_send (d : Fin 7) : (sched (F := F) m).duties (sendCell c d) 0 = {0} := by
  dsimp only [sched]; rw [if_neg (fun h => not_bar_send c d h.2)]
  exact if_pos ⟨rfl, rfl, sendQ d, rfl, by show 2 ≤ 2 + d.val; omega⟩
theorem duties_recv (s : Dev nD) : (sched (F := F) m).duties (recvCell c s) 0 = {0} := by
  dsimp only [sched]; rw [if_neg (fun h => not_bar_recv c s h.2)]
  exact if_pos ⟨rfl, rfl, recvQ s, rfl, by show 2 ≤ 9 + s.val; omega⟩
theorem duties_later (g : GSem nD τ sig) : ∀ r, 1 ≤ r → (sched (F := F) m).duties g r = ∅ :=
  fun r hr => by dsimp only [sched]; rw [if_neg fun h => by omega, if_neg fun h => by omega]

theorem amount_bar (k : Fin 7) : (sched (F := F) m).amount (barCell c) 0 k = 1 := by dsimp only [sched]; exact if_pos rfl
theorem amount_send (d k : Fin 7) : (sched (F := F) m).amount (sendCell c d) 0 k = N := by
  dsimp only [sched]; exact if_neg (dma_ne_bar _)
theorem amount_recv (s : Dev nD) (k : Fin 7) : (sched (F := F) m).amount (recvCell c s) 0 k = N := by
  dsimp only [sched]; exact if_neg (dma_ne_bar _)

theorem expect_bar : (sched (F := F) m).expect (barCell c) 0 = 7 := by
  unfold Schedule.expect Schedule.amountOf
  rw [duties_bar, Finset.sum_congr rfl fun k _ => amount_bar m c k, Finset.sum_const, Finset.card_univ, Fintype.card_fin, smul_eq_mul]
theorem expect_send (d : Fin 7) : (sched (F := F) m).expect (sendCell c d) 0 = N := by
  unfold Schedule.expect Schedule.amountOf; rw [duties_send, Finset.sum_singleton, amount_send]
theorem expect_recv (s : Dev nD) : (sched (F := F) m).expect (recvCell c s) 0 = N := by
  unfold Schedule.expect Schedule.amountOf; rw [duties_recv, Finset.sum_singleton, amount_recv]

theorem payload_bar (k : Fin 7) : (sched (F := F) m).payload (barCell c) 0 k = slotAny (from_ k c) c := rfl
theorem payload_send (d k : Fin 7) : (sched (F := F) m).payload (sendCell c d) 0 k = slotPts m c c (shr d) := by
  show payOf m (sendCell c d) k = _
  unfold payOf
  dsimp only
  rw [dif_neg (by show ¬ 9 ≤ 2 + d.val; omega), dif_pos (by show 2 ≤ 2 + d.val; omega)]
  unfold sendPay
  exact congrArg (fun d' => slotPts m c c (shr d')) (Fin.ext (by show 2 + d.val - 2 = d.val; omega))
theorem payload_recv (s : Dev nD) (k : Fin 7) : (sched (F := F) m).payload (recvCell c s) 0 k = slotPts m c s fullShare := by
  show payOf m (recvCell c s) k = _
  unfold payOf
  dsimp only
  rw [dif_pos (by show 9 ≤ 9 + s.val; omega)]
  unfold recvPay
  exact congrArg (fun s' => slotPts m c s' fullShare) (Fin.ext (by show 9 + s.val - 9 = s.val; omega))

/-- The rest of the barrier cell's round, no duty taken: every peer's copy of the owner's slot. -/
theorem rest_bar : bigSep ((sched (F := F) m).duties (barCell c) 0 \ ∅) (fun k => (sched (F := F) m).payload (barCell c) 0 k)
    = bigSep Finset.univ (fun k : Fin 7 => slotAny (F := F) (from_ k c) c) := by
  rw [Finset.sdiff_empty, duties_bar]
  exact bigSep_congr fun k _ => payload_bar m c k
theorem rest_send (d : Fin 7) : bigSep ((sched (F := F) m).duties (sendCell c d) 0 \ ∅) (fun k => (sched (F := F) m).payload (sendCell c d) 0 k)
    = slotPts m c c (shr d) := by
  rw [Finset.sdiff_empty, duties_send, bigSep_singleton, payload_send]
theorem rest_recv (s : Dev nD) : bigSep ((sched (F := F) m).duties (recvCell c s) 0 \ ∅) (fun k => (sched (F := F) m).payload (recvCell c s) 0 k)
    = slotPts m c s fullShare := by
  rw [Finset.sdiff_empty, duties_recv, bigSep_singleton, payload_recv]

end Sched

/-! ## The levels; what is still owed -/

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_recv (c s : Dev nD) (u : Unit) : lv (recvCell c s) u = 2 := by
  show (if 9 ≤ (recvQ s).val then 2 else 0) = 2
  exact if_pos (by show 9 ≤ 9 + s.val; omega)
theorem lv_low (c : Dev nD) (q : DmaSem sig) (hq : q.val < 9) (u : Unit) : lv ((c : Thread nD τ), .dma q) u = 0 := by
  show (if 9 ≤ q.val then 2 else 0) = 0
  exact if_neg (by omega)

/-- Payment number `j` in program order, spelt out. -/
theorem term_bar (c : Dev nD) (d : Fin 7) : term c d.val = tallyAt (barCell (peer d c)) () 1 := by
  unfold term; rw [dif_pos d.isLt]
theorem term_recv (c : Dev nD) (d : Fin 7) : term c (7 + d.val) = tallyAt (recvCell (peer d c) c) () N := by
  unfold term; rw [dif_neg (by omega), dif_pos (by have := d.isLt; omega)]
  exact congrArg (fun d' => tallyAt (recvCell (peer d' c) c) () N) (Fin.ext (by show 7 + d.val - 7 = d.val; omega))
theorem term_late (c : Dev nD) (j : ℕ) (h : 14 ≤ j) : term c j = 0 := by
  unfold term; rw [dif_neg (by omega), dif_neg (by omega)]

/-- A payment is a unit on a peer's barrier cell or a slot's credit on a peer's receive cell bearing the payer's number. -/
theorem term_pos {c : Dev nD} {j : ℕ} {g : GSem nD τ sig} {u : Unit} (h : 0 < term c j g u) :
    (j < 7 ∧ ∃ d, g = barCell (peer d c)) ∨ (7 ≤ j ∧ ∃ d, g = recvCell (peer d c) c) := by
  unfold term at h
  by_cases h1 : j < 7
  · rw [dif_pos h1, tallyAt_apply] at h
    by_cases hg : g = barCell (peer ⟨j, h1⟩ c) ∧ u = ()
    · exact .inl ⟨h1, _, hg.1⟩
    · rw [if_neg hg] at h; exact absurd h (Nat.lt_irrefl 0)
  · rw [dif_neg h1] at h
    by_cases h2 : j < 14
    · rw [dif_pos h2, tallyAt_apply] at h
      by_cases hg : g = recvCell (peer ⟨j - 7, by omega⟩ c) c ∧ u = ()
      · exact .inr ⟨by omega, _, hg.1⟩
      · rw [if_neg hg] at h; exact absurd h (Nat.lt_irrefl 0)
    · rw [dif_neg h2] at h; exact absurd h (Nat.lt_irrefl 0)

theorem owe_succ (c : Dev nD) (n : ℕ) : owe c (n + 1) = owe c n + term c (13 - n) := rfl

/-- Whatever is still owed is owed to a peer's barrier cell or to a peer's receive cell bearing the ower's number. -/
theorem owe_pos {c : Dev nD} {g : GSem nD τ sig} {u : Unit} : ∀ {n : ℕ}, 0 < owe c n g u →
    (∃ d, g = barCell (peer d c)) ∨ (∃ d, g = recvCell (peer d c) c)
  | 0, h => absurd h (Nat.lt_irrefl 0)
  | n + 1, h => by
    rw [owe_succ, Pi.add_apply, Finsupp.add_apply] at h
    rcases Nat.add_pos_iff_pos_or_pos.mp h with h | h
    · exact owe_pos h
    · rcases term_pos h with ⟨_, hd⟩ | ⟨_, hd⟩
      · exact .inl hd
      · exact .inr hd

theorem O₀_pos {c : Dev nD} {g : GSem nD τ sig} {u : Unit} (h : 0 < O₀ c g u) :
    (∃ d, g = barCell (peer d c)) ∨ (∃ d, g = recvCell (peer d c) c) := owe_pos h

/-- Once the seven signals are made only receive credits are owed. -/
theorem owe_pos_recv {c : Dev nD} {g : GSem nD τ sig} {u : Unit} : ∀ {n : ℕ}, n ≤ 7 → 0 < owe c n g u → ∃ d, g = recvCell (peer d c) c
  | 0, _, h => absurd h (Nat.lt_irrefl 0)
  | n + 1, hn, h => by
    rw [owe_succ, Pi.add_apply, Finsupp.add_apply] at h
    rcases Nat.add_pos_iff_pos_or_pos.mp h with h | h
    · exact owe_pos_recv (by omega) h
    · rcases term_pos h with ⟨hj, _⟩ | ⟨_, hd⟩
      · omega
      · exact hd

/-- The pipeline's two staging semaphores sit at level 0, below everything owed. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp, lv_low c q (by omega)])
      (fun g u hg => by
        rcases O₀_pos hg with ⟨d, rfl⟩ | ⟨d, rfl⟩
        · rw [lv_bar]; decide
        · rw [lv_recv]; decide)
  · rw [MayWait_zero]; iintro -; iempintro

/-- At its barrier wait a device has made its seven signals and owes only the seven receive credits: receive cells, above
    its barrier cell. -/
theorem mayWait_bar (c : Dev nD) :
    (levAts L lv : sProp 𝕄) ⊢ MayWait (c : Thread nD τ) (.reg barS) () (owe c 7) :=
  MayOwe.of_cut (L := L) (lev := lv) 1 (fun p hp => by rw [Finset.mem_singleton.mp hp, L_tc]; exact Finset.mem_singleton_self _)
    (fun g u hg => by obtain ⟨d, rfl⟩ := owe_pos_recv (Nat.le_refl 7) hg; exact Finset.mem_singleton_self _)
    (fun p hp => by rw [Finset.mem_singleton.mp hp]; exact Nat.le_of_eq (lv_bar c ()))
    (fun g u hg => by obtain ⟨d, rfl⟩ := owe_pos_recv (Nat.le_refl 7) hg; rw [lv_recv]; decide)

/-! ## Each payment peels the outermost summand of what is owed -/

theorem owe_peel0 (c : Dev nD) : owe c 14 = owe c 13 + tallyAt (barCell (peer 0 c)) () 1 := rfl
theorem owe_peel1 (c : Dev nD) : owe c 13 = owe c 12 + tallyAt (barCell (peer 1 c)) () 1 := rfl
theorem owe_peel2 (c : Dev nD) : owe c 12 = owe c 11 + tallyAt (barCell (peer 2 c)) () 1 := rfl
theorem owe_peel3 (c : Dev nD) : owe c 11 = owe c 10 + tallyAt (barCell (peer 3 c)) () 1 := rfl
theorem owe_peel4 (c : Dev nD) : owe c 10 = owe c 9 + tallyAt (barCell (peer 4 c)) () 1 := rfl
theorem owe_peel5 (c : Dev nD) : owe c 9 = owe c 8 + tallyAt (barCell (peer 5 c)) () 1 := rfl
theorem owe_peel6 (c : Dev nD) : owe c 8 = owe c 7 + tallyAt (barCell (peer 6 c)) () 1 := rfl
theorem owe_peel7 (c : Dev nD) : owe c 7 = owe c 6 + tallyAt (recvCell (peer 0 c) c) () N := rfl
theorem owe_peel8 (c : Dev nD) : owe c 6 = owe c 5 + tallyAt (recvCell (peer 1 c) c) () N := rfl
theorem owe_peel9 (c : Dev nD) : owe c 5 = owe c 4 + tallyAt (recvCell (peer 2 c) c) () N := rfl
theorem owe_peel10 (c : Dev nD) : owe c 4 = owe c 3 + tallyAt (recvCell (peer 3 c) c) () N := rfl
theorem owe_peel11 (c : Dev nD) : owe c 3 = owe c 2 + tallyAt (recvCell (peer 4 c) c) () N := rfl
theorem owe_peel12 (c : Dev nD) : owe c 2 = owe c 1 + tallyAt (recvCell (peer 5 c) c) () N := rfl
theorem owe_peel13 (c : Dev nD) : owe c 1 = owe c 0 + tallyAt (recvCell (peer 6 c) c) () N := rfl
theorem owe_zero (c : Dev nD) : owe c 0 = 0 := rfl

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b s t : Dev nD} : Iff (recvCell a s = recvCell b t) (a = b ∧ s = t) :=
  ⟨fun h => ⟨Fin.ext (congrArg (fun g : GSem nD τ sig => g.1.1.val) h), recvQ_inj (SemLoc.dma.inj (congrArg Prod.snd h))⟩,
    fun h => by rw [h.1, h.2]⟩
theorem bar_ne_recv (a b s : Dev nD) : barCell a ≠ recvCell b s := fun h => bar_ne_dma _ (congrArg Prod.snd h)
theorem recv_ne_bar (a b s : Dev nD) : recvCell b s ≠ barCell a := fun h => dma_ne_bar _ (congrArg Prod.snd h)

/-- Every device other than `d` is exactly one of `d`'s seven peers. -/
theorem count_peer (d c : Dev nD) : (∑ j : Fin 7, if c = peer j d then 1 else 0) = if d = c then 0 else 1 := by
  revert d c; decide
theorem sum_peer (d c : Dev nD) (n : ℕ) : (∑ j : Fin 7, if c = peer j d then n else 0) = if d = c then 0 else n := by
  have e : ∀ j : Fin 7, (if c = peer j d then n else 0) = n * (if c = peer j d then 1 else 0) := fun j => by
    by_cases h : c = peer j d
    · rw [if_pos h, if_pos h, Nat.mul_one]
    · rw [if_neg h, if_neg h, Nat.mul_zero]
  rw [Finset.sum_congr rfl fun j _ => e j, ← Finset.mul_sum, count_peer]
  by_cases h : d = c
  · rw [if_pos h, if_pos h, Nat.mul_zero]
  · rw [if_neg h, if_neg h, Nat.mul_one]

/-- What is owed at launch, as two sums over the peers. -/
theorem O₀_eq (c : Dev nD) :
    O₀ c = (∑ j : Fin 7, tallyAt (barCell (peer j c)) () 1) + ∑ j : Fin 7, tallyAt (recvCell (peer j c) c) () N := by
  rw [Fin.sum_univ_seven, Fin.sum_univ_seven]
  show owe c 14 = _
  rw [owe_peel0, owe_peel1, owe_peel2, owe_peel3, owe_peel4, owe_peel5, owe_peel6, owe_peel7, owe_peel8, owe_peel9, owe_peel10,
    owe_peel11, owe_peel12, owe_peel13, owe_zero, zero_add]
  ac_rfl

theorem O₀_apply (d : Dev nD) (g : GSem nD τ sig) :
    O₀ d g () = (∑ j : Fin 7, if g = barCell (peer j d) then 1 else 0) + ∑ j : Fin 7, if g = recvCell (peer j d) d then N else 0 := by
  rw [O₀_eq, Pi.add_apply, Finsupp.add_apply, Finset.sum_apply, Finset.sum_apply, Finsupp.finset_sum_apply, Finsupp.finset_sum_apply]
  congr 1
  · exact Finset.sum_congr rfl fun j _ => by rw [tallyAt_apply]; exact if_congr (and_iff_left rfl) rfl rfl
  · exact Finset.sum_congr rfl fun j _ => by rw [tallyAt_apply]; exact if_congr (and_iff_left rfl) rfl rfl

/-- What device `d` owes device `c`'s barrier cell: a unit, unless it is `c` itself. -/
theorem owed_bar (d c : Dev nD) : O₀ d (barCell c) () = if d = c then 0 else 1 := by
  rw [O₀_apply, Finset.sum_congr rfl fun j _ => if_congr (bar_eq_iff (a := c) (b := peer j d)) rfl rfl, count_peer,
    Finset.sum_eq_zero fun j _ => if_neg (bar_ne_recv _ _ _), Nat.add_zero]

/-- What device `d` owes device `c`'s receive cell number `s`: a slot's credit when `d` is `s` and not `c` itself. -/
theorem owed_recv (d c s : Dev nD) : O₀ d (recvCell c s) () = if d = s ∧ s ≠ c then N else 0 := by
  rw [O₀_apply, Finset.sum_eq_zero fun j _ => if_neg (recv_ne_bar _ _ _), Nat.zero_add]
  by_cases hs : s = d
  · subst hs
    rw [Finset.sum_congr rfl fun j _ => if_congr ((recv_eq_iff (a := c) (s := s) (b := peer j s) (t := s)).trans (and_iff_left rfl)) rfl rfl,
      sum_peer]
    by_cases hc : s = c
    · rw [if_pos hc, if_neg (fun h => h.2 hc)]
    · rw [if_neg hc, if_pos ⟨rfl, hc⟩]
  · rw [Finset.sum_eq_zero fun j _ => if_neg (fun h => hs (recv_eq_iff.mp h).2), if_neg (fun h => hs h.1.symm)]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c s : Dev nD) (h : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s,
    Finset.sum_congr rfl fun d _ => if_congr (and_iff_left h) rfl rfl, Finset.sum_ite_eq' Finset.univ s fun _ => N, if_pos (Finset.mem_univ _)]

/-- The seven receive cells a device uses, as cells of its own. -/
def recvEmb (c : Dev nD) : Fin 7 ↪ SemLoc sig :=
  ⟨fun r => .dma (recvQ (from_ r c)), fun a b h => from_inj c (dma_recv_inj h)⟩

/-- The launch deals a device seven units on its barrier cell and a slot's credit on each receive cell a peer copies to. -/
theorem creds (c : Dev nD) :
    (Pipeline.launchCred O₀ c : sProp 𝕄)
      ⊢ iprop(cred (tallyAt (barCell c) () 7) ∗ bigSep Finset.univ fun r : Fin 7 => cred (tallyAt (recvCell c (from_ r c)) () N)) := by
  unfold Pipeline.launchCred
  rw [bigSep_univ_at _ (SemLoc.reg barS), launch_bar]
  refine sep_mono_right ?_
  refine (bigSep_subset (t := Finset.univ.map (recvEmb c)) fun sm hsm => ?_).trans ?_
  · obtain ⟨r, _, rfl⟩ := Finset.mem_map.mp hsm
    exact Finset.mem_erase.mpr ⟨dma_ne_bar _, Finset.mem_univ _⟩
  · rw [bigSep_map]
    exact bigSep_mono fun r _ => by
      show cred (tallyOn (recvCell c (from_ r c)) (launchCredit (Pipeline.owing O₀) 0 (recvCell c (from_ r c)))) ⊢ _
      rw [launch_recv c (from_ r c) (from_ne r c)]

/-- info: 'Cert.KernelIdealProto.creds' depends on axioms: [propext, Classical.choice, Quot.sound] -/
#guard_msgs in #print axioms creds

end Cert.KernelIdealProto

end
-- ==== Proof.LaunchRun.lean ====
/-
  The launch of the column-sharded softmax: the run of the whole mesh from each device's body obligation.

  Every device runs the one region of the program. The launch theorem wants, beside the body obligation of a
  device, the bookkeeping that carries a device from the state it is launched in to the state its body starts
  from (the credit of what its peers will pay it, the ghost state of the exchange, the table at arbitrary
  contents) and from the state its body ends in back to the launch's (the fifteen own semaphores at zero, the
  table whole). The run's post is read at the windows' arrays: the input block is never written back and the
  result block is written back once, whole.
-/
import proofs.«901054_g7700000000001055_dist_softmax_colshard_i_m1024_n1024_v7x_i8_f32_1_alg».proof.Proof.Proto
import proofs.«901054_g7700000000001055_dist_softmax_colshard_i_m1024_n1024_v7x_i8_f32_1_alg».proof.Proof.LaunchGhost
import proofs.«901054_g7700000000001055_dist_softmax_colshard_i_m1024_n1024_v7x_i8_f32_1_alg».proof.Proof.ProtoLemmas
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdealProto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The theorem's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, Hlev, Hcr, -, ⟨HG, Hz⟩⟩
  ihave Hc := (creds (F := F) c) $$ Hcr
  icases Hc with ⟨H1, HN⟩
  imodintro
  unfold start
  isplitl
  · isplitl [HG]; · iexact HG
    isplitl [H1]; · iexact H1
    isplitl [HN]; · iexact HN
    isplitl [Hlev]; · iexact Hlev
    iexact Hz
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨Hr, HzS, HzV⟩
  isplitr; · iempintro
  isplitl [HzS HzV]
  · isplitl [HzS] <;> iassumption
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- The windows' arrays after the run, as the proof data computes them. -/
def finalA (c : Dev nD) (w : Fin cfg0.W) : Buf (Elt F) ((cfg0.win w).arr.view.loc (c : Thread nD τ)) := (dats m 0 c).arrAt w cfg0.N

set_option maxRecDepth 8000 in
/-- At the compiled mesh of eight devices, for any float values, from any memory with zero counters: if every
    device's body meets its obligation, every weakly fair execution of @main terminates, nothing faults, and every
    final state has each device's windowed arrays at the computed contents. -/
theorem run_main (hbody : ∀ c : Dev nD, BodyObligation (dats (F := F) m 0 c) (defs₀ (F := F)) 𝒱₀ () Set.univ) :
    θ_run defs (onTc (τ := τ) (main (F := F))) ⟨m, fun _ => 0, ρ⟩
      (fun r => ∀ c : Dev nD, ∀ w : Fin cfg0.W, r.2.mem ((cfg0.win w).arr.view.loc (c : Thread nD τ)) = finalA m c w) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdealProto.run_main' depends on axioms: [propext, Classical.choice, Quot.sound] -/
#guard_msgs in #print axioms run_main

/-! ## The arrays after the run -/

/-- An access to a whole buffer through the unit-stride rectangle of the buffer's own sizes at zero offsets, however
    the zeros are spelt, goes through all its elements. -/
theorem set_access_unit_zero {κ : Kind} (b : Ref sig κ) {off : Fin b.ty.shape.rank → Nat}
    (h : off = fun _ => 0) (inb : ∀ a, off a + b.ty.shape.size a ≤ b.ty.shape.size a) :
    ((Memref.whole b).access (Rect.unit off b.ty.shape.size inb) : View sig κ _ _ _).set = Finset.univ := by
  subst h; exact Memref.set_access_whole b

/-- The input array after the run holds what it held: an input window's array is never written back. -/
theorem finalA_x (c : Dev nD) : finalA m c (0 : Fin 2) = m (win0_0.arr.view.loc (c : Thread nD τ)) :=
  (dats (F := F) m 0 c).arrAt_in (0 : Fin 2) rfl _

/-- The result array after the run holds the device's result: the one point writes the whole block back, and the
    block is the whole array. -/
theorem finalA_out (c : Dev nD) : finalA m c (1 : Fin 2) = outAt m c :=
  (dats (F := F) m 0 c).arrAt_eq_of_cover (1 : Fin 2) (outAt m c)
    (fun t _ => (Memref.read_access_unit_zero (Elt F) main_v1 (funext fun a => Nat.zero_mul _) _ (outAt m c)).symm)
    (fun i => ⟨t0_0, flush0_1 t0_0, by
      rw [show ((cfg0.win (1 : Fin 2)).blk t0_0).view.set = Finset.univ from
        set_access_unit_zero main_v1 (funext fun a => Nat.zero_mul _) _]
      exact Finset.mem_univ _⟩)

/-- The input window's one block, read off the whole array, is the array. -/
theorem xblk_eq (c : Dev nD) : xblk m c = m ((c : Thread nD τ).loc main_arg0) := by
  unfold xblk iblk
  exact Memref.read_access_unit_zero (Elt F) main_arg0 (funext fun a => Nat.zero_mul _) _ _

/-- A device's result as a term of the devices' input arrays. -/
theorem outAt_eq (c : Dev nD) : outAt m c = Fn.out (fun s => m ((s.tc : Thread nD τ).loc main_arg0)) c := by
  unfold outAt
  rw [show (fun s => xblk m s) = fun s : Dev nD => m ((s.tc : Thread nD τ).loc main_arg0) from funext (xblk_eq m)]

/-- The run with the values named: every device's result array ends as its result, a term of the devices' input
    arrays, and its input array unchanged. -/
theorem run_post (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = Fn.out (fun s => m ((s.tc : Thread nD τ).loc main_arg0)) c
      ∧ r.2.mem ((c.tc : Thread nD τ).loc main_arg0) = m ((c.tc : Thread nD τ).loc main_arg0)) :=
  (θ_run defs _ _).mono (fun _ h c =>
    ⟨((h c (1 : Fin 2)).trans (finalA_out m c)).trans (outAt_eq m c), (h c (0 : Fin 2)).trans (finalA_x m c)⟩) (run_main m ρ hbody)

/-- info: 'Cert.KernelIdealProto.run_post' depends on axioms: [propext, Classical.choice, Quot.sound] -/
#guard_msgs in #print axioms run_post

end Cert.KernelIdealProto

end
-- ==== Proof.Bits.KernelFn.lean ====
/-
  What each device of the column-sharded softmax computes, as closed terms over the kernel's payloads, for any float
  instance. A device holds a block `x` of 1024 rows by 1024 columns. Its STATISTICS are the 2 x 1024 array whose row 0
  is the row maxima of `x` and whose row 1 is the row sums of `exp (x - max)` (the kernel forms the 1024 x 2 array
  [max | sum] and transposes it by a product with the identity matrix). The TABLE is the 8 x 2 x 1024 array whose slot
  `s` is device `s`'s statistics: after the exchange every device holds the same table. The RESULT on device `c` is
  `exp (x - max_c)` scaled row by row by `exp (max_c - gmax) / gsum`, where `gmax` is the maximum over the slots of
  row 0 and `gsum` the sum over the slots of `sum_s * exp (max_s - gmax)`.
-/
import proofs.«901054_g7700000000001055_dist_softmax_colshard_i_m1024_n1024_v7x_i8_f32_1_alg».proof.Proof.Gen.Kernel.Skeleton
import Idealize.ShloMosaic.Lib.ValueIdx

noncomputable section

namespace Cert.Kernel.Fn

open Idealize.ShloMosaic Cert.Kernel Cert.Kernel.Gen

variable {F : FTy → Type} [FloatOps F]

/-- The column number of each entry of a 1024 x 1024 array. -/
abbrev col : IVec S1024x1024 32 := iota .tc S1024x1024 32 [1] iota_S1024x1024_d1_w32

/-- The identity matrix: 1 where the row number equals the column number, 0 elsewhere. -/
def eye : FVec F S1024x1024 .f32 := k0_pay2 (F := F) col k0_pay1

/-- A device's statistics: row 0 the row maxima of its block, row 1 the row sums of `exp (x - max)`. -/
def stats (x : Vec F S1024x1024 .f32) : FVec F S2x1024 .f32 := k0_pay6 col k0_pay1 x

/-- The same, as the 1 x 2 x 1024 array a device stores into its own slot of the table. -/
def statsSlot (x : Vec F S1024x1024 .f32) : FVec F S1x2x1024 .f32 := k0_pay7 col k0_pay1 x

/-- The table of all devices' statistics: slot `s` holds the statistics of device `s`'s block. -/
def tbl (xs : Dev nD → Vec F S1024x1024 .f32) : Vec F S8x2x1024 .f32 :=
  fun i => statsSlot (xs (i 0)) (ValueIdx.ix3 (0 : Fin 1) (i 1) (i 2))

/-- Device `c`'s result: its `exp (x - max_c)` times `exp (max_c - gmax) / gsum`, the global maximum and sum
    read off the table. -/
def out (xs : Dev nD → Vec F S1024x1024 .f32) (c : Dev nD) : FVec F S1024x1024 .f32 :=
  k0_pay12 (eye (F := F)) (k0_pay10 (tbl xs)) (k0_pay11 (stats (xs c)) (tbl xs)) (k0_pay5 (xs c))

end Cert.Kernel.Fn

end
-- ==== Proof.Bits.Proto.lean ====
/-
  The exchange of statistics among the eight devices, as a one-round schedule.

  Device `c` signals every other device's barrier semaphore once, stores its own statistics into slot `c` of its
  table, waits for seven units on its own barrier semaphore, copies slot `c` of its table into slot `c` of every
  other device's table, waits for the seven copies addressed to it, and reads the whole table.

  A device's signal to device `t` hands `t` the signaller's slot `t`: that is the slot `t`'s copy will write, and
  once seven units have arrived every peer is inside the kernel and has given its slot up. The copy from `c` to `t`
  hands `t` that slot back holding `c`'s statistics (on `t`'s receive semaphore number `c`) and hands `c` back the
  share of its own slot the copy read from (on `c`'s send semaphore). Every slot, on every device, ends holding the
  one table `tblAll` restricted to it.
-/
import proofs.«901054_g7700000000001055_dist_softmax_colshard_i_m1024_n1024_v7x_i8_f32_1_alg».proof.Proof.Bits.KernelFn
import proofs.«901054_g7700000000001055_dist_softmax_colshard_i_m1024_n1024_v7x_i8_f32_1_alg».proof.Proof.Gen.Kernel.Launch
import proofs.«901054_g7700000000001055_dist_softmax_colshard_i_m1024_n1024_v7x_i8_f32_1_alg».proof.Proof.Gen.Kernel.Points
import proofs.«901054_g7700000000001055_dist_softmax_colshard_i_m1024_n1024_v7x_i8_f32_1_alg».proof.Proof.Gen.Kernel.Frame
import Idealize.ShloMosaic.Lib.Pipeline.Launch
import Idealize.ShloMosaic.Lib.Pipeline.Kit
import Idealize.ShloMosaic.Lib.Tactic

noncomputable section

namespace Cert.KernelProto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (duties numbered 0..6) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The peers -/

/-- The device `d + 1` places after `c` round the mesh: whom `c`'s signal and copy number `d` address. -/
def peer (d : Fin 7) (c : Dev nD) : Dev nD := ⟨(c.val + d.val + 1) % 8, Nat.mod_lt _ (by decide)⟩
/-- The device `d + 1` places before `c`: whose signal and copy number `d` address `c`. -/
def from_ (d : Fin 7) (c : Dev nD) : Dev nD := ⟨(c.val + 7 - d.val) % 8, Nat.mod_lt _ (by decide)⟩

theorem from_peer (d : Fin 7) (c : Dev nD) : from_ d (peer d c) = c := by revert d c; decide
theorem peer_from (d : Fin 7) (c : Dev nD) : peer d (from_ d c) = c := by revert d c; decide
theorem peer_ne (d : Fin 7) (c : Dev nD) : peer d c ≠ c := by revert d c; decide
theorem from_ne (d : Fin 7) (c : Dev nD) : from_ d c ≠ c := by revert d c; decide
theorem peer_inj (c : Dev nD) : Function.Injective (fun d => peer d c) := by revert c; decide
theorem from_inj (c : Dev nD) : Function.Injective (fun d => from_ d c) := by revert c; decide
/-- The copy `c` sends to `peer d c` lands in the slot that peer gave up with its signal number `6 - d`. -/
theorem from_rev (d : Fin 7) (c : Dev nD) : from_ (Fin.rev d) c = peer d c := by revert d c; decide

/-- The printed device chains: signal number `d` and copy number `d` both address `peer d c`. -/
theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 3 c := by revert c; decide +kernel
theorem dev5_eq (c : Dev nD) : (⟨k0_dev5 c, k0_dev5_lt c⟩ : Dev nD) = peer 4 c := by revert c; decide +kernel
theorem dev6_eq (c : Dev nD) : (⟨k0_dev6 c, k0_dev6_lt c⟩ : Dev nD) = peer 5 c := by revert c; decide +kernel
theorem dev7_eq (c : Dev nD) : (⟨k0_dev7 c, k0_dev7_lt c⟩ : Dev nD) = peer 6 c := by revert c; decide +kernel
theorem dev8_eq (c : Dev nD) : (⟨k0_dev8 c, k0_dev8_lt c⟩ : Dev nD) = peer 0 c := by revert c; decide +kernel
theorem dev9_eq (c : Dev nD) : (⟨k0_dev9 c, k0_dev9_lt c⟩ : Dev nD) = peer 1 c := by revert c; decide +kernel
theorem dev10_eq (c : Dev nD) : (⟨k0_dev10 c, k0_dev10_lt c⟩ : Dev nD) = peer 2 c := by revert c; decide +kernel
theorem dev11_eq (c : Dev nD) : (⟨k0_dev11 c, k0_dev11_lt c⟩ : Dev nD) = peer 3 c := by revert c; decide +kernel
theorem dev12_eq (c : Dev nD) : (⟨k0_dev12 c, k0_dev12_lt c⟩ : Dev nD) = peer 4 c := by revert c; decide +kernel
theorem dev13_eq (c : Dev nD) : (⟨k0_dev13 c, k0_dev13_lt c⟩ : Dev nD) = peer 5 c := by revert c; decide +kernel
theorem dev14_eq (c : Dev nD) : (⟨k0_dev14 c, k0_dev14_lt c⟩ : Dev nD) = peer 6 c := by revert c; decide +kernel

/-- The slot the receive wait number `r` names is the slot of the device `r + 1` places before. -/
theorem off5_eq (c : Dev nD) (r : Fin 7) : k0_off5 c (BitVec.ofNat 32 (1 + r.val)) = ![(from_ r c).val, 0, 0] := by revert c r; decide +kernel
theorem off4_eq (c : Dev nD) (r : Fin 7) : k0_off4 c (BitVec.ofNat 32 (1 + r.val)) = ![(from_ r c).val] := by revert c r; decide +kernel

/-! ## The memrefs and cells -/

abbrev xM : Memref sig .tc .vmem S1024x1024 .f32 := Memref.whole cc0_stg0_0
abbrev oM : Memref sig .tc .vmem S1024x1024 .f32 := Memref.whole cc0_stg1_0
abbrev tM : Memref sig .tc .vmem S8x2x1024 .f32 := Memref.whole cc0_scratch0

/-- Slot `s` of a table, as the 2 x 1024 view the copies and their waits name. -/
abbrev slotM (s : Dev nD) : Memref sig .tc .vmem S2x1024 .f32 :=
  (tM.slice (Rect.unit (s := S8x2x1024) (k0_off3 s) S1x2x1024.size (k0_off3_inb s)) (fun _ => rfl)).squeeze S2x1024 squeezes_S1x2x1024_S2x1024

/-- The table's location on device `c`, and the elements of slot `s` in it. -/
abbrev tLoc (c : Dev nD) : Loc nD τ sig := (c : Thread nD τ).loc cc0_scratch0
abbrev slotSet (c s : Dev nD) : Finset (Idx (tLoc c)) := (slotM s).view.set

/-- The runtime's barrier semaphore of collective id 0 (not scoped); the seven send and eight receive DMA semaphores. -/
abbrev barS : Sem sig := (SemArray.scalar (sig.barrier 0 rfl) : Sems sig S_).sem
abbrev sendQ (d : Fin 7) : DmaSem sig := ⟨2 + d.val, by have := d.isLt; show 2 + d.val < 17; omega⟩
abbrev recvQ (s : Dev nD) : DmaSem sig := ⟨9 + s.val, by have h : s.val < 8 := s.isLt; show 9 + s.val < 17; omega⟩

abbrev barCell (c : Dev nD) : GSem nD τ sig := ((c : Thread nD τ), .reg barS)
abbrev sendCell (c : Dev nD) (d : Fin 7) : GSem nD τ sig := ((c : Thread nD τ), .dma (sendQ d))
/-- Device `c`'s receive cell number `s`: credited by the copy from device `s`. -/
abbrev recvCell (c s : Dev nD) : GSem nD τ sig := ((c : Thread nD τ), .dma (recvQ s))

/-- The credit of one slot's copy. -/
abbrev N : ℕ := (slotM (0 : Dev nD)).view.dmaCredit
theorem N_pos : 0 < N := View.dmaCredit_pos _ (by decide)
theorem slot_credit (s : Dev nD) : (slotM s).view.dmaCredit = N := rfl

/-! ## Contents -/

/-- Device `c`'s block of the input as the region finds it staged. -/
abbrev xblk (c : Dev nD) : Vec F S1024x1024 .f32 := iblk m c 0 t0_0

/-- The table every device ends with: slot `s` holds device `s`'s statistics. -/
def tblAll : Vec F S8x2x1024 .f32 := Fn.tbl (fun s => xblk m s)

/-- Device `c`'s result. -/
def outAt (c : Dev nD) : Vec F S1024x1024 .f32 := Fn.out (fun s => xblk m s) c

/-- The shares of its own slot a device lends to its seven copies: halves of halves of the right half; and what is
    left of the right half after them. -/
def rem : ℕ → PosShare TreeShare
  | 0 => fullShare.right
  | n + 1 => (rem n).right
def shr (d : Fin 7) : PosShare TreeShare := (rem d.val).left

/-- Slot `s` of device `c`'s table holding the final table, at share `q`. -/
def slotPts (c s : Dev nD) (q : PosShare TreeShare) : sProp 𝕄 := tLoc c ↦[slotSet c s]{q} tblAll m
/-- Slot `s` of device `c`'s table at arbitrary contents, owned whole. -/
def slotAny (c s : Dev nD) : sProp 𝕄 := iprop(∃ f : Buf (Elt F) (tLoc c), tLoc c ↦[slotSet c s]{fullShare} f)

instance slotPts_storable (c s : Dev nD) (q) : BI.Storable (upEmb : UEmb _ 𝕄) (slotPts (F := F) m c s q) := by unfold slotPts; infer_instance
instance slotAny_storable (c s : Dev nD) : BI.Storable (upEmb : UEmb _ 𝕄) (slotAny (F := F) c s) := by unfold slotAny; infer_instance

/-! ## The schedule -/

/-- Signal number `d` arriving at `c` comes from `from_ d c` and hands over that device's slot `c`. -/
def barPay (c : Dev nD) (d : Fin 7) : sProp 𝕄 := slotAny (from_ d c) c
/-- The copy from `s` has landed: slot `s` of `c`'s table holds the final table. -/
def recvPay (c s : Dev nD) : sProp 𝕄 := slotPts m c s fullShare
/-- Copy number `d` has read its source: the share of `c`'s own slot it borrowed. -/
def sendPay (c : Dev nD) (d : Fin 7) : sProp 𝕄 := slotPts m c c (shr d)

abbrev IsBar (g : GSem nD τ sig) : Prop := g.1.2 = .tc ∧ g.2 = .reg barS
abbrev IsXfer (g : GSem nD τ sig) : Prop := g.1.2 = .tc ∧ ∃ q : DmaSem sig, g.2 = .dma q ∧ 2 ≤ q.val

/-- What a cell's one round hands its owner, by the cell. -/
def payOf (g : GSem nD τ sig) (d : Fin 7) : sProp 𝕄 :=
  match g.2 with
  | .reg _ => barPay g.1.1 d
  | .dma q =>
    if h : 9 ≤ q.val then recvPay m g.1.1 ⟨q.val - 9, by have h17 : q.val < 17 := q.isLt; show q.val - 9 < 8; omega⟩
    else if h2 : 2 ≤ q.val then sendPay m g.1.1 ⟨q.val - 2, by omega⟩
    else iprop(emp)

/-- One round, round 0: a barrier cell has the seven unit duties, one per peer; a send or receive cell one duty of a
    slot's credit. -/
def sched : Rounds.Schedule (GSem nD τ sig) (Fin 7) 𝕄 where
  duties g r := if r = 0 ∧ IsBar g then Finset.univ else if r = 0 ∧ IsXfer g then {0} else ∅
  unitless _ := False
  amount g _ _ := if g.2 = .reg barS then 1 else N
  payload g _ d := payOf m g d
  amount_pos g _ _ _ := by
    by_cases h : g.2 = .reg barS
    · rw [if_pos h]; exact Nat.one_pos
    · rw [if_neg h]; exact N_pos

instance sched_payload_storable (g : GSem nD τ sig) (r : ℕ) (d : Fin 7) :
    BI.Storable (upEmb : UEmb _ 𝕄) ((sched (F := F) m).payload g r d) := by
  show BI.Storable upEmb (payOf m g d)
  unfold payOf barPay recvPay sendPay
  (repeat' split) <;> infer_instance

/-! ## What each device owes at launch; the levels -/

/-- A device's fourteen payments in program order: the seven signals (a unit on each peer's barrier cell), then the
    seven copies (a slot's credit on each peer's receive cell number `c`). -/
def term (c : Dev nD) (j : ℕ) : CellTallies nD τ sig Unit :=
  if h : j < 7 then tallyAt (barCell (peer ⟨j, h⟩ c)) () 1
  else if h2 : j < 14 then tallyAt (recvCell (peer ⟨j - 7, by omega⟩ c) c) () N
  else 0
/-- What is still owed when `n` payments remain: the last `n` of the fourteen, the next to make outermost. -/
def owe (c : Dev nD) : ℕ → CellTallies nD τ sig Unit
  | 0 => 0
  | n + 1 => owe c n + term c (13 - n)
def O₀ (c : Dev nD) : CellTallies nD τ sig Unit := owe c 14

def L (g : GSem nD τ sig) : Finset Unit := if g.1.2 = .tc then {()} else ∅
/-- Barrier cells at 1, receive cells at 2, everything else (staging, send) at 0. -/
def lv (g : GSem nD τ sig) (_ : Unit) : ℕ :=
  match g.2 with
  | .reg _ => 1
  | .dma q => if 9 ≤ q.val then 2 else 0

/-! ## The cells of the exchange, numbered per device: 0 the barrier, 1 + d the send cell `d`, 8 + r the receive
    cell credited by the device `r + 1` places before (the receive cell bearing the device's own number is never
    used and is no cell of the exchange) -/

abbrev sIdx (d : Fin 7) : Fin 15 := ⟨1 + d.val, by omega⟩
abbrev rIdx (r : Fin 7) : Fin 15 := ⟨8 + r.val, by omega⟩
def kcell (ck : Dev nD × Fin 15) : GSem nD τ sig :=
  if h0 : ck.2.val = 0 then barCell ck.1
  else if h1 : ck.2.val < 8 then sendCell ck.1 ⟨ck.2.val - 1, by omega⟩
  else recvCell ck.1 (from_ ⟨ck.2.val - 8, by have := ck.2.isLt; omega⟩ ck.1)

theorem kcell_bar (c : Dev nD) : kcell (c, 0) = barCell c := rfl
theorem kcell_send (c : Dev nD) (d : Fin 7) : kcell (c, sIdx d) = sendCell c d := by
  unfold kcell; rw [dif_neg (by show ¬ (1 + d.val = 0); omega), dif_pos (by show 1 + d.val < 8; omega)]
  exact congrArg (sendCell c) (Fin.ext (by show 1 + d.val - 1 = d.val; omega))
theorem kcell_recv (c : Dev nD) (r : Fin 7) : kcell (c, rIdx r) = recvCell c (from_ r c) := by
  unfold kcell; rw [dif_neg (by show ¬ (8 + r.val = 0); omega), dif_neg (by show ¬ (8 + r.val < 8); omega)]
  exact congrArg (fun r' => recvCell c (from_ r' c)) (Fin.ext (by show 8 + r.val - 8 = r.val; omega))

/-! ## The ghost state a device's body starts from -/

/-- The invariants of the cells device `c`'s body opens, under the names `K` the launch allocated them at: its own
    fifteen, every peer's barrier cell (its signals), every peer's receive cell number `c` (its copies). -/
def invs (K : Dev nD × Fin 15 → ℕ) (c : Dev nD) : sProp 𝕄 :=
  iprop(cellInv ER (sched m) (K (c, 0)) (barCell c)
    ∗ (bigSep Finset.univ fun d : Fin 7 => cellInv ER (sched m) (K (c, sIdx d)) (sendCell c d))
    ∗ (bigSep Finset.univ fun r : Fin 7 => cellInv ER (sched m) (K (c, rIdx r)) (recvCell c (from_ r c)))
    ∗ (bigSep Finset.univ fun d : Fin 7 => cellInv ER (sched m) (K (peer d c, 0)) (barCell (peer d c)))
    ∗ (bigSep Finset.univ fun d : Fin 7 => cellInv ER (sched m) (K (peer d c, rIdx d)) (recvCell (peer d c) c)))

instance invs_persistent (K : Dev nD × Fin 15 → ℕ) (c : Dev nD) : BI.Persistent (invs m K c) := by unfold invs; infer_instance

/-- That round 0 is reached at every cell the device pays. -/
def reacheds (c : Dev nD) : sProp 𝕄 :=
  iprop((bigSep Finset.univ fun d : Fin 7 => reached ER (barCell (peer d c)) 0)
    ∗ (bigSep Finset.univ fun d : Fin 7 => reached ER (sendCell c d) 0)
    ∗ (bigSep Finset.univ fun d : Fin 7 => reached ER (recvCell (peer d c) c) 0))

instance reacheds_persistent (c : Dev nD) : BI.Persistent (reacheds (F := F) c) := by unfold reacheds; infer_instance

/-- The device's positions at round 0 of its own fifteen cells. -/
def positions (c : Dev nD) : sProp 𝕄 :=
  iprop(atPos ER (barCell c) 0 ∅ 0
    ∗ (bigSep Finset.univ fun d : Fin 7 => atPos ER (sendCell c d) 0 ∅ 0)
    ∗ (bigSep Finset.univ fun r : Fin 7 => atPos ER (recvCell c (from_ r c)) 0 ∅ 0))

/-- The tokens of the duties the device pays: duty `d` of peer `d`'s barrier cell, its own send cells' duties, the
    duty of each peer's receive cell number `c`. -/
def payToks (c : Dev nD) : sProp 𝕄 :=
  iprop((bigSep Finset.univ fun d : Fin 7 => dutyTok ER (barCell (peer d c)) 0 d)
    ∗ (bigSep Finset.univ fun d : Fin 7 => dutyTok ER (sendCell c d) 0 0)
    ∗ (bigSep Finset.univ fun d : Fin 7 => dutyTok ER (recvCell (peer d c) c) 0 0))

def ghost (K : Dev nD × Fin 15 → ℕ) (c : Dev nD) : sProp 𝕄 :=
  iprop(invs m K c ∗ reacheds c ∗ positions c ∗ payToks c)

/-- What device `c`'s body starts from: the ghost state at some names; the credit tokens of its barrier cell's seven
    units and of its seven receive cells; the level facts; and the counter of the receive semaphore it never uses. -/
def start (c : Dev nD) : sProp 𝕄 :=
  iprop((∃ K, ghost m K c) ∗ cred (tallyAt (barCell c) () 7)
    ∗ (bigSep Finset.univ fun r : Fin 7 => cred (tallyAt (recvCell c (from_ r c)) () N))
    ∗ levAts L lv ∗ semVal (recvCell c c) 0)

/-- Before the point: that, and the table at arbitrary contents. -/
def Φ₀ (c : Dev nD) : sProp 𝕄 := iprop(start m c ∗ ∃ f : Buf (Elt F) (tLoc c), tLoc c ↦{fullShare} f)
/-- After the point: the table whole again, and the fifteen own semaphores at zero, their cells closed. -/
def Φ₁ (c : Dev nD) : sProp 𝕄 :=
  iprop((∃ f : Buf (Elt F) (tLoc c), tLoc c ↦{fullShare} f)
    ∗ (bigSep Finset.univ fun d : Fin 7 => semVal (sendCell c d) 0)
    ∗ (bigSep Finset.univ fun s : Dev nD => semVal (recvCell c s) 0))

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelProto

end
-- ==== Proof.Bits.LaunchGhost.lean ====
/-
  The launch of the exchange: the ghost state of its cells, minted once for the whole mesh and dealt to the devices.

  Every device owns fifteen cells of the exchange (its barrier cell, seven send cells, seven receive cells) and a
  sixteenth receive semaphore, the one bearing its own number, that no copy ever credits. The launch element holds
  every cell at round 0 together with the tokens of all duties. Each device opens an invariant per cell from its
  semaphores at zero; the invariants and the reached-marks are persistent and are shared by all; the duty tokens
  travel from the cell's owner to the duty's payer: duty `d` of a barrier cell to the device `d + 1` places before
  its owner, the duty of a receive cell to the device whose number it bears; a send cell's duty stays home.
-/
import proofs.«901054_g7700000000001055_dist_softmax_colshard_i_m1024_n1024_v7x_i8_f32_1_alg».proof.Proof.Bits.Proto
import Idealize.ShloMosaic.Lib.Pipeline.Launch
import Idealize.ShloMosaic.Lib.Pipeline.Kit
import Idealize.ShloMosaic.Lib.Tactic

noncomputable section

namespace Cert.KernelProto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own semaphores -/

/-- The kernel's own (scoped) semaphores: the DMA semaphores 2 to 16, seven send then eight receive. -/
abbrev osem : Fin 15 → SemLoc sig := fun k => .dma ⟨2 + k.val, by have := k.isLt; show 2 + k.val < 17; omega⟩

theorem ownSemFacts : Pipeline.OwnSemFacts cfg0.spec osem := by decide

/-! ## The cells and the tokens of the launch element -/

/-- Every index below fifteen is the barrier's, a send cell's or a receive cell's. -/
theorem fin15_cases (k : Fin 15) : k = 0 ∨ (∃ d : Fin 7, k = sIdx d) ∨ (∃ r : Fin 7, k = rIdx r) := by
  revert k; decide

theorem kcell_dev (ck : Dev nD × Fin 15) : (kcell ck).1.1 = ck.1 := by
  unfold kcell; split
  · rfl
  · split <;> rfl

theorem kcell_injective : Function.Injective (kcell : Dev nD × Fin 15 → GSem nD τ sig) := by
  rintro ⟨c, k⟩ ⟨c', k'⟩ h
  have h1 : c = c' := by have := congrArg (fun g : GSem nD τ sig => g.1.1) h; simpa only [kcell_dev] using this
  subst h1
  have h2 : (kcell (c, k)).2 = (kcell (c, k')).2 := congrArg Prod.snd h
  have : k = k' := by
    rcases fin15_cases k with rfl | ⟨d, rfl⟩ | ⟨r, rfl⟩ <;> rcases fin15_cases k' with rfl | ⟨d', rfl⟩ | ⟨r', rfl⟩
    · rfl
    · rw [kcell_bar, kcell_send] at h2; cases h2
    · rw [kcell_bar, kcell_recv] at h2; cases h2
    · rw [kcell_send, kcell_bar] at h2; cases h2
    · rw [kcell_send, kcell_send] at h2
      have h3 : 2 + d.val = 2 + d'.val := congrArg (fun q : DmaSem sig => q.val) (SemLoc.dma.inj h2)
      have : d = d' := Fin.ext (by omega)
      subst this; rfl
    · rw [kcell_send, kcell_recv] at h2
      have h3 : 2 + d.val = 9 + (from_ r' c).val := congrArg (fun q : DmaSem sig => q.val) (SemLoc.dma.inj h2)
      have := d.isLt; omega
    · rw [kcell_recv, kcell_bar] at h2; cases h2
    · rw [kcell_recv, kcell_send] at h2
      have h3 : 9 + (from_ r c).val = 2 + d'.val := congrArg (fun q : DmaSem sig => q.val) (SemLoc.dma.inj h2)
      have := d'.isLt; omega
    · rw [kcell_recv, kcell_recv] at h2
      have h3 : 9 + (from_ r c).val = 9 + (from_ r' c).val := congrArg (fun q : DmaSem sig => q.val) (SemLoc.dma.inj h2)
      have h4 : from_ r c = from_ r' c := Fin.ext (by omega)
      have : r = r' := from_inj c h4
      subst this; rfl
  subst this; rfl

def ringCells : Finset (GSem nD τ sig) := Finset.univ.map ⟨kcell, kcell_injective⟩

/-- Token number `j` of a device sits on its cell number `kOf j` and is that cell's duty `dOf j`: the barrier
    cell's seven duties first, then duty 0 of each send cell, then duty 0 of each receive cell. -/
def kOf (j : Fin 21) : Fin 15 := ⟨if j.val < 7 then 0 else j.val - 6, by have := j.isLt; split <;> omega⟩
def dOf (j : Fin 21) : Fin 7 := ⟨if j.val < 7 then j.val else 0, by split <;> omega⟩

theorem kdOf_injective : Function.Injective (fun j : Fin 21 => (kOf j, dOf j)) := by decide

/-- A device's own cells' duty tokens as minted. -/
def tokOf (cj : Dev nD × Fin 21) : GSem nD τ sig × ℕ × Fin 7 := (kcell (cj.1, kOf cj.2), 0, dOf cj.2)

theorem tokOf_injective : Function.Injective (tokOf : Dev nD × Fin 21 → GSem nD τ sig × ℕ × Fin 7) := by
  rintro ⟨c, j⟩ ⟨c', j'⟩ h
  have hk : (c, kOf j) = (c', kOf j') := kcell_injective (congrArg (fun x : GSem nD τ sig × ℕ × Fin 7 => x.1) h)
  have hd : dOf j = dOf j' := congrArg (fun x : GSem nD τ sig × ℕ × Fin 7 => x.2.2) h
  have h1 : c = c' := congrArg Prod.fst hk
  have h2 : j = j' := kdOf_injective (Prod.ext (congrArg Prod.snd hk) hd)
  rw [h1, h2]

def ringToks : Finset (GSem nD τ sig × ℕ × Fin 7) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun k : Fin 7 => dutyTok ER (barCell c) 0 k)
    ∗ (bigSep Finset.univ fun d : Fin 7 => dutyTok ER (sendCell c d) 0 0)
    ∗ (bigSep Finset.univ fun r : Fin 7 => dutyTok ER (recvCell c (from_ r c)) 0 0))

/-- What the launch element deals device `c`. -/
def G (c : Dev nD) : sProp 𝕄 :=
  iprop((bigSep Finset.univ fun k : Fin 15 => roundState ER (sched m) (kcell (c, k)) 0)
    ∗ (bigSep Finset.univ fun k : Fin 15 => iprop(atPos ER (kcell (c, k)) 0 ∅ 0 ∗ reached ER (kcell (c, k)) 0)) ∗ toks c)

/-- What the global step makes of it. -/
def G' (c : Dev nD) : sProp 𝕄 := iprop((∃ K, ghost m K c) ∗ semVal (recvCell c c) 0)

/-! ## Conjunctions over the fifteen cells, the twenty-one tokens, the eight devices, split by kind -/

/-- The fifteen indices: the barrier's, the seven send cells', the seven receive cells'. -/
def e15 : Unit ⊕ (Fin 7 ⊕ Fin 7) ≃ Fin 15 where
  toFun := fun | .inl _ => 0 | .inr (.inl d) => sIdx d | .inr (.inr r) => rIdx r
  invFun k := if k.val = 0 then .inl () else if h : k.val < 8 then .inr (.inl ⟨k.val - 1, by omega⟩) else .inr (.inr ⟨k.val - 8, by have := k.isLt; omega⟩)
  left_inv := by decide
  right_inv := by decide

/-- The twenty-one token numbers: seven on the barrier cell, one on each send cell, one on each receive cell. -/
def e21 : Fin 7 ⊕ (Fin 7 ⊕ Fin 7) ≃ Fin 21 where
  toFun := fun | .inl k => ⟨k.val, by omega⟩ | .inr (.inl d) => ⟨7 + d.val, by omega⟩ | .inr (.inr r) => ⟨14 + r.val, by omega⟩
  invFun j := if h : j.val < 7 then .inl ⟨j.val, h⟩ else if h' : j.val < 14 then .inr (.inl ⟨j.val - 7, by omega⟩) else .inr (.inr ⟨j.val - 14, by have := j.isLt; omega⟩)
  left_inv := by decide
  right_inv := by decide

omit [FloatOps F] in
theorem bigSep_fin15 (Φ : Fin 15 → sProp 𝕄) :
    bigSep Finset.univ Φ = iprop(Φ 0 ∗ (bigSep Finset.univ fun d : Fin 7 => Φ (sIdx d)) ∗ bigSep Finset.univ fun r : Fin 7 => Φ (rIdx r)) := by
  rw [bigSep_univ_equiv e15 Φ, bigSep_univ_sum, bigSep_univ_sum, bigSep_univ_of_subsingleton ()]; rfl

omit [FloatOps F] in
theorem bigSep_fin21 (Φ : Fin 21 → sProp 𝕄) :
    bigSep Finset.univ Φ = iprop((bigSep Finset.univ fun k : Fin 7 => Φ ⟨k.val, by omega⟩) ∗ (bigSep Finset.univ fun d : Fin 7 => Φ ⟨7 + d.val, by omega⟩)
      ∗ bigSep Finset.univ fun r : Fin 7 => Φ ⟨14 + r.val, by omega⟩) := by
  rw [bigSep_univ_equiv e21 Φ, bigSep_univ_sum, bigSep_univ_sum]; rfl

omit [FloatOps F] in
/-- A conjunction over a device's fifteen cells, by kind. -/
theorem bigSep_kcell (c : Dev nD) (Ψ : GSem nD τ sig → sProp 𝕄) :
    bigSep Finset.univ (fun k : Fin 15 => Ψ (kcell (c, k)))
      = iprop(Ψ (barCell c) ∗ (bigSep Finset.univ fun d : Fin 7 => Ψ (sendCell c d)) ∗ bigSep Finset.univ fun r : Fin 7 => Ψ (recvCell c (from_ r c))) := by
  rw [bigSep_fin15, kcell_bar, bigSep_congr (fun d _ => by rw [kcell_send]), bigSep_congr (s := Finset.univ) (Φ := fun r : Fin 7 => Ψ (kcell (c, rIdx r))) (fun r _ => by rw [kcell_recv])]

theorem others_eq (c : Dev nD) : (Finset.univ.erase c : Finset (Dev nD)) = Finset.univ.map ⟨fun r : Fin 7 => from_ r c, from_inj c⟩ := by
  revert c; decide

omit [FloatOps F] in
/-- A conjunction over the eight devices: `c` itself, then the seven others by their distance before `c`. -/
theorem bigSep_dev (c : Dev nD) (Φ : Dev nD → sProp 𝕄) :
    bigSep Finset.univ Φ = iprop(Φ c ∗ bigSep Finset.univ fun r : Fin 7 => Φ (from_ r c)) := by
  rw [bigSep_univ_at Φ c, others_eq, bigSep_map]; rfl

/-! ## Funding -/

theorem tokOf_bar (c : Dev nD) (k : Fin 7) : tokOf (c, ⟨k.val, by omega⟩) = (barCell c, 0, k) := by
  have h1 : kOf ⟨k.val, by omega⟩ = 0 := Fin.ext (if_pos k.isLt)
  have h2 : dOf ⟨k.val, by omega⟩ = k := Fin.ext (if_pos k.isLt)
  unfold tokOf; rw [h1, h2]; rfl
theorem tokOf_send (c : Dev nD) (d : Fin 7) : tokOf (c, ⟨7 + d.val, by omega⟩) = (sendCell c d, 0, 0) := by
  have h1 : kOf ⟨7 + d.val, by omega⟩ = sIdx d := Fin.ext (by show (if 7 + d.val < 7 then 0 else 7 + d.val - 6) = 1 + d.val; rw [if_neg (by omega)]; omega)
  have h2 : dOf ⟨7 + d.val, by omega⟩ = 0 := Fin.ext (by show (if 7 + d.val < 7 then 7 + d.val else 0) = 0; rw [if_neg (by omega)])
  unfold tokOf; rw [h1, h2, kcell_send]
theorem tokOf_recv (c : Dev nD) (r : Fin 7) : tokOf (c, ⟨14 + r.val, by omega⟩) = (recvCell c (from_ r c), 0, 0) := by
  have h1 : kOf ⟨14 + r.val, by omega⟩ = rIdx r := Fin.ext (by show (if 14 + r.val < 7 then 0 else 14 + r.val - 6) = 8 + r.val; rw [if_neg (by omega)]; omega)
  have h2 : dOf ⟨14 + r.val, by omega⟩ = 0 := Fin.ext (by show (if 14 + r.val < 7 then 14 + r.val else 0) = 0; rw [if_neg (by omega)])
  unfold tokOf; rw [h1, h2, kcell_recv]

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks; rw [bigSep_fin21]
      refine congrArg₂ _ (bigSep_congr fun k _ => ?_) (congrArg₂ _ (bigSep_congr fun d _ => ?_) (bigSep_congr fun r _ => ?_))
      · show (dutyTok ER (tokOf (c, ⟨k.val, _⟩)).1 (tokOf (c, ⟨k.val, _⟩)).2.1 (tokOf (c, ⟨k.val, _⟩)).2.2 : sProp 𝕄) = _; rw [tokOf_bar]
      · show (dutyTok ER (tokOf (c, ⟨7 + d.val, _⟩)).1 (tokOf (c, ⟨7 + d.val, _⟩)).2.1 (tokOf (c, ⟨7 + d.val, _⟩)).2.2 : sProp 𝕄) = _; rw [tokOf_send]
      · show (dutyTok ER (tokOf (c, ⟨14 + r.val, _⟩)).1 (tokOf (c, ⟨14 + r.val, _⟩)).2.1 (tokOf (c, ⟨14 + r.val, _⟩)).2.2 : sProp 𝕄) = _; rw [tokOf_recv]
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

/-- The fifteen own semaphores: seven send, eight receive. -/
def e78 : Fin 7 ⊕ Dev nD ≃ Fin 15 where
  toFun := fun | .inl d => ⟨d.val, by omega⟩ | .inr s => ⟨7 + s.val, by have h : s.val < 8 := s.isLt; omega⟩
  invFun k := if h : k.val < 7 then .inl ⟨k.val, h⟩ else .inr ⟨k.val - 7, by have := k.isLt; show k.val - 7 < 8; omega⟩
  left_inv := by decide
  right_inv := by decide

omit [FloatOps F] in
/-- The kernel's own semaphores are the seven send cells' and the eight receive semaphores; -/
theorem ownSems0_eq (c : Dev nD) : (Pipeline.ownSems0 (Ix := Unit) (Name := ℕ) (U := UU) (Lvl := ℕ) (Val := Elt F) (τ := τ) osem c : sProp 𝕄)
    = iprop((bigSep Finset.univ fun d : Fin 7 => semVal (sendCell c d) 0) ∗ bigSep Finset.univ fun s : Dev nD => semVal (recvCell c s) 0) := by
  unfold Pipeline.ownSems0
  rw [bigSep_univ_equiv e78, bigSep_univ_sum]
  refine congrArg₂ _ (bigSep_congr fun d _ => ?_) (bigSep_congr fun s _ => ?_)
  · rfl
  · exact congrArg (fun q : DmaSem sig => (semVal ((c : Thread nD τ), SemLoc.dma q) 0 : sProp 𝕄)) (Fin.ext (by show 2 + (7 + s.val) = 9 + s.val; omega))

omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's semaphores at zero: its fifteen cells', and the receive semaphore bearing its own number. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 15 => semVal (kcell (c, k)) 0) ∗ semVal (recvCell c c) 0) : sProp 𝕄) := by
  rw [ownSems0_eq, unscopedSems0_eq, bigSep_kcell c (fun g => (semVal g 0 : sProp 𝕄)), bigSep_dev c (fun s => (semVal (recvCell c s) 0 : sProp 𝕄))]
  iintro ⟨⟨HS, HVc, HV⟩, HB⟩
  isplitr [HVc]
  · isplitl [HB]; · iexact HB
    isplitl [HS] <;> iassumption
  · iexact HVc

/-- Each device opens its fifteen invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ semVal (recvCell c c) 0) := by
  unfold G
  iintro ⟨Hos, Hus, Hst, Hat, Htok⟩
  ihave Hv := (sems0_eq (F := F) c) $$ [Hos Hus]
  · isplitl [Hos] <;> iassumption
  icases Hv with ⟨Hv, Hself⟩
  imod (show iprop((bigSep Finset.univ fun k : Fin 15 => semVal (kcell (c, k)) 0) ∗ bigSep Finset.univ fun k : Fin 15 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hself

/-- What every device shares: all invariants under their names, and that every cell has reached round 0. -/
def records (K : Dev nD × Fin 15 → ℕ) : sProp 𝕄 :=
  iprop((bigSep Finset.univ fun ck : Dev nD × Fin 15 => cellInv ER (sched m) (K ck) (kcell ck))
    ∗ bigSep Finset.univ fun ck : Dev nD × Fin 15 => reached ER (kcell ck) 0)

instance records_persistent (K : Dev nD × Fin 15 → ℕ) : BI.Persistent (records m K) := by unfold records; infer_instance

theorem inv_at (K : Dev nD × Fin 15 → ℕ) (ck : Dev nD × Fin 15) :
    (bigSep Finset.univ fun ck : Dev nD × Fin 15 => (cellInv ER (sched m) (K ck) (kcell ck) : sProp 𝕄)) ⊢ cellInv ER (sched m) (K ck) (kcell ck) :=
  bigSep_elim (Finset.mem_univ ck)
omit [FloatOps F] in
theorem reached_at (ck : Dev nD × Fin 15) :
    (bigSep Finset.univ fun ck : Dev nD × Fin 15 => (reached ER (kcell ck) 0 : sProp 𝕄)) ⊢ reached ER (kcell ck) 0 :=
  bigSep_elim (Finset.mem_univ ck)

theorem inv_send (K : Dev nD × Fin 15 → ℕ) (c : Dev nD) (d : Fin 7) :
    (bigSep Finset.univ fun ck : Dev nD × Fin 15 => (cellInv ER (sched m) (K ck) (kcell ck) : sProp 𝕄)) ⊢ cellInv ER (sched m) (K (c, sIdx d)) (sendCell c d) := by
  have h := inv_at m K (c, sIdx d); rwa [kcell_send] at h
theorem inv_recv (K : Dev nD × Fin 15 → ℕ) (c : Dev nD) (r : Fin 7) :
    (bigSep Finset.univ fun ck : Dev nD × Fin 15 => (cellInv ER (sched m) (K ck) (kcell ck) : sProp 𝕄)) ⊢ cellInv ER (sched m) (K (c, rIdx r)) (recvCell c (from_ r c)) := by
  have h := inv_at m K (c, rIdx r); rwa [kcell_recv] at h
theorem inv_pbar (K : Dev nD × Fin 15 → ℕ) (c : Dev nD) (d : Fin 7) :
    (bigSep Finset.univ fun ck : Dev nD × Fin 15 => (cellInv ER (sched m) (K ck) (kcell ck) : sProp 𝕄)) ⊢ cellInv ER (sched m) (K (peer d c, 0)) (barCell (peer d c)) :=
  inv_at m K (peer d c, 0)
theorem inv_precv (K : Dev nD × Fin 15 → ℕ) (c : Dev nD) (d : Fin 7) :
    (bigSep Finset.univ fun ck : Dev nD × Fin 15 => (cellInv ER (sched m) (K ck) (kcell ck) : sProp 𝕄)) ⊢ cellInv ER (sched m) (K (peer d c, rIdx d)) (recvCell (peer d c) c) := by
  have h := inv_at m K (peer d c, rIdx d); rwa [kcell_recv, from_peer] at h

omit [FloatOps F] in
theorem reached_send (c : Dev nD) (d : Fin 7) :
    (bigSep Finset.univ fun ck : Dev nD × Fin 15 => (reached ER (kcell ck) 0 : sProp 𝕄)) ⊢ reached ER (sendCell c d) 0 := by
  have h := reached_at (F := F) (c, sIdx d); rwa [kcell_send] at h
omit [FloatOps F] in
theorem reached_pbar (c : Dev nD) (d : Fin 7) :
    (bigSep Finset.univ fun ck : Dev nD × Fin 15 => (reached ER (kcell ck) 0 : sProp 𝕄)) ⊢ reached ER (barCell (peer d c)) 0 :=
  reached_at (F := F) (peer d c, 0)
omit [FloatOps F] in
theorem reached_precv (c : Dev nD) (d : Fin 7) :
    (bigSep Finset.univ fun ck : Dev nD × Fin 15 => (reached ER (kcell ck) 0 : sProp 𝕄)) ⊢ reached ER (recvCell (peer d c) c) 0 := by
  have h := reached_at (F := F) (peer d c, rIdx d); rwa [kcell_recv, from_peer] at h

omit [FloatOps F] in
/-- A persistent fact yields any finite family of its consequences. -/
theorem pick {J : Type} [Fintype J] [DecidableEq J] {R : sProp 𝕄} [BI.Persistent R] {Ψ : J → sProp 𝕄} (h : ∀ j, R ⊢ Ψ j) :
    R ⊢ bigSep Finset.univ Ψ :=
  (BI.bigSep_of_persistent Finset.univ R).trans (bigSep_mono fun j _ => h j)

/-- What stays with device `c`: its positions, the tokens of the duties it pays, its unused receive semaphore. -/
def linear (c : Dev nD) : sProp 𝕄 := iprop(positions c ∗ payToks c ∗ semVal (recvCell c c) 0)

theorem ghost_intro (K : Dev nD × Fin 15 → ℕ) (c : Dev nD) : iprop(records m K ∗ linear c) ⊢ G' m c := by
  unfold records linear G' ghost invs reacheds
  iintro ⟨⟨#HI, #HR⟩, Hpos, Htok, Hself⟩
  isplitr [Hself]
  · iexists K
    isplitr
    · isplitr; · iapply (inv_at m K (c, 0)); iexact HI
      isplitr; · iapply (pick fun d => inv_send m K c d); iexact HI
      isplitr; · iapply (pick fun r => inv_recv m K c r); iexact HI
      isplitr; · iapply (pick fun d => inv_pbar m K c d); iexact HI
      iapply (pick fun d => inv_precv m K c d); iexact HI
    isplitr
    · isplitr; · iapply (pick fun d => reached_pbar (F := F) c d); iexact HR
      isplitr; · iapply (pick fun d => reached_send (F := F) c d); iexact HR
      iapply (pick fun d => reached_precv (F := F) c d); iexact HR
    isplitl [Hpos]; · iexact Hpos
    iexact Htok
  · iexact Hself

/-- Duty `d` goes `d + 1` places round the mesh. -/
def σ : Dev nD × Fin 7 ≃ Dev nD × Fin 7 where
  toFun cd := (peer cd.2 cd.1, cd.2)
  invFun cd := (from_ cd.2 cd.1, cd.2)
  left_inv cd := Prod.ext (from_peer cd.2 cd.1) rfl
  right_inv cd := Prod.ext (peer_from cd.2 cd.1) rfl

omit [FloatOps F] in
theorem around (a : Dev nD × Fin 7 → sProp 𝕄) :
    (bigSep Finset.univ fun c : Dev nD => bigSep Finset.univ fun d : Fin 7 => a (c, d))
      = bigSep Finset.univ fun c : Dev nD => bigSep Finset.univ fun d : Fin 7 => a (peer d c, d) :=
  (bigSep_univ_prod a).symm.trans ((bigSep_univ_equiv σ a).trans (bigSep_univ_prod fun cd => a (σ cd)))

omit [FloatOps F] in
/-- The tokens dealt round the mesh: duty `d` of a barrier cell to the device `d + 1` places before its owner, a
    receive cell's token to the device whose number the cell bears; a send cell's token stays. -/
theorem toks_around : (bigSep Finset.univ fun c : Dev nD => (toks c : sProp 𝕄)) ⊢ bigSep Finset.univ fun c : Dev nD => payToks c := by
  have hB := around (fun cd => (dutyTok ER (barCell cd.1) 0 cd.2 : sProp 𝕄))
  have hR := around (fun cd => (dutyTok ER (recvCell cd.1 (from_ cd.2 cd.1)) 0 0 : sProp 𝕄))
  simp only [from_peer] at hR
  dsimp only at hB
  unfold toks payToks
  rw [bigSep_sep', bigSep_sep', bigSep_sep', bigSep_sep']
  iintro ⟨H1, H2, H3⟩
  isplitl [H1]; · iapply (Entails.of_eq hB); iexact H1
  isplitl [H2]; · iexact H2
  iapply (Entails.of_eq hR); iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem positions_eq (c : Dev nD) : (positions c : sProp 𝕄) = bigSep Finset.univ fun k : Fin 15 => atPos ER (kcell (c, k)) 0 ∅ 0 := by
  unfold positions; rw [bigSep_kcell c (fun g => (atPos ER g 0 ∅ 0 : sProp 𝕄))]

omit [FloatOps F] in
theorem linear_all :
    iprop((bigSep Finset.univ fun c : Dev nD => bigSep Finset.univ fun k : Fin 15 => atPos ER (kcell (c, k)) 0 ∅ 0)
        ∗ (bigSep Finset.univ fun c : Dev nD => payToks c) ∗ bigSep Finset.univ fun c : Dev nD => semVal (recvCell c c) 0)
      ⊢ (bigSep Finset.univ fun c : Dev nD => linear c : sProp 𝕄) := by
  unfold linear
  rw [bigSep_sep', bigSep_sep', bigSep_congr (s := Finset.univ) (fun (c : Dev nD) _ => positions_eq (F := F) c)]

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ semVal (recvCell c c) 0) : sProp 𝕄)
      ⊢ bigSep Finset.univ (G' m) := by
  rw [bigSep_sep', bigSep_sep', bigSep_sep', ← bigSep_univ_prod (fun ck : Dev nD × Fin 15 => iprop(∃ κ : ℕ, cellInv ER (sched m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok, Hself⟩
  ihave HK := (BI.bigSep_exists_pi Finset.univ (fun (ck : Dev nD × Fin 15) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (linear_all (F := F))
    isplitl [Hat]; · iexact Hat
    isplitl [Htk]; · iexact Htk
    iexact Hself

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.KernelProto.fund_ring' depends on axioms: [propext, Classical.choice, Quot.sound] -/
#guard_msgs in #print axioms fund_ring

/-- info: 'Cert.KernelProto.glob' depends on axioms: [propext, Classical.choice, Quot.sound] -/
#guard_msgs in #print axioms glob

end Cert.KernelProto

end
-- ==== Proof.Bits.ProtoLemmas.lean ====
/-
  The tables of the exchange's schedule, cell by cell; the levels; and what the launch deals each device.

  Round 0 is the only round. A barrier cell has seven unit duties, one per peer, each handing over the peer's copy of the
  owner's slot; a send cell one duty of a slot's credit, handing back the share of the own slot the copy read; a receive
  cell one duty of a slot's credit, handing over the slot filled. A device owes its seven signals and then its seven copies;
  its barrier cell is credited seven units at launch and each receive cell it uses one slot's credit.
-/
import proofs.«901054_g7700000000001055_dist_softmax_colshard_i_m1024_n1024_v7x_i8_f32_1_alg».proof.Proof.Bits.Proto
import Idealize.ShloMosaic.Lib.Pipeline.Launch
import Idealize.ShloMosaic.Lib.Pipeline.Kit
import Idealize.ShloMosaic.Lib.Tactic
import Mathlib.Algebra.BigOperators.Fin

noncomputable section

namespace Cert.KernelProto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The sixteen semaphores are different cells -/

theorem sendQ_inj : Function.Injective (sendQ : Fin 7 → DmaSem sig) := by decide
theorem recvQ_inj : Function.Injective (recvQ : Dev nD → DmaSem sig) := by decide
theorem sendQ_ne_recvQ (d : Fin 7) (s : Dev nD) : sendQ d ≠ recvQ s := by revert d s; decide
theorem recvQ_ne_sendQ (s : Dev nD) (d : Fin 7) : recvQ s ≠ sendQ d := by revert d s; decide
theorem dma_ne_bar (q : DmaSem sig) : (SemLoc.dma q : SemLoc sig) ≠ .reg barS := fun h => by cases h
theorem bar_ne_dma (q : DmaSem sig) : (SemLoc.reg barS : SemLoc sig) ≠ .dma q := fun h => by cases h
theorem dma_send_inj : Function.Injective (fun d : Fin 7 => (SemLoc.dma (sendQ d) : SemLoc sig)) :=
  fun a b h => sendQ_inj (SemLoc.dma.inj h)
theorem dma_recv_inj : Function.Injective (fun s : Dev nD => (SemLoc.dma (recvQ s) : SemLoc sig)) :=
  fun a b h => recvQ_inj (SemLoc.dma.inj h)
theorem dma_send_ne_recv (d : Fin 7) (s : Dev nD) : (SemLoc.dma (sendQ d) : SemLoc sig) ≠ .dma (recvQ s) :=
  fun h => sendQ_ne_recvQ d s (SemLoc.dma.inj h)

/-! ## The schedule's tables -/

section Sched
variable (c : Dev nD)

theorem not_bar_send (d : Fin 7) : ¬ IsBar (sendCell c d) := fun h => dma_ne_bar _ h.2
theorem not_bar_recv (s : Dev nD) : ¬ IsBar (recvCell c s) := fun h => dma_ne_bar _ h.2

theorem duties_bar : (sched (F := F) m).duties (barCell c) 0 = Finset.univ := by dsimp only [sched]; exact if_pos ⟨rfl, rfl, rfl⟩
theorem duties_send (d : Fin 7) : (sched (F := F) m).duties (sendCell c d) 0 = {0} := by
  dsimp only [sched]; rw [if_neg (fun h => not_bar_send c d h.2)]
  exact if_pos ⟨rfl, rfl, sendQ d, rfl, by show 2 ≤ 2 + d.val; omega⟩
theorem duties_recv (s : Dev nD) : (sched (F := F) m).duties (recvCell c s) 0 = {0} := by
  dsimp only [sched]; rw [if_neg (fun h => not_bar_recv c s h.2)]
  exact if_pos ⟨rfl, rfl, recvQ s, rfl, by show 2 ≤ 9 + s.val; omega⟩
theorem duties_later (g : GSem nD τ sig) : ∀ r, 1 ≤ r → (sched (F := F) m).duties g r = ∅ :=
  fun r hr => by dsimp only [sched]; rw [if_neg fun h => by omega, if_neg fun h => by omega]

theorem amount_bar (k : Fin 7) : (sched (F := F) m).amount (barCell c) 0 k = 1 := by dsimp only [sched]; exact if_pos rfl
theorem amount_send (d k : Fin 7) : (sched (F := F) m).amount (sendCell c d) 0 k = N := by
  dsimp only [sched]; exact if_neg (dma_ne_bar _)
theorem amount_recv (s : Dev nD) (k : Fin 7) : (sched (F := F) m).amount (recvCell c s) 0 k = N := by
  dsimp only [sched]; exact if_neg (dma_ne_bar _)

theorem expect_bar : (sched (F := F) m).expect (barCell c) 0 = 7 := by
  unfold Schedule.expect Schedule.amountOf
  rw [duties_bar, Finset.sum_congr rfl fun k _ => amount_bar m c k, Finset.sum_const, Finset.card_univ, Fintype.card_fin, smul_eq_mul]
theorem expect_send (d : Fin 7) : (sched (F := F) m).expect (sendCell c d) 0 = N := by
  unfold Schedule.expect Schedule.amountOf; rw [duties_send, Finset.sum_singleton, amount_send]
theorem expect_recv (s : Dev nD) : (sched (F := F) m).expect (recvCell c s) 0 = N := by
  unfold Schedule.expect Schedule.amountOf; rw [duties_recv, Finset.sum_singleton, amount_recv]

theorem payload_bar (k : Fin 7) : (sched (F := F) m).payload (barCell c) 0 k = slotAny (from_ k c) c := rfl
theorem payload_send (d k : Fin 7) : (sched (F := F) m).payload (sendCell c d) 0 k = slotPts m c c (shr d) := by
  show payOf m (sendCell c d) k = _
  unfold payOf
  dsimp only
  rw [dif_neg (by show ¬ 9 ≤ 2 + d.val; omega), dif_pos (by show 2 ≤ 2 + d.val; omega)]
  unfold sendPay
  exact congrArg (fun d' => slotPts m c c (shr d')) (Fin.ext (by show 2 + d.val - 2 = d.val; omega))
theorem payload_recv (s : Dev nD) (k : Fin 7) : (sched (F := F) m).payload (recvCell c s) 0 k = slotPts m c s fullShare := by
  show payOf m (recvCell c s) k = _
  unfold payOf
  dsimp only
  rw [dif_pos (by show 9 ≤ 9 + s.val; omega)]
  unfold recvPay
  exact congrArg (fun s' => slotPts m c s' fullShare) (Fin.ext (by show 9 + s.val - 9 = s.val; omega))

/-- The rest of the barrier cell's round, no duty taken: every peer's copy of the owner's slot. -/
theorem rest_bar : bigSep ((sched (F := F) m).duties (barCell c) 0 \ ∅) (fun k => (sched (F := F) m).payload (barCell c) 0 k)
    = bigSep Finset.univ (fun k : Fin 7 => slotAny (F := F) (from_ k c) c) := by
  rw [Finset.sdiff_empty, duties_bar]
  exact bigSep_congr fun k _ => payload_bar m c k
theorem rest_send (d : Fin 7) : bigSep ((sched (F := F) m).duties (sendCell c d) 0 \ ∅) (fun k => (sched (F := F) m).payload (sendCell c d) 0 k)
    = slotPts m c c (shr d) := by
  rw [Finset.sdiff_empty, duties_send, bigSep_singleton, payload_send]
theorem rest_recv (s : Dev nD) : bigSep ((sched (F := F) m).duties (recvCell c s) 0 \ ∅) (fun k => (sched (F := F) m).payload (recvCell c s) 0 k)
    = slotPts m c s fullShare := by
  rw [Finset.sdiff_empty, duties_recv, bigSep_singleton, payload_recv]

end Sched

/-! ## The levels; what is still owed -/

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_recv (c s : Dev nD) (u : Unit) : lv (recvCell c s) u = 2 := by
  show (if 9 ≤ (recvQ s).val then 2 else 0) = 2
  exact if_pos (by show 9 ≤ 9 + s.val; omega)
theorem lv_low (c : Dev nD) (q : DmaSem sig) (hq : q.val < 9) (u : Unit) : lv ((c : Thread nD τ), .dma q) u = 0 := by
  show (if 9 ≤ q.val then 2 else 0) = 0
  exact if_neg (by omega)

/-- Payment number `j` in program order, spelt out. -/
theorem term_bar (c : Dev nD) (d : Fin 7) : term c d.val = tallyAt (barCell (peer d c)) () 1 := by
  unfold term; rw [dif_pos d.isLt]
theorem term_recv (c : Dev nD) (d : Fin 7) : term c (7 + d.val) = tallyAt (recvCell (peer d c) c) () N := by
  unfold term; rw [dif_neg (by omega), dif_pos (by have := d.isLt; omega)]
  exact congrArg (fun d' => tallyAt (recvCell (peer d' c) c) () N) (Fin.ext (by show 7 + d.val - 7 = d.val; omega))
theorem term_late (c : Dev nD) (j : ℕ) (h : 14 ≤ j) : term c j = 0 := by
  unfold term; rw [dif_neg (by omega), dif_neg (by omega)]

/-- A payment is a unit on a peer's barrier cell or a slot's credit on a peer's receive cell bearing the payer's number. -/
theorem term_pos {c : Dev nD} {j : ℕ} {g : GSem nD τ sig} {u : Unit} (h : 0 < term c j g u) :
    (j < 7 ∧ ∃ d, g = barCell (peer d c)) ∨ (7 ≤ j ∧ ∃ d, g = recvCell (peer d c) c) := by
  unfold term at h
  by_cases h1 : j < 7
  · rw [dif_pos h1, tallyAt_apply] at h
    by_cases hg : g = barCell (peer ⟨j, h1⟩ c) ∧ u = ()
    · exact .inl ⟨h1, _, hg.1⟩
    · rw [if_neg hg] at h; exact absurd h (Nat.lt_irrefl 0)
  · rw [dif_neg h1] at h
    by_cases h2 : j < 14
    · rw [dif_pos h2, tallyAt_apply] at h
      by_cases hg : g = recvCell (peer ⟨j - 7, by omega⟩ c) c ∧ u = ()
      · exact .inr ⟨by omega, _, hg.1⟩
      · rw [if_neg hg] at h; exact absurd h (Nat.lt_irrefl 0)
    · rw [dif_neg h2] at h; exact absurd h (Nat.lt_irrefl 0)

theorem owe_succ (c : Dev nD) (n : ℕ) : owe c (n + 1) = owe c n + term c (13 - n) := rfl

/-- Whatever is still owed is owed to a peer's barrier cell or to a peer's receive cell bearing the ower's number. -/
theorem owe_pos {c : Dev nD} {g : GSem nD τ sig} {u : Unit} : ∀ {n : ℕ}, 0 < owe c n g u →
    (∃ d, g = barCell (peer d c)) ∨ (∃ d, g = recvCell (peer d c) c)
  | 0, h => absurd h (Nat.lt_irrefl 0)
  | n + 1, h => by
    rw [owe_succ, Pi.add_apply, Finsupp.add_apply] at h
    rcases Nat.add_pos_iff_pos_or_pos.mp h with h | h
    · exact owe_pos h
    · rcases term_pos h with ⟨_, hd⟩ | ⟨_, hd⟩
      · exact .inl hd
      · exact .inr hd

theorem O₀_pos {c : Dev nD} {g : GSem nD τ sig} {u : Unit} (h : 0 < O₀ c g u) :
    (∃ d, g = barCell (peer d c)) ∨ (∃ d, g = recvCell (peer d c) c) := owe_pos h

/-- Once the seven signals are made only receive credits are owed. -/
theorem owe_pos_recv {c : Dev nD} {g : GSem nD τ sig} {u : Unit} : ∀ {n : ℕ}, n ≤ 7 → 0 < owe c n g u → ∃ d, g = recvCell (peer d c) c
  | 0, _, h => absurd h (Nat.lt_irrefl 0)
  | n + 1, hn, h => by
    rw [owe_succ, Pi.add_apply, Finsupp.add_apply] at h
    rcases Nat.add_pos_iff_pos_or_pos.mp h with h | h
    · exact owe_pos_recv (by omega) h
    · rcases term_pos h with ⟨hj, _⟩ | ⟨_, hd⟩
      · omega
      · exact hd

/-- The pipeline's two staging semaphores sit at level 0, below everything owed. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp, lv_low c q (by omega)])
      (fun g u hg => by
        rcases O₀_pos hg with ⟨d, rfl⟩ | ⟨d, rfl⟩
        · rw [lv_bar]; decide
        · rw [lv_recv]; decide)
  · rw [MayWait_zero]; iintro -; iempintro

/-- At its barrier wait a device has made its seven signals and owes only the seven receive credits: receive cells, above
    its barrier cell. -/
theorem mayWait_bar (c : Dev nD) :
    (levAts L lv : sProp 𝕄) ⊢ MayWait (c : Thread nD τ) (.reg barS) () (owe c 7) :=
  MayOwe.of_cut (L := L) (lev := lv) 1 (fun p hp => by rw [Finset.mem_singleton.mp hp, L_tc]; exact Finset.mem_singleton_self _)
    (fun g u hg => by obtain ⟨d, rfl⟩ := owe_pos_recv (Nat.le_refl 7) hg; exact Finset.mem_singleton_self _)
    (fun p hp => by rw [Finset.mem_singleton.mp hp]; exact Nat.le_of_eq (lv_bar c ()))
    (fun g u hg => by obtain ⟨d, rfl⟩ := owe_pos_recv (Nat.le_refl 7) hg; rw [lv_recv]; decide)

/-! ## Each payment peels the outermost summand of what is owed -/

theorem owe_peel0 (c : Dev nD) : owe c 14 = owe c 13 + tallyAt (barCell (peer 0 c)) () 1 := rfl
theorem owe_peel1 (c : Dev nD) : owe c 13 = owe c 12 + tallyAt (barCell (peer 1 c)) () 1 := rfl
theorem owe_peel2 (c : Dev nD) : owe c 12 = owe c 11 + tallyAt (barCell (peer 2 c)) () 1 := rfl
theorem owe_peel3 (c : Dev nD) : owe c 11 = owe c 10 + tallyAt (barCell (peer 3 c)) () 1 := rfl
theorem owe_peel4 (c : Dev nD) : owe c 10 = owe c 9 + tallyAt (barCell (peer 4 c)) () 1 := rfl
theorem owe_peel5 (c : Dev nD) : owe c 9 = owe c 8 + tallyAt (barCell (peer 5 c)) () 1 := rfl
theorem owe_peel6 (c : Dev nD) : owe c 8 = owe c 7 + tallyAt (barCell (peer 6 c)) () 1 := rfl
theorem owe_peel7 (c : Dev nD) : owe c 7 = owe c 6 + tallyAt (recvCell (peer 0 c) c) () N := rfl
theorem owe_peel8 (c : Dev nD) : owe c 6 = owe c 5 + tallyAt (recvCell (peer 1 c) c) () N := rfl
theorem owe_peel9 (c : Dev nD) : owe c 5 = owe c 4 + tallyAt (recvCell (peer 2 c) c) () N := rfl
theorem owe_peel10 (c : Dev nD) : owe c 4 = owe c 3 + tallyAt (recvCell (peer 3 c) c) () N := rfl
theorem owe_peel11 (c : Dev nD) : owe c 3 = owe c 2 + tallyAt (recvCell (peer 4 c) c) () N := rfl
theorem owe_peel12 (c : Dev nD) : owe c 2 = owe c 1 + tallyAt (recvCell (peer 5 c) c) () N := rfl
theorem owe_peel13 (c : Dev nD) : owe c 1 = owe c 0 + tallyAt (recvCell (peer 6 c) c) () N := rfl
theorem owe_zero (c : Dev nD) : owe c 0 = 0 := rfl

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b s t : Dev nD} : Iff (recvCell a s = recvCell b t) (a = b ∧ s = t) :=
  ⟨fun h => ⟨Fin.ext (congrArg (fun g : GSem nD τ sig => g.1.1.val) h), recvQ_inj (SemLoc.dma.inj (congrArg Prod.snd h))⟩,
    fun h => by rw [h.1, h.2]⟩
theorem bar_ne_recv (a b s : Dev nD) : barCell a ≠ recvCell b s := fun h => bar_ne_dma _ (congrArg Prod.snd h)
theorem recv_ne_bar (a b s : Dev nD) : recvCell b s ≠ barCell a := fun h => dma_ne_bar _ (congrArg Prod.snd h)

/-- Every device other than `d` is exactly one of `d`'s seven peers. -/
theorem count_peer (d c : Dev nD) : (∑ j : Fin 7, if c = peer j d then 1 else 0) = if d = c then 0 else 1 := by
  revert d c; decide
theorem sum_peer (d c : Dev nD) (n : ℕ) : (∑ j : Fin 7, if c = peer j d then n else 0) = if d = c then 0 else n := by
  have e : ∀ j : Fin 7, (if c = peer j d then n else 0) = n * (if c = peer j d then 1 else 0) := fun j => by
    by_cases h : c = peer j d
    · rw [if_pos h, if_pos h, Nat.mul_one]
    · rw [if_neg h, if_neg h, Nat.mul_zero]
  rw [Finset.sum_congr rfl fun j _ => e j, ← Finset.mul_sum, count_peer]
  by_cases h : d = c
  · rw [if_pos h, if_pos h, Nat.mul_zero]
  · rw [if_neg h, if_neg h, Nat.mul_one]

/-- What is owed at launch, as two sums over the peers. -/
theorem O₀_eq (c : Dev nD) :
    O₀ c = (∑ j : Fin 7, tallyAt (barCell (peer j c)) () 1) + ∑ j : Fin 7, tallyAt (recvCell (peer j c) c) () N := by
  rw [Fin.sum_univ_seven, Fin.sum_univ_seven]
  show owe c 14 = _
  rw [owe_peel0, owe_peel1, owe_peel2, owe_peel3, owe_peel4, owe_peel5, owe_peel6, owe_peel7, owe_peel8, owe_peel9, owe_peel10,
    owe_peel11, owe_peel12, owe_peel13, owe_zero, zero_add]
  ac_rfl

theorem O₀_apply (d : Dev nD) (g : GSem nD τ sig) :
    O₀ d g () = (∑ j : Fin 7, if g = barCell (peer j d) then 1 else 0) + ∑ j : Fin 7, if g = recvCell (peer j d) d then N else 0 := by
  rw [O₀_eq, Pi.add_apply, Finsupp.add_apply, Finset.sum_apply, Finset.sum_apply, Finsupp.finset_sum_apply, Finsupp.finset_sum_apply]
  congr 1
  · exact Finset.sum_congr rfl fun j _ => by rw [tallyAt_apply]; exact if_congr (and_iff_left rfl) rfl rfl
  · exact Finset.sum_congr rfl fun j _ => by rw [tallyAt_apply]; exact if_congr (and_iff_left rfl) rfl rfl

/-- What device `d` owes device `c`'s barrier cell: a unit, unless it is `c` itself. -/
theorem owed_bar (d c : Dev nD) : O₀ d (barCell c) () = if d = c then 0 else 1 := by
  rw [O₀_apply, Finset.sum_congr rfl fun j _ => if_congr (bar_eq_iff (a := c) (b := peer j d)) rfl rfl, count_peer,
    Finset.sum_eq_zero fun j _ => if_neg (bar_ne_recv _ _ _), Nat.add_zero]

/-- What device `d` owes device `c`'s receive cell number `s`: a slot's credit when `d` is `s` and not `c` itself. -/
theorem owed_recv (d c s : Dev nD) : O₀ d (recvCell c s) () = if d = s ∧ s ≠ c then N else 0 := by
  rw [O₀_apply, Finset.sum_eq_zero fun j _ => if_neg (recv_ne_bar _ _ _), Nat.zero_add]
  by_cases hs : s = d
  · subst hs
    rw [Finset.sum_congr rfl fun j _ => if_congr ((recv_eq_iff (a := c) (s := s) (b := peer j s) (t := s)).trans (and_iff_left rfl)) rfl rfl,
      sum_peer]
    by_cases hc : s = c
    · rw [if_pos hc, if_neg (fun h => h.2 hc)]
    · rw [if_neg hc, if_pos ⟨rfl, hc⟩]
  · rw [Finset.sum_eq_zero fun j _ => if_neg (fun h => hs (recv_eq_iff.mp h).2), if_neg (fun h => hs h.1.symm)]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c s : Dev nD) (h : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s,
    Finset.sum_congr rfl fun d _ => if_congr (and_iff_left h) rfl rfl, Finset.sum_ite_eq' Finset.univ s fun _ => N, if_pos (Finset.mem_univ _)]

/-- The seven receive cells a device uses, as cells of its own. -/
def recvEmb (c : Dev nD) : Fin 7 ↪ SemLoc sig :=
  ⟨fun r => .dma (recvQ (from_ r c)), fun a b h => from_inj c (dma_recv_inj h)⟩

/-- The launch deals a device seven units on its barrier cell and a slot's credit on each receive cell a peer copies to. -/
theorem creds (c : Dev nD) :
    (Pipeline.launchCred O₀ c : sProp 𝕄)
      ⊢ iprop(cred (tallyAt (barCell c) () 7) ∗ bigSep Finset.univ fun r : Fin 7 => cred (tallyAt (recvCell c (from_ r c)) () N)) := by
  unfold Pipeline.launchCred
  rw [bigSep_univ_at _ (SemLoc.reg barS), launch_bar]
  refine sep_mono_right ?_
  refine (bigSep_subset (t := Finset.univ.map (recvEmb c)) fun sm hsm => ?_).trans ?_
  · obtain ⟨r, _, rfl⟩ := Finset.mem_map.mp hsm
    exact Finset.mem_erase.mpr ⟨dma_ne_bar _, Finset.mem_univ _⟩
  · rw [bigSep_map]
    exact bigSep_mono fun r _ => by
      show cred (tallyOn (recvCell c (from_ r c)) (launchCredit (Pipeline.owing O₀) 0 (recvCell c (from_ r c)))) ⊢ _
      rw [launch_recv c (from_ r c) (from_ne r c)]

/-- info: 'Cert.KernelProto.creds' depends on axioms: [propext, Classical.choice, Quot.sound] -/
#guard_msgs in #print axioms creds

end Cert.KernelProto

end
-- ==== Proof.Bits.LaunchRun.lean ====
/-
  The launch of the column-sharded softmax: the run of the whole mesh from each device's body obligation.

  Every device runs the one region of the program. The launch theorem wants, beside the body obligation of a
  device, the bookkeeping that carries a device from the state it is launched in to the state its body starts
  from (the credit of what its peers will pay it, the ghost state of the exchange, the table at arbitrary
  contents) and from the state its body ends in back to the launch's (the fifteen own semaphores at zero, the
  table whole). The run's post is read at the windows' arrays: the input block is never written back and the
  result block is written back once, whole.
-/
import proofs.«901054_g7700000000001055_dist_softmax_colshard_i_m1024_n1024_v7x_i8_f32_1_alg».proof.Proof.Bits.Proto
import proofs.«901054_g7700000000001055_dist_softmax_colshard_i_m1024_n1024_v7x_i8_f32_1_alg».proof.Proof.Bits.LaunchGhost
import proofs.«901054_g7700000000001055_dist_softmax_colshard_i_m1024_n1024_v7x_i8_f32_1_alg».proof.Proof.Bits.ProtoLemmas
import Idealize.ShloMosaic.Lib.Pipeline.Launch
import Idealize.ShloMosaic.Lib.Pipeline.Kit
import Idealize.ShloMosaic.Lib.Pipeline.Value
import Idealize.ShloMosaic.Lib.Tactic

noncomputable section

namespace Cert.KernelProto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The theorem's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, Hlev, Hcr, -, ⟨HG, Hz⟩⟩
  ihave Hc := (creds (F := F) c) $$ Hcr
  icases Hc with ⟨H1, HN⟩
  imodintro
  unfold start
  isplitl
  · isplitl [HG]; · iexact HG
    isplitl [H1]; · iexact H1
    isplitl [HN]; · iexact HN
    isplitl [Hlev]; · iexact Hlev
    iexact Hz
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨Hr, HzS, HzV⟩
  isplitr; · iempintro
  isplitl [HzS HzV]
  · isplitl [HzS] <;> iassumption
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- The windows' arrays after the run, as the proof data computes them. -/
def finalA (c : Dev nD) (w : Fin cfg0.W) : Buf (Elt F) ((cfg0.win w).arr.view.loc (c : Thread nD τ)) := (dats m 0 c).arrAt w cfg0.N

set_option maxRecDepth 8000 in
/-- At the compiled mesh of eight devices, for any float values, from any memory with zero counters: if every
    device's body meets its obligation, every weakly fair execution of @main terminates, nothing faults, and every
    final state has each device's windowed arrays at the computed contents. -/
theorem run_main (hbody : ∀ c : Dev nD, BodyObligation (dats (F := F) m 0 c) (defs₀ (F := F)) 𝒱₀ () Set.univ) :
    θ_run defs (onTc (τ := τ) (main (F := F))) ⟨m, fun _ => 0, ρ⟩
      (fun r => ∀ c : Dev nD, ∀ w : Fin cfg0.W, r.2.mem ((cfg0.win w).arr.view.loc (c : Thread nD τ)) = finalA m c w) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelProto.run_main' depends on axioms: [propext, Classical.choice, Quot.sound] -/
#guard_msgs in #print axioms run_main

/-! ## The arrays after the run -/

/-- An access to a whole buffer through the unit-stride rectangle of the buffer's own sizes at zero offsets, however
    the zeros are spelt, goes through all its elements. -/
theorem set_access_unit_zero {κ : Kind} (b : Ref sig κ) {off : Fin b.ty.shape.rank → Nat}
    (h : off = fun _ => 0) (inb : ∀ a, off a + b.ty.shape.size a ≤ b.ty.shape.size a) :
    ((Memref.whole b).access (Rect.unit off b.ty.shape.size inb) : View sig κ _ _ _).set = Finset.univ := by
  subst h; exact Memref.set_access_whole b

/-- The input array after the run holds what it held: an input window's array is never written back. -/
theorem finalA_x (c : Dev nD) : finalA m c (0 : Fin 2) = m (win0_0.arr.view.loc (c : Thread nD τ)) :=
  (dats (F := F) m 0 c).arrAt_in (0 : Fin 2) rfl _

/-- The result array after the run holds the device's result: the one point writes the whole block back, and the
    block is the whole array. -/
theorem finalA_out (c : Dev nD) : finalA m c (1 : Fin 2) = outAt m c :=
  (dats (F := F) m 0 c).arrAt_eq_of_cover (1 : Fin 2) (outAt m c)
    (fun t _ => (Memref.read_access_unit_zero (Elt F) main_v1 (funext fun a => Nat.zero_mul _) _ (outAt m c)).symm)
    (fun i => ⟨t0_0, flush0_1 t0_0, by
      rw [show ((cfg0.win (1 : Fin 2)).blk t0_0).view.set = Finset.univ from
        set_access_unit_zero main_v1 (funext fun a => Nat.zero_mul _) _]
      exact Finset.mem_univ _⟩)

/-- The input window's one block, read off the whole array, is the array. -/
theorem xblk_eq (c : Dev nD) : xblk m c = m ((c : Thread nD τ).loc main_arg0) := by
  unfold xblk iblk
  exact Memref.read_access_unit_zero (Elt F) main_arg0 (funext fun a => Nat.zero_mul _) _ _

/-- A device's result as a term of the devices' input arrays. -/
theorem outAt_eq (c : Dev nD) : outAt m c = Fn.out (fun s => m ((s.tc : Thread nD τ).loc main_arg0)) c := by
  unfold outAt
  rw [show (fun s => xblk m s) = fun s : Dev nD => m ((s.tc : Thread nD τ).loc main_arg0) from funext (xblk_eq m)]

/-- The run with the values named: every device's result array ends as its result, a term of the devices' input
    arrays, and its input array unchanged. -/
theorem run_post (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = Fn.out (fun s => m ((s.tc : Thread nD τ).loc main_arg0)) c
      ∧ r.2.mem ((c.tc : Thread nD τ).loc main_arg0) = m ((c.tc : Thread nD τ).loc main_arg0)) :=
  (θ_run defs _ _).mono (fun _ h c =>
    ⟨((h c (1 : Fin 2)).trans (finalA_out m c)).trans (outAt_eq m c), (h c (0 : Fin 2)).trans (finalA_x m c)⟩) (run_main m ρ hbody)

/-- info: 'Cert.KernelProto.run_post' depends on axioms: [propext, Classical.choice, Quot.sound] -/
#guard_msgs in #print axioms run_post

end Cert.KernelProto

end
-- ==== Proof.Runs.lean ====
/-
  The two kernel runs the claims are assembled from, each from the body obligation of one device at its instance: the
  idealized program over the extended reals with every result named, the word-level program with the arguments unchanged.
-/
import proofs.«901054_g7700000000001055_dist_softmax_colshard_i_m1024_n1024_v7x_i8_f32_1_alg».proof.Proof.Claims
import proofs.«901054_g7700000000001055_dist_softmax_colshard_i_m1024_n1024_v7x_i8_f32_1_alg».proof.Proof.LaunchRun
import proofs.«901054_g7700000000001055_dist_softmax_colshard_i_m1024_n1024_v7x_i8_f32_1_alg».proof.Proof.Bits.LaunchRun

noncomputable section

namespace Cert.Proof.Runs

open Idealize.ShloMosaic Idealize.SL.Sem
open Idealize.ShloMosaic.Pipeline (BodyObligation)

/-- The idealized kernel's run, from one device's body. -/
theorem run_ideal
    (hbody : ∀ (m : (ℓ : Loc Cert.KernelIdeal.nD Cert.KernelIdeal.τ Cert.KernelIdeal.sig) → Buf (Elt Ideal) ℓ) (c : Dev Cert.KernelIdeal.nD),
      BodyObligation (Cert.KernelIdealProto.dats (F := Ideal) m 0 c) (Cert.KernelIdeal.defs₀ (F := Ideal)) Cert.KernelIdealProto.𝒱₀ () Set.univ) :
    Cert.Proof.Claims.RunIdeal :=
  fun m ρ => Cert.KernelIdealProto.run_post (F := Ideal) m ρ (hbody m)

/-- The word-level kernel's run, from one device's body: the same run with the results dropped. -/
theorem run_bits
    (hbody : ∀ (m : (ℓ : Loc Cert.Kernel.nD Cert.Kernel.τ Cert.Kernel.sig) → Buf (Elt Bits) ℓ) (c : Dev Cert.Kernel.nD),
      BodyObligation (Cert.KernelProto.dats (F := Bits) m 0 c) (Cert.Kernel.defs₀ (F := Bits)) Cert.KernelProto.𝒱₀ () Set.univ) :
    Cert.Proof.Claims.RunBits :=
  fun m ρ => (θ_run Cert.Kernel.defs _ _).mono (fun _ h c => (h c).2) (Cert.KernelProto.run_post (F := Bits) m ρ (hbody m))

/-- The certificate's claim, from the two bodies. -/
theorem claim_of_bodies
    (hI : ∀ (m : (ℓ : Loc Cert.KernelIdeal.nD Cert.KernelIdeal.τ Cert.KernelIdeal.sig) → Buf (Elt Ideal) ℓ) (c : Dev Cert.KernelIdeal.nD),
      BodyObligation (Cert.KernelIdealProto.dats (F := Ideal) m 0 c) (Cert.KernelIdeal.defs₀ (F := Ideal)) Cert.KernelIdealProto.𝒱₀ () Set.univ)
    (hB : ∀ (m : (ℓ : Loc Cert.Kernel.nD Cert.Kernel.τ Cert.Kernel.sig) → Buf (Elt Bits) ℓ) (c : Dev Cert.Kernel.nD),
      BodyObligation (Cert.KernelProto.dats (F := Bits) m 0 c) (Cert.Kernel.defs₀ (F := Bits)) Cert.KernelProto.𝒱₀ () Set.univ) :
    Cert.Claim :=
  Cert.Proof.Claims.claim_of (run_ideal hI) (run_bits hB)

end Cert.Proof.Runs

end
-- ==== Proof.ProtoLemmas2.lean ====
/-
  What a device owes at launch as a literal sum, and the eight devices as one device and its seven peers.
-/
import proofs.«901054_g7700000000001055_dist_softmax_colshard_i_m1024_n1024_v7x_i8_f32_1_alg».proof.Proof.ProtoLemmas
import Idealize.ShloMosaic.Lib.Pipeline.Launch
import Idealize.ShloMosaic.Lib.Pipeline.Kit
import Idealize.ShloMosaic.Lib.Tactic
import Mathlib.Algebra.BigOperators.Fin

noncomputable section

namespace Cert.KernelIdealProto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What is owed at launch, summand by summand: the next payment outermost -/

theorem O₀_sum (c : Dev nD) :
    O₀ c = tallyAt (recvCell (peer 6 c) c) () N + tallyAt (recvCell (peer 5 c) c) () N + tallyAt (recvCell (peer 4 c) c) () N
      + tallyAt (recvCell (peer 3 c) c) () N + tallyAt (recvCell (peer 2 c) c) () N + tallyAt (recvCell (peer 1 c) c) () N
      + tallyAt (recvCell (peer 0 c) c) () N + tallyAt (barCell (peer 6 c)) () 1 + tallyAt (barCell (peer 5 c)) () 1
      + tallyAt (barCell (peer 4 c)) () 1 + tallyAt (barCell (peer 3 c)) () 1 + tallyAt (barCell (peer 2 c)) () 1
      + tallyAt (barCell (peer 1 c)) () 1 + tallyAt (barCell (peer 0 c)) () 1 := by
  show owe c 14 = _
  rw [owe_peel0, owe_peel1, owe_peel2, owe_peel3, owe_peel4, owe_peel5, owe_peel6, owe_peel7, owe_peel8, owe_peel9, owe_peel10,
    owe_peel11, owe_peel12, owe_peel13, owe_zero, zero_add]

/-! ## The eight devices are a device and its seven peers -/

def peerEmb (c : Dev nD) : Fin 7 ↪ Dev nD := ⟨fun d => peer d c, peer_inj c⟩
def fromEmb (c : Dev nD) : Fin 7 ↪ Dev nD := ⟨fun r => from_ r c, from_inj c⟩

theorem erase_eq_peers (c : Dev nD) : (Finset.univ.erase c : Finset (Dev nD)) = Finset.univ.map (peerEmb c) := by revert c; decide
theorem erase_eq_froms (c : Dev nD) : (Finset.univ.erase c : Finset (Dev nD)) = Finset.univ.map (fromEmb c) := by revert c; decide

theorem bigSep_dev_peers (c : Dev nD) (Φ : Dev nD → sProp 𝕄) :
    bigSep Finset.univ Φ = iprop(Φ c ∗ bigSep Finset.univ fun d : Fin 7 => Φ (peer d c)) := by
  rw [bigSep_univ_at Φ c, erase_eq_peers, bigSep_map]; rfl
theorem bigSep_dev_froms (c : Dev nD) (Φ : Dev nD → sProp 𝕄) :
    bigSep Finset.univ Φ = iprop(Φ c ∗ bigSep Finset.univ fun r : Fin 7 => Φ (from_ r c)) := by
  rw [bigSep_univ_at Φ c, erase_eq_froms, bigSep_map]; rfl

/-- info: 'Cert.KernelIdealProto.bigSep_dev_peers' depends on axioms: [propext, Classical.choice, Quot.sound] -/
#guard_msgs in #print axioms bigSep_dev_peers

end Cert.KernelIdealProto

end
-- ==== Proof.Slots.lean ====
/-
  The table of statistics, slot by slot.

  The table is an 8 x 2 x 1024 buffer; slot `s` is the 1 x 2 x 1024 block at offset (s, 0, 0). An element lies in
  slot `s` exactly when its first coordinate is `s`: so the eight slots are pairwise disjoint and cover the table,
  a points-to on the whole table is the separating product of the points-tos on the slots, a copy of slot `s` out
  of a buffer that holds the final table there leaves the final table on slot `s`, and a device's store of its own
  statistics into its own slot writes the final table's slot.
-/
import proofs.«901054_g7700000000001055_dist_softmax_colshard_i_m1024_n1024_v7x_i8_f32_1_alg».proof.Proof.Proto
import Idealize.ShloMosaic.Rules.PointsTo
import Idealize.ShloMosaic.Lib.Pipeline.Value
import Idealize.ShloMosaic.Lib.Ring

noncomputable section

namespace Cert.KernelIdealProto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The slots as element sets -/

/-- The rectangle of slot `s`. -/
abbrev slotR (s : Dev nD) : Rect S8x2x1024 := Rect.unit (s := S8x2x1024) (k0_off3 s) S1x2x1024.size (k0_off3_inb s)

/-- The elements under the view of slot `s` are those of its rectangle. -/
theorem slotSet_eq (c s : Dev nD) : slotSet c s = (slotR s).set :=
  (View.set_reshape _ _).trans (View.set_slice_whole _ _)

/-- An element of the table lies in the 1 x 2 x 1024 block at offset (s, 0, 0) exactly when its first coordinate is `s`. -/
theorem mem_block {off : Fin 3 → Nat} {s : Dev nD} (ho : off = ![s.val, 0, 0]) (inb) (i : S8x2x1024.Idx) :
    i ∈ (Rect.unit (s := S8x2x1024) off S1x2x1024.size inb).set ↔ (i 0).val = s.val := by
  subst ho
  rw [Rect.mem_set_unit]
  have h1 : (i 1).val < 2 := (i 1).isLt
  have h2 : (i 2).val < 1024 := (i 2).isLt
  constructor
  · intro h
    have h0 : s.val ≤ (i 0).val ∧ (i 0).val < s.val + 1 := h 0
    omega
  · intro h a
    fin_cases a
    · show s.val ≤ (i 0).val ∧ (i 0).val < s.val + 1; omega
    · show 0 ≤ (i 1).val ∧ (i 1).val < 0 + 2; omega
    · show 0 ≤ (i 2).val ∧ (i 2).val < 0 + 1024; omega

/-- An element of the table lies in slot `s` exactly when its first coordinate is `s`. -/
theorem mem_slot (c s : Dev nD) (i : Idx (tLoc c)) : i ∈ slotSet c s ↔ (i 0).val = s.val := by
  rw [slotSet_eq]; exact mem_block (k0_off3_eq s) _ i

theorem slots_disjoint (c : Dev nD) {s s' : Dev nD} (h : s ≠ s') : Disjoint (slotSet c s) (slotSet c s') := by
  rw [Finset.disjoint_left]
  intro i hi hi'
  exact h (Fin.ext (((mem_slot c s i).mp hi).symm.trans ((mem_slot c s' i).mp hi')))

theorem slots_cover (c : Dev nD) : Finset.univ.biUnion (slotSet c) = Finset.univ := by
  ext i
  simp only [Finset.mem_biUnion, Finset.mem_univ, true_and, iff_true]
  exact ⟨⟨(i 0).val, (i 0).isLt⟩, (mem_slot c _ i).mpr rfl⟩

/-! ## The table as the product of its slots -/

/-- A points-to on the whole table, at any contents and share, is the product of the points-tos on the slots. -/
theorem table_slots (c : Dev nD) (q : PosShare TreeShare) (f : Buf (Elt F) (tLoc c)) :
    (tLoc c ↦[Finset.univ]{q} f : sProp 𝕄) = bigSep Finset.univ fun s : Dev nD => tLoc c ↦[slotSet c s]{q} f := by
  have h : (tLoc c ↦[Finset.univ.biUnion (slotSet c)]{q} f : sProp 𝕄)
      = bigSep Finset.univ fun s : Dev nD => tLoc c ↦[slotSet c s]{q} f :=
    pointsTo_biUnion Finset.univ (slotSet c) (fun s _ s' _ hne => slots_disjoint c hne)
  rw [slots_cover] at h
  exact h

theorem table_split (c : Dev nD) :
    (iprop(∃ f : Buf (Elt F) (tLoc c), tLoc c ↦{fullShare} f) : sProp 𝕄)
      ⊢ bigSep Finset.univ (fun s : Dev nD => slotAny (F := F) c s) := by
  refine exists_elim fun f => ?_
  rw [table_slots]
  refine bigSep_mono fun s _ => ?_
  show (tLoc c ↦[slotSet c s]{fullShare} f : sProp 𝕄) ⊢ slotAny (F := F) c s
  unfold slotAny
  iintro H; iexists f; iexact H

theorem table_whole (c : Dev nD) (q : PosShare TreeShare) :
    (bigSep Finset.univ (fun s : Dev nD => slotPts m c s q) : sProp 𝕄) = (tLoc c ↦[Finset.univ]{q} tblAll m) :=
  (table_slots c q (tblAll m)).symm

theorem table_join (c : Dev nD) :
    (bigSep Finset.univ (fun s : Dev nD => slotPts m c s fullShare) : sProp 𝕄)
      ⊢ iprop(∃ f : Buf (Elt F) (tLoc c), tLoc c ↦{fullShare} f) := by
  rw [table_whole]
  iintro H; iexists tblAll m; iexact H

/-! ## Shares of a slot -/

theorem slot_halves (c s : Dev nD) :
    slotPts m c s fullShare ⊣⊢ iprop(slotPts m c s fullShare.left ∗ slotPts m c s fullShare.right) :=
  pointsTo_share (PosShare.mem_left_op_right fullShare)

/-- Three assertions re-bracketed. -/
theorem sep_rot (B L R : sProp 𝕄) : iprop(B ∗ L ∗ R) = iprop((L ∗ B) ∗ R) := by
  have h1 : iprop(B ∗ L ∗ R) ⊢ iprop((L ∗ B) ∗ R) := by
    iintro ⟨HB, HL, HR⟩
    isplitr [HR]
    · isplitl [HL]
      · iexact HL
      · iexact HB
    · iexact HR
  have h2 : iprop((L ∗ B) ∗ R) ⊢ iprop(B ∗ L ∗ R) := by
    iintro ⟨⟨HL, HB⟩, HR⟩
    isplitl [HB]
    · iexact HB
    · isplitl [HL]
      · iexact HL
      · iexact HR
  exact BI.equiv_iff.mp ⟨h1, h2⟩

/-- After `n` halvings the right half is the `n` left halves lent and what remains. -/
theorem lend_range (c s : Dev nD) (n : ℕ) :
    slotPts m c s (rem 0)
      = iprop((bigSep (Finset.range n) fun k => slotPts m c s (rem k).left) ∗ slotPts m c s (rem n)) := by
  induction n with
  | zero => rw [Finset.range_zero, bigSep_empty]; exact (BI.equiv_iff.mp BI.emp_sep).symm
  | succ n ih =>
    have hp : slotPts m c s (rem n) ⊣⊢ iprop(slotPts m c s (rem n).left ∗ slotPts m c s (rem (n + 1))) :=
      pointsTo_share (PosShare.mem_left_op_right (rem n))
    have hs : slotPts m c s (rem n) = iprop(slotPts m c s (rem n).left ∗ slotPts m c s (rem (n + 1))) :=
      BI.equiv_iff.mp ⟨hp.1, hp.2⟩
    rw [Finset.range_add_one, bigSep_insert Finset.notMem_range_self, ih, hs]
    exact sep_rot _ _ _

theorem slot_lend (c s : Dev nD) :
    slotPts m c s fullShare.right
      ⊣⊢ iprop((bigSep Finset.univ fun d : Fin 7 => slotPts m c s (shr d)) ∗ slotPts m c s (rem 7)) := by
  rw [Ring.bigSep_fin_eq_range 7 (fun d : Fin 7 => slotPts m c s (shr d)) (fun k => slotPts m c s (rem k).left)
    (fun t h => rfl)]
  have e := lend_range m c s 7
  exact ⟨Entails.of_eq e, Entails.of_eq e.symm⟩

/-! ## What a landing and the device's own store leave on a slot -/

theorem land_slot (c' s : Dev nD) (fd : Buf (Elt F) (tLoc c')) :
    (tLoc c' ↦[slotSet c' s]{fullShare}
        ((slotM s).view.write (Elt F) fd ((slotM s).view.read (Elt F) (tblAll m)) Finset.univ) : sProp 𝕄)
      = slotPts m c' s fullShare := by
  unfold slotPts
  refine pointsTo_congr fun i hi => ?_
  rw [View.write_read_eq_piecewise]
  exact Finset.piecewise_eq_of_mem _ _ _ hi

theorem store_set (c : Dev nD) : (tM.access (Rect.unit (s := S8x2x1024) (k0_off1 c) S1x2x1024.size (k0_off1_inb c))).setOn Finset.univ ⊆ slotSet c c := by
  intro i hi
  have e : (tM.access (Rect.unit (s := S8x2x1024) (k0_off1 c) S1x2x1024.size (k0_off1_inb c))).set = (Rect.unit (s := S8x2x1024) (k0_off1 c) S1x2x1024.size (k0_off1_inb c)).set := View.set_slice_whole _ _
  have hi' : i ∈ (Rect.unit (s := S8x2x1024) (k0_off1 c) S1x2x1024.size (k0_off1_inb c)).set := by rw [← e]; exact hi
  exact (mem_slot c c i).mpr ((mem_block (k0_off1_eq c) _ i).mp hi')

theorem load_set (c : Dev nD) : tM.view.setOn (Rect.unit (s := S8x2x1024) (k0_off1 c) S1x2x1024.size (k0_off1_inb c)).toLoadRect.set ⊆ slotSet c c := by
  intro i hi
  obtain ⟨x, hx, rfl⟩ := Finset.mem_map.mp hi
  exact (mem_slot c c _).mpr ((mem_block (k0_off1_eq c) _ x).mp hx)

/-- The final table at an element of the block at offset (c, 0, 0) is device `c`'s statistics at the element's
    place in the block. -/
theorem tbl_block {off : Fin 3 → Nat} {c : Dev nD} (ho : off = ![c.val, 0, 0]) (inb)
    (xs : Dev nD → Vec F S1024x1024 .f32) (y : S1x2x1024.Idx) :
    Fn.tbl xs ((Rect.unit (s := S8x2x1024) off S1x2x1024.size inb).emb y) = Fn.statsSlot (xs c) y := by
  subst ho
  have y0 : (y 0).val < 1 := (y 0).isLt
  have h0 : ((Rect.unit (s := S8x2x1024) ![c.val, 0, 0] S1x2x1024.size inb).emb y) 0 = c :=
    Fin.ext (by show c.val + 1 * (y 0).val = c.val; omega)
  unfold Fn.tbl
  rw [h0]
  congr 1
  funext a
  match a with
  | ⟨0, _⟩ => exact Fin.ext (by show 0 = (y 0).val; omega)
  | ⟨1, _⟩ => exact Fin.ext (by show 0 + 1 * (y 1).val = (y 1).val; omega)
  | ⟨2, _⟩ => exact Fin.ext (by show 0 + 1 * (y 2).val = (y 2).val; omega)

theorem store_slot (c : Dev nD) (f : Buf (Elt F) (tLoc c)) :
    (tLoc c ↦[slotSet c c]{fullShare}
        ((tM.access (Rect.unit (s := S8x2x1024) (k0_off1 c) S1x2x1024.size (k0_off1_inb c))).write (Elt F) f (Fn.statsSlot (xblk m c)) Finset.univ) : sProp 𝕄)
      = slotPts m c c fullShare := by
  unfold slotPts
  refine pointsTo_congr fun i hi => ?_
  have hi' : i ∈ (tM.access (Rect.unit (s := S8x2x1024) (k0_off1 c) S1x2x1024.size (k0_off1_inb c))).set := by
    rw [View.set_slice_whole]
    exact (mem_block (k0_off1_eq c) _ i).mpr ((mem_slot c c i).mp hi)
  obtain ⟨y, rfl⟩ := View.exists_emb_of_mem_set _ hi'
  rw [View.write_emb_of_mem _ _ (Finset.mem_univ y)]
  exact (cast_eq _ _).trans (tbl_block (k0_off1_eq c) _ _ y).symm

theorem hz3 : (![0, 0, 0] : Fin 3 → Nat) = fun _ => 0 := funext fun a => by fin_cases a <;> rfl

theorem load_table :
    tM.view.readAt (Elt F) (Rect.unit (s := S8x2x1024) ![0, 0, 0] S8x2x1024.size inb_S8x2x1024_S8x2x1024_0_0_0).toLoadRect
      (tblAll m) = tblAll m :=
  Memref.readAt_unit_zero (Elt F) cc0_scratch0 hz3 _ _

/-! ## Each statement above stands on the three standard axioms only -/

/-- info: 'Cert.KernelIdealProto.mem_slot' depends on axioms: [propext, Classical.choice, Quot.sound] -/
#guard_msgs in #print axioms mem_slot

/-- info: 'Cert.KernelIdealProto.slots_disjoint' depends on axioms: [propext, Classical.choice, Quot.sound] -/
#guard_msgs in #print axioms slots_disjoint

/-- info: 'Cert.KernelIdealProto.slots_cover' depends on axioms: [propext, Classical.choice, Quot.sound] -/
#guard_msgs in #print axioms slots_cover

/-- info: 'Cert.KernelIdealProto.table_split' depends on axioms: [propext, Classical.choice, Quot.sound] -/
#guard_msgs in #print axioms table_split

/-- info: 'Cert.KernelIdealProto.table_whole' depends on axioms: [propext, Classical.choice, Quot.sound] -/
#guard_msgs in #print axioms table_whole

/-- info: 'Cert.KernelIdealProto.table_join' depends on axioms: [propext, Classical.choice, Quot.sound] -/
#guard_msgs in #print axioms table_join

/-- info: 'Cert.KernelIdealProto.slot_halves' depends on axioms: [propext, Classical.choice, Quot.sound] -/
#guard_msgs in #print axioms slot_halves

/-- info: 'Cert.KernelIdealProto.slot_lend' depends on axioms: [propext, Classical.choice, Quot.sound] -/
#guard_msgs in #print axioms slot_lend

/-- info: 'Cert.KernelIdealProto.land_slot' depends on axioms: [propext, Classical.choice, Quot.sound] -/
#guard_msgs in #print axioms land_slot

/-- info: 'Cert.KernelIdealProto.store_slot' depends on axioms: [propext, Classical.choice, Quot.sound] -/
#guard_msgs in #print axioms store_slot

/-- info: 'Cert.KernelIdealProto.store_set' depends on axioms: [propext, Classical.choice, Quot.sound] -/
#guard_msgs in #print axioms store_set

/-- info: 'Cert.KernelIdealProto.load_set' depends on axioms: [propext, Classical.choice, Quot.sound] -/
#guard_msgs in #print axioms load_set

/-- info: 'Cert.KernelIdealProto.load_table' depends on axioms: [propext, Classical.choice, Quot.sound] -/
#guard_msgs in #print axioms load_table

end Cert.KernelIdealProto

end
-- ==== Proof.Steps.lean ====
/-
  The exchange's statements one at a time: each rule of the rounds discipline read at our schedule. A signal to a peer
  hands over the slot that peer will write; a copy to a peer borrows a share of the device's own slot and fills the
  peer's; the wait on a receive cell returns the filled slot, the wait on a send cell the borrowed share, the wait for
  seven units on the barrier cell the seven peers' slots.
-/
import proofs.«901054_g7700000000001055_dist_softmax_colshard_i_m1024_n1024_v7x_i8_f32_1_alg».proof.Proof.Proto
import proofs.«901054_g7700000000001055_dist_softmax_colshard_i_m1024_n1024_v7x_i8_f32_1_alg».proof.Proof.ProtoLemmas
import Idealize.ShloMosaic.Lib.Pipeline.Launch
import Idealize.ShloMosaic.Lib.Pipeline.Kit
import Idealize.ShloMosaic.Lib.Tactic

noncomputable section

namespace Cert.KernelIdealProto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section Steps

variable (K : Dev nD × Fin 15 → ℕ) (c : Dev nD)

/-- Signal number `d`: a unit on peer `d`'s barrier cell, handing over the device's slot for that peer. -/
theorem sig_step {α : Type} {Q : α → sProp 𝕄} {k : PUnit → Prog (TpuEff nD τ sig (Elt F) Λ₀ .tc) α} (d : Fin 7) (f : Buf (Elt F) (tLoc c)) (O : CellTallies nD τ sig Unit) (W : Waits sig Unit) :
    iprop(cellInv ER (sched m) (K (peer d c, 0)) (barCell (peer d c))
        ∗ owes (c : Thread nD τ) (O + tallyAt (barCell (peer d c)) () 1) W
        ∗ dutyTok ER (barCell (peer d c)) 0 d ∗ (tLoc c ↦[slotSet c (peer d c)]{fullShare} f)
        ∗ reached ER (barCell (peer d c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (peer d c : Thread nD τ) barS 1) k) Q) := by
  iintro ⟨#HI, HO, Htok, Hs, #Hr⟩
  iapply (Rounds.wp_signal 𝒱₀ ER (sched m) (c : Thread nD τ) none (dst := (peer d c : Thread nD τ)) (κ := K (peer d c, 0))
      (d := d) (by rw [duties_bar]; exact Finset.mem_univ _) (amount_bar m (peer d c) d) () O rfl) $$ [HO Htok Hs]
  · isplitr; · iexact HI
    isplitl [HO]; · iexact HO
    isplitl [Htok]; · iexact Htok
    isplitl [Hs]
    · rw [payload_bar, from_peer]; unfold slotAny; iexists f; iexact Hs
    iexact Hr

/-- The wait for seven units on the device's own barrier cell, owing only the receive credits: every peer's slot
    number `c` comes with it. -/
theorem bar_wait_step {α : Type} {Q : α → sProp 𝕄} {k : PUnit → Prog (TpuEff nD τ sig (Elt F) Λ₀ .tc) α} (W : Waits sig Unit) :
    iprop(cellInv ER (sched m) (K (c, 0)) (barCell c) ∗ cred (tallyAt (barCell c) () 7) ∗ owes (c : Thread nD τ) (owe c 7) W
        ∗ levAts L lv ∗ atPos ER (barCell c) 0 ∅ 0)
      ⊢ iprop(((owes (c : Thread nD τ) (owe c 7) (insert (SemLoc.reg barS, ()) W)
              ∗ atPos ER (barCell c) 1 ∅ 0
              ∗ bigSep Finset.univ (fun r : Fin 7 => slotAny (F := F) (from_ r c) c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 7) k) Q) := by
  iintro ⟨#HI, Hc, HO, #Hlev, Hat⟩ Hk
  iapply (Rounds.wp_wait_rest_token 𝒱₀ ER (sched m) (c : Thread nD τ) none (κ := K (c, 0))
      (wpE_semWait_eq 𝒱₀ (c : Thread nD τ) none Set.univ) (Set.mem_univ _) () (O := owe c 7) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar m c)); iexact Hpay

/-- Copy number `d`: slot `c` of the device's table, lent at the share `shr d`, into slot `c` of peer `d`'s table, which
    that peer gave up with its signal. The landing leaves the final table on that slot (`hland`). -/
theorem send_step {α : Type} {Q : α → sProp 𝕄} {k : PUnit → Prog (TpuEff nD τ sig (Elt F) Λ₀ .tc) α}
    (d : Fin 7) (n : Dev nD) (hn : n = peer d c) (sS rq : DmaSem sig) (hsS : sS = sendQ d) (hrq : rq = recvQ c)
    {hsc : (slotM c : Memref sig (Dev.tc n : Thread nD τ).2.kind .vmem S2x1024 .f32).view.ref.isScScratch = false}
    {hsrc : (slotM c : Memref sig .tc .vmem S2x1024 .f32).view.WordExact} {hdst : (slotM c : Memref sig .tc .vmem S2x1024 .f32).view.WordExact}
    {hsem : DmaTarget.Typed .vmem (.dma rq) (.remote (Dev.tc n : Thread nD τ) (slotM c : Memref sig .tc .vmem S2x1024 .f32) (.dma sS) hsc)}
    (fd : Buf (Elt F) (tLoc (peer d c))) (O : CellTallies nD τ sig Unit) (W : Waits sig Unit)
    (hland : (tLoc (peer d c) ↦[slotSet (peer d c) c]{fullShare}
        ((slotM c).view.write (Elt F) fd ((slotM c).view.read (Elt F) (tblAll m)) Finset.univ) : sProp 𝕄) = slotPts m (peer d c) c fullShare) :
    iprop(cellInv ER (sched m) (K (c, sIdx d)) (sendCell c d) ∗ cellInv ER (sched m) (K (peer d c, rIdx d)) (recvCell (peer d c) c)
        ∗ slotPts m c c (shr d) ∗ (tLoc (peer d c) ↦[slotSet (peer d c) c]{fullShare} fd)
        ∗ owes (c : Thread nD τ) (O + tallyAt (recvCell (peer d c) c) () N) W
        ∗ dutyTok ER (sendCell c d) 0 0 ∗ reached ER (sendCell c d) 0
        ∗ dutyTok ER (recvCell (peer d c) c) 0 0 ∗ reached ER (recvCell (peer d c) c) 0)
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM c) (.remote (Dev.tc n : Thread nD τ) (slotM c) (.dma sS) hsc) (.dma rq) hsrc hdst hsem) k) Q) := by
  subst hn hsS hrq
  unfold slotPts
  exact Rounds.wp_send_pointsTo 𝒱₀ ER (sched m) (c : Thread nD τ) none (c' := (peer d c : Thread nD τ)) (src := slotM c) (dst := slotM c) (q := shr d) (fs := tblAll m) (κ₁ := K (c, sIdx d)) (κ₂ := K (peer d c, rIdx d))
    (r₁ := 0) (r₂ := 0) (d₁ := 0) (d₂ := 0) (fd := fd)
    (by rw [duties_send]; exact Finset.mem_singleton_self _) (by rw [duties_recv]; exact Finset.mem_singleton_self _)
    () () N rfl (amount_send m c d 0) (amount_recv m (peer d c) c 0) O rfl (W := W)
    (by rw [payload_send]; exact BI.Entails.refl _)
    (by rw [payload_recv, ← hland])

/-- The wait on the receive cell credited by the device `r + 1` places before: its slot, filled. -/
theorem recv_wait_step {α : Type} {Q : α → sProp 𝕄} {k : PUnit → Prog (TpuEff nD τ sig (Elt F) Λ₀ .tc) α}
    (r : Fin 7) (q : DmaSem sig) (hq : q = recvQ (from_ r c)) (sv dv : Memref sig .tc .vmem S2x1024 .f32)
    {h1 : sv.view.WordExact} {h2 : dv.view.WordExact} (W : Waits sig Unit) :
    iprop(cellInv ER (sched m) (K (c, rIdx r)) (recvCell c (from_ r c)) ∗ cred (tallyAt (recvCell c (from_ r c)) () N)
        ∗ owes (c : Thread nD τ) 0 W ∗ atPos ER (recvCell c (from_ r c)) 0 ∅ 0)
      ⊢ iprop(((owes (c : Thread nD τ) 0 (insert (SemLoc.dma (recvQ (from_ r c)), ()) W)
              ∗ atPos ER (recvCell c (from_ r c)) 1 ∅ 0 ∗ slotPts m c (from_ r c) fullShare)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q sv dv h1 h2) k) Q) := by
  subst hq
  iintro ⟨#HI, Hc, HO, Hat⟩ Hk
  iapply (Rounds.wp_wait_rest_token 𝒱₀ ER (sched m) (c : Thread nD τ) none (κ := K (c, rIdx r))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_recv m c (from_ r c))); iexact Hpay

/-- The wait on send cell `d`: the share of its own slot the copy borrowed. -/
theorem send_wait_step {α : Type} {Q : α → sProp 𝕄} {k : PUnit → Prog (TpuEff nD τ sig (Elt F) Λ₀ .tc) α}
    (d : Fin 7) (q : DmaSem sig) (hq : q = sendQ d) (sv dv : Memref sig .tc .vmem S2x1024 .f32)
    {h1 : sv.view.WordExact} {h2 : dv.view.WordExact} (W : Waits sig Unit) :
    iprop(cellInv ER (sched m) (K (c, sIdx d)) (sendCell c d) ∗ cred (tallyAt (sendCell c d) () N)
        ∗ owes (c : Thread nD τ) 0 W ∗ atPos ER (sendCell c d) 0 ∅ 0)
      ⊢ iprop(((owes (c : Thread nD τ) 0 (insert (SemLoc.dma (sendQ d), ()) W)
              ∗ atPos ER (sendCell c d) 1 ∅ 0 ∗ slotPts m c c (shr d))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q sv dv h1 h2) k) Q) := by
  subst hq
  iintro ⟨#HI, Hc, HO, Hat⟩ Hk
  iapply (Rounds.wp_wait_rest_token 𝒱₀ ER (sched m) (c : Thread nD τ) none (κ := K (c, sIdx d))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send m c d)); iexact Hpay

/-- A cell of the device's own whose one round is over closes: its counter, at zero, is the device's again. -/
theorem close_send (d : Fin 7) :
    iprop(cellInv ER (sched m) (K (c, sIdx d)) (sendCell c d) ∗ atPos ER (sendCell c d) 1 ∅ 0) ⊢ (iprop(|={Set.univ}=> semVal (sendCell c d) 0) : sProp 𝕄) :=
  Rounds.cell_close ER (sched m) (Set.mem_univ (K (c, sIdx d))) (fun h => h) (R := 1) (duties_later m (sendCell c d))
theorem close_recv (r : Fin 7) :
    iprop(cellInv ER (sched m) (K (c, rIdx r)) (recvCell c (from_ r c)) ∗ atPos ER (recvCell c (from_ r c)) 1 ∅ 0)
      ⊢ (iprop(|={Set.univ}=> semVal (recvCell c (from_ r c)) 0) : sProp 𝕄) :=
  Rounds.cell_close ER (sched m) (Set.mem_univ (K (c, rIdx r))) (fun h => h) (R := 1) (duties_later m (recvCell c (from_ r c)))

end Steps

end Cert.KernelIdealProto

end
-- ==== Proof.PartsA.lean ====
/-
  One device's body, stepped from the exchange's ghost state: seven signals, the local statistics, the barrier wait,
  seven copies out, seven waits for the copies in, the rest of the softmax, seven waits for the copies out.
-/
import proofs.«901054_g7700000000001055_dist_softmax_colshard_i_m1024_n1024_v7x_i8_f32_1_alg».proof.Proof.Proto
import proofs.«901054_g7700000000001055_dist_softmax_colshard_i_m1024_n1024_v7x_i8_f32_1_alg».proof.Proof.ProtoLemmas
import proofs.«901054_g7700000000001055_dist_softmax_colshard_i_m1024_n1024_v7x_i8_f32_1_alg».proof.Proof.ProtoLemmas2
import proofs.«901054_g7700000000001055_dist_softmax_colshard_i_m1024_n1024_v7x_i8_f32_1_alg».proof.Proof.Slots
import proofs.«901054_g7700000000001055_dist_softmax_colshard_i_m1024_n1024_v7x_i8_f32_1_alg».proof.Proof.Steps
import Idealize.ShloMosaic.Lib.Pipeline.Launch
import Idealize.ShloMosaic.Lib.Pipeline.Kit
import Idealize.ShloMosaic.Lib.Tactic

noncomputable section

namespace Cert.KernelIdealProto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_canon] dev1_eq dev2_eq dev3_eq dev4_eq dev5_eq dev6_eq dev7_eq dev8_eq dev9_eq dev10_eq dev11_eq dev12_eq dev13_eq dev14_eq

abbrev R1 : Type := Σ' (d0 : Dev nD) (v2 : BitVec 32) (v3 : Sems sig S_) (v30 : BitVec 32) (c8_i32_18 : BitVec 32), BitVec 1

set_option maxHeartbeats 1600000 in
theorem part1_spec (K : Dev nD × Fin 15 → ℕ) (c : Dev nD) (Q : R1 → sProp 𝕄) (f : Buf (Elt F) (tLoc c))
    (O : CellTallies nD τ sig Unit) (W : Waits sig Unit) :
    iprop(cellInv ER (sched m) (K (peer 0 c, 0)) (barCell (peer 0 c)) ∗ cellInv ER (sched m) (K (peer 1 c, 0)) (barCell (peer 1 c))
        ∗ reached ER (barCell (peer 0 c)) 0 ∗ reached ER (barCell (peer 1 c)) 0
        ∗ owes (c : Thread nD τ) (O + tallyAt (barCell (peer 1 c)) () 1 + tallyAt (barCell (peer 0 c)) () 1) W
        ∗ dutyTok ER (barCell (peer 0 c)) 0 0 ∗ dutyTok ER (barCell (peer 1 c)) 0 1
        ∗ (tLoc c ↦[slotSet c (peer 0 c)]{fullShare} f) ∗ (tLoc c ↦[slotSet c (peer 1 c)]{fullShare} f)
        ∗ (∀ r : R1, ⌜r.1 = c ∧ r.2.2.1 = SemArray.scalar (sig.barrier 0 rfl)⌝ -∗ owes (c : Thread nD τ) O W -∗ Q r))
      ⊢ wp frame (wpE (defs₀ (F := F)) 𝒱₀ c none) Set.univ
          (k0_part1 (F := F) xM (Memref.isWhole_whole _) oM (Memref.isWhole_whole _) tM (Memref.isWhole_whole _) cc0_scratch1 cc0_scratch2) Q := by
  iintro ⟨#HI0, #HI1, #HR0, #HR1, HO, Ht0, Ht1, Hs0, Hs1, Hk⟩
  sl_exec
  iapply (sig_step m K c 0 f (O + tallyAt (barCell (peer 1 c)) () 1) W) $$ [HO Ht0 Hs0]
  · isplitr; · iexact HI0
    isplitl [HO]; · iexact HO
    isplitl [Ht0]; · iexact Ht0
    isplitl [Hs0]; · iexact Hs0
    iexact HR0
  iintro HO
  sl_exec
  iapply (sig_step m K c 1 f O W) $$ [HO Ht1 Hs1]
  · isplitr; · iexact HI1
    isplitl [HO]; · iexact HO
    isplitl [Ht1]; · iexact Ht1
    isplitl [Hs1]; · iexact Hs1
    iexact HR1
  iintro HO
  sl_exec
  sl_step
  iapply Hk
  · ipureintro; exact ⟨rfl, rfl⟩
  · iexact HO

abbrev R2 : Type := Σ' (v59 : BitVec 32) (v64 : BitVec 1), BitVec 32

set_option maxHeartbeats 1600000 in
/-- Signals number 2 and 3. -/
theorem part2_spec (K : Dev nD × Fin 15 → ℕ) (c : Dev nD) (Q : R2 → sProp 𝕄) (f : Buf (Elt F) (tLoc c))
    (O : CellTallies nD τ sig Unit) (W : Waits sig Unit) (v2 v30 c8_i32_18 : BitVec 32) (v31 : BitVec 1) :
    iprop(cellInv ER (sched m) (K (peer 2 c, 0)) (barCell (peer 2 c)) ∗ cellInv ER (sched m) (K (peer 3 c, 0)) (barCell (peer 3 c))
        ∗ reached ER (barCell (peer 2 c)) 0 ∗ reached ER (barCell (peer 3 c)) 0
        ∗ owes (c : Thread nD τ) (O + tallyAt (barCell (peer 3 c)) () 1 + tallyAt (barCell (peer 2 c)) () 1) W
        ∗ dutyTok ER (barCell (peer 2 c)) 0 2 ∗ dutyTok ER (barCell (peer 3 c)) 0 3
        ∗ (tLoc c ↦[slotSet c (peer 2 c)]{fullShare} f) ∗ (tLoc c ↦[slotSet c (peer 3 c)]{fullShare} f)
        ∗ (∀ r : R2, owes (c : Thread nD τ) O W -∗ Q r))
      ⊢ wp frame (wpE (defs₀ (F := F)) 𝒱₀ c none) Set.univ
          (k0_part2 (F := F) xM (Memref.isWhole_whole _) oM (Memref.isWhole_whole _) tM (Memref.isWhole_whole _) cc0_scratch1 cc0_scratch2
            c v2 (SemArray.scalar (sig.barrier 0 rfl)) v30 c8_i32_18 v31) Q := by
  iintro ⟨#HI2, #HI3, #HR2, #HR3, HO, Ht2, Ht3, Hs2, Hs3, Hk⟩
  sl_exec
  iapply (sig_step m K c 2 f (O + tallyAt (barCell (peer 3 c)) () 1) W) $$ [HO Ht2 Hs2]
  · isplitr; · iexact HI2
    isplitl [HO]; · iexact HO
    isplitl [Ht2]; · iexact Ht2
    isplitl [Hs2]; · iexact Hs2
    iexact HR2
  iintro HO
  sl_exec
  iapply (sig_step m K c 3 f (O) W) $$ [HO Ht3 Hs3]
  · isplitr; · iexact HI3
    isplitl [HO]; · iexact HO
    isplitl [Ht3]; · iexact Ht3
    isplitl [Hs3]; · iexact Hs3
    iexact HR3
  iintro HO
  sl_exec
  sl_step
  iapply Hk
  iexact HO

abbrev R3 : Type := Σ' (v96 : IVec S1024x1024 32), IVec S1024x1024 32

set_option maxHeartbeats 1600000 in
/-- Signals number 4, 5 and 6; then the column numbers and the row numbers of a block's entries. -/
theorem part3_spec (K : Dev nD × Fin 15 → ℕ) (c : Dev nD) (Q : R3 → sProp 𝕄) (f : Buf (Elt F) (tLoc c))
    (O : CellTallies nD τ sig Unit) (W : Waits sig Unit) (v2 v59 v65 : BitVec 32) (v64 : BitVec 1) :
    iprop(cellInv ER (sched m) (K (peer 4 c, 0)) (barCell (peer 4 c)) ∗ cellInv ER (sched m) (K (peer 5 c, 0)) (barCell (peer 5 c))
        ∗ cellInv ER (sched m) (K (peer 6 c, 0)) (barCell (peer 6 c))
        ∗ reached ER (barCell (peer 4 c)) 0 ∗ reached ER (barCell (peer 5 c)) 0 ∗ reached ER (barCell (peer 6 c)) 0
        ∗ owes (c : Thread nD τ) (O + tallyAt (barCell (peer 6 c)) () 1 + tallyAt (barCell (peer 5 c)) () 1 + tallyAt (barCell (peer 4 c)) () 1) W
        ∗ dutyTok ER (barCell (peer 4 c)) 0 4 ∗ dutyTok ER (barCell (peer 5 c)) 0 5 ∗ dutyTok ER (barCell (peer 6 c)) 0 6
        ∗ (tLoc c ↦[slotSet c (peer 4 c)]{fullShare} f) ∗ (tLoc c ↦[slotSet c (peer 5 c)]{fullShare} f)
        ∗ (tLoc c ↦[slotSet c (peer 6 c)]{fullShare} f)
        ∗ (∀ r : R3, ⌜r.1 = Fn.col ∧ r.2 = k0_pay1⌝ -∗ owes (c : Thread nD τ) O W -∗ Q r))
      ⊢ wp frame (wpE (defs₀ (F := F)) 𝒱₀ c none) Set.univ
          (k0_part3 (F := F) xM (Memref.isWhole_whole _) oM (Memref.isWhole_whole _) tM (Memref.isWhole_whole _) cc0_scratch1 cc0_scratch2
            c v2 (SemArray.scalar (sig.barrier 0 rfl)) v59 v64 v65) Q := by
  iintro ⟨#HI4, #HI5, #HI6, #HR4, #HR5, #HR6, HO, Ht4, Ht5, Ht6, Hs4, Hs5, Hs6, Hk⟩
  sl_exec
  iapply (sig_step m K c 4 f (O + tallyAt (barCell (peer 6 c)) () 1 + tallyAt (barCell (peer 5 c)) () 1) W) $$ [HO Ht4 Hs4]
  · isplitr; · iexact HI4
    isplitl [HO]; · iexact HO
    isplitl [Ht4]; · iexact Ht4
    isplitl [Hs4]; · iexact Hs4
    iexact HR4
  iintro HO
  sl_exec
  iapply (sig_step m K c 5 f (O + tallyAt (barCell (peer 6 c)) () 1) W) $$ [HO Ht5 Hs5]
  · isplitr; · iexact HI5
    isplitl [HO]; · iexact HO
    isplitl [Ht5]; · iexact Ht5
    isplitl [Hs5]; · iexact Hs5
    iexact HR5
  iintro HO
  sl_exec
  iapply (sig_step m K c 6 f (O) W) $$ [HO Ht6 Hs6]
  · isplitr; · iexact HI6
    isplitl [HO]; · iexact HO
    isplitl [Ht6]; · iexact Ht6
    isplitl [Hs6]; · iexact Hs6
    iexact HR6
  iintro HO
  sl_exec
  sl_step
  iapply Hk
  · ipureintro; exact ⟨rfl, rfl⟩
  · iexact HO

/-- info: 'Cert.KernelIdealProto.part1_spec' depends on axioms: [propext, Classical.choice, Quot.sound] -/
#guard_msgs in #print axioms part1_spec
/-- info: 'Cert.KernelIdealProto.part2_spec' depends on axioms: [propext, Classical.choice, Quot.sound] -/
#guard_msgs in #print axioms part2_spec
/-- info: 'Cert.KernelIdealProto.part3_spec' depends on axioms: [propext, Classical.choice, Quot.sound] -/
#guard_msgs in #print axioms part3_spec

end Cert.KernelIdealProto

end
-- ==== Proof.Part4.lean ====
/-
  The local half of one device's body: its block read, `exp (x - max)` left in the result buffer, its statistics stored
  into its own slot of the table, and the wait for seven units on its barrier cell, which brings the seven peers' slots.
-/
import proofs.«901054_g7700000000001055_dist_softmax_colshard_i_m1024_n1024_v7x_i8_f32_1_alg».proof.Proof.Proto
import proofs.«901054_g7700000000001055_dist_softmax_colshard_i_m1024_n1024_v7x_i8_f32_1_alg».proof.Proof.ProtoLemmas
import proofs.«901054_g7700000000001055_dist_softmax_colshard_i_m1024_n1024_v7x_i8_f32_1_alg».proof.Proof.ProtoLemmas2
import proofs.«901054_g7700000000001055_dist_softmax_colshard_i_m1024_n1024_v7x_i8_f32_1_alg».proof.Proof.Slots
import proofs.«901054_g7700000000001055_dist_softmax_colshard_i_m1024_n1024_v7x_i8_f32_1_alg».proof.Proof.Steps
import Idealize.ShloMosaic.Lib.Pipeline.Launch
import Idealize.ShloMosaic.Lib.Pipeline.Kit
import Idealize.ShloMosaic.Lib.Tactic

noncomputable section

namespace Cert.KernelIdealProto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev R4 : Type := Σ' (v101 : FVec F S1024x1024 .f32), FVec F S2x1024 .f32

abbrev rX : Rect S1024x1024 := Rect.unit (s := S1024x1024) ![0, 0] S1024x1024.size inb_S1024x1024_S1024x1024_0_0
abbrev rS (c : Dev nD) : Rect S8x2x1024 := Rect.unit (s := S8x2x1024) (k0_off1 c) S1x2x1024.size (k0_off1_inb c)

omit [FloatOps F] in
theorem hz2 : (![0, 0] : Fin 2 → Nat) = fun _ => 0 := funext fun a => by fin_cases a <;> rfl
omit [FloatOps F] in
theorem read_whole_x (f : (cc0_stg0_0 : Ref sig .tc).ty.Contents (Elt F)) : (xM : Memref sig .tc .vmem S1024x1024 .f32).view.readAt (Elt F) rX.toLoadRect f = f :=
  Memref.readAt_unit_zero (Elt F) cc0_stg0_0 hz2 _ f
omit [FloatOps F] in
theorem write_whole_o (f w : (cc0_stg1_0 : Ref sig .tc).ty.Contents (Elt F)) :
    ((oM : Memref sig .tc .vmem S1024x1024 .f32).access rX : View sig .tc _ _ _).write (Elt F) f w Finset.univ = w :=
  Memref.write_access_unit_zero_univ (Elt F) cc0_stg1_0 hz2 _ f w

/-- The device's own store of its statistics, as the store rule leaves it, is the final table on the device's slot. -/
theorem store_own (c : Dev nD) (f : Buf (Elt F) (tLoc c)) :
    ((tM.access (rS c)).loc (c : Thread nD τ) ↦[slotSet c c]{fullShare}
        ((tM.access (rS c)).write (Elt F) f (k0_pay7 Fn.col k0_pay1 (xblk m c)) Finset.univ) : sProp 𝕄) ⊢ slotPts m c c fullShare :=
  Entails.of_eq (store_slot m c f)

set_option maxHeartbeats 1600000 in
/-- The local half: the block is read, `exp (x - max)` stored into the result buffer, the statistics stored into the
    device's own slot, and the wait for the seven peers' signals brings their slots. -/
theorem part4_spec (K : Dev nD × Fin 15 → ℕ) (c : Dev nD) (Q : R4 (F := F) → sProp 𝕄) (v2 : BitVec 32)
    (go : Buf (Elt F) ((c : Thread nD τ).loc cc0_stg1_0)) (f : Buf (Elt F) (tLoc c)) (W : Waits sig Unit) :
    iprop(cellInv ER (sched m) (K (c, 0)) (barCell c) ∗ levAts L lv
        ∗ (((c : Thread nD τ).loc cc0_stg0_0) ↦{fullShare} xblk m c) ∗ (((c : Thread nD τ).loc cc0_stg1_0) ↦{fullShare} go)
        ∗ (tLoc c ↦[slotSet c c]{fullShare} f)
        ∗ cred (tallyAt (barCell c) () 7) ∗ owes (c : Thread nD τ) (owe c 7) W ∗ atPos ER (barCell c) 0 ∅ 0
        ∗ (∀ r : R4 (F := F), ⌜r.1 = Fn.eye ∧ r.2 = Fn.stats (xblk m c)⌝
            -∗ (((c : Thread nD τ).loc cc0_stg0_0) ↦{fullShare} xblk m c)
            -∗ (((c : Thread nD τ).loc cc0_stg1_0) ↦{fullShare} (k0_pay5 (xblk m c) : Vec F S1024x1024 .f32))
            -∗ slotPts m c c fullShare
            -∗ owes (c : Thread nD τ) (owe c 7) (insert (SemLoc.reg barS, ()) W)
            -∗ atPos ER (barCell c) 1 ∅ 0
            -∗ bigSep Finset.univ (fun r' : Fin 7 => slotAny (F := F) (from_ r' c) c)
            -∗ Q r))
      ⊢ wp frame (wpE (defs₀ (F := F)) 𝒱₀ c none) Set.univ
          (k0_part4 (F := F) xM (Memref.isWhole_whole _) oM (Memref.isWhole_whole _) tM (Memref.isWhole_whole _) cc0_scratch1 cc0_scratch2
            c v2 (SemArray.scalar (sig.barrier 0 rfl)) Fn.col k0_pay1) Q := by
  simp only [k0_part4_eq_skeleton]; unfold k0_part4_skel
  simp only [semWaitWord, Prog.lift, Prog.bind_op, Prog.bind_ret, Prog.pure_eq_ret]
  iintro ⟨#HIb, #Hlev, Hx, Hout, Hown, HcB, HO, HatB, Hk⟩
  iapply (wp_load 𝒱₀ (c : Thread nD τ) none Set.univ (m := xM) (Finset.subset_univ _)) $$ Hx; iintro Hx
  rw [read_whole_x]
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  rw [write_whole_o]
  iapply (wp_load 𝒱₀ (c : Thread nD τ) none Set.univ (m := tM) (load_set c)) $$ Hown; iintro Hown
  iapply (wp_store 𝒱₀ (c : Thread nD τ) none Set.univ (m := tM) (r := rS c) (Mk := Finset.univ) (store_set c)) $$ Hown; iintro Hown
  ihave Hown := (store_own m c f) $$ Hown
  iapply (bar_wait_step m K c W) $$ [HcB HO HatB]
  · isplitr; · iexact HIb
    isplitl [HcB]; · iexact HcB
    isplitl [HO]; · iexact HO
    isplitr; · iexact Hlev
    iexact HatB
  iintro ⟨HO, HatB, Hpeers⟩
  rw [wp_ret]; imodintro
  iapply Hk $$ [] Hx Hout Hown HO HatB Hpeers
  ipureintro; exact ⟨rfl, rfl⟩

end Cert.KernelIdealProto

end
-- ==== Proof.Glue.lean ====
/-
  The table's slots regrouped between the steps of one device's body: the whole table cut into the device's own slot
  and its seven peers' slots; the own slot's full share cut into its left half, seven lent shares and a remainder; the
  seven slots the peers gave up, peer by peer; the table at the left half share made of the own slot's left half and
  the left halves of the seven received slots; and every share of every slot put back into the whole table.
-/
import proofs.«901054_g7700000000001055_dist_softmax_colshard_i_m1024_n1024_v7x_i8_f32_1_alg».proof.Proof.Proto
import proofs.«901054_g7700000000001055_dist_softmax_colshard_i_m1024_n1024_v7x_i8_f32_1_alg».proof.Proof.ProtoLemmas
import proofs.«901054_g7700000000001055_dist_softmax_colshard_i_m1024_n1024_v7x_i8_f32_1_alg».proof.Proof.ProtoLemmas2
import proofs.«901054_g7700000000001055_dist_softmax_colshard_i_m1024_n1024_v7x_i8_f32_1_alg».proof.Proof.Slots
import proofs.«901054_g7700000000001055_dist_softmax_colshard_i_m1024_n1024_v7x_i8_f32_1_alg».proof.Proof.Steps
import Idealize.ShloMosaic.Lib.Pipeline.Launch
import Idealize.ShloMosaic.Lib.Pipeline.Kit
import Idealize.ShloMosaic.Lib.Tactic

noncomputable section

namespace Cert.KernelIdealProto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_canon] dev1_eq dev2_eq dev3_eq dev4_eq dev5_eq dev6_eq dev7_eq dev8_eq dev9_eq dev10_eq dev11_eq dev12_eq dev13_eq dev14_eq

/-- A product over seven indices, written out. -/
theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A slot's full share as an equation: its two halves. -/
theorem slot_halves_eq (c s : Dev nD) :
    slotPts m c s fullShare = iprop(slotPts m c s fullShare.left ∗ slotPts m c s fullShare.right) :=
  BI.equiv_iff.mp ⟨(slot_halves m c s).1, (slot_halves m c s).2⟩

/-- A slot's right half as an equation: the seven lent shares and the remainder. -/
theorem slot_lend_eq (c s : Dev nD) :
    slotPts m c s fullShare.right
      = iprop((slotPts m c s (shr 0) ∗ slotPts m c s (shr 1) ∗ slotPts m c s (shr 2) ∗ slotPts m c s (shr 3)
          ∗ slotPts m c s (shr 4) ∗ slotPts m c s (shr 5) ∗ slotPts m c s (shr 6)) ∗ slotPts m c s (rem 7)) := by
  rw [← bigSep_fin7 (fun d : Fin 7 => slotPts m c s (shr d))]
  exact BI.equiv_iff.mp ⟨(slot_lend m c s).1, (slot_lend m c s).2⟩

/-- The whole table at any contents: the device's own slot and its seven peers' slots. -/
theorem split_table (c : Dev nD) (f : Buf (Elt F) (tLoc c)) :
    (tLoc c ↦{fullShare} f : sProp 𝕄)
      ⊢ iprop((tLoc c ↦[slotSet c c]{fullShare} f) ∗ (tLoc c ↦[slotSet c (peer 0 c)]{fullShare} f)
          ∗ (tLoc c ↦[slotSet c (peer 1 c)]{fullShare} f) ∗ (tLoc c ↦[slotSet c (peer 2 c)]{fullShare} f)
          ∗ (tLoc c ↦[slotSet c (peer 3 c)]{fullShare} f) ∗ (tLoc c ↦[slotSet c (peer 4 c)]{fullShare} f)
          ∗ (tLoc c ↦[slotSet c (peer 5 c)]{fullShare} f) ∗ (tLoc c ↦[slotSet c (peer 6 c)]{fullShare} f)) := by
  rw [table_slots, bigSep_dev_peers c, bigSep_fin7]

/-- The device's own slot, owned whole: its left half, what remains of the right half, and the seven lent shares. -/
theorem lend_own (c : Dev nD) :
    slotPts m c c fullShare
      ⊢ iprop(slotPts m c c fullShare.left ∗ slotPts m c c (rem 7) ∗ slotPts m c c (shr 0) ∗ slotPts m c c (shr 1)
          ∗ slotPts m c c (shr 2) ∗ slotPts m c c (shr 3) ∗ slotPts m c c (shr 4) ∗ slotPts m c c (shr 5)
          ∗ slotPts m c c (shr 6)) := by
  rw [slot_halves_eq, slot_lend_eq]
  iintro ⟨HL, ⟨H0, H1, H2, H3, H4, H5, H6⟩, HR⟩
  iframe

/-- The seven slots the peers gave up, peer by peer: the slot of peer `d` comes as duty number `6 - d`. -/
theorem peers_slots (c : Dev nD) :
    (bigSep Finset.univ (fun r : Fin 7 => slotAny (F := F) (from_ r c) c) : sProp 𝕄)
      ⊢ iprop((∃ fd : Buf (Elt F) (tLoc (peer 0 c)), tLoc (peer 0 c) ↦[slotSet (peer 0 c) c]{fullShare} fd)
          ∗ (∃ fd : Buf (Elt F) (tLoc (peer 1 c)), tLoc (peer 1 c) ↦[slotSet (peer 1 c) c]{fullShare} fd)
          ∗ (∃ fd : Buf (Elt F) (tLoc (peer 2 c)), tLoc (peer 2 c) ↦[slotSet (peer 2 c) c]{fullShare} fd)
          ∗ (∃ fd : Buf (Elt F) (tLoc (peer 3 c)), tLoc (peer 3 c) ↦[slotSet (peer 3 c) c]{fullShare} fd)
          ∗ (∃ fd : Buf (Elt F) (tLoc (peer 4 c)), tLoc (peer 4 c) ↦[slotSet (peer 4 c) c]{fullShare} fd)
          ∗ (∃ fd : Buf (Elt F) (tLoc (peer 5 c)), tLoc (peer 5 c) ↦[slotSet (peer 5 c) c]{fullShare} fd)
          ∗ (∃ fd : Buf (Elt F) (tLoc (peer 6 c)), tLoc (peer 6 c) ↦[slotSet (peer 6 c) c]{fullShare} fd)) := by
  have h : ∀ d : Fin 7, slotAny (F := F) (from_ (Fin.rev d) c) c
      = iprop(∃ fd : Buf (Elt F) (tLoc (peer d c)), tLoc (peer d c) ↦[slotSet (peer d c) c]{fullShare} fd) :=
    fun d => by rw [from_rev]; rfl
  rw [bigSep_fin7, ← h 0, ← h 1, ← h 2, ← h 3, ← h 4, ← h 5, ← h 6]
  iintro ⟨H0, H1, H2, H3, H4, H5, H6⟩
  isplitl [H6]; · iexact H6
  isplitl [H5]; · iexact H5
  isplitl [H4]; · iexact H4
  isplitl [H3]; · iexact H3
  isplitl [H2]; · iexact H2
  isplitl [H1]; · iexact H1
  iexact H0

/-- The own slot's left half and the seven received slots: the whole table at the left half share, and the right
    halves of the received slots. -/
theorem table_for_load (c : Dev nD) :
    iprop(slotPts m c c fullShare.left ∗ slotPts m c (from_ 0 c) fullShare ∗ slotPts m c (from_ 1 c) fullShare
        ∗ slotPts m c (from_ 2 c) fullShare ∗ slotPts m c (from_ 3 c) fullShare ∗ slotPts m c (from_ 4 c) fullShare
        ∗ slotPts m c (from_ 5 c) fullShare ∗ slotPts m c (from_ 6 c) fullShare)
      ⊢ iprop((tLoc c ↦[Finset.univ]{fullShare.left} tblAll m) ∗ slotPts m c (from_ 0 c) fullShare.right
          ∗ slotPts m c (from_ 1 c) fullShare.right ∗ slotPts m c (from_ 2 c) fullShare.right
          ∗ slotPts m c (from_ 3 c) fullShare.right ∗ slotPts m c (from_ 4 c) fullShare.right
          ∗ slotPts m c (from_ 5 c) fullShare.right ∗ slotPts m c (from_ 6 c) fullShare.right) := by
  rw [slot_halves_eq m c (from_ 0 c), slot_halves_eq m c (from_ 1 c), slot_halves_eq m c (from_ 2 c),
    slot_halves_eq m c (from_ 3 c), slot_halves_eq m c (from_ 4 c), slot_halves_eq m c (from_ 5 c),
    slot_halves_eq m c (from_ 6 c), ← table_whole m c fullShare.left, bigSep_dev_froms c, bigSep_fin7]
  iintro ⟨HL, ⟨L0, R0⟩, ⟨L1, R1⟩, ⟨L2, R2⟩, ⟨L3, R3⟩, ⟨L4, R4⟩, ⟨L5, R5⟩, ⟨L6, R6⟩⟩
  iframe

/-- Every share of every slot back: the table at the left half share, the right halves of the received slots, and the
    remainder and the seven lent shares of the own slot make the whole table at the full share. -/
theorem table_back (c : Dev nD) :
    iprop((tLoc c ↦[Finset.univ]{fullShare.left} tblAll m)
        ∗ (slotPts m c (from_ 0 c) fullShare.right ∗ slotPts m c (from_ 1 c) fullShare.right
          ∗ slotPts m c (from_ 2 c) fullShare.right ∗ slotPts m c (from_ 3 c) fullShare.right
          ∗ slotPts m c (from_ 4 c) fullShare.right ∗ slotPts m c (from_ 5 c) fullShare.right
          ∗ slotPts m c (from_ 6 c) fullShare.right)
        ∗ slotPts m c c (rem 7) ∗ slotPts m c c (shr 0) ∗ slotPts m c c (shr 1) ∗ slotPts m c c (shr 2)
        ∗ slotPts m c c (shr 3) ∗ slotPts m c c (shr 4) ∗ slotPts m c c (shr 5) ∗ slotPts m c c (shr 6))
      ⊢ iprop(∃ f : Buf (Elt F) (tLoc c), tLoc c ↦{fullShare} f) := by
  refine BIBase.Entails.trans ?_ (table_join m c)
  rw [bigSep_dev_froms c (fun s => slotPts m c s fullShare), bigSep_fin7, slot_halves_eq m c c, slot_lend_eq m c c,
    slot_halves_eq m c (from_ 0 c), slot_halves_eq m c (from_ 1 c), slot_halves_eq m c (from_ 2 c),
    slot_halves_eq m c (from_ 3 c), slot_halves_eq m c (from_ 4 c), slot_halves_eq m c (from_ 5 c),
    slot_halves_eq m c (from_ 6 c), ← table_whole m c fullShare.left, bigSep_dev_froms c, bigSep_fin7]
  iintro ⟨⟨HL, L0, L1, L2, L3, L4, L5, L6⟩, ⟨R0, R1, R2, R3, R4, R5, R6⟩, HR, H0, H1, H2, H3, H4, H5, H6⟩
  iframe

/-! ## Each statement above stands on the three standard axioms only -/

/-- info: 'Cert.KernelIdealProto.bigSep_fin7' depends on axioms: [propext, Classical.choice, Quot.sound] -/
#guard_msgs in #print axioms bigSep_fin7

/-- info: 'Cert.KernelIdealProto.slot_halves_eq' depends on axioms: [propext, Classical.choice, Quot.sound] -/
#guard_msgs in #print axioms slot_halves_eq

/-- info: 'Cert.KernelIdealProto.slot_lend_eq' depends on axioms: [propext, Classical.choice, Quot.sound] -/
#guard_msgs in #print axioms slot_lend_eq

/-- info: 'Cert.KernelIdealProto.split_table' depends on axioms: [propext, Classical.choice, Quot.sound] -/
#guard_msgs in #print axioms split_table

/-- info: 'Cert.KernelIdealProto.lend_own' depends on axioms: [propext, Classical.choice, Quot.sound] -/
#guard_msgs in #print axioms lend_own

/-- info: 'Cert.KernelIdealProto.peers_slots' depends on axioms: [propext, Classical.choice, Quot.sound] -/
#guard_msgs in #print axioms peers_slots

/-- info: 'Cert.KernelIdealProto.table_for_load' depends on axioms: [propext, Classical.choice, Quot.sound] -/
#guard_msgs in #print axioms table_for_load

/-- info: 'Cert.KernelIdealProto.table_back' depends on axioms: [propext, Classical.choice, Quot.sound] -/
#guard_msgs in #print axioms table_back

end Cert.KernelIdealProto

end
-- ==== Proof.PartsB.lean ====
/-
  The seven copies out, part by part of the printed body: copy number `d` lends the share `shr d` of the device's own
  slot, fills slot `c` of the table of the device `d + 1` places after, pays that device's receive cell number `c`
  and leaves the device a credit on its own send cell `d`.
-/
import proofs.«901054_g7700000000001055_dist_softmax_colshard_i_m1024_n1024_v7x_i8_f32_1_alg».proof.Proof.Proto
import proofs.«901054_g7700000000001055_dist_softmax_colshard_i_m1024_n1024_v7x_i8_f32_1_alg».proof.Proof.ProtoLemmas
import proofs.«901054_g7700000000001055_dist_softmax_colshard_i_m1024_n1024_v7x_i8_f32_1_alg».proof.Proof.ProtoLemmas2
import proofs.«901054_g7700000000001055_dist_softmax_colshard_i_m1024_n1024_v7x_i8_f32_1_alg».proof.Proof.Slots
import proofs.«901054_g7700000000001055_dist_softmax_colshard_i_m1024_n1024_v7x_i8_f32_1_alg».proof.Proof.Steps
import Idealize.ShloMosaic.Lib.Pipeline.Launch
import Idealize.ShloMosaic.Lib.Pipeline.Kit
import Idealize.ShloMosaic.Lib.Tactic

noncomputable section

namespace Cert.KernelIdealProto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_canon] dev1_eq dev2_eq dev3_eq dev4_eq dev5_eq dev6_eq dev7_eq dev8_eq dev9_eq dev10_eq dev11_eq dev12_eq dev13_eq dev14_eq

/-! ## The printed semaphores -/

/-- The receive semaphore a device's copies credit on their targets is the one bearing its own number. -/
theorem recvQ_own (c : Dev nD) :
    ((cc0_scratch2.slice (Rect.unit (s := S8) (k0_off2 c) S1.size (k0_off2_inb c))).squeeze S_ squeezes_S1_S_).sem = recvQ c := by
  revert c; decide +kernel

/-- Copy number `d` completes, on the sender, on send semaphore `d`. -/
theorem sendS_0 : ((cc0_scratch1.slice (Rect.unit (s := S7) ![0] S1.size inb_S7_S1_0)).squeeze S_ squeezes_S1_S_).sem = sendQ 0 := by decide +kernel
theorem sendS_1 : ((cc0_scratch1.slice (Rect.unit (s := S7) ![1] S1.size inb_S7_S1_1)).squeeze S_ squeezes_S1_S_).sem = sendQ 1 := by decide +kernel
theorem sendS_2 : ((cc0_scratch1.slice (Rect.unit (s := S7) ![2] S1.size inb_S7_S1_2)).squeeze S_ squeezes_S1_S_).sem = sendQ 2 := by decide +kernel
theorem sendS_3 : ((cc0_scratch1.slice (Rect.unit (s := S7) ![3] S1.size inb_S7_S1_3)).squeeze S_ squeezes_S1_S_).sem = sendQ 3 := by decide +kernel
theorem sendS_4 : ((cc0_scratch1.slice (Rect.unit (s := S7) ![4] S1.size inb_S7_S1_4)).squeeze S_ squeezes_S1_S_).sem = sendQ 4 := by decide +kernel
theorem sendS_5 : ((cc0_scratch1.slice (Rect.unit (s := S7) ![5] S1.size inb_S7_S1_5)).squeeze S_ squeezes_S1_S_).sem = sendQ 5 := by decide +kernel
theorem sendS_6 : ((cc0_scratch1.slice (Rect.unit (s := S7) ![6] S1.size inb_S7_S1_6)).squeeze S_ squeezes_S1_S_).sem = sendQ 6 := by decide +kernel

abbrev R5 : Type := Σ' (v162 : BitVec 32) (v163 : BitVec 32) (v164 : BitVec 1), BitVec 1
abbrev R6 : Type := Σ' (v202 : BitVec 32), BitVec 32
abbrev R8 : Type := Σ' (v267 : BitVec 32) (v268 : BitVec 32) (v269 : BitVec 1), BitVec 1

/-! ## The parts -/

set_option maxHeartbeats 1600000 in
/-- Copies number 0 and 1. -/
theorem part5_spec (K : Dev nD × Fin 15 → ℕ) (c : Dev nD) (Q : R5 → sProp 𝕄) (v2 : BitVec 32)
    (fd0 : Buf (Elt F) (tLoc (peer 0 c))) (fd1 : Buf (Elt F) (tLoc (peer 1 c))) (O : CellTallies nD τ sig Unit) (W : Waits sig Unit) :
    iprop(cellInv ER (sched m) (K (c, sIdx 0)) (sendCell c 0) ∗ cellInv ER (sched m) (K (peer 0 c, rIdx 0)) (recvCell (peer 0 c) c)
        ∗ cellInv ER (sched m) (K (c, sIdx 1)) (sendCell c 1) ∗ cellInv ER (sched m) (K (peer 1 c, rIdx 1)) (recvCell (peer 1 c) c)
        ∗ reached ER (sendCell c 0) 0 ∗ reached ER (recvCell (peer 0 c) c) 0
        ∗ reached ER (sendCell c 1) 0 ∗ reached ER (recvCell (peer 1 c) c) 0
        ∗ owes (c : Thread nD τ) (O + tallyAt (recvCell (peer 1 c) c) () N + tallyAt (recvCell (peer 0 c) c) () N) W
        ∗ dutyTok ER (sendCell c 0) 0 0 ∗ dutyTok ER (recvCell (peer 0 c) c) 0 0
        ∗ dutyTok ER (sendCell c 1) 0 0 ∗ dutyTok ER (recvCell (peer 1 c) c) 0 0
        ∗ slotPts m c c (shr 0) ∗ slotPts m c c (shr 1)
        ∗ (tLoc (peer 0 c) ↦[slotSet (peer 0 c) c]{fullShare} fd0) ∗ (tLoc (peer 1 c) ↦[slotSet (peer 1 c) c]{fullShare} fd1)
        ∗ (∀ r : R5, cred (tallyAt (sendCell c 0) () N) -∗ cred (tallyAt (sendCell c 1) () N) -∗ owes (c : Thread nD τ) O W -∗ Q r))
      ⊢ wp frame (wpE (defs₀ (F := F)) 𝒱₀ c none) Set.univ
          (k0_part5 (F := F) xM (Memref.isWhole_whole _) oM (Memref.isWhole_whole _) tM (Memref.isWhole_whole _) cc0_scratch1 cc0_scratch2 c v2) Q := by
  iintro ⟨#HIs0, #HIr0, #HIs1, #HIr1, #HRs0, #HRr0, #HRs1, #HRr1, HO, Hts0, Htr0, Hts1, Htr1, Hsh0, Hsh1, Hd0, Hd1, Hk⟩
  sl_exec
  iapply (send_step m K c 0 ⟨k0_dev8 c, k0_dev8_lt c⟩ (dev8_eq c)
      ((cc0_scratch1.slice (Rect.unit (s := S7) ![0] S1.size inb_S7_S1_0)).squeeze S_ squeezes_S1_S_).sem
      ((cc0_scratch2.slice (Rect.unit (s := S8) (k0_off2 c) S1.size (k0_off2_inb c))).squeeze S_ squeezes_S1_S_).sem
      sendS_0 (recvQ_own c) fd0 (O + tallyAt (recvCell (peer 1 c) c) () N) W (land_slot m (peer 0 c) c fd0)) $$ [HO Hts0 Htr0 Hsh0 Hd0]
  · isplitr; · iexact HIs0
    isplitr; · iexact HIr0
    isplitl [Hsh0]; · iexact Hsh0
    isplitl [Hd0]; · iexact Hd0
    isplitl [HO]; · iexact HO
    isplitl [Hts0]; · iexact Hts0
    isplitr; · iexact HRs0
    isplitl [Htr0]; · iexact Htr0
    iexact HRr0
  iintro ⟨Hc0, HO⟩
  sl_exec
  iapply (send_step m K c 1 ⟨k0_dev9 c, k0_dev9_lt c⟩ (dev9_eq c)
      ((cc0_scratch1.slice (Rect.unit (s := S7) ![1] S1.size inb_S7_S1_1)).squeeze S_ squeezes_S1_S_).sem
      ((cc0_scratch2.slice (Rect.unit (s := S8) (k0_off2 c) S1.size (k0_off2_inb c))).squeeze S_ squeezes_S1_S_).sem
      sendS_1 (recvQ_own c) fd1 (O) W (land_slot m (peer 1 c) c fd1)) $$ [HO Hts1 Htr1 Hsh1 Hd1]
  · isplitr; · iexact HIs1
    isplitr; · iexact HIr1
    isplitl [Hsh1]; · iexact Hsh1
    isplitl [Hd1]; · iexact Hd1
    isplitl [HO]; · iexact HO
    isplitl [Hts1]; · iexact Hts1
    isplitr; · iexact HRs1
    isplitl [Htr1]; · iexact Htr1
    iexact HRr1
  iintro ⟨Hc1, HO⟩
  sl_exec
  sl_step
  iapply Hk $$ [Hc0] [Hc1] [HO]
  · iexact Hc0
  · iexact Hc1
  · iexact HO

set_option maxHeartbeats 1600000 in
/-- Copies number 2 and 3. -/
theorem part6_spec (K : Dev nD × Fin 15 → ℕ) (c : Dev nD) (Q : R6 → sProp 𝕄) (v2 v162 v163 : BitVec 32) (v164 v167 : BitVec 1)
    (fd2 : Buf (Elt F) (tLoc (peer 2 c))) (fd3 : Buf (Elt F) (tLoc (peer 3 c))) (O : CellTallies nD τ sig Unit) (W : Waits sig Unit) :
    iprop(cellInv ER (sched m) (K (c, sIdx 2)) (sendCell c 2) ∗ cellInv ER (sched m) (K (peer 2 c, rIdx 2)) (recvCell (peer 2 c) c)
        ∗ cellInv ER (sched m) (K (c, sIdx 3)) (sendCell c 3) ∗ cellInv ER (sched m) (K (peer 3 c, rIdx 3)) (recvCell (peer 3 c) c)
        ∗ reached ER (sendCell c 2) 0 ∗ reached ER (recvCell (peer 2 c) c) 0
        ∗ reached ER (sendCell c 3) 0 ∗ reached ER (recvCell (peer 3 c) c) 0
        ∗ owes (c : Thread nD τ) (O + tallyAt (recvCell (peer 3 c) c) () N + tallyAt (recvCell (peer 2 c) c) () N) W
        ∗ dutyTok ER (sendCell c 2) 0 0 ∗ dutyTok ER (recvCell (peer 2 c) c) 0 0
        ∗ dutyTok ER (sendCell c 3) 0 0 ∗ dutyTok ER (recvCell (peer 3 c) c) 0 0
        ∗ slotPts m c c (shr 2) ∗ slotPts m c c (shr 3)
        ∗ (tLoc (peer 2 c) ↦[slotSet (peer 2 c) c]{fullShare} fd2) ∗ (tLoc (peer 3 c) ↦[slotSet (peer 3 c) c]{fullShare} fd3)
        ∗ (∀ r : R6, cred (tallyAt (sendCell c 2) () N) -∗ cred (tallyAt (sendCell c 3) () N) -∗ owes (c : Thread nD τ) O W -∗ Q r))
      ⊢ wp frame (wpE (defs₀ (F := F)) 𝒱₀ c none) Set.univ
          (k0_part6 (F := F) xM (Memref.isWhole_whole _) oM (Memref.isWhole_whole _) tM (Memref.isWhole_whole _) cc0_scratch1 cc0_scratch2 c v2 v162 v163 v164 v167) Q := by
  iintro ⟨#HIs2, #HIr2, #HIs3, #HIr3, #HRs2, #HRr2, #HRs3, #HRr3, HO, Hts2, Htr2, Hts3, Htr3, Hsh2, Hsh3, Hd2, Hd3, Hk⟩
  sl_exec
  iapply (send_step m K c 2 ⟨k0_dev10 c, k0_dev10_lt c⟩ (dev10_eq c)
      ((cc0_scratch1.slice (Rect.unit (s := S7) ![2] S1.size inb_S7_S1_2)).squeeze S_ squeezes_S1_S_).sem
      ((cc0_scratch2.slice (Rect.unit (s := S8) (k0_off2 c) S1.size (k0_off2_inb c))).squeeze S_ squeezes_S1_S_).sem
      sendS_2 (recvQ_own c) fd2 (O + tallyAt (recvCell (peer 3 c) c) () N) W (land_slot m (peer 2 c) c fd2)) $$ [HO Hts2 Htr2 Hsh2 Hd2]
  · isplitr; · iexact HIs2
    isplitr; · iexact HIr2
    isplitl [Hsh2]; · iexact Hsh2
    isplitl [Hd2]; · iexact Hd2
    isplitl [HO]; · iexact HO
    isplitl [Hts2]; · iexact Hts2
    isplitr; · iexact HRs2
    isplitl [Htr2]; · iexact Htr2
    iexact HRr2
  iintro ⟨Hc2, HO⟩
  sl_exec
  iapply (send_step m K c 3 ⟨k0_dev11 c, k0_dev11_lt c⟩ (dev11_eq c)
      ((cc0_scratch1.slice (Rect.unit (s := S7) ![3] S1.size inb_S7_S1_3)).squeeze S_ squeezes_S1_S_).sem
      ((cc0_scratch2.slice (Rect.unit (s := S8) (k0_off2 c) S1.size (k0_off2_inb c))).squeeze S_ squeezes_S1_S_).sem
      sendS_3 (recvQ_own c) fd3 (O) W (land_slot m (peer 3 c) c fd3)) $$ [HO Hts3 Htr3 Hsh3 Hd3]
  · isplitr; · iexact HIs3
    isplitr; · iexact HIr3
    isplitl [Hsh3]; · iexact Hsh3
    isplitl [Hd3]; · iexact Hd3
    isplitl [HO]; · iexact HO
    isplitl [Hts3]; · iexact Hts3
    isplitr; · iexact HRs3
    isplitl [Htr3]; · iexact Htr3
    iexact HRr3
  iintro ⟨Hc3, HO⟩
  sl_exec
  sl_step
  iapply Hk $$ [Hc2] [Hc3] [HO]
  · iexact Hc2
  · iexact Hc3
  · iexact HO

set_option maxHeartbeats 1600000 in
/-- Copy number 4. -/
theorem part7_spec (K : Dev nD × Fin 15 → ℕ) (c : Dev nD) (Q : PUnit → sProp 𝕄) (v2 v202 c8_i32_129 : BitVec 32)
    (fd4 : Buf (Elt F) (tLoc (peer 4 c))) (O : CellTallies nD τ sig Unit) (W : Waits sig Unit) :
    iprop(cellInv ER (sched m) (K (c, sIdx 4)) (sendCell c 4) ∗ cellInv ER (sched m) (K (peer 4 c, rIdx 4)) (recvCell (peer 4 c) c)
        ∗ reached ER (sendCell c 4) 0 ∗ reached ER (recvCell (peer 4 c) c) 0
        ∗ owes (c : Thread nD τ) (O + tallyAt (recvCell (peer 4 c) c) () N) W
        ∗ dutyTok ER (sendCell c 4) 0 0 ∗ dutyTok ER (recvCell (peer 4 c) c) 0 0
        ∗ slotPts m c c (shr 4)
        ∗ (tLoc (peer 4 c) ↦[slotSet (peer 4 c) c]{fullShare} fd4)
        ∗ (cred (tallyAt (sendCell c 4) () N) -∗ owes (c : Thread nD τ) O W -∗ Q ⟨⟩))
      ⊢ wp frame (wpE (defs₀ (F := F)) 𝒱₀ c none) Set.univ
          (k0_part7 (F := F) xM (Memref.isWhole_whole _) oM (Memref.isWhole_whole _) tM (Memref.isWhole_whole _) cc0_scratch1 cc0_scratch2 c v2 v202 c8_i32_129) Q := by
  iintro ⟨#HIs4, #HIr4, #HRs4, #HRr4, HO, Hts4, Htr4, Hsh4, Hd4, Hk⟩
  sl_exec
  iapply (send_step m K c 4 ⟨k0_dev12 c, k0_dev12_lt c⟩ (dev12_eq c)
      ((cc0_scratch1.slice (Rect.unit (s := S7) ![4] S1.size inb_S7_S1_4)).squeeze S_ squeezes_S1_S_).sem
      ((cc0_scratch2.slice (Rect.unit (s := S8) (k0_off2 c) S1.size (k0_off2_inb c))).squeeze S_ squeezes_S1_S_).sem
      sendS_4 (recvQ_own c) fd4 (O) W (land_slot m (peer 4 c) c fd4)) $$ [HO Hts4 Htr4 Hsh4 Hd4]
  · isplitr; · iexact HIs4
    isplitr; · iexact HIr4
    isplitl [Hsh4]; · iexact Hsh4
    isplitl [Hd4]; · iexact Hd4
    isplitl [HO]; · iexact HO
    isplitl [Hts4]; · iexact Hts4
    isplitr; · iexact HRs4
    isplitl [Htr4]; · iexact Htr4
    iexact HRr4
  iintro ⟨Hc4, HO⟩
  sl_exec
  sl_step
  iapply Hk $$ [Hc4] [HO]
  · iexact Hc4
  · iexact HO

set_option maxHeartbeats 1600000 in
/-- Copies number 5 and 6. -/
theorem part8_spec (K : Dev nD × Fin 15 → ℕ) (c : Dev nD) (Q : R8 → sProp 𝕄) (v2 : BitVec 32)
    (fd5 : Buf (Elt F) (tLoc (peer 5 c))) (fd6 : Buf (Elt F) (tLoc (peer 6 c))) (O : CellTallies nD τ sig Unit) (W : Waits sig Unit) :
    iprop(cellInv ER (sched m) (K (c, sIdx 5)) (sendCell c 5) ∗ cellInv ER (sched m) (K (peer 5 c, rIdx 5)) (recvCell (peer 5 c) c)
        ∗ cellInv ER (sched m) (K (c, sIdx 6)) (sendCell c 6) ∗ cellInv ER (sched m) (K (peer 6 c, rIdx 6)) (recvCell (peer 6 c) c)
        ∗ reached ER (sendCell c 5) 0 ∗ reached ER (recvCell (peer 5 c) c) 0
        ∗ reached ER (sendCell c 6) 0 ∗ reached ER (recvCell (peer 6 c) c) 0
        ∗ owes (c : Thread nD τ) (O + tallyAt (recvCell (peer 6 c) c) () N + tallyAt (recvCell (peer 5 c) c) () N) W
        ∗ dutyTok ER (sendCell c 5) 0 0 ∗ dutyTok ER (recvCell (peer 5 c) c) 0 0
        ∗ dutyTok ER (sendCell c 6) 0 0 ∗ dutyTok ER (recvCell (peer 6 c) c) 0 0
        ∗ slotPts m c c (shr 5) ∗ slotPts m c c (shr 6)
        ∗ (tLoc (peer 5 c) ↦[slotSet (peer 5 c) c]{fullShare} fd5) ∗ (tLoc (peer 6 c) ↦[slotSet (peer 6 c) c]{fullShare} fd6)
        ∗ (∀ r : R8, cred (tallyAt (sendCell c 5) () N) -∗ cred (tallyAt (sendCell c 6) () N) -∗ owes (c : Thread nD τ) O W -∗ Q r))
      ⊢ wp frame (wpE (defs₀ (F := F)) 𝒱₀ c none) Set.univ
          (k0_part8 (F := F) xM (Memref.isWhole_whole _) oM (Memref.isWhole_whole _) tM (Memref.isWhole_whole _) cc0_scratch1 cc0_scratch2 c v2) Q := by
  iintro ⟨#HIs5, #HIr5, #HIs6, #HIr6, #HRs5, #HRr5, #HRs6, #HRr6, HO, Hts5, Htr5, Hts6, Htr6, Hsh5, Hsh6, Hd5, Hd6, Hk⟩
  sl_exec
  iapply (send_step m K c 5 ⟨k0_dev13 c, k0_dev13_lt c⟩ (dev13_eq c)
      ((cc0_scratch1.slice (Rect.unit (s := S7) ![5] S1.size inb_S7_S1_5)).squeeze S_ squeezes_S1_S_).sem
      ((cc0_scratch2.slice (Rect.unit (s := S8) (k0_off2 c) S1.size (k0_off2_inb c))).squeeze S_ squeezes_S1_S_).sem
      sendS_5 (recvQ_own c) fd5 (O + tallyAt (recvCell (peer 6 c) c) () N) W (land_slot m (peer 5 c) c fd5)) $$ [HO Hts5 Htr5 Hsh5 Hd5]
  · isplitr; · iexact HIs5
    isplitr; · iexact HIr5
    isplitl [Hsh5]; · iexact Hsh5
    isplitl [Hd5]; · iexact Hd5
    isplitl [HO]; · iexact HO
    isplitl [Hts5]; · iexact Hts5
    isplitr; · iexact HRs5
    isplitl [Htr5]; · iexact Htr5
    iexact HRr5
  iintro ⟨Hc5, HO⟩
  sl_exec
  iapply (send_step m K c 6 ⟨k0_dev14 c, k0_dev14_lt c⟩ (dev14_eq c)
      ((cc0_scratch1.slice (Rect.unit (s := S7) ![6] S1.size inb_S7_S1_6)).squeeze S_ squeezes_S1_S_).sem
      ((cc0_scratch2.slice (Rect.unit (s := S8) (k0_off2 c) S1.size (k0_off2_inb c))).squeeze S_ squeezes_S1_S_).sem
      sendS_6 (recvQ_own c) fd6 (O) W (land_slot m (peer 6 c) c fd6)) $$ [HO Hts6 Htr6 Hsh6 Hd6]
  · isplitr; · iexact HIs6
    isplitr; · iexact HIr6
    isplitl [Hsh6]; · iexact Hsh6
    isplitl [Hd6]; · iexact Hd6
    isplitl [HO]; · iexact HO
    isplitl [Hts6]; · iexact Hts6
    isplitr; · iexact HRs6
    isplitl [Htr6]; · iexact Htr6
    iexact HRr6
  iintro ⟨Hc6, HO⟩
  sl_exec
  sl_step
  iapply Hk $$ [Hc5] [Hc6] [HO]
  · iexact Hc5
  · iexact Hc6
  · iexact HO

/-- info: 'Cert.KernelIdealProto.part5_spec' depends on axioms: [propext, Classical.choice, Quot.sound] -/
#guard_msgs in #print axioms part5_spec

/-- info: 'Cert.KernelIdealProto.part6_spec' depends on axioms: [propext, Classical.choice, Quot.sound] -/
#guard_msgs in #print axioms part6_spec

/-- info: 'Cert.KernelIdealProto.part7_spec' depends on axioms: [propext, Classical.choice, Quot.sound] -/
#guard_msgs in #print axioms part7_spec

/-- info: 'Cert.KernelIdealProto.part8_spec' depends on axioms: [propext, Classical.choice, Quot.sound] -/
#guard_msgs in #print axioms part8_spec

end Cert.KernelIdealProto

end
-- ==== Proof.PartsC.lean ====
/-
  One device's body, the waits for the seven copies addressed to it and the reading of the table: each wait returns
  the slot of the device the copy came from, holding the final table; with all eight slots in hand the whole table
  is read, and the global maximum and the rescaled sum are terms of it.
-/
import proofs.«901054_g7700000000001055_dist_softmax_colshard_i_m1024_n1024_v7x_i8_f32_1_alg».proof.Proof.Proto
import proofs.«901054_g7700000000001055_dist_softmax_colshard_i_m1024_n1024_v7x_i8_f32_1_alg».proof.Proof.ProtoLemmas
import proofs.«901054_g7700000000001055_dist_softmax_colshard_i_m1024_n1024_v7x_i8_f32_1_alg».proof.Proof.ProtoLemmas2
import proofs.«901054_g7700000000001055_dist_softmax_colshard_i_m1024_n1024_v7x_i8_f32_1_alg».proof.Proof.Slots
import proofs.«901054_g7700000000001055_dist_softmax_colshard_i_m1024_n1024_v7x_i8_f32_1_alg».proof.Proof.Steps
import Idealize.ShloMosaic.Lib.Pipeline.Launch
import Idealize.ShloMosaic.Lib.Pipeline.Kit
import Idealize.ShloMosaic.Lib.Tactic

noncomputable section

namespace Cert.KernelIdealProto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_canon] dev1_eq dev2_eq dev3_eq dev4_eq dev5_eq dev6_eq dev7_eq dev8_eq dev9_eq dev10_eq dev11_eq dev12_eq dev13_eq dev14_eq

/-! ## The receive semaphores by number -/

/-- A one-semaphore block of the eight receive semaphores lies inside the array. -/
theorem recv_inb (s : Dev nD) : ∀ a, (![s.val] : Fin 1 → Nat) a + S1.size a ≤ S8.size a := by
  intro a; have h : s.val < 8 := s.isLt; fin_cases a; show s.val + 1 ≤ 8; omega

/-- The receive semaphore at place `s` of the array of eight is the one bearing the number `s`. -/
theorem recvSem_at : ∀ s : Dev nD,
    ((cc0_scratch2.slice (Rect.unit (s := S8) ![s.val] S1.size (recv_inb s))).squeeze S_ squeezes_S1_S_).sem = recvQ s := by
  decide

/-- The receive semaphore the wait number `r` names is the one bearing the number of the device `r + 1` places
    before. -/
theorem recvSem_eq (c : Dev nD) (r : Fin 7) :
    ((cc0_scratch2.slice (Rect.unit (s := S8) (k0_off4 c (BitVec.ofNat 32 (1 + r.val))) S1.size (k0_off4_inb c r))).squeeze S_ squeezes_S1_S_).sem
      = recvQ (from_ r c) :=
  (congrArg (fun a : DmaSems sig S1 => (a.squeeze S_ squeezes_S1_S_).sem)
    (SemArray.slice_unit_congr cc0_scratch2 (off4_eq c r) (k0_off4_inb c r) (recv_inb (from_ r c)))).trans (recvSem_at (from_ r c))

/-! ## The stretches of the body -/

abbrev R9 : Type := Σ' (v303 : BitVec 32), BitVec 32

/-- Receive waits number 0 and 1. -/
theorem part9_spec (K : Dev nD × Fin 15 → ℕ) (c : Dev nD) (Q : R9 → sProp 𝕄) (v2 v267 v268 : BitVec 32) (v269 v272 : BitVec 1) (W : Waits sig Unit) :
    iprop(cellInv ER (sched m) (K (c, rIdx 0)) (recvCell c (from_ 0 c)) ∗ cellInv ER (sched m) (K (c, rIdx 1)) (recvCell c (from_ 1 c))
        ∗ cred (tallyAt (recvCell c (from_ 0 c)) () N) ∗ cred (tallyAt (recvCell c (from_ 1 c)) () N)
        ∗ owes (c : Thread nD τ) 0 W ∗ atPos ER (recvCell c (from_ 0 c)) 0 ∅ 0 ∗ atPos ER (recvCell c (from_ 1 c)) 0 ∅ 0
        ∗ (∀ r : R9, owes (c : Thread nD τ) 0 (insert (SemLoc.dma (recvQ (from_ 1 c)), ()) (insert (SemLoc.dma (recvQ (from_ 0 c)), ()) W))
            -∗ atPos ER (recvCell c (from_ 0 c)) 1 ∅ 0 -∗ atPos ER (recvCell c (from_ 1 c)) 1 ∅ 0
            -∗ slotPts m c (from_ 0 c) fullShare -∗ slotPts m c (from_ 1 c) fullShare -∗ Q r))
      ⊢ wp frame (wpE (defs₀ (F := F)) 𝒱₀ c none) Set.univ
          (k0_part9 (F := F) xM (Memref.isWhole_whole _) oM (Memref.isWhole_whole _) tM (Memref.isWhole_whole _) cc0_scratch1 cc0_scratch2 c v2 v267 v268 v269 v272) Q := by
  iintro ⟨#HI0, #HI1, Hc0, Hc1, HO, Hat0, Hat1, Hk⟩
  sl_exec
  iapply (recv_wait_step m K c 0 _ (recvSem_eq c 0) _ _ W) $$ [Hc0 HO Hat0]
  · isplitr; · iexact HI0
    isplitl [Hc0]; · iexact Hc0
    isplitl [HO]; · iexact HO
    iexact Hat0
  iintro ⟨HO, Hat0, Hs0⟩
  sl_exec
  iapply (recv_wait_step m K c 1 _ (recvSem_eq c 1) _ _ _) $$ [Hc1 HO Hat1]
  · isplitr; · iexact HI1
    isplitl [Hc1]; · iexact Hc1
    isplitl [HO]; · iexact HO
    iexact Hat1
  iintro ⟨HO, Hat1, Hs1⟩
  sl_exec
  sl_step
  iapply Hk $$ HO Hat0 Hat1 Hs0 Hs1

/-- Receive wait number 2. -/
theorem part10_spec (K : Dev nD × Fin 15 → ℕ) (c : Dev nD) (Q : PUnit → sProp 𝕄) (v2 v303 v305 : BitVec 32) (W : Waits sig Unit) :
    iprop(cellInv ER (sched m) (K (c, rIdx 2)) (recvCell c (from_ 2 c)) ∗ cred (tallyAt (recvCell c (from_ 2 c)) () N)
        ∗ owes (c : Thread nD τ) 0 W ∗ atPos ER (recvCell c (from_ 2 c)) 0 ∅ 0
        ∗ (owes (c : Thread nD τ) 0 (insert (SemLoc.dma (recvQ (from_ 2 c)), ()) W) -∗ atPos ER (recvCell c (from_ 2 c)) 1 ∅ 0
            -∗ slotPts m c (from_ 2 c) fullShare -∗ Q ⟨⟩))
      ⊢ wp frame (wpE (defs₀ (F := F)) 𝒱₀ c none) Set.univ
          (k0_part10 (F := F) xM (Memref.isWhole_whole _) oM (Memref.isWhole_whole _) tM (Memref.isWhole_whole _) cc0_scratch1 cc0_scratch2 c v2 v303 v305) Q := by
  iintro ⟨#HI, Hc, HO, Hat, Hk⟩
  sl_exec
  iapply (recv_wait_step m K c 2 _ (recvSem_eq c 2) _ _ W) $$ [Hc HO Hat]
  · isplitr; · iexact HI
    isplitl [Hc]; · iexact Hc
    isplitl [HO]; · iexact HO
    iexact Hat
  iintro ⟨HO, Hat, Hs⟩
  sl_exec
  sl_step
  iapply Hk $$ HO Hat Hs

/-- Receive waits number 3 and 4. -/
theorem part11_spec (K : Dev nD × Fin 15 → ℕ) (c : Dev nD) (Q : PUnit → sProp 𝕄) (v2 : BitVec 32) (W : Waits sig Unit) :
    iprop(cellInv ER (sched m) (K (c, rIdx 3)) (recvCell c (from_ 3 c)) ∗ cellInv ER (sched m) (K (c, rIdx 4)) (recvCell c (from_ 4 c))
        ∗ cred (tallyAt (recvCell c (from_ 3 c)) () N) ∗ cred (tallyAt (recvCell c (from_ 4 c)) () N)
        ∗ owes (c : Thread nD τ) 0 W ∗ atPos ER (recvCell c (from_ 3 c)) 0 ∅ 0 ∗ atPos ER (recvCell c (from_ 4 c)) 0 ∅ 0
        ∗ (owes (c : Thread nD τ) 0 (insert (SemLoc.dma (recvQ (from_ 4 c)), ()) (insert (SemLoc.dma (recvQ (from_ 3 c)), ()) W))
            -∗ atPos ER (recvCell c (from_ 3 c)) 1 ∅ 0 -∗ atPos ER (recvCell c (from_ 4 c)) 1 ∅ 0
            -∗ slotPts m c (from_ 3 c) fullShare -∗ slotPts m c (from_ 4 c) fullShare -∗ Q ⟨⟩))
      ⊢ wp frame (wpE (defs₀ (F := F)) 𝒱₀ c none) Set.univ
          (k0_part11 (F := F) xM (Memref.isWhole_whole _) oM (Memref.isWhole_whole _) tM (Memref.isWhole_whole _) cc0_scratch1 cc0_scratch2 c v2) Q := by
  iintro ⟨#HI3, #HI4, Hc3, Hc4, HO, Hat3, Hat4, Hk⟩
  sl_exec
  iapply (recv_wait_step m K c 3 _ (recvSem_eq c 3) _ _ W) $$ [Hc3 HO Hat3]
  · isplitr; · iexact HI3
    isplitl [Hc3]; · iexact Hc3
    isplitl [HO]; · iexact HO
    iexact Hat3
  iintro ⟨HO, Hat3, Hs3⟩
  sl_exec
  iapply (recv_wait_step m K c 4 _ (recvSem_eq c 4) _ _ _) $$ [Hc4 HO Hat4]
  · isplitr; · iexact HI4
    isplitl [Hc4]; · iexact Hc4
    isplitl [HO]; · iexact HO
    iexact Hat4
  iintro ⟨HO, Hat4, Hs4⟩
  sl_exec
  sl_step
  iapply Hk $$ HO Hat3 Hat4 Hs3 Hs4

abbrev R12 (F : FTy → Type) [FloatOps F] : Type := Σ' (v407 : FVec F S1x1024 .f32), FVec F S1x1024 .f32

/-- Receive waits number 5 and 6, then the table read whole at the left half share: the global maximum and the
    rescaled sum are terms of the final table. The last two slots arrive inside this stretch, so the whole table is
    put together here, by the wand `A`, from them and whatever else the caller holds; `B` is what is left over. -/
theorem part12_spec (K : Dev nD × Fin 15 → ℕ) (c : Dev nD) (Q : R12 F → sProp 𝕄) (v2 : BitVec 32) (v113 : FVec F S2x1024 .f32)
    (W : Waits sig Unit) (B : sProp 𝕄) :
    iprop(cellInv ER (sched m) (K (c, rIdx 5)) (recvCell c (from_ 5 c)) ∗ cellInv ER (sched m) (K (c, rIdx 6)) (recvCell c (from_ 6 c))
        ∗ cred (tallyAt (recvCell c (from_ 5 c)) () N) ∗ cred (tallyAt (recvCell c (from_ 6 c)) () N)
        ∗ owes (c : Thread nD τ) 0 W ∗ atPos ER (recvCell c (from_ 5 c)) 0 ∅ 0 ∗ atPos ER (recvCell c (from_ 6 c)) 0 ∅ 0
        ∗ (slotPts m c (from_ 5 c) fullShare -∗ slotPts m c (from_ 6 c) fullShare
            -∗ iprop((tLoc c ↦[Finset.univ]{fullShare.left} tblAll m) ∗ B))
        ∗ (∀ r : R12 F, ⌜r.1 = k0_pay10 (tblAll m) ∧ r.2 = k0_pay11 v113 (tblAll m)⌝
            -∗ owes (c : Thread nD τ) 0 (insert (SemLoc.dma (recvQ (from_ 6 c)), ()) (insert (SemLoc.dma (recvQ (from_ 5 c)), ()) W))
            -∗ atPos ER (recvCell c (from_ 5 c)) 1 ∅ 0 -∗ atPos ER (recvCell c (from_ 6 c)) 1 ∅ 0
            -∗ (tLoc c ↦[Finset.univ]{fullShare.left} tblAll m) -∗ B -∗ Q r))
      ⊢ wp frame (wpE (defs₀ (F := F)) 𝒱₀ c none) Set.univ
          (k0_part12 (F := F) xM (Memref.isWhole_whole _) oM (Memref.isWhole_whole _) tM (Memref.isWhole_whole _) cc0_scratch1 cc0_scratch2 c v2 v113) Q := by
  iintro ⟨#HI5, #HI6, Hc5, Hc6, HO, Hat5, Hat6, HA, Hk⟩
  rw [k0_part12_eq_skeleton]
  sl_exec
  iapply (recv_wait_step m K c 5 _ (recvSem_eq c 5) _ _ W) $$ [Hc5 HO Hat5]
  · isplitr; · iexact HI5
    isplitl [Hc5]; · iexact Hc5
    isplitl [HO]; · iexact HO
    iexact Hat5
  iintro ⟨HO, Hat5, Hs5⟩
  sl_exec
  iapply (recv_wait_step m K c 6 _ (recvSem_eq c 6) _ _ _) $$ [Hc6 HO Hat6]
  · isplitr; · iexact HI6
    isplitl [Hc6]; · iexact Hc6
    isplitl [HO]; · iexact HO
    iexact Hat6
  iintro ⟨HO, Hat6, Hs6⟩
  ihave HT := HA $$ Hs5 Hs6
  icases HT with ⟨Ht, HB⟩
  iapply (wp_load 𝒱₀ (c : Thread nD τ) none Set.univ (m := tM) (Finset.subset_univ _)) $$ [Ht]
  · iexact Ht
  iintro Ht
  rw [load_table m]
  simp only [Prog.bind]
  sl_step
  iapply Hk $$ %_ %⟨rfl, rfl⟩ HO Hat5 Hat6 Ht HB

/-! ## Each statement above stands on the three standard axioms only -/

/-- info: 'Cert.KernelIdealProto.recvSem_eq' depends on axioms: [propext, Classical.choice, Quot.sound] -/
#guard_msgs in #print axioms recvSem_eq

/-- info: 'Cert.KernelIdealProto.part9_spec' depends on axioms: [propext, Classical.choice, Quot.sound] -/
#guard_msgs in #print axioms part9_spec

/-- info: 'Cert.KernelIdealProto.part10_spec' depends on axioms: [propext, Classical.choice, Quot.sound] -/
#guard_msgs in #print axioms part10_spec

/-- info: 'Cert.KernelIdealProto.part11_spec' depends on axioms: [propext, Classical.choice, Quot.sound] -/
#guard_msgs in #print axioms part11_spec

/-- info: 'Cert.KernelIdealProto.part12_spec' depends on axioms: [propext, Classical.choice, Quot.sound] -/
#guard_msgs in #print axioms part12_spec

end Cert.KernelIdealProto

end
-- ==== Proof.PartsD.lean ====
/-
  The last part of one device's body, stepped from the exchange's ghost state: the device scales its block of
  `exp (x - max)` by its row factors and stores the result over the result buffer, then waits on its send cells 0, 1
  and 2, each wait handing back the share of its own slot that copy borrowed. The four waits that end the body, on
  send cells 3 to 6, are stated the same way over the program that lists them.
-/
import proofs.«901054_g7700000000001055_dist_softmax_colshard_i_m1024_n1024_v7x_i8_f32_1_alg».proof.Proof.Proto
import proofs.«901054_g7700000000001055_dist_softmax_colshard_i_m1024_n1024_v7x_i8_f32_1_alg».proof.Proof.ProtoLemmas
import proofs.«901054_g7700000000001055_dist_softmax_colshard_i_m1024_n1024_v7x_i8_f32_1_alg».proof.Proof.ProtoLemmas2
import proofs.«901054_g7700000000001055_dist_softmax_colshard_i_m1024_n1024_v7x_i8_f32_1_alg».proof.Proof.Slots
import proofs.«901054_g7700000000001055_dist_softmax_colshard_i_m1024_n1024_v7x_i8_f32_1_alg».proof.Proof.Steps
import Idealize.ShloMosaic.Lib.Pipeline.Launch
import Idealize.ShloMosaic.Lib.Pipeline.Kit
import Idealize.ShloMosaic.Lib.Tactic

noncomputable section

namespace Cert.KernelIdealProto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_canon] dev1_eq dev2_eq dev3_eq dev4_eq dev5_eq dev6_eq dev7_eq dev8_eq dev9_eq dev10_eq dev11_eq dev12_eq dev13_eq dev14_eq

omit [FloatOps F] in
theorem zero_offsets : (![0, 0] : Fin 2 → Nat) = fun _ => 0 := funext fun a => by fin_cases a <;> rfl

/-- The whole-buffer rectangle the result is loaded and stored through. -/
abbrev rOut : Rect S1024x1024 := Rect.unit (s := S1024x1024) ![0, 0] S1024x1024.size inb_S1024x1024_S1024x1024_0_0

omit [FloatOps F] in
/-- A load of the whole result buffer reads its contents, -/
theorem read_out (g : (cc0_stg1_0 : Ref sig .tc).ty.Contents (Elt F)) :
    (oM : Memref sig .tc .vmem S1024x1024 .f32).view.readAt (Elt F) rOut.toLoadRect g = g :=
  Memref.readAt_unit_zero (Elt F) cc0_stg1_0 zero_offsets _ g
omit [FloatOps F] in
/-- and one store of the whole buffer leaves what was stored. -/
theorem stored_out (g w : (cc0_stg1_0 : Ref sig .tc).ty.Contents (Elt F)) :
    (oM : Memref sig .tc .vmem S1024x1024 .f32).view.writes (Elt F) g [⟨rOut, w⟩] = w := by
  rw [View.writes_singleton]
  exact Memref.write_access_unit_zero_univ (Elt F) cc0_stg1_0 zero_offsets inb_S1024x1024_S1024x1024_0_0 g w

/-- What the wait on send cell `d` hands back: the share of the device's own slot that copy borrowed. -/
theorem pay_send (c : Dev nD) (d : Fin 7) :
    bigSep ((sched (F := F) m).duties (sendCell c d) 0) (fun k => (sched (F := F) m).payload (sendCell c d) 0 k) = slotPts m c c (shr d) := by
  rw [duties_send, bigSep_singleton, payload_send]

set_option maxHeartbeats 1600000 in
/-- Part 13: the result is stored whole, `k0_pay12` of the identity matrix's payload, the global sum row, the
    difference row and what the buffer held; then the waits on send cells 0, 1, 2. -/
theorem part13_spec (K : Dev nD × Fin 15 → ℕ) (c : Dev nD) (Q : PUnit → sProp 𝕄)
    (v101 : FVec F S1024x1024 .f32) (v407 v409 : FVec F S1x1024 .f32)
    (g : Vec F S1024x1024 .f32) (W : Waits sig Unit) :
    iprop(cellInv ER (sched m) (K (c, sIdx 0)) (sendCell c 0) ∗ cellInv ER (sched m) (K (c, sIdx 1)) (sendCell c 1)
        ∗ cellInv ER (sched m) (K (c, sIdx 2)) (sendCell c 2)
        ∗ cred (tallyAt (sendCell c 0) () N) ∗ cred (tallyAt (sendCell c 1) () N) ∗ cred (tallyAt (sendCell c 2) () N)
        ∗ atPos ER (sendCell c 0) 0 ∅ 0 ∗ atPos ER (sendCell c 1) 0 ∅ 0 ∗ atPos ER (sendCell c 2) 0 ∅ 0
        ∗ owes (c : Thread nD τ) 0 W
        ∗ ((oM : Memref sig .tc .vmem S1024x1024 .f32).view.loc (c : Thread nD τ) ↦{fullShare} g)
        ∗ ((owes (c : Thread nD τ) 0 (insert (SemLoc.dma (sendQ 2), ()) (insert (SemLoc.dma (sendQ 1), ()) (insert (SemLoc.dma (sendQ 0), ()) W)))
              ∗ atPos ER (sendCell c 0) 1 ∅ 0 ∗ atPos ER (sendCell c 1) 1 ∅ 0 ∗ atPos ER (sendCell c 2) 1 ∅ 0
              ∗ slotPts m c c (shr 0) ∗ slotPts m c c (shr 1) ∗ slotPts m c c (shr 2)
              ∗ ((oM : Memref sig .tc .vmem S1024x1024 .f32).view.loc (c : Thread nD τ) ↦{fullShare} (k0_pay12 v101 v407 v409 g))) -∗ Q ⟨⟩))
      ⊢ wp frame (wpE (defs₀ (F := F)) 𝒱₀ c none) Set.univ
          (k0_part13 (F := F) xM (Memref.isWhole_whole _) oM (Memref.isWhole_whole _) tM (Memref.isWhole_whole _) cc0_scratch1 cc0_scratch2 c v101 v407 v409) Q := by
  iintro ⟨#HI0, #HI1, #HI2, Hc0, Hc1, Hc2, Ha0, Ha1, Ha2, HO, Hg, Hk⟩
  sl_exec
  sl_step
  rw [read_out, stored_out]
  iapply Hk
  isplitl [HO]; · iexact HO
  isplitl [Ha0]; · iexact Ha0
  isplitl [Ha1]; · iexact Ha1
  isplitl [Ha2]; · iexact Ha2
  isplitl [Ha0_pay1]; · iapply (Entails.of_eq (pay_send m c 0)); iexact Ha0_pay1
  isplitl [Ha1_pay1]; · iapply (Entails.of_eq (pay_send m c 1)); iexact Ha1_pay1
  isplitl [Ha2_pay1]; · iapply (Entails.of_eq (pay_send m c 2)); iexact Ha2_pay1
  iexact Hg

/-- The last four statements of the body: the waits on send cells 3, 4, 5 and 6, each naming the device's own slot as
    both ends of the copy it waits for. -/
def sendWaits36 (c : Dev nD) : Prog (TpuEff nD τ sig (Elt F) Λ₀ .tc) PUnit := do
  Prog.lift (.waitDma2 ((cc0_scratch1.slice (Rect.unit (s := S7) ![3] S1.size inb_S7_S1_3)).squeeze S_ squeezes_S1_S_).sem (slotM c) (slotM c) ((View.wordExact_bits rfl).reshape _ _) ((View.wordExact_bits rfl).reshape _ _))
  Prog.lift (.waitDma2 ((cc0_scratch1.slice (Rect.unit (s := S7) ![4] S1.size inb_S7_S1_4)).squeeze S_ squeezes_S1_S_).sem (slotM c) (slotM c) ((View.wordExact_bits rfl).reshape _ _) ((View.wordExact_bits rfl).reshape _ _))
  Prog.lift (.waitDma2 ((cc0_scratch1.slice (Rect.unit (s := S7) ![5] S1.size inb_S7_S1_5)).squeeze S_ squeezes_S1_S_).sem (slotM c) (slotM c) ((View.wordExact_bits rfl).reshape _ _) ((View.wordExact_bits rfl).reshape _ _))
  Prog.lift (.waitDma2 ((cc0_scratch1.slice (Rect.unit (s := S7) ![6] S1.size inb_S7_S1_6)).squeeze S_ squeezes_S1_S_).sem (slotM c) (slotM c) ((View.wordExact_bits rfl).reshape _ _) ((View.wordExact_bits rfl).reshape _ _))
  pure ⟨⟩

set_option maxHeartbeats 1600000 in
theorem sendWaits36_spec (K : Dev nD × Fin 15 → ℕ) (c : Dev nD) (Q : PUnit → sProp 𝕄) (W : Waits sig Unit) :
    iprop(cellInv ER (sched m) (K (c, sIdx 3)) (sendCell c 3) ∗ cellInv ER (sched m) (K (c, sIdx 4)) (sendCell c 4)
        ∗ cellInv ER (sched m) (K (c, sIdx 5)) (sendCell c 5) ∗ cellInv ER (sched m) (K (c, sIdx 6)) (sendCell c 6)
        ∗ cred (tallyAt (sendCell c 3) () N) ∗ cred (tallyAt (sendCell c 4) () N) ∗ cred (tallyAt (sendCell c 5) () N)
        ∗ cred (tallyAt (sendCell c 6) () N)
        ∗ atPos ER (sendCell c 3) 0 ∅ 0 ∗ atPos ER (sendCell c 4) 0 ∅ 0 ∗ atPos ER (sendCell c 5) 0 ∅ 0 ∗ atPos ER (sendCell c 6) 0 ∅ 0
        ∗ owes (c : Thread nD τ) 0 W
        ∗ ((owes (c : Thread nD τ) 0 (insert (SemLoc.dma (sendQ 6), ()) (insert (SemLoc.dma (sendQ 5), ()) (insert (SemLoc.dma (sendQ 4), ()) (insert (SemLoc.dma (sendQ 3), ()) W))))
              ∗ atPos ER (sendCell c 3) 1 ∅ 0 ∗ atPos ER (sendCell c 4) 1 ∅ 0 ∗ atPos ER (sendCell c 5) 1 ∅ 0 ∗ atPos ER (sendCell c 6) 1 ∅ 0
              ∗ slotPts m c c (shr 3) ∗ slotPts m c c (shr 4) ∗ slotPts m c c (shr 5) ∗ slotPts m c c (shr 6)) -∗ Q ⟨⟩))
      ⊢ wp frame (wpE (defs₀ (F := F)) 𝒱₀ c none) Set.univ (sendWaits36 (F := F) c) Q := by
  iintro ⟨#HI3, #HI4, #HI5, #HI6, Hc3, Hc4, Hc5, Hc6, Ha3, Ha4, Ha5, Ha6, HO, Hk⟩
  unfold sendWaits36
  sl_exec
  sl_step
  iapply Hk
  isplitl [HO]; · iexact HO
  isplitl [Ha3]; · iexact Ha3
  isplitl [Ha4]; · iexact Ha4
  isplitl [Ha5]; · iexact Ha5
  isplitl [Ha6]; · iexact Ha6
  isplitl [Ha3_pay1]; · iapply (Entails.of_eq (pay_send m c 3)); iexact Ha3_pay1
  isplitl [Ha4_pay1]; · iapply (Entails.of_eq (pay_send m c 4)); iexact Ha4_pay1
  isplitl [Ha5_pay1]; · iapply (Entails.of_eq (pay_send m c 5)); iexact Ha5_pay1
  iapply (Entails.of_eq (pay_send m c 6)); iexact Ha6_pay1

/-- info: 'Cert.KernelIdealProto.part13_spec' depends on axioms: [propext, Classical.choice, Quot.sound] -/
#guard_msgs in #print axioms part13_spec
/-- info: 'Cert.KernelIdealProto.sendWaits36_spec' depends on axioms: [propext, Classical.choice, Quot.sound] -/
#guard_msgs in #print axioms sendWaits36_spec

end Cert.KernelIdealProto

end
-- ==== Proof.Body.lean ====
/-
  One device's whole body against the exchange's ghost state. Its table is cut into its eight slots; the seven signals
  give the peers' slots away; the block's `exp (x - max)` goes to the result buffer and its statistics into the device's
  own slot, whose points-to is then halved, the right half lent out in seven shares; the wait for seven units brings
  each peer's slot number `c`, into which the seven copies write; the seven receive waits bring the peers' statistics;
  the left halves of all eight slots make the whole table for the one load that reads it; the result buffer is
  rescaled; the seven send waits bring the lent shares back. At the end every slot is back at the full share, the
  fourteen cells are closed with their counters at zero, and the result buffer holds the device's result.
-/
import proofs.«901054_g7700000000001055_dist_softmax_colshard_i_m1024_n1024_v7x_i8_f32_1_alg».proof.Proof.Proto
import proofs.«901054_g7700000000001055_dist_softmax_colshard_i_m1024_n1024_v7x_i8_f32_1_alg».proof.Proof.ProtoLemmas
import proofs.«901054_g7700000000001055_dist_softmax_colshard_i_m1024_n1024_v7x_i8_f32_1_alg».proof.Proof.ProtoLemmas2
import proofs.«901054_g7700000000001055_dist_softmax_colshard_i_m1024_n1024_v7x_i8_f32_1_alg».proof.Proof.Slots
import proofs.«901054_g7700000000001055_dist_softmax_colshard_i_m1024_n1024_v7x_i8_f32_1_alg».proof.Proof.Steps
import proofs.«901054_g7700000000001055_dist_softmax_colshard_i_m1024_n1024_v7x_i8_f32_1_alg».proof.Proof.PartsA
import proofs.«901054_g7700000000001055_dist_softmax_colshard_i_m1024_n1024_v7x_i8_f32_1_alg».proof.Proof.Part4
import proofs.«901054_g7700000000001055_dist_softmax_colshard_i_m1024_n1024_v7x_i8_f32_1_alg».proof.Proof.Glue
import proofs.«901054_g7700000000001055_dist_softmax_colshard_i_m1024_n1024_v7x_i8_f32_1_alg».proof.Proof.PartsB
import proofs.«901054_g7700000000001055_dist_softmax_colshard_i_m1024_n1024_v7x_i8_f32_1_alg».proof.Proof.PartsC
import proofs.«901054_g7700000000001055_dist_softmax_colshard_i_m1024_n1024_v7x_i8_f32_1_alg».proof.Proof.PartsD
import Idealize.ShloMosaic.Lib.Pipeline.Launch
import Idealize.ShloMosaic.Lib.Pipeline.Kit
import Idealize.ShloMosaic.Lib.Tactic

noncomputable section

namespace Cert.KernelIdealProto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(Φ₁ c ∗ (dats m 0 c).owesAt () t0_0.succ ∗ stg c cc0_stg0_0 (xblk m c) ∗ stg c cc0_stg1_0 (outAt m c))

set_option maxHeartbeats 4000000 in
set_option maxRecDepth 16384 in
theorem sound_body (c : Dev nD) (Kt : PUnit → sProp 𝕄) :
    iprop(bodyPre m c ∗ (bodyPost m c -∗ Kt ⟨⟩))
      ⊢ wp frame (wpE (defs₀ (F := F)) 𝒱₀ c none) Set.univ
          (cc0_body (F := F) xM (Memref.isWhole_whole _) oM (Memref.isWhole_whole _) tM (Memref.isWhole_whole _) cc0_scratch1 cc0_scratch2) Kt := by
  simp only [cc0_body_eq_skeleton]; unfold cc0_body_skel
  simp only [wp_bind, Prog.lift]
  unfold bodyPre Φ₀ start ghost invs reacheds positions payToks
  simp only [bigSep_fin7]
  iintro ⟨⟨⟨⟨⟨%K, ⟨#HIb, ⟨#HIs0, #HIs1, #HIs2, #HIs3, #HIs4, #HIs5, #HIs6⟩, ⟨#HIr0, #HIr1, #HIr2, #HIr3, #HIr4, #HIr5, #HIr6⟩, ⟨#HIpb0, #HIpb1, #HIpb2, #HIpb3, #HIpb4, #HIpb5, #HIpb6⟩, ⟨#HIpr0, #HIpr1, #HIpr2, #HIpr3, #HIpr4, #HIpr5, #HIpr6⟩⟩, ⟨⟨#HRb0, #HRb1, #HRb2, #HRb3, #HRb4, #HRb5, #HRb6⟩, ⟨#HRs0, #HRs1, #HRs2, #HRs3, #HRs4, #HRs5, #HRs6⟩, ⟨#HRr0, #HRr1, #HRr2, #HRr3, #HRr4, #HRr5, #HRr6⟩⟩, ⟨HatB, ⟨HatS0, HatS1, HatS2, HatS3, HatS4, HatS5, HatS6⟩, ⟨HatR0, HatR1, HatR2, HatR3, HatR4, HatR5, HatR6⟩⟩, ⟨⟨HtB0, HtB1, HtB2, HtB3, HtB4, HtB5, HtB6⟩, ⟨HtS0, HtS1, HtS2, HtS3, HtS4, HtS5, HtS6⟩, ⟨HtR0, HtR1, HtR2, HtR3, HtR4, HtR5, HtR6⟩⟩⟩, HcB, ⟨HcR0, HcR1, HcR2, HcR3, HcR4, HcR5, HcR6⟩, #Hlev, HsvU⟩, ⟨%f0, Htab⟩⟩, Ho, ⟨%d0, %g0, %hg0, Hx⟩, ⟨%d1, %g1, %hg1, Hout⟩⟩, Hk⟩
  unfold Dat.owesAt Pipeline.owesWithin
  icases Ho with ⟨%W, %hW, HO⟩
  rw [show (dats m 0 c).owed t0_0.castSucc = owe c 14 from rfl]
  have hx : g0 = xblk m c := by rw [hg0]; unfold Dat.before; rw [if_pos (fetch0_0 t0_0)]; rfl
  subst hx
  ihave Hsl := (split_table c f0) $$ Htab
  icases Hsl with ⟨Hown, Hs0, Hs1, Hs2, Hs3, Hs4, Hs5, Hs6⟩
  -- the seven signals
  rw [owe_peel0 c, owe_peel1 c]
  iapply (part1_spec m K c _ f0 (owe c 12) W)
  isplitr; · iexact HIpb0
  isplitr; · iexact HIpb1
  isplitr; · iexact HRb0
  isplitr; · iexact HRb1
  isplitl [HO]; · iexact HO
  isplitl [HtB0]; · iexact HtB0
  isplitl [HtB1]; · iexact HtB1
  isplitl [Hs0]; · iexact Hs0
  isplitl [Hs1]; · iexact Hs1
  iintro %r1 %hr1 HO
  obtain ⟨d0, v2, v3, v30, c8, v31⟩ := r1
  obtain ⟨hd0, hv3⟩ := hr1
  simp only at hd0 hv3
  subst d0 v3
  rw [owe_peel2 c, owe_peel3 c]
  iapply (part2_spec m K c _ f0 (owe c 10) W v2 v30 c8 v31)
  isplitr; · iexact HIpb2
  isplitr; · iexact HIpb3
  isplitr; · iexact HRb2
  isplitr; · iexact HRb3
  isplitl [HO]; · iexact HO
  isplitl [HtB2]; · iexact HtB2
  isplitl [HtB3]; · iexact HtB3
  isplitl [Hs2]; · iexact Hs2
  isplitl [Hs3]; · iexact Hs3
  iintro %r2 HO
  rw [owe_peel4 c, owe_peel5 c, owe_peel6 c]
  iapply (part3_spec m K c _ f0 (owe c 7) W v2 r2.1 r2.2.2 r2.2.1)
  isplitr; · iexact HIpb4
  isplitr; · iexact HIpb5
  isplitr; · iexact HIpb6
  isplitr; · iexact HRb4
  isplitr; · iexact HRb5
  isplitr; · iexact HRb6
  isplitl [HO]; · iexact HO
  isplitl [HtB4]; · iexact HtB4
  isplitl [HtB5]; · iexact HtB5
  isplitl [HtB6]; · iexact HtB6
  isplitl [Hs4]; · iexact Hs4
  isplitl [Hs5]; · iexact Hs5
  isplitl [Hs6]; · iexact Hs6
  iintro %r3 %hr3 HO
  obtain ⟨v96, v98⟩ := r3
  obtain ⟨h96, h98⟩ := hr3
  simp only at h96 h98
  subst v96 v98
  try dsimp only
  iapply (part4_spec m K c _ v2 g1 f0 W)
  isplitr; · iexact HIb
  isplitr; · iexact Hlev
  isplitl [Hx]; · iexact Hx
  isplitl [Hout]; · iexact Hout
  isplitl [Hown]; · iexact Hown
  isplitl [HcB]; · iexact HcB
  isplitl [HO]; · iexact HO
  isplitl [HatB]; · iexact HatB
  iintro %r4 %hr4 Hx Hout Hown HO HatB Hpeers
  obtain ⟨v101, v113⟩ := r4
  obtain ⟨h101, h113⟩ := hr4
  simp only at h101 h113
  subst v101 v113
  ihave Hps := (peers_slots (F := F) c) $$ Hpeers
  icases Hps with ⟨⟨%fd0, Hp0⟩, ⟨%fd1, Hp1⟩, ⟨%fd2, Hp2⟩, ⟨%fd3, Hp3⟩, ⟨%fd4, Hp4⟩, ⟨%fd5, Hp5⟩, ⟨%fd6, Hp6⟩⟩
  ihave Hl := (lend_own m c) $$ Hown
  icases Hl with ⟨HownL, HownR7, Hsh0, Hsh1, Hsh2, Hsh3, Hsh4, Hsh5, Hsh6⟩
  -- the seven copies out
  try dsimp only
  rw [owe_peel7 c, owe_peel8 c]
  iapply (part5_spec m K c _ v2 fd0 fd1 (owe c 5) (insert (SemLoc.reg barS, ()) W))
  isplitr; · iexact HIs0
  isplitr; · iexact HIpr0
  isplitr; · iexact HIs1
  isplitr; · iexact HIpr1
  isplitr; · iexact HRs0
  isplitr; · iexact HRr0
  isplitr; · iexact HRs1
  isplitr; · iexact HRr1
  isplitl [HO]; · iexact HO
  isplitl [HtS0]; · iexact HtS0
  isplitl [HtR0]; · iexact HtR0
  isplitl [HtS1]; · iexact HtS1
  isplitl [HtR1]; · iexact HtR1
  isplitl [Hsh0]; · iexact Hsh0
  isplitl [Hsh1]; · iexact Hsh1
  isplitl [Hp0]; · iexact Hp0
  isplitl [Hp1]; · iexact Hp1
  iintro %r5 HcS0 HcS1 HO
  rw [owe_peel9 c, owe_peel10 c]
  iapply (part6_spec m K c _ v2 r5.1 r5.2.1 r5.2.2.1 r5.2.2.2 fd2 fd3 (owe c 3) (insert (SemLoc.reg barS, ()) W))
  isplitr; · iexact HIs2
  isplitr; · iexact HIpr2
  isplitr; · iexact HIs3
  isplitr; · iexact HIpr3
  isplitr; · iexact HRs2
  isplitr; · iexact HRr2
  isplitr; · iexact HRs3
  isplitr; · iexact HRr3
  isplitl [HO]; · iexact HO
  isplitl [HtS2]; · iexact HtS2
  isplitl [HtR2]; · iexact HtR2
  isplitl [HtS3]; · iexact HtS3
  isplitl [HtR3]; · iexact HtR3
  isplitl [Hsh2]; · iexact Hsh2
  isplitl [Hsh3]; · iexact Hsh3
  isplitl [Hp2]; · iexact Hp2
  isplitl [Hp3]; · iexact Hp3
  iintro %r6 HcS2 HcS3 HO
  rw [owe_peel11 c]
  iapply (part7_spec m K c _ v2 r6.1 r6.2 fd4 (owe c 2) (insert (SemLoc.reg barS, ()) W))
  isplitr; · iexact HIs4
  isplitr; · iexact HIpr4
  isplitr; · iexact HRs4
  isplitr; · iexact HRr4
  isplitl [HO]; · iexact HO
  isplitl [HtS4]; · iexact HtS4
  isplitl [HtR4]; · iexact HtR4
  isplitl [Hsh4]; · iexact Hsh4
  isplitl [Hp4]; · iexact Hp4
  iintro HcS4 HO
  rw [owe_peel12 c, owe_peel13 c]
  iapply (part8_spec m K c _ v2 fd5 fd6 (owe c 0) (insert (SemLoc.reg barS, ()) W))
  isplitr; · iexact HIs5
  isplitr; · iexact HIpr5
  isplitr; · iexact HIs6
  isplitr; · iexact HIpr6
  isplitr; · iexact HRs5
  isplitr; · iexact HRr5
  isplitr; · iexact HRs6
  isplitr; · iexact HRr6
  isplitl [HO]; · iexact HO
  isplitl [HtS5]; · iexact HtS5
  isplitl [HtR5]; · iexact HtR5
  isplitl [HtS6]; · iexact HtS6
  isplitl [HtR6]; · iexact HtR6
  isplitl [Hsh5]; · iexact Hsh5
  isplitl [Hsh6]; · iexact Hsh6
  isplitl [Hp5]; · iexact Hp5
  isplitl [Hp6]; · iexact Hp6
  iintro %r8 HcS5 HcS6 HO
  rw [owe_zero c]
  -- the seven copies in
  try dsimp only
  iapply (part9_spec m K c _ v2 r8.1 r8.2.1 r8.2.2.1 r8.2.2.2 _)
  isplitr; · iexact HIr0
  isplitr; · iexact HIr1
  isplitl [HcR0]; · iexact HcR0
  isplitl [HcR1]; · iexact HcR1
  isplitl [HO]; · iexact HO
  isplitl [HatR0]; · iexact HatR0
  isplitl [HatR1]; · iexact HatR1
  iintro %r9 HO HatR0 HatR1 Hsl0 Hsl1
  iapply (part10_spec m K c _ v2 r9.1 r9.2 _)
  isplitr; · iexact HIr2
  isplitl [HcR2]; · iexact HcR2
  isplitl [HO]; · iexact HO
  isplitl [HatR2]; · iexact HatR2
  iintro HO HatR2 Hsl2
  iapply (part11_spec m K c _ v2 _)
  isplitr; · iexact HIr3
  isplitr; · iexact HIr4
  isplitl [HcR3]; · iexact HcR3
  isplitl [HcR4]; · iexact HcR4
  isplitl [HO]; · iexact HO
  isplitl [HatR3]; · iexact HatR3
  isplitl [HatR4]; · iexact HatR4
  iintro HO HatR3 HatR4 Hsl3 Hsl4
  iapply (part12_spec m K c _ v2 (Fn.stats (xblk m c)) _ iprop(slotPts m c (from_ 0 c) fullShare.right ∗ slotPts m c (from_ 1 c) fullShare.right ∗ slotPts m c (from_ 2 c) fullShare.right ∗ slotPts m c (from_ 3 c) fullShare.right ∗ slotPts m c (from_ 4 c) fullShare.right ∗ slotPts m c (from_ 5 c) fullShare.right ∗ slotPts m c (from_ 6 c) fullShare.right))
  isplitr; · iexact HIr5
  isplitr; · iexact HIr6
  isplitl [HcR5]; · iexact HcR5
  isplitl [HcR6]; · iexact HcR6
  isplitl [HO]; · iexact HO
  isplitl [HatR5]; · iexact HatR5
  isplitl [HatR6]; · iexact HatR6
  isplitl [HownL Hsl0 Hsl1 Hsl2 Hsl3 Hsl4]
  · iintro Hsl5 Hsl6
    iapply (table_for_load m c)
    isplitl [HownL]; · iexact HownL
    isplitl [Hsl0]; · iexact Hsl0
    isplitl [Hsl1]; · iexact Hsl1
    isplitl [Hsl2]; · iexact Hsl2
    isplitl [Hsl3]; · iexact Hsl3
    isplitl [Hsl4]; · iexact Hsl4
    isplitl [Hsl5]; · iexact Hsl5
    iexact Hsl6
  iintro %r12 %hr12 HO HatR5 HatR6 Htbl HB
  obtain ⟨v407, v409⟩ := r12
  obtain ⟨h407, h409⟩ := hr12
  simp only at h407 h409
  subst v407 v409
  -- the last of the softmax, and the first three waits for the copies out
  try dsimp only
  iapply (part13_spec m K c _ Fn.eye (k0_pay10 (tblAll m)) (k0_pay11 (Fn.stats (xblk m c)) (tblAll m)) (k0_pay5 (xblk m c)) _)
  isplitr; · iexact HIs0
  isplitr; · iexact HIs1
  isplitr; · iexact HIs2
  isplitl [HcS0]; · iexact HcS0
  isplitl [HcS1]; · iexact HcS1
  isplitl [HcS2]; · iexact HcS2
  isplitl [HatS0]; · iexact HatS0
  isplitl [HatS1]; · iexact HatS1
  isplitl [HatS2]; · iexact HatS2
  isplitl [HO]; · iexact HO
  isplitl [Hout]; · iexact Hout
  iintro ⟨HO, HatS0, HatS1, HatS2, Hsh0, Hsh1, Hsh2, Hout⟩
  -- the last four waits for the copies out
  iapply (send_wait_step m K c 3 _ (sendS_3) _ _ _) $$ [HcS3 HO HatS3]
  · isplitr; · iexact HIs3
    isplitl [HcS3]; · iexact HcS3
    isplitl [HO]; · iexact HO
    iexact HatS3
  iintro ⟨HO, HatS3, Hsh3⟩
  rw [wp_ret]; imodintro
  iapply (send_wait_step m K c 4 _ (sendS_4) _ _ _) $$ [HcS4 HO HatS4]
  · isplitr; · iexact HIs4
    isplitl [HcS4]; · iexact HcS4
    isplitl [HO]; · iexact HO
    iexact HatS4
  iintro ⟨HO, HatS4, Hsh4⟩
  rw [wp_ret]; imodintro
  iapply (send_wait_step m K c 5 _ (sendS_5) _ _ _) $$ [HcS5 HO HatS5]
  · isplitr; · iexact HIs5
    isplitl [HcS5]; · iexact HcS5
    isplitl [HO]; · iexact HO
    iexact HatS5
  iintro ⟨HO, HatS5, Hsh5⟩
  rw [wp_ret]; imodintro
  iapply (send_wait_step m K c 6 _ (sendS_6) _ _ _) $$ [HcS6 HO HatS6]
  · isplitr; · iexact HIs6
    isplitl [HcS6]; · iexact HcS6
    isplitl [HO]; · iexact HO
    iexact HatS6
  iintro ⟨HO, HatS6, Hsh6⟩
  rw [wp_ret]; imodintro
  -- the table whole again; the fourteen cells closed
  ihave Htab := (table_back m c) $$ [Htbl HB HownR7 Hsh0 Hsh1 Hsh2 Hsh3 Hsh4 Hsh5 Hsh6]
  · isplitl [Htbl]; · iexact Htbl
    isplitl [HB]; · iexact HB
    isplitl [HownR7]; · iexact HownR7
    isplitl [Hsh0]; · iexact Hsh0
    isplitl [Hsh1]; · iexact Hsh1
    isplitl [Hsh2]; · iexact Hsh2
    isplitl [Hsh3]; · iexact Hsh3
    isplitl [Hsh4]; · iexact Hsh4
    isplitl [Hsh5]; · iexact Hsh5
    iexact Hsh6
  imod (close_send m K c 0) $$ [HatS0] with HzS0
  · isplitr; · iexact HIs0
    iexact HatS0
  imod (close_send m K c 1) $$ [HatS1] with HzS1
  · isplitr; · iexact HIs1
    iexact HatS1
  imod (close_send m K c 2) $$ [HatS2] with HzS2
  · isplitr; · iexact HIs2
    iexact HatS2
  imod (close_send m K c 3) $$ [HatS3] with HzS3
  · isplitr; · iexact HIs3
    iexact HatS3
  imod (close_send m K c 4) $$ [HatS4] with HzS4
  · isplitr; · iexact HIs4
    iexact HatS4
  imod (close_send m K c 5) $$ [HatS5] with HzS5
  · isplitr; · iexact HIs5
    iexact HatS5
  imod (close_send m K c 6) $$ [HatS6] with HzS6
  · isplitr; · iexact HIs6
    iexact HatS6
  imod (close_recv m K c 0) $$ [HatR0] with HzR0
  · isplitr; · iexact HIr0
    iexact HatR0
  imod (close_recv m K c 1) $$ [HatR1] with HzR1
  · isplitr; · iexact HIr1
    iexact HatR1
  imod (close_recv m K c 2) $$ [HatR2] with HzR2
  · isplitr; · iexact HIr2
    iexact HatR2
  imod (close_recv m K c 3) $$ [HatR3] with HzR3
  · isplitr; · iexact HIr3
    iexact HatR3
  imod (close_recv m K c 4) $$ [HatR4] with HzR4
  · isplitr; · iexact HIr4
    iexact HatR4
  imod (close_recv m K c 5) $$ [HatR5] with HzR5
  · isplitr; · iexact HIr5
    iexact HatR5
  imod (close_recv m K c 6) $$ [HatR6] with HzR6
  · isplitr; · iexact HIr6
    iexact HatR6
  -- hand everything back
  sl_step
  iapply Hk
  unfold bodyPost Φ₁ Dat.owesAt Pipeline.owesWithin
  rw [show (dats m 0 c).owed t0_0.succ = 0 from rfl, bigSep_dev_froms c (fun s : Dev nD => (semVal (recvCell c s) 0 : sProp 𝕄))]
  simp only [bigSep_fin7]
  isplitl [Htab HzS0 HzS1 HzS2 HzS3 HzS4 HzS5 HzS6 HsvU HzR0 HzR1 HzR2 HzR3 HzR4 HzR5 HzR6]
  · isplitl [Htab]; · iexact Htab
    isplitl [HzS0 HzS1 HzS2 HzS3 HzS4 HzS5 HzS6]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    isplitl [HsvU]; · iexact HsvU
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    iexact HzR6
  isplitl [HO]
  · iexists _
    isplitr
    rotate_left
    · iexact HO
    · ipureintro; exact fun _ _ => Or.inl trivial
  isplitl [Hx]
  · iexists _; isplitr; · (ipureintro; rfl)
    iexact Hx
  iexists (k0_pay12 Fn.eye (k0_pay10 (tblAll m)) (k0_pay11 (Fn.stats (xblk m c)) (tblAll m)) (k0_pay5 (xblk m c)))
  isplitr; · (ipureintro; rfl)
  iexact Hout

set_option maxRecDepth 4000 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ
    (cc0_body (F := F) xM (Memref.isWhole_whole _) oM (Memref.isWhole_whole _) tM (Memref.isWhole_whole _) cc0_scratch1 cc0_scratch2)
    (fun _ => bodyPost m c)
  iintro H
  iapply (sound_body m c fun _ => bodyPost m c)
  isplitl [H]; · iexact H
  iintro H; iexact H

/-- info: 'Cert.KernelIdealProto.body_obligation' depends on axioms: [propext, Classical.choice, Quot.sound] -/
#guard_msgs in #print axioms body_obligation

end Cert.KernelIdealProto

end
-- ==== Proof.Bits.ProtoLemmas2.lean ====
/-
  What a device owes at launch as a literal sum, and the eight devices as one device and its seven peers.
-/
import proofs.«901054_g7700000000001055_dist_softmax_colshard_i_m1024_n1024_v7x_i8_f32_1_alg».proof.Proof.Bits.ProtoLemmas
import Idealize.ShloMosaic.Lib.Pipeline.Launch
import Idealize.ShloMosaic.Lib.Pipeline.Kit
import Idealize.ShloMosaic.Lib.Tactic
import Mathlib.Algebra.BigOperators.Fin

noncomputable section

namespace Cert.KernelProto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What is owed at launch, summand by summand: the next payment outermost -/

theorem O₀_sum (c : Dev nD) :
    O₀ c = tallyAt (recvCell (peer 6 c) c) () N + tallyAt (recvCell (peer 5 c) c) () N + tallyAt (recvCell (peer 4 c) c) () N
      + tallyAt (recvCell (peer 3 c) c) () N + tallyAt (recvCell (peer 2 c) c) () N + tallyAt (recvCell (peer 1 c) c) () N
      + tallyAt (recvCell (peer 0 c) c) () N + tallyAt (barCell (peer 6 c)) () 1 + tallyAt (barCell (peer 5 c)) () 1
      + tallyAt (barCell (peer 4 c)) () 1 + tallyAt (barCell (peer 3 c)) () 1 + tallyAt (barCell (peer 2 c)) () 1
      + tallyAt (barCell (peer 1 c)) () 1 + tallyAt (barCell (peer 0 c)) () 1 := by
  show owe c 14 = _
  rw [owe_peel0, owe_peel1, owe_peel2, owe_peel3, owe_peel4, owe_peel5, owe_peel6, owe_peel7, owe_peel8, owe_peel9, owe_peel10,
    owe_peel11, owe_peel12, owe_peel13, owe_zero, zero_add]

/-! ## The eight devices are a device and its seven peers -/

def peerEmb (c : Dev nD) : Fin 7 ↪ Dev nD := ⟨fun d => peer d c, peer_inj c⟩
def fromEmb (c : Dev nD) : Fin 7 ↪ Dev nD := ⟨fun r => from_ r c, from_inj c⟩

theorem erase_eq_peers (c : Dev nD) : (Finset.univ.erase c : Finset (Dev nD)) = Finset.univ.map (peerEmb c) := by revert c; decide
theorem erase_eq_froms (c : Dev nD) : (Finset.univ.erase c : Finset (Dev nD)) = Finset.univ.map (fromEmb c) := by revert c; decide

theorem bigSep_dev_peers (c : Dev nD) (Φ : Dev nD → sProp 𝕄) :
    bigSep Finset.univ Φ = iprop(Φ c ∗ bigSep Finset.univ fun d : Fin 7 => Φ (peer d c)) := by
  rw [bigSep_univ_at Φ c, erase_eq_peers, bigSep_map]; rfl
theorem bigSep_dev_froms (c : Dev nD) (Φ : Dev nD → sProp 𝕄) :
    bigSep Finset.univ Φ = iprop(Φ c ∗ bigSep Finset.univ fun r : Fin 7 => Φ (from_ r c)) := by
  rw [bigSep_univ_at Φ c, erase_eq_froms, bigSep_map]; rfl

/-- info: 'Cert.KernelProto.bigSep_dev_peers' depends on axioms: [propext, Classical.choice, Quot.sound] -/
#guard_msgs in #print axioms bigSep_dev_peers

end Cert.KernelProto

end
-- ==== Proof.Bits.Slots.lean ====
/-
  The table of statistics, slot by slot.

  The table is an 8 x 2 x 1024 buffer; slot `s` is the 1 x 2 x 1024 block at offset (s, 0, 0). An element lies in
  slot `s` exactly when its first coordinate is `s`: so the eight slots are pairwise disjoint and cover the table,
  a points-to on the whole table is the separating product of the points-tos on the slots, a copy of slot `s` out
  of a buffer that holds the final table there leaves the final table on slot `s`, and a device's store of its own
  statistics into its own slot writes the final table's slot.
-/
import proofs.«901054_g7700000000001055_dist_softmax_colshard_i_m1024_n1024_v7x_i8_f32_1_alg».proof.Proof.Bits.Proto
import Idealize.ShloMosaic.Rules.PointsTo
import Idealize.ShloMosaic.Lib.Pipeline.Value
import Idealize.ShloMosaic.Lib.Ring

noncomputable section

namespace Cert.KernelProto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The slots as element sets -/

/-- The rectangle of slot `s`. -/
abbrev slotR (s : Dev nD) : Rect S8x2x1024 := Rect.unit (s := S8x2x1024) (k0_off3 s) S1x2x1024.size (k0_off3_inb s)

/-- The elements under the view of slot `s` are those of its rectangle. -/
theorem slotSet_eq (c s : Dev nD) : slotSet c s = (slotR s).set :=
  (View.set_reshape _ _).trans (View.set_slice_whole _ _)

/-- An element of the table lies in the 1 x 2 x 1024 block at offset (s, 0, 0) exactly when its first coordinate is `s`. -/
theorem mem_block {off : Fin 3 → Nat} {s : Dev nD} (ho : off = ![s.val, 0, 0]) (inb) (i : S8x2x1024.Idx) :
    i ∈ (Rect.unit (s := S8x2x1024) off S1x2x1024.size inb).set ↔ (i 0).val = s.val := by
  subst ho
  rw [Rect.mem_set_unit]
  have h1 : (i 1).val < 2 := (i 1).isLt
  have h2 : (i 2).val < 1024 := (i 2).isLt
  constructor
  · intro h
    have h0 : s.val ≤ (i 0).val ∧ (i 0).val < s.val + 1 := h 0
    omega
  · intro h a
    fin_cases a
    · show s.val ≤ (i 0).val ∧ (i 0).val < s.val + 1; omega
    · show 0 ≤ (i 1).val ∧ (i 1).val < 0 + 2; omega
    · show 0 ≤ (i 2).val ∧ (i 2).val < 0 + 1024; omega

/-- An element of the table lies in slot `s` exactly when its first coordinate is `s`. -/
theorem mem_slot (c s : Dev nD) (i : Idx (tLoc c)) : i ∈ slotSet c s ↔ (i 0).val = s.val := by
  rw [slotSet_eq]; exact mem_block (k0_off3_eq s) _ i

theorem slots_disjoint (c : Dev nD) {s s' : Dev nD} (h : s ≠ s') : Disjoint (slotSet c s) (slotSet c s') := by
  rw [Finset.disjoint_left]
  intro i hi hi'
  exact h (Fin.ext (((mem_slot c s i).mp hi).symm.trans ((mem_slot c s' i).mp hi')))

theorem slots_cover (c : Dev nD) : Finset.univ.biUnion (slotSet c) = Finset.univ := by
  ext i
  simp only [Finset.mem_biUnion, Finset.mem_univ, true_and, iff_true]
  exact ⟨⟨(i 0).val, (i 0).isLt⟩, (mem_slot c _ i).mpr rfl⟩

/-! ## The table as the product of its slots -/

/-- A points-to on the whole table, at any contents and share, is the product of the points-tos on the slots. -/
theorem table_slots (c : Dev nD) (q : PosShare TreeShare) (f : Buf (Elt F) (tLoc c)) :
    (tLoc c ↦[Finset.univ]{q} f : sProp 𝕄) = bigSep Finset.univ fun s : Dev nD => tLoc c ↦[slotSet c s]{q} f := by
  have h : (tLoc c ↦[Finset.univ.biUnion (slotSet c)]{q} f : sProp 𝕄)
      = bigSep Finset.univ fun s : Dev nD => tLoc c ↦[slotSet c s]{q} f :=
    pointsTo_biUnion Finset.univ (slotSet c) (fun s _ s' _ hne => slots_disjoint c hne)
  rw [slots_cover] at h
  exact h

theorem table_split (c : Dev nD) :
    (iprop(∃ f : Buf (Elt F) (tLoc c), tLoc c ↦{fullShare} f) : sProp 𝕄)
      ⊢ bigSep Finset.univ (fun s : Dev nD => slotAny (F := F) c s) := by
  refine exists_elim fun f => ?_
  rw [table_slots]
  refine bigSep_mono fun s _ => ?_
  show (tLoc c ↦[slotSet c s]{fullShare} f : sProp 𝕄) ⊢ slotAny (F := F) c s
  unfold slotAny
  iintro H; iexists f; iexact H

theorem table_whole (c : Dev nD) (q : PosShare TreeShare) :
    (bigSep Finset.univ (fun s : Dev nD => slotPts m c s q) : sProp 𝕄) = (tLoc c ↦[Finset.univ]{q} tblAll m) :=
  (table_slots c q (tblAll m)).symm

theorem table_join (c : Dev nD) :
    (bigSep Finset.univ (fun s : Dev nD => slotPts m c s fullShare) : sProp 𝕄)
      ⊢ iprop(∃ f : Buf (Elt F) (tLoc c), tLoc c ↦{fullShare} f) := by
  rw [table_whole]
  iintro H; iexists tblAll m; iexact H

/-! ## Shares of a slot -/

theorem slot_halves (c s : Dev nD) :
    slotPts m c s fullShare ⊣⊢ iprop(slotPts m c s fullShare.left ∗ slotPts m c s fullShare.right) :=
  pointsTo_share (PosShare.mem_left_op_right fullShare)

/-- Three assertions re-bracketed. -/
theorem sep_rot (B L R : sProp 𝕄) : iprop(B ∗ L ∗ R) = iprop((L ∗ B) ∗ R) := by
  have h1 : iprop(B ∗ L ∗ R) ⊢ iprop((L ∗ B) ∗ R) := by
    iintro ⟨HB, HL, HR⟩
    isplitr [HR]
    · isplitl [HL]
      · iexact HL
      · iexact HB
    · iexact HR
  have h2 : iprop((L ∗ B) ∗ R) ⊢ iprop(B ∗ L ∗ R) := by
    iintro ⟨⟨HL, HB⟩, HR⟩
    isplitl [HB]
    · iexact HB
    · isplitl [HL]
      · iexact HL
      · iexact HR
  exact BI.equiv_iff.mp ⟨h1, h2⟩

/-- After `n` halvings the right half is the `n` left halves lent and what remains. -/
theorem lend_range (c s : Dev nD) (n : ℕ) :
    slotPts m c s (rem 0)
      = iprop((bigSep (Finset.range n) fun k => slotPts m c s (rem k).left) ∗ slotPts m c s (rem n)) := by
  induction n with
  | zero => rw [Finset.range_zero, bigSep_empty]; exact (BI.equiv_iff.mp BI.emp_sep).symm
  | succ n ih =>
    have hp : slotPts m c s (rem n) ⊣⊢ iprop(slotPts m c s (rem n).left ∗ slotPts m c s (rem (n + 1))) :=
      pointsTo_share (PosShare.mem_left_op_right (rem n))
    have hs : slotPts m c s (rem n) = iprop(slotPts m c s (rem n).left ∗ slotPts m c s (rem (n + 1))) :=
      BI.equiv_iff.mp ⟨hp.1, hp.2⟩
    rw [Finset.range_add_one, bigSep_insert Finset.notMem_range_self, ih, hs]
    exact sep_rot _ _ _

theorem slot_lend (c s : Dev nD) :
    slotPts m c s fullShare.right
      ⊣⊢ iprop((bigSep Finset.univ fun d : Fin 7 => slotPts m c s (shr d)) ∗ slotPts m c s (rem 7)) := by
  rw [Ring.bigSep_fin_eq_range 7 (fun d : Fin 7 => slotPts m c s (shr d)) (fun k => slotPts m c s (rem k).left)
    (fun t h => rfl)]
  have e := lend_range m c s 7
  exact ⟨Entails.of_eq e, Entails.of_eq e.symm⟩

/-! ## What a landing and the device's own store leave on a slot -/

theorem land_slot (c' s : Dev nD) (fd : Buf (Elt F) (tLoc c')) :
    (tLoc c' ↦[slotSet c' s]{fullShare}
        ((slotM s).view.write (Elt F) fd ((slotM s).view.read (Elt F) (tblAll m)) Finset.univ) : sProp 𝕄)
      = slotPts m c' s fullShare := by
  unfold slotPts
  refine pointsTo_congr fun i hi => ?_
  rw [View.write_read_eq_piecewise]
  exact Finset.piecewise_eq_of_mem _ _ _ hi

theorem store_set (c : Dev nD) : (tM.access (Rect.unit (s := S8x2x1024) (k0_off1 c) S1x2x1024.size (k0_off1_inb c))).setOn Finset.univ ⊆ slotSet c c := by
  intro i hi
  have e : (tM.access (Rect.unit (s := S8x2x1024) (k0_off1 c) S1x2x1024.size (k0_off1_inb c))).set = (Rect.unit (s := S8x2x1024) (k0_off1 c) S1x2x1024.size (k0_off1_inb c)).set := View.set_slice_whole _ _
  have hi' : i ∈ (Rect.unit (s := S8x2x1024) (k0_off1 c) S1x2x1024.size (k0_off1_inb c)).set := by rw [← e]; exact hi
  exact (mem_slot c c i).mpr ((mem_block (k0_off1_eq c) _ i).mp hi')

theorem load_set (c : Dev nD) : tM.view.setOn (Rect.unit (s := S8x2x1024) (k0_off1 c) S1x2x1024.size (k0_off1_inb c)).toLoadRect.set ⊆ slotSet c c := by
  intro i hi
  obtain ⟨x, hx, rfl⟩ := Finset.mem_map.mp hi
  exact (mem_slot c c _).mpr ((mem_block (k0_off1_eq c) _ x).mp hx)

/-- The final table at an element of the block at offset (c, 0, 0) is device `c`'s statistics at the element's
    place in the block. -/
theorem tbl_block {off : Fin 3 → Nat} {c : Dev nD} (ho : off = ![c.val, 0, 0]) (inb)
    (xs : Dev nD → Vec F S1024x1024 .f32) (y : S1x2x1024.Idx) :
    Fn.tbl xs ((Rect.unit (s := S8x2x1024) off S1x2x1024.size inb).emb y) = Fn.statsSlot (xs c) y := by
  subst ho
  have y0 : (y 0).val < 1 := (y 0).isLt
  have h0 : ((Rect.unit (s := S8x2x1024) ![c.val, 0, 0] S1x2x1024.size inb).emb y) 0 = c :=
    Fin.ext (by show c.val + 1 * (y 0).val = c.val; omega)
  unfold Fn.tbl
  rw [h0]
  congr 1
  funext a
  match a with
  | ⟨0, _⟩ => exact Fin.ext (by show 0 = (y 0).val; omega)
  | ⟨1, _⟩ => exact Fin.ext (by show 0 + 1 * (y 1).val = (y 1).val; omega)
  | ⟨2, _⟩ => exact Fin.ext (by show 0 + 1 * (y 2).val = (y 2).val; omega)

theorem store_slot (c : Dev nD) (f : Buf (Elt F) (tLoc c)) :
    (tLoc c ↦[slotSet c c]{fullShare}
        ((tM.access (Rect.unit (s := S8x2x1024) (k0_off1 c) S1x2x1024.size (k0_off1_inb c))).write (Elt F) f (Fn.statsSlot (xblk m c)) Finset.univ) : sProp 𝕄)
      = slotPts m c c fullShare := by
  unfold slotPts
  refine pointsTo_congr fun i hi => ?_
  have hi' : i ∈ (tM.access (Rect.unit (s := S8x2x1024) (k0_off1 c) S1x2x1024.size (k0_off1_inb c))).set := by
    rw [View.set_slice_whole]
    exact (mem_block (k0_off1_eq c) _ i).mpr ((mem_slot c c i).mp hi)
  obtain ⟨y, rfl⟩ := View.exists_emb_of_mem_set _ hi'
  rw [View.write_emb_of_mem _ _ (Finset.mem_univ y)]
  exact (cast_eq _ _).trans (tbl_block (k0_off1_eq c) _ _ y).symm

theorem hz3 : (![0, 0, 0] : Fin 3 → Nat) = fun _ => 0 := funext fun a => by fin_cases a <;> rfl

theorem load_table :
    tM.view.readAt (Elt F) (Rect.unit (s := S8x2x1024) ![0, 0, 0] S8x2x1024.size inb_S8x2x1024_S8x2x1024_0_0_0).toLoadRect
      (tblAll m) = tblAll m :=
  Memref.readAt_unit_zero (Elt F) cc0_scratch0 hz3 _ _

/-! ## Each statement above stands on the three standard axioms only -/

/-- info: 'Cert.KernelProto.mem_slot' depends on axioms: [propext, Classical.choice, Quot.sound] -/
#guard_msgs in #print axioms mem_slot

/-- info: 'Cert.KernelProto.slots_disjoint' depends on axioms: [propext, Classical.choice, Quot.sound] -/
#guard_msgs in #print axioms slots_disjoint

/-- info: 'Cert.KernelProto.slots_cover' depends on axioms: [propext, Classical.choice, Quot.sound] -/
#guard_msgs in #print axioms slots_cover

/-- info: 'Cert.KernelProto.table_split' depends on axioms: [propext, Classical.choice, Quot.sound] -/
#guard_msgs in #print axioms table_split

/-- info: 'Cert.KernelProto.table_whole' depends on axioms: [propext, Classical.choice, Quot.sound] -/
#guard_msgs in #print axioms table_whole

/-- info: 'Cert.KernelProto.table_join' depends on axioms: [propext, Classical.choice, Quot.sound] -/
#guard_msgs in #print axioms table_join

/-- info: 'Cert.KernelProto.slot_halves' depends on axioms: [propext, Classical.choice, Quot.sound] -/
#guard_msgs in #print axioms slot_halves

/-- info: 'Cert.KernelProto.slot_lend' depends on axioms: [propext, Classical.choice, Quot.sound] -/
#guard_msgs in #print axioms slot_lend

/-- info: 'Cert.KernelProto.land_slot' depends on axioms: [propext, Classical.choice, Quot.sound] -/
#guard_msgs in #print axioms land_slot

/-- info: 'Cert.KernelProto.store_slot' depends on axioms: [propext, Classical.choice, Quot.sound] -/
#guard_msgs in #print axioms store_slot

/-- info: 'Cert.KernelProto.store_set' depends on axioms: [propext, Classical.choice, Quot.sound] -/
#guard_msgs in #print axioms store_set

/-- info: 'Cert.KernelProto.load_set' depends on axioms: [propext, Classical.choice, Quot.sound] -/
#guard_msgs in #print axioms load_set

/-- info: 'Cert.KernelProto.load_table' depends on axioms: [propext, Classical.choice, Quot.sound] -/
#guard_msgs in #print axioms load_table

end Cert.KernelProto

end
-- ==== Proof.Bits.Steps.lean ====
/-
  The exchange's statements one at a time: each rule of the rounds discipline read at our schedule. A signal to a peer
  hands over the slot that peer will write; a copy to a peer borrows a share of the device's own slot and fills the
  peer's; the wait on a receive cell returns the filled slot, the wait on a send cell the borrowed share, the wait for
  seven units on the barrier cell the seven peers' slots.
-/
import proofs.«901054_g7700000000001055_dist_softmax_colshard_i_m1024_n1024_v7x_i8_f32_1_alg».proof.Proof.Bits.Proto
import proofs.«901054_g7700000000001055_dist_softmax_colshard_i_m1024_n1024_v7x_i8_f32_1_alg».proof.Proof.Bits.ProtoLemmas
import Idealize.ShloMosaic.Lib.Pipeline.Launch
import Idealize.ShloMosaic.Lib.Pipeline.Kit
import Idealize.ShloMosaic.Lib.Tactic

noncomputable section

namespace Cert.KernelProto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section Steps

variable (K : Dev nD × Fin 15 → ℕ) (c : Dev nD)

/-- Signal number `d`: a unit on peer `d`'s barrier cell, handing over the device's slot for that peer. -/
theorem sig_step {α : Type} {Q : α → sProp 𝕄} {k : PUnit → Prog (TpuEff nD τ sig (Elt F) Λ₀ .tc) α} (d : Fin 7) (f : Buf (Elt F) (tLoc c)) (O : CellTallies nD τ sig Unit) (W : Waits sig Unit) :
    iprop(cellInv ER (sched m) (K (peer d c, 0)) (barCell (peer d c))
        ∗ owes (c : Thread nD τ) (O + tallyAt (barCell (peer d c)) () 1) W
        ∗ dutyTok ER (barCell (peer d c)) 0 d ∗ (tLoc c ↦[slotSet c (peer d c)]{fullShare} f)
        ∗ reached ER (barCell (peer d c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (peer d c : Thread nD τ) barS 1) k) Q) := by
  iintro ⟨#HI, HO, Htok, Hs, #Hr⟩
  iapply (Rounds.wp_signal 𝒱₀ ER (sched m) (c : Thread nD τ) none (dst := (peer d c : Thread nD τ)) (κ := K (peer d c, 0))
      (d := d) (by rw [duties_bar]; exact Finset.mem_univ _) (amount_bar m (peer d c) d) () O rfl) $$ [HO Htok Hs]
  · isplitr; · iexact HI
    isplitl [HO]; · iexact HO
    isplitl [Htok]; · iexact Htok
    isplitl [Hs]
    · rw [payload_bar, from_peer]; unfold slotAny; iexists f; iexact Hs
    iexact Hr

/-- The wait for seven units on the device's own barrier cell, owing only the receive credits: every peer's slot
    number `c` comes with it. -/
theorem bar_wait_step {α : Type} {Q : α → sProp 𝕄} {k : PUnit → Prog (TpuEff nD τ sig (Elt F) Λ₀ .tc) α} (W : Waits sig Unit) :
    iprop(cellInv ER (sched m) (K (c, 0)) (barCell c) ∗ cred (tallyAt (barCell c) () 7) ∗ owes (c : Thread nD τ) (owe c 7) W
        ∗ levAts L lv ∗ atPos ER (barCell c) 0 ∅ 0)
      ⊢ iprop(((owes (c : Thread nD τ) (owe c 7) (insert (SemLoc.reg barS, ()) W)
              ∗ atPos ER (barCell c) 1 ∅ 0
              ∗ bigSep Finset.univ (fun r : Fin 7 => slotAny (F := F) (from_ r c) c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 7) k) Q) := by
  iintro ⟨#HI, Hc, HO, #Hlev, Hat⟩ Hk
  iapply (Rounds.wp_wait_rest_token 𝒱₀ ER (sched m) (c : Thread nD τ) none (κ := K (c, 0))
      (wpE_semWait_eq 𝒱₀ (c : Thread nD τ) none Set.univ) (Set.mem_univ _) () (O := owe c 7) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar m c)); iexact Hpay

/-- Copy number `d`: slot `c` of the device's table, lent at the share `shr d`, into slot `c` of peer `d`'s table, which
    that peer gave up with its signal. The landing leaves the final table on that slot (`hland`). -/
theorem send_step {α : Type} {Q : α → sProp 𝕄} {k : PUnit → Prog (TpuEff nD τ sig (Elt F) Λ₀ .tc) α}
    (d : Fin 7) (n : Dev nD) (hn : n = peer d c) (sS rq : DmaSem sig) (hsS : sS = sendQ d) (hrq : rq = recvQ c)
    {hsc : (slotM c : Memref sig (Dev.tc n : Thread nD τ).2.kind .vmem S2x1024 .f32).view.ref.isScScratch = false}
    {hsrc : (slotM c : Memref sig .tc .vmem S2x1024 .f32).view.WordExact} {hdst : (slotM c : Memref sig .tc .vmem S2x1024 .f32).view.WordExact}
    {hsem : DmaTarget.Typed .vmem (.dma rq) (.remote (Dev.tc n : Thread nD τ) (slotM c : Memref sig .tc .vmem S2x1024 .f32) (.dma sS) hsc)}
    (fd : Buf (Elt F) (tLoc (peer d c))) (O : CellTallies nD τ sig Unit) (W : Waits sig Unit)
    (hland : (tLoc (peer d c) ↦[slotSet (peer d c) c]{fullShare}
        ((slotM c).view.write (Elt F) fd ((slotM c).view.read (Elt F) (tblAll m)) Finset.univ) : sProp 𝕄) = slotPts m (peer d c) c fullShare) :
    iprop(cellInv ER (sched m) (K (c, sIdx d)) (sendCell c d) ∗ cellInv ER (sched m) (K (peer d c, rIdx d)) (recvCell (peer d c) c)
        ∗ slotPts m c c (shr d) ∗ (tLoc (peer d c) ↦[slotSet (peer d c) c]{fullShare} fd)
        ∗ owes (c : Thread nD τ) (O + tallyAt (recvCell (peer d c) c) () N) W
        ∗ dutyTok ER (sendCell c d) 0 0 ∗ reached ER (sendCell c d) 0
        ∗ dutyTok ER (recvCell (peer d c) c) 0 0 ∗ reached ER (recvCell (peer d c) c) 0)
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM c) (.remote (Dev.tc n : Thread nD τ) (slotM c) (.dma sS) hsc) (.dma rq) hsrc hdst hsem) k) Q) := by
  subst hn hsS hrq
  unfold slotPts
  exact Rounds.wp_send_pointsTo 𝒱₀ ER (sched m) (c : Thread nD τ) none (c' := (peer d c : Thread nD τ)) (src := slotM c) (dst := slotM c) (q := shr d) (fs := tblAll m) (κ₁ := K (c, sIdx d)) (κ₂ := K (peer d c, rIdx d))
    (r₁ := 0) (r₂ := 0) (d₁ := 0) (d₂ := 0) (fd := fd)
    (by rw [duties_send]; exact Finset.mem_singleton_self _) (by rw [duties_recv]; exact Finset.mem_singleton_self _)
    () () N rfl (amount_send m c d 0) (amount_recv m (peer d c) c 0) O rfl (W := W)
    (by rw [payload_send]; exact BI.Entails.refl _)
    (by rw [payload_recv, ← hland])

/-- The wait on the receive cell credited by the device `r + 1` places before: its slot, filled. -/
theorem recv_wait_step {α : Type} {Q : α → sProp 𝕄} {k : PUnit → Prog (TpuEff nD τ sig (Elt F) Λ₀ .tc) α}
    (r : Fin 7) (q : DmaSem sig) (hq : q = recvQ (from_ r c)) (sv dv : Memref sig .tc .vmem S2x1024 .f32)
    {h1 : sv.view.WordExact} {h2 : dv.view.WordExact} (W : Waits sig Unit) :
    iprop(cellInv ER (sched m) (K (c, rIdx r)) (recvCell c (from_ r c)) ∗ cred (tallyAt (recvCell c (from_ r c)) () N)
        ∗ owes (c : Thread nD τ) 0 W ∗ atPos ER (recvCell c (from_ r c)) 0 ∅ 0)
      ⊢ iprop(((owes (c : Thread nD τ) 0 (insert (SemLoc.dma (recvQ (from_ r c)), ()) W)
              ∗ atPos ER (recvCell c (from_ r c)) 1 ∅ 0 ∗ slotPts m c (from_ r c) fullShare)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q sv dv h1 h2) k) Q) := by
  subst hq
  iintro ⟨#HI, Hc, HO, Hat⟩ Hk
  iapply (Rounds.wp_wait_rest_token 𝒱₀ ER (sched m) (c : Thread nD τ) none (κ := K (c, rIdx r))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_recv m c (from_ r c))); iexact Hpay

/-- The wait on send cell `d`: the share of its own slot the copy borrowed. -/
theorem send_wait_step {α : Type} {Q : α → sProp 𝕄} {k : PUnit → Prog (TpuEff nD τ sig (Elt F) Λ₀ .tc) α}
    (d : Fin 7) (q : DmaSem sig) (hq : q = sendQ d) (sv dv : Memref sig .tc .vmem S2x1024 .f32)
    {h1 : sv.view.WordExact} {h2 : dv.view.WordExact} (W : Waits sig Unit) :
    iprop(cellInv ER (sched m) (K (c, sIdx d)) (sendCell c d) ∗ cred (tallyAt (sendCell c d) () N)
        ∗ owes (c : Thread nD τ) 0 W ∗ atPos ER (sendCell c d) 0 ∅ 0)
      ⊢ iprop(((owes (c : Thread nD τ) 0 (insert (SemLoc.dma (sendQ d), ()) W)
              ∗ atPos ER (sendCell c d) 1 ∅ 0 ∗ slotPts m c c (shr d))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q sv dv h1 h2) k) Q) := by
  subst hq
  iintro ⟨#HI, Hc, HO, Hat⟩ Hk
  iapply (Rounds.wp_wait_rest_token 𝒱₀ ER (sched m) (c : Thread nD τ) none (κ := K (c, sIdx d))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send m c d)); iexact Hpay

/-- A cell of the device's own whose one round is over closes: its counter, at zero, is the device's again. -/
theorem close_send (d : Fin 7) :
    iprop(cellInv ER (sched m) (K (c, sIdx d)) (sendCell c d) ∗ atPos ER (sendCell c d) 1 ∅ 0) ⊢ (iprop(|={Set.univ}=> semVal (sendCell c d) 0) : sProp 𝕄) :=
  Rounds.cell_close ER (sched m) (Set.mem_univ (K (c, sIdx d))) (fun h => h) (R := 1) (duties_later m (sendCell c d))
theorem close_recv (r : Fin 7) :
    iprop(cellInv ER (sched m) (K (c, rIdx r)) (recvCell c (from_ r c)) ∗ atPos ER (recvCell c (from_ r c)) 1 ∅ 0)
      ⊢ (iprop(|={Set.univ}=> semVal (recvCell c (from_ r c)) 0) : sProp 𝕄) :=
  Rounds.cell_close ER (sched m) (Set.mem_univ (K (c, rIdx r))) (fun h => h) (R := 1) (duties_later m (recvCell c (from_ r c)))

end Steps

end Cert.KernelProto

end
-- ==== Proof.Bits.PartsA.lean ====
/-
  One device's body, stepped from the exchange's ghost state: seven signals, the local statistics, the barrier wait,
  seven copies out, seven waits for the copies in, the rest of the softmax, seven waits for the copies out.
-/
import proofs.«901054_g7700000000001055_dist_softmax_colshard_i_m1024_n1024_v7x_i8_f32_1_alg».proof.Proof.Bits.Proto
import proofs.«901054_g7700000000001055_dist_softmax_colshard_i_m1024_n1024_v7x_i8_f32_1_alg».proof.Proof.Bits.ProtoLemmas
import proofs.«901054_g7700000000001055_dist_softmax_colshard_i_m1024_n1024_v7x_i8_f32_1_alg».proof.Proof.Bits.ProtoLemmas2
import proofs.«901054_g7700000000001055_dist_softmax_colshard_i_m1024_n1024_v7x_i8_f32_1_alg».proof.Proof.Bits.Slots
import proofs.«901054_g7700000000001055_dist_softmax_colshard_i_m1024_n1024_v7x_i8_f32_1_alg».proof.Proof.Bits.Steps
import Idealize.ShloMosaic.Lib.Pipeline.Launch
import Idealize.ShloMosaic.Lib.Pipeline.Kit
import Idealize.ShloMosaic.Lib.Tactic

noncomputable section

namespace Cert.KernelProto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_canon] dev1_eq dev2_eq dev3_eq dev4_eq dev5_eq dev6_eq dev7_eq dev8_eq dev9_eq dev10_eq dev11_eq dev12_eq dev13_eq dev14_eq

abbrev R1 : Type := Σ' (d0 : Dev nD) (v2 : BitVec 32) (v3 : Sems sig S_) (v30 : BitVec 32) (c8_i32_18 : BitVec 32), BitVec 1

set_option maxHeartbeats 1600000 in
theorem part1_spec (K : Dev nD × Fin 15 → ℕ) (c : Dev nD) (Q : R1 → sProp 𝕄) (f : Buf (Elt F) (tLoc c))
    (O : CellTallies nD τ sig Unit) (W : Waits sig Unit) :
    iprop(cellInv ER (sched m) (K (peer 0 c, 0)) (barCell (peer 0 c)) ∗ cellInv ER (sched m) (K (peer 1 c, 0)) (barCell (peer 1 c))
        ∗ reached ER (barCell (peer 0 c)) 0 ∗ reached ER (barCell (peer 1 c)) 0
        ∗ owes (c : Thread nD τ) (O + tallyAt (barCell (peer 1 c)) () 1 + tallyAt (barCell (peer 0 c)) () 1) W
        ∗ dutyTok ER (barCell (peer 0 c)) 0 0 ∗ dutyTok ER (barCell (peer 1 c)) 0 1
        ∗ (tLoc c ↦[slotSet c (peer 0 c)]{fullShare} f) ∗ (tLoc c ↦[slotSet c (peer 1 c)]{fullShare} f)
        ∗ (∀ r : R1, ⌜r.1 = c ∧ r.2.2.1 = SemArray.scalar (sig.barrier 0 rfl)⌝ -∗ owes (c : Thread nD τ) O W -∗ Q r))
      ⊢ wp frame (wpE (defs₀ (F := F)) 𝒱₀ c none) Set.univ
          (k0_part1 (F := F) xM (Memref.isWhole_whole _) oM (Memref.isWhole_whole _) tM (Memref.isWhole_whole _) cc0_scratch1 cc0_scratch2) Q := by
  iintro ⟨#HI0, #HI1, #HR0, #HR1, HO, Ht0, Ht1, Hs0, Hs1, Hk⟩
  sl_exec
  iapply (sig_step m K c 0 f (O + tallyAt (barCell (peer 1 c)) () 1) W) $$ [HO Ht0 Hs0]
  · isplitr; · iexact HI0
    isplitl [HO]; · iexact HO
    isplitl [Ht0]; · iexact Ht0
    isplitl [Hs0]; · iexact Hs0
    iexact HR0
  iintro HO
  sl_exec
  iapply (sig_step m K c 1 f O W) $$ [HO Ht1 Hs1]
  · isplitr; · iexact HI1
    isplitl [HO]; · iexact HO
    isplitl [Ht1]; · iexact Ht1
    isplitl [Hs1]; · iexact Hs1
    iexact HR1
  iintro HO
  sl_exec
  sl_step
  iapply Hk
  · ipureintro; exact ⟨rfl, rfl⟩
  · iexact HO

abbrev R2 : Type := Σ' (v59 : BitVec 32) (v64 : BitVec 1), BitVec 32

set_option maxHeartbeats 1600000 in
/-- Signals number 2 and 3. -/
theorem part2_spec (K : Dev nD × Fin 15 → ℕ) (c : Dev nD) (Q : R2 → sProp 𝕄) (f : Buf (Elt F) (tLoc c))
    (O : CellTallies nD τ sig Unit) (W : Waits sig Unit) (v2 v30 c8_i32_18 : BitVec 32) (v31 : BitVec 1) :
    iprop(cellInv ER (sched m) (K (peer 2 c, 0)) (barCell (peer 2 c)) ∗ cellInv ER (sched m) (K (peer 3 c, 0)) (barCell (peer 3 c))
        ∗ reached ER (barCell (peer 2 c)) 0 ∗ reached ER (barCell (peer 3 c)) 0
        ∗ owes (c : Thread nD τ) (O + tallyAt (barCell (peer 3 c)) () 1 + tallyAt (barCell (peer 2 c)) () 1) W
        ∗ dutyTok ER (barCell (peer 2 c)) 0 2 ∗ dutyTok ER (barCell (peer 3 c)) 0 3
        ∗ (tLoc c ↦[slotSet c (peer 2 c)]{fullShare} f) ∗ (tLoc c ↦[slotSet c (peer 3 c)]{fullShare} f)
        ∗ (∀ r : R2, owes (c : Thread nD τ) O W -∗ Q r))
      ⊢ wp frame (wpE (defs₀ (F := F)) 𝒱₀ c none) Set.univ
          (k0_part2 (F := F) xM (Memref.isWhole_whole _) oM (Memref.isWhole_whole _) tM (Memref.isWhole_whole _) cc0_scratch1 cc0_scratch2
            c v2 (SemArray.scalar (sig.barrier 0 rfl)) v30 c8_i32_18 v31) Q := by
  iintro ⟨#HI2, #HI3, #HR2, #HR3, HO, Ht2, Ht3, Hs2, Hs3, Hk⟩
  sl_exec
  iapply (sig_step m K c 2 f (O + tallyAt (barCell (peer 3 c)) () 1) W) $$ [HO Ht2 Hs2]
  · isplitr; · iexact HI2
    isplitl [HO]; · iexact HO
    isplitl [Ht2]; · iexact Ht2
    isplitl [Hs2]; · iexact Hs2
    iexact HR2
  iintro HO
  sl_exec
  iapply (sig_step m K c 3 f (O) W) $$ [HO Ht3 Hs3]
  · isplitr; · iexact HI3
    isplitl [HO]; · iexact HO
    isplitl [Ht3]; · iexact Ht3
    isplitl [Hs3]; · iexact Hs3
    iexact HR3
  iintro HO
  sl_exec
  sl_step
  iapply Hk
  iexact HO

abbrev R3 : Type := Σ' (v96 : IVec S1024x1024 32), IVec S1024x1024 32

set_option maxHeartbeats 1600000 in
/-- Signals number 4, 5 and 6; then the column numbers and the row numbers of a block's entries. -/
theorem part3_spec (K : Dev nD × Fin 15 → ℕ) (c : Dev nD) (Q : R3 → sProp 𝕄) (f : Buf (Elt F) (tLoc c))
    (O : CellTallies nD τ sig Unit) (W : Waits sig Unit) (v2 v59 v65 : BitVec 32) (v64 : BitVec 1) :
    iprop(cellInv ER (sched m) (K (peer 4 c, 0)) (barCell (peer 4 c)) ∗ cellInv ER (sched m) (K (peer 5 c, 0)) (barCell (peer 5 c))
        ∗ cellInv ER (sched m) (K (peer 6 c, 0)) (barCell (peer 6 c))
        ∗ reached ER (barCell (peer 4 c)) 0 ∗ reached ER (barCell (peer 5 c)) 0 ∗ reached ER (barCell (peer 6 c)) 0
        ∗ owes (c : Thread nD τ) (O + tallyAt (barCell (peer 6 c)) () 1 + tallyAt (barCell (peer 5 c)) () 1 + tallyAt (barCell (peer 4 c)) () 1) W
        ∗ dutyTok ER (barCell (peer 4 c)) 0 4 ∗ dutyTok ER (barCell (peer 5 c)) 0 5 ∗ dutyTok ER (barCell (peer 6 c)) 0 6
        ∗ (tLoc c ↦[slotSet c (peer 4 c)]{fullShare} f) ∗ (tLoc c ↦[slotSet c (peer 5 c)]{fullShare} f)
        ∗ (tLoc c ↦[slotSet c (peer 6 c)]{fullShare} f)
        ∗ (∀ r : R3, ⌜r.1 = Fn.col ∧ r.2 = k0_pay1⌝ -∗ owes (c : Thread nD τ) O W -∗ Q r))
      ⊢ wp frame (wpE (defs₀ (F := F)) 𝒱₀ c none) Set.univ
          (k0_part3 (F := F) xM (Memref.isWhole_whole _) oM (Memref.isWhole_whole _) tM (Memref.isWhole_whole _) cc0_scratch1 cc0_scratch2
            c v2 (SemArray.scalar (sig.barrier 0 rfl)) v59 v64 v65) Q := by
  iintro ⟨#HI4, #HI5, #HI6, #HR4, #HR5, #HR6, HO, Ht4, Ht5, Ht6, Hs4, Hs5, Hs6, Hk⟩
  sl_exec
  iapply (sig_step m K c 4 f (O + tallyAt (barCell (peer 6 c)) () 1 + tallyAt (barCell (peer 5 c)) () 1) W) $$ [HO Ht4 Hs4]
  · isplitr; · iexact HI4
    isplitl [HO]; · iexact HO
    isplitl [Ht4]; · iexact Ht4
    isplitl [Hs4]; · iexact Hs4
    iexact HR4
  iintro HO
  sl_exec
  iapply (sig_step m K c 5 f (O + tallyAt (barCell (peer 6 c)) () 1) W) $$ [HO Ht5 Hs5]
  · isplitr; · iexact HI5
    isplitl [HO]; · iexact HO
    isplitl [Ht5]; · iexact Ht5
    isplitl [Hs5]; · iexact Hs5
    iexact HR5
  iintro HO
  sl_exec
  iapply (sig_step m K c 6 f (O) W) $$ [HO Ht6 Hs6]
  · isplitr; · iexact HI6
    isplitl [HO]; · iexact HO
    isplitl [Ht6]; · iexact Ht6
    isplitl [Hs6]; · iexact Hs6
    iexact HR6
  iintro HO
  sl_exec
  sl_step
  iapply Hk
  · ipureintro; exact ⟨rfl, rfl⟩
  · iexact HO

/-- info: 'Cert.KernelProto.part1_spec' depends on axioms: [propext, Classical.choice, Quot.sound] -/
#guard_msgs in #print axioms part1_spec
/-- info: 'Cert.KernelProto.part2_spec' depends on axioms: [propext, Classical.choice, Quot.sound] -/
#guard_msgs in #print axioms part2_spec
/-- info: 'Cert.KernelProto.part3_spec' depends on axioms: [propext, Classical.choice, Quot.sound] -/
#guard_msgs in #print axioms part3_spec

end Cert.KernelProto

end
-- ==== Proof.Bits.Part4.lean ====
/-
  The local half of one device's body: its block read, `exp (x - max)` left in the result buffer, its statistics stored
  into its own slot of the table, and the wait for seven units on its barrier cell, which brings the seven peers' slots.
-/
import proofs.«901054_g7700000000001055_dist_softmax_colshard_i_m1024_n1024_v7x_i8_f32_1_alg».proof.Proof.Bits.Proto
import proofs.«901054_g7700000000001055_dist_softmax_colshard_i_m1024_n1024_v7x_i8_f32_1_alg».proof.Proof.Bits.ProtoLemmas
import proofs.«901054_g7700000000001055_dist_softmax_colshard_i_m1024_n1024_v7x_i8_f32_1_alg».proof.Proof.Bits.ProtoLemmas2
import proofs.«901054_g7700000000001055_dist_softmax_colshard_i_m1024_n1024_v7x_i8_f32_1_alg».proof.Proof.Bits.Slots
import proofs.«901054_g7700000000001055_dist_softmax_colshard_i_m1024_n1024_v7x_i8_f32_1_alg».proof.Proof.Bits.Steps
import Idealize.ShloMosaic.Lib.Pipeline.Launch
import Idealize.ShloMosaic.Lib.Pipeline.Kit
import Idealize.ShloMosaic.Lib.Tactic

noncomputable section

namespace Cert.KernelProto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev R4 : Type := Σ' (v101 : FVec F S1024x1024 .f32), FVec F S2x1024 .f32

abbrev rX : Rect S1024x1024 := Rect.unit (s := S1024x1024) ![0, 0] S1024x1024.size inb_S1024x1024_S1024x1024_0_0
abbrev rS (c : Dev nD) : Rect S8x2x1024 := Rect.unit (s := S8x2x1024) (k0_off1 c) S1x2x1024.size (k0_off1_inb c)

omit [FloatOps F] in
theorem hz2 : (![0, 0] : Fin 2 → Nat) = fun _ => 0 := funext fun a => by fin_cases a <;> rfl
omit [FloatOps F] in
theorem read_whole_x (f : (cc0_stg0_0 : Ref sig .tc).ty.Contents (Elt F)) : (xM : Memref sig .tc .vmem S1024x1024 .f32).view.readAt (Elt F) rX.toLoadRect f = f :=
  Memref.readAt_unit_zero (Elt F) cc0_stg0_0 hz2 _ f
omit [FloatOps F] in
theorem write_whole_o (f w : (cc0_stg1_0 : Ref sig .tc).ty.Contents (Elt F)) :
    ((oM : Memref sig .tc .vmem S1024x1024 .f32).access rX : View sig .tc _ _ _).write (Elt F) f w Finset.univ = w :=
  Memref.write_access_unit_zero_univ (Elt F) cc0_stg1_0 hz2 _ f w

/-- The device's own store of its statistics, as the store rule leaves it, is the final table on the device's slot. -/
theorem store_own (c : Dev nD) (f : Buf (Elt F) (tLoc c)) :
    ((tM.access (rS c)).loc (c : Thread nD τ) ↦[slotSet c c]{fullShare}
        ((tM.access (rS c)).write (Elt F) f (k0_pay7 Fn.col k0_pay1 (xblk m c)) Finset.univ) : sProp 𝕄) ⊢ slotPts m c c fullShare :=
  Entails.of_eq (store_slot m c f)

set_option maxHeartbeats 1600000 in
/-- The local half: the block is read, `exp (x - max)` stored into the result buffer, the statistics stored into the
    device's own slot, and the wait for the seven peers' signals brings their slots. -/
theorem part4_spec (K : Dev nD × Fin 15 → ℕ) (c : Dev nD) (Q : R4 (F := F) → sProp 𝕄) (v2 : BitVec 32)
    (go : Buf (Elt F) ((c : Thread nD τ).loc cc0_stg1_0)) (f : Buf (Elt F) (tLoc c)) (W : Waits sig Unit) :
    iprop(cellInv ER (sched m) (K (c, 0)) (barCell c) ∗ levAts L lv
        ∗ (((c : Thread nD τ).loc cc0_stg0_0) ↦{fullShare} xblk m c) ∗ (((c : Thread nD τ).loc cc0_stg1_0) ↦{fullShare} go)
        ∗ (tLoc c ↦[slotSet c c]{fullShare} f)
        ∗ cred (tallyAt (barCell c) () 7) ∗ owes (c : Thread nD τ) (owe c 7) W ∗ atPos ER (barCell c) 0 ∅ 0
        ∗ (∀ r : R4 (F := F), ⌜r.1 = Fn.eye ∧ r.2 = Fn.stats (xblk m c)⌝
            -∗ (((c : Thread nD τ).loc cc0_stg0_0) ↦{fullShare} xblk m c)
            -∗ (((c : Thread nD τ).loc cc0_stg1_0) ↦{fullShare} (k0_pay5 (xblk m c) : Vec F S1024x1024 .f32))
            -∗ slotPts m c c fullShare
            -∗ owes (c : Thread nD τ) (owe c 7) (insert (SemLoc.reg barS, ()) W)
            -∗ atPos ER (barCell c) 1 ∅ 0
            -∗ bigSep Finset.univ (fun r' : Fin 7 => slotAny (F := F) (from_ r' c) c)
            -∗ Q r))
      ⊢ wp frame (wpE (defs₀ (F := F)) 𝒱₀ c none) Set.univ
          (k0_part4 (F := F) xM (Memref.isWhole_whole _) oM (Memref.isWhole_whole _) tM (Memref.isWhole_whole _) cc0_scratch1 cc0_scratch2
            c v2 (SemArray.scalar (sig.barrier 0 rfl)) Fn.col k0_pay1) Q := by
  simp only [k0_part4_eq_skeleton]; unfold k0_part4_skel
  simp only [semWaitWord, Prog.lift, Prog.bind_op, Prog.bind_ret, Prog.pure_eq_ret]
  iintro ⟨#HIb, #Hlev, Hx, Hout, Hown, HcB, HO, HatB, Hk⟩
  iapply (wp_load 𝒱₀ (c : Thread nD τ) none Set.univ (m := xM) (Finset.subset_univ _)) $$ Hx; iintro Hx
  rw [read_whole_x]
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  rw [write_whole_o]
  iapply (wp_load 𝒱₀ (c : Thread nD τ) none Set.univ (m := tM) (load_set c)) $$ Hown; iintro Hown
  iapply (wp_store 𝒱₀ (c : Thread nD τ) none Set.univ (m := tM) (r := rS c) (Mk := Finset.univ) (store_set c)) $$ Hown; iintro Hown
  ihave Hown := (store_own m c f) $$ Hown
  iapply (bar_wait_step m K c W) $$ [HcB HO HatB]
  · isplitr; · iexact HIb
    isplitl [HcB]; · iexact HcB
    isplitl [HO]; · iexact HO
    isplitr; · iexact Hlev
    iexact HatB
  iintro ⟨HO, HatB, Hpeers⟩
  rw [wp_ret]; imodintro
  iapply Hk $$ [] Hx Hout Hown HO HatB Hpeers
  ipureintro; exact ⟨rfl, rfl⟩

end Cert.KernelProto

end
-- ==== Proof.Bits.Glue.lean ====
/-
  The table's slots regrouped between the steps of one device's body: the whole table cut into the device's own slot
  and its seven peers' slots; the own slot's full share cut into its left half, seven lent shares and a remainder; the
  seven slots the peers gave up, peer by peer; the table at the left half share made of the own slot's left half and
  the left halves of the seven received slots; and every share of every slot put back into the whole table.
-/
import proofs.«901054_g7700000000001055_dist_softmax_colshard_i_m1024_n1024_v7x_i8_f32_1_alg».proof.Proof.Bits.Proto
import proofs.«901054_g7700000000001055_dist_softmax_colshard_i_m1024_n1024_v7x_i8_f32_1_alg».proof.Proof.Bits.ProtoLemmas
import proofs.«901054_g7700000000001055_dist_softmax_colshard_i_m1024_n1024_v7x_i8_f32_1_alg».proof.Proof.Bits.ProtoLemmas2
import proofs.«901054_g7700000000001055_dist_softmax_colshard_i_m1024_n1024_v7x_i8_f32_1_alg».proof.Proof.Bits.Slots
import proofs.«901054_g7700000000001055_dist_softmax_colshard_i_m1024_n1024_v7x_i8_f32_1_alg».proof.Proof.Bits.Steps
import Idealize.ShloMosaic.Lib.Pipeline.Launch
import Idealize.ShloMosaic.Lib.Pipeline.Kit
import Idealize.ShloMosaic.Lib.Tactic

noncomputable section

namespace Cert.KernelProto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_canon] dev1_eq dev2_eq dev3_eq dev4_eq dev5_eq dev6_eq dev7_eq dev8_eq dev9_eq dev10_eq dev11_eq dev12_eq dev13_eq dev14_eq

/-- A product over seven indices, written out. -/
theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A slot's full share as an equation: its two halves. -/
theorem slot_halves_eq (c s : Dev nD) :
    slotPts m c s fullShare = iprop(slotPts m c s fullShare.left ∗ slotPts m c s fullShare.right) :=
  BI.equiv_iff.mp ⟨(slot_halves m c s).1, (slot_halves m c s).2⟩

/-- A slot's right half as an equation: the seven lent shares and the remainder. -/
theorem slot_lend_eq (c s : Dev nD) :
    slotPts m c s fullShare.right
      = iprop((slotPts m c s (shr 0) ∗ slotPts m c s (shr 1) ∗ slotPts m c s (shr 2) ∗ slotPts m c s (shr 3)
          ∗ slotPts m c s (shr 4) ∗ slotPts m c s (shr 5) ∗ slotPts m c s (shr 6)) ∗ slotPts m c s (rem 7)) := by
  rw [← bigSep_fin7 (fun d : Fin 7 => slotPts m c s (shr d))]
  exact BI.equiv_iff.mp ⟨(slot_lend m c s).1, (slot_lend m c s).2⟩

/-- The whole table at any contents: the device's own slot and its seven peers' slots. -/
theorem split_table (c : Dev nD) (f : Buf (Elt F) (tLoc c)) :
    (tLoc c ↦{fullShare} f : sProp 𝕄)
      ⊢ iprop((tLoc c ↦[slotSet c c]{fullShare} f) ∗ (tLoc c ↦[slotSet c (peer 0 c)]{fullShare} f)
          ∗ (tLoc c ↦[slotSet c (peer 1 c)]{fullShare} f) ∗ (tLoc c ↦[slotSet c (peer 2 c)]{fullShare} f)
          ∗ (tLoc c ↦[slotSet c (peer 3 c)]{fullShare} f) ∗ (tLoc c ↦[slotSet c (peer 4 c)]{fullShare} f)
          ∗ (tLoc c ↦[slotSet c (peer 5 c)]{fullShare} f) ∗ (tLoc c ↦[slotSet c (peer 6 c)]{fullShare} f)) := by
  rw [table_slots, bigSep_dev_peers c, bigSep_fin7]

/-- The device's own slot, owned whole: its left half, what remains of the right half, and the seven lent shares. -/
theorem lend_own (c : Dev nD) :
    slotPts m c c fullShare
      ⊢ iprop(slotPts m c c fullShare.left ∗ slotPts m c c (rem 7) ∗ slotPts m c c (shr 0) ∗ slotPts m c c (shr 1)
          ∗ slotPts m c c (shr 2) ∗ slotPts m c c (shr 3) ∗ slotPts m c c (shr 4) ∗ slotPts m c c (shr 5)
          ∗ slotPts m c c (shr 6)) := by
  rw [slot_halves_eq, slot_lend_eq]
  iintro ⟨HL, ⟨H0, H1, H2, H3, H4, H5, H6⟩, HR⟩
  iframe

/-- The seven slots the peers gave up, peer by peer: the slot of peer `d` comes as duty number `6 - d`. -/
theorem peers_slots (c : Dev nD) :
    (bigSep Finset.univ (fun r : Fin 7 => slotAny (F := F) (from_ r c) c) : sProp 𝕄)
      ⊢ iprop((∃ fd : Buf (Elt F) (tLoc (peer 0 c)), tLoc (peer 0 c) ↦[slotSet (peer 0 c) c]{fullShare} fd)
          ∗ (∃ fd : Buf (Elt F) (tLoc (peer 1 c)), tLoc (peer 1 c) ↦[slotSet (peer 1 c) c]{fullShare} fd)
          ∗ (∃ fd : Buf (Elt F) (tLoc (peer 2 c)), tLoc (peer 2 c) ↦[slotSet (peer 2 c) c]{fullShare} fd)
          ∗ (∃ fd : Buf (Elt F) (tLoc (peer 3 c)), tLoc (peer 3 c) ↦[slotSet (peer 3 c) c]{fullShare} fd)
          ∗ (∃ fd : Buf (Elt F) (tLoc (peer 4 c)), tLoc (peer 4 c) ↦[slotSet (peer 4 c) c]{fullShare} fd)
          ∗ (∃ fd : Buf (Elt F) (tLoc (peer 5 c)), tLoc (peer 5 c) ↦[slotSet (peer 5 c) c]{fullShare} fd)
          ∗ (∃ fd : Buf (Elt F) (tLoc (peer 6 c)), tLoc (peer 6 c) ↦[slotSet (peer 6 c) c]{fullShare} fd)) := by
  have h : ∀ d : Fin 7, slotAny (F := F) (from_ (Fin.rev d) c) c
      = iprop(∃ fd : Buf (Elt F) (tLoc (peer d c)), tLoc (peer d c) ↦[slotSet (peer d c) c]{fullShare} fd) :=
    fun d => by rw [from_rev]; rfl
  rw [bigSep_fin7, ← h 0, ← h 1, ← h 2, ← h 3, ← h 4, ← h 5, ← h 6]
  iintro ⟨H0, H1, H2, H3, H4, H5, H6⟩
  isplitl [H6]; · iexact H6
  isplitl [H5]; · iexact H5
  isplitl [H4]; · iexact H4
  isplitl [H3]; · iexact H3
  isplitl [H2]; · iexact H2
  isplitl [H1]; · iexact H1
  iexact H0

/-- The own slot's left half and the seven received slots: the whole table at the left half share, and the right
    halves of the received slots. -/
theorem table_for_load (c : Dev nD) :
    iprop(slotPts m c c fullShare.left ∗ slotPts m c (from_ 0 c) fullShare ∗ slotPts m c (from_ 1 c) fullShare
        ∗ slotPts m c (from_ 2 c) fullShare ∗ slotPts m c (from_ 3 c) fullShare ∗ slotPts m c (from_ 4 c) fullShare
        ∗ slotPts m c (from_ 5 c) fullShare ∗ slotPts m c (from_ 6 c) fullShare)
      ⊢ iprop((tLoc c ↦[Finset.univ]{fullShare.left} tblAll m) ∗ slotPts m c (from_ 0 c) fullShare.right
          ∗ slotPts m c (from_ 1 c) fullShare.right ∗ slotPts m c (from_ 2 c) fullShare.right
          ∗ slotPts m c (from_ 3 c) fullShare.right ∗ slotPts m c (from_ 4 c) fullShare.right
          ∗ slotPts m c (from_ 5 c) fullShare.right ∗ slotPts m c (from_ 6 c) fullShare.right) := by
  rw [slot_halves_eq m c (from_ 0 c), slot_halves_eq m c (from_ 1 c), slot_halves_eq m c (from_ 2 c),
    slot_halves_eq m c (from_ 3 c), slot_halves_eq m c (from_ 4 c), slot_halves_eq m c (from_ 5 c),
    slot_halves_eq m c (from_ 6 c), ← table_whole m c fullShare.left, bigSep_dev_froms c, bigSep_fin7]
  iintro ⟨HL, ⟨L0, R0⟩, ⟨L1, R1⟩, ⟨L2, R2⟩, ⟨L3, R3⟩, ⟨L4, R4⟩, ⟨L5, R5⟩, ⟨L6, R6⟩⟩
  iframe

/-- Every share of every slot back: the table at the left half share, the right halves of the received slots, and the
    remainder and the seven lent shares of the own slot make the whole table at the full share. -/
theorem table_back (c : Dev nD) :
    iprop((tLoc c ↦[Finset.univ]{fullShare.left} tblAll m)
        ∗ (slotPts m c (from_ 0 c) fullShare.right ∗ slotPts m c (from_ 1 c) fullShare.right
          ∗ slotPts m c (from_ 2 c) fullShare.right ∗ slotPts m c (from_ 3 c) fullShare.right
          ∗ slotPts m c (from_ 4 c) fullShare.right ∗ slotPts m c (from_ 5 c) fullShare.right
          ∗ slotPts m c (from_ 6 c) fullShare.right)
        ∗ slotPts m c c (rem 7) ∗ slotPts m c c (shr 0) ∗ slotPts m c c (shr 1) ∗ slotPts m c c (shr 2)
        ∗ slotPts m c c (shr 3) ∗ slotPts m c c (shr 4) ∗ slotPts m c c (shr 5) ∗ slotPts m c c (shr 6))
      ⊢ iprop(∃ f : Buf (Elt F) (tLoc c), tLoc c ↦{fullShare} f) := by
  refine BIBase.Entails.trans ?_ (table_join m c)
  rw [bigSep_dev_froms c (fun s => slotPts m c s fullShare), bigSep_fin7, slot_halves_eq m c c, slot_lend_eq m c c,
    slot_halves_eq m c (from_ 0 c), slot_halves_eq m c (from_ 1 c), slot_halves_eq m c (from_ 2 c),
    slot_halves_eq m c (from_ 3 c), slot_halves_eq m c (from_ 4 c), slot_halves_eq m c (from_ 5 c),
    slot_halves_eq m c (from_ 6 c), ← table_whole m c fullShare.left, bigSep_dev_froms c, bigSep_fin7]
  iintro ⟨⟨HL, L0, L1, L2, L3, L4, L5, L6⟩, ⟨R0, R1, R2, R3, R4, R5, R6⟩, HR, H0, H1, H2, H3, H4, H5, H6⟩
  iframe

/-! ## Each statement above stands on the three standard axioms only -/

/-- info: 'Cert.KernelProto.bigSep_fin7' depends on axioms: [propext, Classical.choice, Quot.sound] -/
#guard_msgs in #print axioms bigSep_fin7

/-- info: 'Cert.KernelProto.slot_halves_eq' depends on axioms: [propext, Classical.choice, Quot.sound] -/
#guard_msgs in #print axioms slot_halves_eq

/-- info: 'Cert.KernelProto.slot_lend_eq' depends on axioms: [propext, Classical.choice, Quot.sound] -/
#guard_msgs in #print axioms slot_lend_eq

/-- info: 'Cert.KernelProto.split_table' depends on axioms: [propext, Classical.choice, Quot.sound] -/
#guard_msgs in #print axioms split_table

/-- info: 'Cert.KernelProto.lend_own' depends on axioms: [propext, Classical.choice, Quot.sound] -/
#guard_msgs in #print axioms lend_own

/-- info: 'Cert.KernelProto.peers_slots' depends on axioms: [propext, Classical.choice, Quot.sound] -/
#guard_msgs in #print axioms peers_slots

/-- info: 'Cert.KernelProto.table_for_load' depends on axioms: [propext, Classical.choice, Quot.sound] -/
#guard_msgs in #print axioms table_for_load

/-- info: 'Cert.KernelProto.table_back' depends on axioms: [propext, Classical.choice, Quot.sound] -/
#guard_msgs in #print axioms table_back

end Cert.KernelProto

end
-- ==== Proof.Bits.PartsB.lean ====
/-
  The seven copies out, part by part of the printed body: copy number `d` lends the share `shr d` of the device's own
  slot, fills slot `c` of the table of the device `d + 1` places after, pays that device's receive cell number `c`
  and leaves the device a credit on its own send cell `d`.
-/
import proofs.«901054_g7700000000001055_dist_softmax_colshard_i_m1024_n1024_v7x_i8_f32_1_alg».proof.Proof.Bits.Proto
import proofs.«901054_g7700000000001055_dist_softmax_colshard_i_m1024_n1024_v7x_i8_f32_1_alg».proof.Proof.Bits.ProtoLemmas
import proofs.«901054_g7700000000001055_dist_softmax_colshard_i_m1024_n1024_v7x_i8_f32_1_alg».proof.Proof.Bits.ProtoLemmas2
import proofs.«901054_g7700000000001055_dist_softmax_colshard_i_m1024_n1024_v7x_i8_f32_1_alg».proof.Proof.Bits.Slots
import proofs.«901054_g7700000000001055_dist_softmax_colshard_i_m1024_n1024_v7x_i8_f32_1_alg».proof.Proof.Bits.Steps
import Idealize.ShloMosaic.Lib.Pipeline.Launch
import Idealize.ShloMosaic.Lib.Pipeline.Kit
import Idealize.ShloMosaic.Lib.Tactic

noncomputable section

namespace Cert.KernelProto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_canon] dev1_eq dev2_eq dev3_eq dev4_eq dev5_eq dev6_eq dev7_eq dev8_eq dev9_eq dev10_eq dev11_eq dev12_eq dev13_eq dev14_eq

/-! ## The printed semaphores -/

/-- The receive semaphore a device's copies credit on their targets is the one bearing its own number. -/
theorem recvQ_own (c : Dev nD) :
    ((cc0_scratch2.slice (Rect.unit (s := S8) (k0_off2 c) S1.size (k0_off2_inb c))).squeeze S_ squeezes_S1_S_).sem = recvQ c := by
  revert c; decide +kernel

/-- Copy number `d` completes, on the sender, on send semaphore `d`. -/
theorem sendS_0 : ((cc0_scratch1.slice (Rect.unit (s := S7) ![0] S1.size inb_S7_S1_0)).squeeze S_ squeezes_S1_S_).sem = sendQ 0 := by decide +kernel
theorem sendS_1 : ((cc0_scratch1.slice (Rect.unit (s := S7) ![1] S1.size inb_S7_S1_1)).squeeze S_ squeezes_S1_S_).sem = sendQ 1 := by decide +kernel
theorem sendS_2 : ((cc0_scratch1.slice (Rect.unit (s := S7) ![2] S1.size inb_S7_S1_2)).squeeze S_ squeezes_S1_S_).sem = sendQ 2 := by decide +kernel
theorem sendS_3 : ((cc0_scratch1.slice (Rect.unit (s := S7) ![3] S1.size inb_S7_S1_3)).squeeze S_ squeezes_S1_S_).sem = sendQ 3 := by decide +kernel
theorem sendS_4 : ((cc0_scratch1.slice (Rect.unit (s := S7) ![4] S1.size inb_S7_S1_4)).squeeze S_ squeezes_S1_S_).sem = sendQ 4 := by decide +kernel
theorem sendS_5 : ((cc0_scratch1.slice (Rect.unit (s := S7) ![5] S1.size inb_S7_S1_5)).squeeze S_ squeezes_S1_S_).sem = sendQ 5 := by decide +kernel
theorem sendS_6 : ((cc0_scratch1.slice (Rect.unit (s := S7) ![6] S1.size inb_S7_S1_6)).squeeze S_ squeezes_S1_S_).sem = sendQ 6 := by decide +kernel

abbrev R5 : Type := Σ' (v162 : BitVec 32) (v163 : BitVec 32) (v164 : BitVec 1), BitVec 1
abbrev R6 : Type := Σ' (v202 : BitVec 32), BitVec 32
abbrev R8 : Type := Σ' (v267 : BitVec 32) (v268 : BitVec 32) (v269 : BitVec 1), BitVec 1

/-! ## The parts -/

set_option maxHeartbeats 1600000 in
/-- Copies number 0 and 1. -/
theorem part5_spec (K : Dev nD × Fin 15 → ℕ) (c : Dev nD) (Q : R5 → sProp 𝕄) (v2 : BitVec 32)
    (fd0 : Buf (Elt F) (tLoc (peer 0 c))) (fd1 : Buf (Elt F) (tLoc (peer 1 c))) (O : CellTallies nD τ sig Unit) (W : Waits sig Unit) :
    iprop(cellInv ER (sched m) (K (c, sIdx 0)) (sendCell c 0) ∗ cellInv ER (sched m) (K (peer 0 c, rIdx 0)) (recvCell (peer 0 c) c)
        ∗ cellInv ER (sched m) (K (c, sIdx 1)) (sendCell c 1) ∗ cellInv ER (sched m) (K (peer 1 c, rIdx 1)) (recvCell (peer 1 c) c)
        ∗ reached ER (sendCell c 0) 0 ∗ reached ER (recvCell (peer 0 c) c) 0
        ∗ reached ER (sendCell c 1) 0 ∗ reached ER (recvCell (peer 1 c) c) 0
        ∗ owes (c : Thread nD τ) (O + tallyAt (recvCell (peer 1 c) c) () N + tallyAt (recvCell (peer 0 c) c) () N) W
        ∗ dutyTok ER (sendCell c 0) 0 0 ∗ dutyTok ER (recvCell (peer 0 c) c) 0 0
        ∗ dutyTok ER (sendCell c 1) 0 0 ∗ dutyTok ER (recvCell (peer 1 c) c) 0 0
        ∗ slotPts m c c (shr 0) ∗ slotPts m c c (shr 1)
        ∗ (tLoc (peer 0 c) ↦[slotSet (peer 0 c) c]{fullShare} fd0) ∗ (tLoc (peer 1 c) ↦[slotSet (peer 1 c) c]{fullShare} fd1)
        ∗ (∀ r : R5, cred (tallyAt (sendCell c 0) () N) -∗ cred (tallyAt (sendCell c 1) () N) -∗ owes (c : Thread nD τ) O W -∗ Q r))
      ⊢ wp frame (wpE (defs₀ (F := F)) 𝒱₀ c none) Set.univ
          (k0_part5 (F := F) xM (Memref.isWhole_whole _) oM (Memref.isWhole_whole _) tM (Memref.isWhole_whole _) cc0_scratch1 cc0_scratch2 c v2) Q := by
  iintro ⟨#HIs0, #HIr0, #HIs1, #HIr1, #HRs0, #HRr0, #HRs1, #HRr1, HO, Hts0, Htr0, Hts1, Htr1, Hsh0, Hsh1, Hd0, Hd1, Hk⟩
  sl_exec
  iapply (send_step m K c 0 ⟨k0_dev8 c, k0_dev8_lt c⟩ (dev8_eq c)
      ((cc0_scratch1.slice (Rect.unit (s := S7) ![0] S1.size inb_S7_S1_0)).squeeze S_ squeezes_S1_S_).sem
      ((cc0_scratch2.slice (Rect.unit (s := S8) (k0_off2 c) S1.size (k0_off2_inb c))).squeeze S_ squeezes_S1_S_).sem
      sendS_0 (recvQ_own c) fd0 (O + tallyAt (recvCell (peer 1 c) c) () N) W (land_slot m (peer 0 c) c fd0)) $$ [HO Hts0 Htr0 Hsh0 Hd0]
  · isplitr; · iexact HIs0
    isplitr; · iexact HIr0
    isplitl [Hsh0]; · iexact Hsh0
    isplitl [Hd0]; · iexact Hd0
    isplitl [HO]; · iexact HO
    isplitl [Hts0]; · iexact Hts0
    isplitr; · iexact HRs0
    isplitl [Htr0]; · iexact Htr0
    iexact HRr0
  iintro ⟨Hc0, HO⟩
  sl_exec
  iapply (send_step m K c 1 ⟨k0_dev9 c, k0_dev9_lt c⟩ (dev9_eq c)
      ((cc0_scratch1.slice (Rect.unit (s := S7) ![1] S1.size inb_S7_S1_1)).squeeze S_ squeezes_S1_S_).sem
      ((cc0_scratch2.slice (Rect.unit (s := S8) (k0_off2 c) S1.size (k0_off2_inb c))).squeeze S_ squeezes_S1_S_).sem
      sendS_1 (recvQ_own c) fd1 (O) W (land_slot m (peer 1 c) c fd1)) $$ [HO Hts1 Htr1 Hsh1 Hd1]
  · isplitr; · iexact HIs1
    isplitr; · iexact HIr1
    isplitl [Hsh1]; · iexact Hsh1
    isplitl [Hd1]; · iexact Hd1
    isplitl [HO]; · iexact HO
    isplitl [Hts1]; · iexact Hts1
    isplitr; · iexact HRs1
    isplitl [Htr1]; · iexact Htr1
    iexact HRr1
  iintro ⟨Hc1, HO⟩
  sl_exec
  sl_step
  iapply Hk $$ [Hc0] [Hc1] [HO]
  · iexact Hc0
  · iexact Hc1
  · iexact HO

set_option maxHeartbeats 1600000 in
/-- Copies number 2 and 3. -/
theorem part6_spec (K : Dev nD × Fin 15 → ℕ) (c : Dev nD) (Q : R6 → sProp 𝕄) (v2 v162 v163 : BitVec 32) (v164 v167 : BitVec 1)
    (fd2 : Buf (Elt F) (tLoc (peer 2 c))) (fd3 : Buf (Elt F) (tLoc (peer 3 c))) (O : CellTallies nD τ sig Unit) (W : Waits sig Unit) :
    iprop(cellInv ER (sched m) (K (c, sIdx 2)) (sendCell c 2) ∗ cellInv ER (sched m) (K (peer 2 c, rIdx 2)) (recvCell (peer 2 c) c)
        ∗ cellInv ER (sched m) (K (c, sIdx 3)) (sendCell c 3) ∗ cellInv ER (sched m) (K (peer 3 c, rIdx 3)) (recvCell (peer 3 c) c)
        ∗ reached ER (sendCell c 2) 0 ∗ reached ER (recvCell (peer 2 c) c) 0
        ∗ reached ER (sendCell c 3) 0 ∗ reached ER (recvCell (peer 3 c) c) 0
        ∗ owes (c : Thread nD τ) (O + tallyAt (recvCell (peer 3 c) c) () N + tallyAt (recvCell (peer 2 c) c) () N) W
        ∗ dutyTok ER (sendCell c 2) 0 0 ∗ dutyTok ER (recvCell (peer 2 c) c) 0 0
        ∗ dutyTok ER (sendCell c 3) 0 0 ∗ dutyTok ER (recvCell (peer 3 c) c) 0 0
        ∗ slotPts m c c (shr 2) ∗ slotPts m c c (shr 3)
        ∗ (tLoc (peer 2 c) ↦[slotSet (peer 2 c) c]{fullShare} fd2) ∗ (tLoc (peer 3 c) ↦[slotSet (peer 3 c) c]{fullShare} fd3)
        ∗ (∀ r : R6, cred (tallyAt (sendCell c 2) () N) -∗ cred (tallyAt (sendCell c 3) () N) -∗ owes (c : Thread nD τ) O W -∗ Q r))
      ⊢ wp frame (wpE (defs₀ (F := F)) 𝒱₀ c none) Set.univ
          (k0_part6 (F := F) xM (Memref.isWhole_whole _) oM (Memref.isWhole_whole _) tM (Memref.isWhole_whole _) cc0_scratch1 cc0_scratch2 c v2 v162 v163 v164 v167) Q := by
  iintro ⟨#HIs2, #HIr2, #HIs3, #HIr3, #HRs2, #HRr2, #HRs3, #HRr3, HO, Hts2, Htr2, Hts3, Htr3, Hsh2, Hsh3, Hd2, Hd3, Hk⟩
  sl_exec
  iapply (send_step m K c 2 ⟨k0_dev10 c, k0_dev10_lt c⟩ (dev10_eq c)
      ((cc0_scratch1.slice (Rect.unit (s := S7) ![2] S1.size inb_S7_S1_2)).squeeze S_ squeezes_S1_S_).sem
      ((cc0_scratch2.slice (Rect.unit (s := S8) (k0_off2 c) S1.size (k0_off2_inb c))).squeeze S_ squeezes_S1_S_).sem
      sendS_2 (recvQ_own c) fd2 (O + tallyAt (recvCell (peer 3 c) c) () N) W (land_slot m (peer 2 c) c fd2)) $$ [HO Hts2 Htr2 Hsh2 Hd2]
  · isplitr; · iexact HIs2
    isplitr; · iexact HIr2
    isplitl [Hsh2]; · iexact Hsh2
    isplitl [Hd2]; · iexact Hd2
    isplitl [HO]; · iexact HO
    isplitl [Hts2]; · iexact Hts2
    isplitr; · iexact HRs2
    isplitl [Htr2]; · iexact Htr2
    iexact HRr2
  iintro ⟨Hc2, HO⟩
  sl_exec
  iapply (send_step m K c 3 ⟨k0_dev11 c, k0_dev11_lt c⟩ (dev11_eq c)
      ((cc0_scratch1.slice (Rect.unit (s := S7) ![3] S1.size inb_S7_S1_3)).squeeze S_ squeezes_S1_S_).sem
      ((cc0_scratch2.slice (Rect.unit (s := S8) (k0_off2 c) S1.size (k0_off2_inb c))).squeeze S_ squeezes_S1_S_).sem
      sendS_3 (recvQ_own c) fd3 (O) W (land_slot m (peer 3 c) c fd3)) $$ [HO Hts3 Htr3 Hsh3 Hd3]
  · isplitr; · iexact HIs3
    isplitr; · iexact HIr3
    isplitl [Hsh3]; · iexact Hsh3
    isplitl [Hd3]; · iexact Hd3
    isplitl [HO]; · iexact HO
    isplitl [Hts3]; · iexact Hts3
    isplitr; · iexact HRs3
    isplitl [Htr3]; · iexact Htr3
    iexact HRr3
  iintro ⟨Hc3, HO⟩
  sl_exec
  sl_step
  iapply Hk $$ [Hc2] [Hc3] [HO]
  · iexact Hc2
  · iexact Hc3
  · iexact HO

set_option maxHeartbeats 1600000 in
/-- Copy number 4. -/
theorem part7_spec (K : Dev nD × Fin 15 → ℕ) (c : Dev nD) (Q : PUnit → sProp 𝕄) (v2 v202 c8_i32_129 : BitVec 32)
    (fd4 : Buf (Elt F) (tLoc (peer 4 c))) (O : CellTallies nD τ sig Unit) (W : Waits sig Unit) :
    iprop(cellInv ER (sched m) (K (c, sIdx 4)) (sendCell c 4) ∗ cellInv ER (sched m) (K (peer 4 c, rIdx 4)) (recvCell (peer 4 c) c)
        ∗ reached ER (sendCell c 4) 0 ∗ reached ER (recvCell (peer 4 c) c) 0
        ∗ owes (c : Thread nD τ) (O + tallyAt (recvCell (peer 4 c) c) () N) W
        ∗ dutyTok ER (sendCell c 4) 0 0 ∗ dutyTok ER (recvCell (peer 4 c) c) 0 0
        ∗ slotPts m c c (shr 4)
        ∗ (tLoc (peer 4 c) ↦[slotSet (peer 4 c) c]{fullShare} fd4)
        ∗ (cred (tallyAt (sendCell c 4) () N) -∗ owes (c : Thread nD τ) O W -∗ Q ⟨⟩))
      ⊢ wp frame (wpE (defs₀ (F := F)) 𝒱₀ c none) Set.univ
          (k0_part7 (F := F) xM (Memref.isWhole_whole _) oM (Memref.isWhole_whole _) tM (Memref.isWhole_whole _) cc0_scratch1 cc0_scratch2 c v2 v202 c8_i32_129) Q := by
  iintro ⟨#HIs4, #HIr4, #HRs4, #HRr4, HO, Hts4, Htr4, Hsh4, Hd4, Hk⟩
  sl_exec
  iapply (send_step m K c 4 ⟨k0_dev12 c, k0_dev12_lt c⟩ (dev12_eq c)
      ((cc0_scratch1.slice (Rect.unit (s := S7) ![4] S1.size inb_S7_S1_4)).squeeze S_ squeezes_S1_S_).sem
      ((cc0_scratch2.slice (Rect.unit (s := S8) (k0_off2 c) S1.size (k0_off2_inb c))).squeeze S_ squeezes_S1_S_).sem
      sendS_4 (recvQ_own c) fd4 (O) W (land_slot m (peer 4 c) c fd4)) $$ [HO Hts4 Htr4 Hsh4 Hd4]
  · isplitr; · iexact HIs4
    isplitr; · iexact HIr4
    isplitl [Hsh4]; · iexact Hsh4
    isplitl [Hd4]; · iexact Hd4
    isplitl [HO]; · iexact HO
    isplitl [Hts4]; · iexact Hts4
    isplitr; · iexact HRs4
    isplitl [Htr4]; · iexact Htr4
    iexact HRr4
  iintro ⟨Hc4, HO⟩
  sl_exec
  sl_step
  iapply Hk $$ [Hc4] [HO]
  · iexact Hc4
  · iexact HO

set_option maxHeartbeats 1600000 in
/-- Copies number 5 and 6. -/
theorem part8_spec (K : Dev nD × Fin 15 → ℕ) (c : Dev nD) (Q : R8 → sProp 𝕄) (v2 : BitVec 32)
    (fd5 : Buf (Elt F) (tLoc (peer 5 c))) (fd6 : Buf (Elt F) (tLoc (peer 6 c))) (O : CellTallies nD τ sig Unit) (W : Waits sig Unit) :
    iprop(cellInv ER (sched m) (K (c, sIdx 5)) (sendCell c 5) ∗ cellInv ER (sched m) (K (peer 5 c, rIdx 5)) (recvCell (peer 5 c) c)
        ∗ cellInv ER (sched m) (K (c, sIdx 6)) (sendCell c 6) ∗ cellInv ER (sched m) (K (peer 6 c, rIdx 6)) (recvCell (peer 6 c) c)
        ∗ reached ER (sendCell c 5) 0 ∗ reached ER (recvCell (peer 5 c) c) 0
        ∗ reached ER (sendCell c 6) 0 ∗ reached ER (recvCell (peer 6 c) c) 0
        ∗ owes (c : Thread nD τ) (O + tallyAt (recvCell (peer 6 c) c) () N + tallyAt (recvCell (peer 5 c) c) () N) W
        ∗ dutyTok ER (sendCell c 5) 0 0 ∗ dutyTok ER (recvCell (peer 5 c) c) 0 0
        ∗ dutyTok ER (sendCell c 6) 0 0 ∗ dutyTok ER (recvCell (peer 6 c) c) 0 0
        ∗ slotPts m c c (shr 5) ∗ slotPts m c c (shr 6)
        ∗ (tLoc (peer 5 c) ↦[slotSet (peer 5 c) c]{fullShare} fd5) ∗ (tLoc (peer 6 c) ↦[slotSet (peer 6 c) c]{fullShare} fd6)
        ∗ (∀ r : R8, cred (tallyAt (sendCell c 5) () N) -∗ cred (tallyAt (sendCell c 6) () N) -∗ owes (c : Thread nD τ) O W -∗ Q r))
      ⊢ wp frame (wpE (defs₀ (F := F)) 𝒱₀ c none) Set.univ
          (k0_part8 (F := F) xM (Memref.isWhole_whole _) oM (Memref.isWhole_whole _) tM (Memref.isWhole_whole _) cc0_scratch1 cc0_scratch2 c v2) Q := by
  iintro ⟨#HIs5, #HIr5, #HIs6, #HIr6, #HRs5, #HRr5, #HRs6, #HRr6, HO, Hts5, Htr5, Hts6, Htr6, Hsh5, Hsh6, Hd5, Hd6, Hk⟩
  sl_exec
  iapply (send_step m K c 5 ⟨k0_dev13 c, k0_dev13_lt c⟩ (dev13_eq c)
      ((cc0_scratch1.slice (Rect.unit (s := S7) ![5] S1.size inb_S7_S1_5)).squeeze S_ squeezes_S1_S_).sem
      ((cc0_scratch2.slice (Rect.unit (s := S8) (k0_off2 c) S1.size (k0_off2_inb c))).squeeze S_ squeezes_S1_S_).sem
      sendS_5 (recvQ_own c) fd5 (O + tallyAt (recvCell (peer 6 c) c) () N) W (land_slot m (peer 5 c) c fd5)) $$ [HO Hts5 Htr5 Hsh5 Hd5]
  · isplitr; · iexact HIs5
    isplitr; · iexact HIr5
    isplitl [Hsh5]; · iexact Hsh5
    isplitl [Hd5]; · iexact Hd5
    isplitl [HO]; · iexact HO
    isplitl [Hts5]; · iexact Hts5
    isplitr; · iexact HRs5
    isplitl [Htr5]; · iexact Htr5
    iexact HRr5
  iintro ⟨Hc5, HO⟩
  sl_exec
  iapply (send_step m K c 6 ⟨k0_dev14 c, k0_dev14_lt c⟩ (dev14_eq c)
      ((cc0_scratch1.slice (Rect.unit (s := S7) ![6] S1.size inb_S7_S1_6)).squeeze S_ squeezes_S1_S_).sem
      ((cc0_scratch2.slice (Rect.unit (s := S8) (k0_off2 c) S1.size (k0_off2_inb c))).squeeze S_ squeezes_S1_S_).sem
      sendS_6 (recvQ_own c) fd6 (O) W (land_slot m (peer 6 c) c fd6)) $$ [HO Hts6 Htr6 Hsh6 Hd6]
  · isplitr; · iexact HIs6
    isplitr; · iexact HIr6
    isplitl [Hsh6]; · iexact Hsh6
    isplitl [Hd6]; · iexact Hd6
    isplitl [HO]; · iexact HO
    isplitl [Hts6]; · iexact Hts6
    isplitr; · iexact HRs6
    isplitl [Htr6]; · iexact Htr6
    iexact HRr6
  iintro ⟨Hc6, HO⟩
  sl_exec
  sl_step
  iapply Hk $$ [Hc5] [Hc6] [HO]
  · iexact Hc5
  · iexact Hc6
  · iexact HO

/-- info: 'Cert.KernelProto.part5_spec' depends on axioms: [propext, Classical.choice, Quot.sound] -/
#guard_msgs in #print axioms part5_spec

/-- info: 'Cert.KernelProto.part6_spec' depends on axioms: [propext, Classical.choice, Quot.sound] -/
#guard_msgs in #print axioms part6_spec

/-- info: 'Cert.KernelProto.part7_spec' depends on axioms: [propext, Classical.choice, Quot.sound] -/
#guard_msgs in #print axioms part7_spec

/-- info: 'Cert.KernelProto.part8_spec' depends on axioms: [propext, Classical.choice, Quot.sound] -/
#guard_msgs in #print axioms part8_spec

end Cert.KernelProto

end
-- ==== Proof.Bits.PartsC.lean ====
/-
  One device's body, the waits for the seven copies addressed to it and the reading of the table: each wait returns
  the slot of the device the copy came from, holding the final table; with all eight slots in hand the whole table
  is read, and the global maximum and the rescaled sum are terms of it.
-/
import proofs.«901054_g7700000000001055_dist_softmax_colshard_i_m1024_n1024_v7x_i8_f32_1_alg».proof.Proof.Bits.Proto
import proofs.«901054_g7700000000001055_dist_softmax_colshard_i_m1024_n1024_v7x_i8_f32_1_alg».proof.Proof.Bits.ProtoLemmas
import proofs.«901054_g7700000000001055_dist_softmax_colshard_i_m1024_n1024_v7x_i8_f32_1_alg».proof.Proof.Bits.ProtoLemmas2
import proofs.«901054_g7700000000001055_dist_softmax_colshard_i_m1024_n1024_v7x_i8_f32_1_alg».proof.Proof.Bits.Slots
import proofs.«901054_g7700000000001055_dist_softmax_colshard_i_m1024_n1024_v7x_i8_f32_1_alg».proof.Proof.Bits.Steps
import Idealize.ShloMosaic.Lib.Pipeline.Launch
import Idealize.ShloMosaic.Lib.Pipeline.Kit
import Idealize.ShloMosaic.Lib.Tactic

noncomputable section

namespace Cert.KernelProto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_canon] dev1_eq dev2_eq dev3_eq dev4_eq dev5_eq dev6_eq dev7_eq dev8_eq dev9_eq dev10_eq dev11_eq dev12_eq dev13_eq dev14_eq

/-! ## The receive semaphores by number -/

/-- A one-semaphore block of the eight receive semaphores lies inside the array. -/
theorem recv_inb (s : Dev nD) : ∀ a, (![s.val] : Fin 1 → Nat) a + S1.size a ≤ S8.size a := by
  intro a; have h : s.val < 8 := s.isLt; fin_cases a; show s.val + 1 ≤ 8; omega

/-- The receive semaphore at place `s` of the array of eight is the one bearing the number `s`. -/
theorem recvSem_at : ∀ s : Dev nD,
    ((cc0_scratch2.slice (Rect.unit (s := S8) ![s.val] S1.size (recv_inb s))).squeeze S_ squeezes_S1_S_).sem = recvQ s := by
  decide

/-- The receive semaphore the wait number `r` names is the one bearing the number of the device `r + 1` places
    before. -/
theorem recvSem_eq (c : Dev nD) (r : Fin 7) :
    ((cc0_scratch2.slice (Rect.unit (s := S8) (k0_off4 c (BitVec.ofNat 32 (1 + r.val))) S1.size (k0_off4_inb c r))).squeeze S_ squeezes_S1_S_).sem
      = recvQ (from_ r c) :=
  (congrArg (fun a : DmaSems sig S1 => (a.squeeze S_ squeezes_S1_S_).sem)
    (SemArray.slice_unit_congr cc0_scratch2 (off4_eq c r) (k0_off4_inb c r) (recv_inb (from_ r c)))).trans (recvSem_at (from_ r c))

/-! ## The stretches of the body -/

abbrev R9 : Type := Σ' (v303 : BitVec 32), BitVec 32

/-- Receive waits number 0 and 1. -/
theorem part9_spec (K : Dev nD × Fin 15 → ℕ) (c : Dev nD) (Q : R9 → sProp 𝕄) (v2 v267 v268 : BitVec 32) (v269 v272 : BitVec 1) (W : Waits sig Unit) :
    iprop(cellInv ER (sched m) (K (c, rIdx 0)) (recvCell c (from_ 0 c)) ∗ cellInv ER (sched m) (K (c, rIdx 1)) (recvCell c (from_ 1 c))
        ∗ cred (tallyAt (recvCell c (from_ 0 c)) () N) ∗ cred (tallyAt (recvCell c (from_ 1 c)) () N)
        ∗ owes (c : Thread nD τ) 0 W ∗ atPos ER (recvCell c (from_ 0 c)) 0 ∅ 0 ∗ atPos ER (recvCell c (from_ 1 c)) 0 ∅ 0
        ∗ (∀ r : R9, owes (c : Thread nD τ) 0 (insert (SemLoc.dma (recvQ (from_ 1 c)), ()) (insert (SemLoc.dma (recvQ (from_ 0 c)), ()) W))
            -∗ atPos ER (recvCell c (from_ 0 c)) 1 ∅ 0 -∗ atPos ER (recvCell c (from_ 1 c)) 1 ∅ 0
            -∗ slotPts m c (from_ 0 c) fullShare -∗ slotPts m c (from_ 1 c) fullShare -∗ Q r))
      ⊢ wp frame (wpE (defs₀ (F := F)) 𝒱₀ c none) Set.univ
          (k0_part9 (F := F) xM (Memref.isWhole_whole _) oM (Memref.isWhole_whole _) tM (Memref.isWhole_whole _) cc0_scratch1 cc0_scratch2 c v2 v267 v268 v269 v272) Q := by
  iintro ⟨#HI0, #HI1, Hc0, Hc1, HO, Hat0, Hat1, Hk⟩
  sl_exec
  iapply (recv_wait_step m K c 0 _ (recvSem_eq c 0) _ _ W) $$ [Hc0 HO Hat0]
  · isplitr; · iexact HI0
    isplitl [Hc0]; · iexact Hc0
    isplitl [HO]; · iexact HO
    iexact Hat0
  iintro ⟨HO, Hat0, Hs0⟩
  sl_exec
  iapply (recv_wait_step m K c 1 _ (recvSem_eq c 1) _ _ _) $$ [Hc1 HO Hat1]
  · isplitr; · iexact HI1
    isplitl [Hc1]; · iexact Hc1
    isplitl [HO]; · iexact HO
    iexact Hat1
  iintro ⟨HO, Hat1, Hs1⟩
  sl_exec
  sl_step
  iapply Hk $$ HO Hat0 Hat1 Hs0 Hs1

/-- Receive wait number 2. -/
theorem part10_spec (K : Dev nD × Fin 15 → ℕ) (c : Dev nD) (Q : PUnit → sProp 𝕄) (v2 v303 v305 : BitVec 32) (W : Waits sig Unit) :
    iprop(cellInv ER (sched m) (K (c, rIdx 2)) (recvCell c (from_ 2 c)) ∗ cred (tallyAt (recvCell c (from_ 2 c)) () N)
        ∗ owes (c : Thread nD τ) 0 W ∗ atPos ER (recvCell c (from_ 2 c)) 0 ∅ 0
        ∗ (owes (c : Thread nD τ) 0 (insert (SemLoc.dma (recvQ (from_ 2 c)), ()) W) -∗ atPos ER (recvCell c (from_ 2 c)) 1 ∅ 0
            -∗ slotPts m c (from_ 2 c) fullShare -∗ Q ⟨⟩))
      ⊢ wp frame (wpE (defs₀ (F := F)) 𝒱₀ c none) Set.univ
          (k0_part10 (F := F) xM (Memref.isWhole_whole _) oM (Memref.isWhole_whole _) tM (Memref.isWhole_whole _) cc0_scratch1 cc0_scratch2 c v2 v303 v305) Q := by
  iintro ⟨#HI, Hc, HO, Hat, Hk⟩
  sl_exec
  iapply (recv_wait_step m K c 2 _ (recvSem_eq c 2) _ _ W) $$ [Hc HO Hat]
  · isplitr; · iexact HI
    isplitl [Hc]; · iexact Hc
    isplitl [HO]; · iexact HO
    iexact Hat
  iintro ⟨HO, Hat, Hs⟩
  sl_exec
  sl_step
  iapply Hk $$ HO Hat Hs

/-- Receive waits number 3 and 4. -/
theorem part11_spec (K : Dev nD × Fin 15 → ℕ) (c : Dev nD) (Q : PUnit → sProp 𝕄) (v2 : BitVec 32) (W : Waits sig Unit) :
    iprop(cellInv ER (sched m) (K (c, rIdx 3)) (recvCell c (from_ 3 c)) ∗ cellInv ER (sched m) (K (c, rIdx 4)) (recvCell c (from_ 4 c))
        ∗ cred (tallyAt (recvCell c (from_ 3 c)) () N) ∗ cred (tallyAt (recvCell c (from_ 4 c)) () N)
        ∗ owes (c : Thread nD τ) 0 W ∗ atPos ER (recvCell c (from_ 3 c)) 0 ∅ 0 ∗ atPos ER (recvCell c (from_ 4 c)) 0 ∅ 0
        ∗ (owes (c : Thread nD τ) 0 (insert (SemLoc.dma (recvQ (from_ 4 c)), ()) (insert (SemLoc.dma (recvQ (from_ 3 c)), ()) W))
            -∗ atPos ER (recvCell c (from_ 3 c)) 1 ∅ 0 -∗ atPos ER (recvCell c (from_ 4 c)) 1 ∅ 0
            -∗ slotPts m c (from_ 3 c) fullShare -∗ slotPts m c (from_ 4 c) fullShare -∗ Q ⟨⟩))
      ⊢ wp frame (wpE (defs₀ (F := F)) 𝒱₀ c none) Set.univ
          (k0_part11 (F := F) xM (Memref.isWhole_whole _) oM (Memref.isWhole_whole _) tM (Memref.isWhole_whole _) cc0_scratch1 cc0_scratch2 c v2) Q := by
  iintro ⟨#HI3, #HI4, Hc3, Hc4, HO, Hat3, Hat4, Hk⟩
  sl_exec
  iapply (recv_wait_step m K c 3 _ (recvSem_eq c 3) _ _ W) $$ [Hc3 HO Hat3]
  · isplitr; · iexact HI3
    isplitl [Hc3]; · iexact Hc3
    isplitl [HO]; · iexact HO
    iexact Hat3
  iintro ⟨HO, Hat3, Hs3⟩
  sl_exec
  iapply (recv_wait_step m K c 4 _ (recvSem_eq c 4) _ _ _) $$ [Hc4 HO Hat4]
  · isplitr; · iexact HI4
    isplitl [Hc4]; · iexact Hc4
    isplitl [HO]; · iexact HO
    iexact Hat4
  iintro ⟨HO, Hat4, Hs4⟩
  sl_exec
  sl_step
  iapply Hk $$ HO Hat3 Hat4 Hs3 Hs4

abbrev R12 (F : FTy → Type) [FloatOps F] : Type := Σ' (v407 : FVec F S1x1024 .f32), FVec F S1x1024 .f32

/-- Receive waits number 5 and 6, then the table read whole at the left half share: the global maximum and the
    rescaled sum are terms of the final table. The last two slots arrive inside this stretch, so the whole table is
    put together here, by the wand `A`, from them and whatever else the caller holds; `B` is what is left over. -/
theorem part12_spec (K : Dev nD × Fin 15 → ℕ) (c : Dev nD) (Q : R12 F → sProp 𝕄) (v2 : BitVec 32) (v113 : FVec F S2x1024 .f32)
    (W : Waits sig Unit) (B : sProp 𝕄) :
    iprop(cellInv ER (sched m) (K (c, rIdx 5)) (recvCell c (from_ 5 c)) ∗ cellInv ER (sched m) (K (c, rIdx 6)) (recvCell c (from_ 6 c))
        ∗ cred (tallyAt (recvCell c (from_ 5 c)) () N) ∗ cred (tallyAt (recvCell c (from_ 6 c)) () N)
        ∗ owes (c : Thread nD τ) 0 W ∗ atPos ER (recvCell c (from_ 5 c)) 0 ∅ 0 ∗ atPos ER (recvCell c (from_ 6 c)) 0 ∅ 0
        ∗ (slotPts m c (from_ 5 c) fullShare -∗ slotPts m c (from_ 6 c) fullShare
            -∗ iprop((tLoc c ↦[Finset.univ]{fullShare.left} tblAll m) ∗ B))
        ∗ (∀ r : R12 F, ⌜r.1 = k0_pay10 (tblAll m) ∧ r.2 = k0_pay11 v113 (tblAll m)⌝
            -∗ owes (c : Thread nD τ) 0 (insert (SemLoc.dma (recvQ (from_ 6 c)), ()) (insert (SemLoc.dma (recvQ (from_ 5 c)), ()) W))
            -∗ atPos ER (recvCell c (from_ 5 c)) 1 ∅ 0 -∗ atPos ER (recvCell c (from_ 6 c)) 1 ∅ 0
            -∗ (tLoc c ↦[Finset.univ]{fullShare.left} tblAll m) -∗ B -∗ Q r))
      ⊢ wp frame (wpE (defs₀ (F := F)) 𝒱₀ c none) Set.univ
          (k0_part12 (F := F) xM (Memref.isWhole_whole _) oM (Memref.isWhole_whole _) tM (Memref.isWhole_whole _) cc0_scratch1 cc0_scratch2 c v2 v113) Q := by
  iintro ⟨#HI5, #HI6, Hc5, Hc6, HO, Hat5, Hat6, HA, Hk⟩
  rw [k0_part12_eq_skeleton]
  sl_exec
  iapply (recv_wait_step m K c 5 _ (recvSem_eq c 5) _ _ W) $$ [Hc5 HO Hat5]
  · isplitr; · iexact HI5
    isplitl [Hc5]; · iexact Hc5
    isplitl [HO]; · iexact HO
    iexact Hat5
  iintro ⟨HO, Hat5, Hs5⟩
  sl_exec
  iapply (recv_wait_step m K c 6 _ (recvSem_eq c 6) _ _ _) $$ [Hc6 HO Hat6]
  · isplitr; · iexact HI6
    isplitl [Hc6]; · iexact Hc6
    isplitl [HO]; · iexact HO
    iexact Hat6
  iintro ⟨HO, Hat6, Hs6⟩
  ihave HT := HA $$ Hs5 Hs6
  icases HT with ⟨Ht, HB⟩
  iapply (wp_load 𝒱₀ (c : Thread nD τ) none Set.univ (m := tM) (Finset.subset_univ _)) $$ [Ht]
  · iexact Ht
  iintro Ht
  rw [load_table m]
  simp only [Prog.bind]
  sl_step
  iapply Hk $$ %_ %⟨rfl, rfl⟩ HO Hat5 Hat6 Ht HB

/-! ## Each statement above stands on the three standard axioms only -/

/-- info: 'Cert.KernelProto.recvSem_eq' depends on axioms: [propext, Classical.choice, Quot.sound] -/
#guard_msgs in #print axioms recvSem_eq

/-- info: 'Cert.KernelProto.part9_spec' depends on axioms: [propext, Classical.choice, Quot.sound] -/
#guard_msgs in #print axioms part9_spec

/-- info: 'Cert.KernelProto.part10_spec' depends on axioms: [propext, Classical.choice, Quot.sound] -/
#guard_msgs in #print axioms part10_spec

/-- info: 'Cert.KernelProto.part11_spec' depends on axioms: [propext, Classical.choice, Quot.sound] -/
#guard_msgs in #print axioms part11_spec

/-- info: 'Cert.KernelProto.part12_spec' depends on axioms: [propext, Classical.choice, Quot.sound] -/
#guard_msgs in #print axioms part12_spec

end Cert.KernelProto

end
-- ==== Proof.Bits.PartsD.lean ====
/-
  The last part of one device's body, stepped from the exchange's ghost state: the device scales its block of
  `exp (x - max)` by its row factors and stores the result over the result buffer, then waits on its send cells 0, 1
  and 2, each wait handing back the share of its own slot that copy borrowed. The four waits that end the body, on
  send cells 3 to 6, are stated the same way over the program that lists them.
-/
import proofs.«901054_g7700000000001055_dist_softmax_colshard_i_m1024_n1024_v7x_i8_f32_1_alg».proof.Proof.Bits.Proto
import proofs.«901054_g7700000000001055_dist_softmax_colshard_i_m1024_n1024_v7x_i8_f32_1_alg».proof.Proof.Bits.ProtoLemmas
import proofs.«901054_g7700000000001055_dist_softmax_colshard_i_m1024_n1024_v7x_i8_f32_1_alg».proof.Proof.Bits.ProtoLemmas2
import proofs.«901054_g7700000000001055_dist_softmax_colshard_i_m1024_n1024_v7x_i8_f32_1_alg».proof.Proof.Bits.Slots
import proofs.«901054_g7700000000001055_dist_softmax_colshard_i_m1024_n1024_v7x_i8_f32_1_alg».proof.Proof.Bits.Steps
import Idealize.ShloMosaic.Lib.Pipeline.Launch
import Idealize.ShloMosaic.Lib.Pipeline.Kit
import Idealize.ShloMosaic.Lib.Tactic

noncomputable section

namespace Cert.KernelProto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_canon] dev1_eq dev2_eq dev3_eq dev4_eq dev5_eq dev6_eq dev7_eq dev8_eq dev9_eq dev10_eq dev11_eq dev12_eq dev13_eq dev14_eq

omit [FloatOps F] in
theorem zero_offsets : (![0, 0] : Fin 2 → Nat) = fun _ => 0 := funext fun a => by fin_cases a <;> rfl

/-- The whole-buffer rectangle the result is loaded and stored through. -/
abbrev rOut : Rect S1024x1024 := Rect.unit (s := S1024x1024) ![0, 0] S1024x1024.size inb_S1024x1024_S1024x1024_0_0

omit [FloatOps F] in
/-- A load of the whole result buffer reads its contents, -/
theorem read_out (g : (cc0_stg1_0 : Ref sig .tc).ty.Contents (Elt F)) :
    (oM : Memref sig .tc .vmem S1024x1024 .f32).view.readAt (Elt F) rOut.toLoadRect g = g :=
  Memref.readAt_unit_zero (Elt F) cc0_stg1_0 zero_offsets _ g
omit [FloatOps F] in
/-- and one store of the whole buffer leaves what was stored. -/
theorem stored_out (g w : (cc0_stg1_0 : Ref sig .tc).ty.Contents (Elt F)) :
    (oM : Memref sig .tc .vmem S1024x1024 .f32).view.writes (Elt F) g [⟨rOut, w⟩] = w := by
  rw [View.writes_singleton]
  exact Memref.write_access_unit_zero_univ (Elt F) cc0_stg1_0 zero_offsets inb_S1024x1024_S1024x1024_0_0 g w

/-- What the wait on send cell `d` hands back: the share of the device's own slot that copy borrowed. -/
theorem pay_send (c : Dev nD) (d : Fin 7) :
    bigSep ((sched (F := F) m).duties (sendCell c d) 0) (fun k => (sched (F := F) m).payload (sendCell c d) 0 k) = slotPts m c c (shr d) := by
  rw [duties_send, bigSep_singleton, payload_send]

set_option maxHeartbeats 1600000 in
/-- Part 13: the result is stored whole, `k0_pay12` of the identity matrix's payload, the global sum row, the
    difference row and what the buffer held; then the waits on send cells 0, 1, 2. -/
theorem part13_spec (K : Dev nD × Fin 15 → ℕ) (c : Dev nD) (Q : PUnit → sProp 𝕄)
    (v101 : FVec F S1024x1024 .f32) (v407 v409 : FVec F S1x1024 .f32)
    (g : Vec F S1024x1024 .f32) (W : Waits sig Unit) :
    iprop(cellInv ER (sched m) (K (c, sIdx 0)) (sendCell c 0) ∗ cellInv ER (sched m) (K (c, sIdx 1)) (sendCell c 1)
        ∗ cellInv ER (sched m) (K (c, sIdx 2)) (sendCell c 2)
        ∗ cred (tallyAt (sendCell c 0) () N) ∗ cred (tallyAt (sendCell c 1) () N) ∗ cred (tallyAt (sendCell c 2) () N)
        ∗ atPos ER (sendCell c 0) 0 ∅ 0 ∗ atPos ER (sendCell c 1) 0 ∅ 0 ∗ atPos ER (sendCell c 2) 0 ∅ 0
        ∗ owes (c : Thread nD τ) 0 W
        ∗ ((oM : Memref sig .tc .vmem S1024x1024 .f32).view.loc (c : Thread nD τ) ↦{fullShare} g)
        ∗ ((owes (c : Thread nD τ) 0 (insert (SemLoc.dma (sendQ 2), ()) (insert (SemLoc.dma (sendQ 1), ()) (insert (SemLoc.dma (sendQ 0), ()) W)))
              ∗ atPos ER (sendCell c 0) 1 ∅ 0 ∗ atPos ER (sendCell c 1) 1 ∅ 0 ∗ atPos ER (sendCell c 2) 1 ∅ 0
              ∗ slotPts m c c (shr 0) ∗ slotPts m c c (shr 1) ∗ slotPts m c c (shr 2)
              ∗ ((oM : Memref sig .tc .vmem S1024x1024 .f32).view.loc (c : Thread nD τ) ↦{fullShare} (k0_pay12 v101 v407 v409 g))) -∗ Q ⟨⟩))
      ⊢ wp frame (wpE (defs₀ (F := F)) 𝒱₀ c none) Set.univ
          (k0_part13 (F := F) xM (Memref.isWhole_whole _) oM (Memref.isWhole_whole _) tM (Memref.isWhole_whole _) cc0_scratch1 cc0_scratch2 c v101 v407 v409) Q := by
  iintro ⟨#HI0, #HI1, #HI2, Hc0, Hc1, Hc2, Ha0, Ha1, Ha2, HO, Hg, Hk⟩
  sl_exec
  sl_step
  rw [read_out, stored_out]
  iapply Hk
  isplitl [HO]; · iexact HO
  isplitl [Ha0]; · iexact Ha0
  isplitl [Ha1]; · iexact Ha1
  isplitl [Ha2]; · iexact Ha2
  isplitl [Ha0_pay1]; · iapply (Entails.of_eq (pay_send m c 0)); iexact Ha0_pay1
  isplitl [Ha1_pay1]; · iapply (Entails.of_eq (pay_send m c 1)); iexact Ha1_pay1
  isplitl [Ha2_pay1]; · iapply (Entails.of_eq (pay_send m c 2)); iexact Ha2_pay1
  iexact Hg

/-- The last four statements of the body: the waits on send cells 3, 4, 5 and 6, each naming the device's own slot as
    both ends of the copy it waits for. -/
def sendWaits36 (c : Dev nD) : Prog (TpuEff nD τ sig (Elt F) Λ₀ .tc) PUnit := do
  Prog.lift (.waitDma2 ((cc0_scratch1.slice (Rect.unit (s := S7) ![3] S1.size inb_S7_S1_3)).squeeze S_ squeezes_S1_S_).sem (slotM c) (slotM c) ((View.wordExact_bits rfl).reshape _ _) ((View.wordExact_bits rfl).reshape _ _))
  Prog.lift (.waitDma2 ((cc0_scratch1.slice (Rect.unit (s := S7) ![4] S1.size inb_S7_S1_4)).squeeze S_ squeezes_S1_S_).sem (slotM c) (slotM c) ((View.wordExact_bits rfl).reshape _ _) ((View.wordExact_bits rfl).reshape _ _))
  Prog.lift (.waitDma2 ((cc0_scratch1.slice (Rect.unit (s := S7) ![5] S1.size inb_S7_S1_5)).squeeze S_ squeezes_S1_S_).sem (slotM c) (slotM c) ((View.wordExact_bits rfl).reshape _ _) ((View.wordExact_bits rfl).reshape _ _))
  Prog.lift (.waitDma2 ((cc0_scratch1.slice (Rect.unit (s := S7) ![6] S1.size inb_S7_S1_6)).squeeze S_ squeezes_S1_S_).sem (slotM c) (slotM c) ((View.wordExact_bits rfl).reshape _ _) ((View.wordExact_bits rfl).reshape _ _))
  pure ⟨⟩

set_option maxHeartbeats 1600000 in
theorem sendWaits36_spec (K : Dev nD × Fin 15 → ℕ) (c : Dev nD) (Q : PUnit → sProp 𝕄) (W : Waits sig Unit) :
    iprop(cellInv ER (sched m) (K (c, sIdx 3)) (sendCell c 3) ∗ cellInv ER (sched m) (K (c, sIdx 4)) (sendCell c 4)
        ∗ cellInv ER (sched m) (K (c, sIdx 5)) (sendCell c 5) ∗ cellInv ER (sched m) (K (c, sIdx 6)) (sendCell c 6)
        ∗ cred (tallyAt (sendCell c 3) () N) ∗ cred (tallyAt (sendCell c 4) () N) ∗ cred (tallyAt (sendCell c 5) () N)
        ∗ cred (tallyAt (sendCell c 6) () N)
        ∗ atPos ER (sendCell c 3) 0 ∅ 0 ∗ atPos ER (sendCell c 4) 0 ∅ 0 ∗ atPos ER (sendCell c 5) 0 ∅ 0 ∗ atPos ER (sendCell c 6) 0 ∅ 0
        ∗ owes (c : Thread nD τ) 0 W
        ∗ ((owes (c : Thread nD τ) 0 (insert (SemLoc.dma (sendQ 6), ()) (insert (SemLoc.dma (sendQ 5), ()) (insert (SemLoc.dma (sendQ 4), ()) (insert (SemLoc.dma (sendQ 3), ()) W))))
              ∗ atPos ER (sendCell c 3) 1 ∅ 0 ∗ atPos ER (sendCell c 4) 1 ∅ 0 ∗ atPos ER (sendCell c 5) 1 ∅ 0 ∗ atPos ER (sendCell c 6) 1 ∅ 0
              ∗ slotPts m c c (shr 3) ∗ slotPts m c c (shr 4) ∗ slotPts m c c (shr 5) ∗ slotPts m c c (shr 6)) -∗ Q ⟨⟩))
      ⊢ wp frame (wpE (defs₀ (F := F)) 𝒱₀ c none) Set.univ (sendWaits36 (F := F) c) Q := by
  iintro ⟨#HI3, #HI4, #HI5, #HI6, Hc3, Hc4, Hc5, Hc6, Ha3, Ha4, Ha5, Ha6, HO, Hk⟩
  unfold sendWaits36
  sl_exec
  sl_step
  iapply Hk
  isplitl [HO]; · iexact HO
  isplitl [Ha3]; · iexact Ha3
  isplitl [Ha4]; · iexact Ha4
  isplitl [Ha5]; · iexact Ha5
  isplitl [Ha6]; · iexact Ha6
  isplitl [Ha3_pay1]; · iapply (Entails.of_eq (pay_send m c 3)); iexact Ha3_pay1
  isplitl [Ha4_pay1]; · iapply (Entails.of_eq (pay_send m c 4)); iexact Ha4_pay1
  isplitl [Ha5_pay1]; · iapply (Entails.of_eq (pay_send m c 5)); iexact Ha5_pay1
  iapply (Entails.of_eq (pay_send m c 6)); iexact Ha6_pay1

/-- info: 'Cert.KernelProto.part13_spec' depends on axioms: [propext, Classical.choice, Quot.sound] -/
#guard_msgs in #print axioms part13_spec
/-- info: 'Cert.KernelProto.sendWaits36_spec' depends on axioms: [propext, Classical.choice, Quot.sound] -/
#guard_msgs in #print axioms sendWaits36_spec

end Cert.KernelProto

end
-- ==== Proof.Bits.Body.lean ====
/-
  One device's whole body against the exchange's ghost state. Its table is cut into its eight slots; the seven signals
  give the peers' slots away; the block's `exp (x - max)` goes to the result buffer and its statistics into the device's
  own slot, whose points-to is then halved, the right half lent out in seven shares; the wait for seven units brings
  each peer's slot number `c`, into which the seven copies write; the seven receive waits bring the peers' statistics;
  the left halves of all eight slots make the whole table for the one load that reads it; the result buffer is
  rescaled; the seven send waits bring the lent shares back. At the end every slot is back at the full share, the
  fourteen cells are closed with their counters at zero, and the result buffer holds the device's result.
-/
import proofs.«901054_g7700000000001055_dist_softmax_colshard_i_m1024_n1024_v7x_i8_f32_1_alg».proof.Proof.Bits.Proto
import proofs.«901054_g7700000000001055_dist_softmax_colshard_i_m1024_n1024_v7x_i8_f32_1_alg».proof.Proof.Bits.ProtoLemmas
import proofs.«901054_g7700000000001055_dist_softmax_colshard_i_m1024_n1024_v7x_i8_f32_1_alg».proof.Proof.Bits.ProtoLemmas2
import proofs.«901054_g7700000000001055_dist_softmax_colshard_i_m1024_n1024_v7x_i8_f32_1_alg».proof.Proof.Bits.Slots
import proofs.«901054_g7700000000001055_dist_softmax_colshard_i_m1024_n1024_v7x_i8_f32_1_alg».proof.Proof.Bits.Steps
import proofs.«901054_g7700000000001055_dist_softmax_colshard_i_m1024_n1024_v7x_i8_f32_1_alg».proof.Proof.Bits.PartsA
import proofs.«901054_g7700000000001055_dist_softmax_colshard_i_m1024_n1024_v7x_i8_f32_1_alg».proof.Proof.Bits.Part4
import proofs.«901054_g7700000000001055_dist_softmax_colshard_i_m1024_n1024_v7x_i8_f32_1_alg».proof.Proof.Bits.Glue
import proofs.«901054_g7700000000001055_dist_softmax_colshard_i_m1024_n1024_v7x_i8_f32_1_alg».proof.Proof.Bits.PartsB
import proofs.«901054_g7700000000001055_dist_softmax_colshard_i_m1024_n1024_v7x_i8_f32_1_alg».proof.Proof.Bits.PartsC
import proofs.«901054_g7700000000001055_dist_softmax_colshard_i_m1024_n1024_v7x_i8_f32_1_alg».proof.Proof.Bits.PartsD
import Idealize.ShloMosaic.Lib.Pipeline.Launch
import Idealize.ShloMosaic.Lib.Pipeline.Kit
import Idealize.ShloMosaic.Lib.Tactic

noncomputable section

namespace Cert.KernelProto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(Φ₁ c ∗ (dats m 0 c).owesAt () t0_0.succ ∗ stg c cc0_stg0_0 (xblk m c) ∗ stg c cc0_stg1_0 (outAt m c))

set_option maxHeartbeats 4000000 in
set_option maxRecDepth 16384 in
theorem sound_body (c : Dev nD) (Kt : PUnit → sProp 𝕄) :
    iprop(bodyPre m c ∗ (bodyPost m c -∗ Kt ⟨⟩))
      ⊢ wp frame (wpE (defs₀ (F := F)) 𝒱₀ c none) Set.univ
          (cc0_body (F := F) xM (Memref.isWhole_whole _) oM (Memref.isWhole_whole _) tM (Memref.isWhole_whole _) cc0_scratch1 cc0_scratch2) Kt := by
  simp only [cc0_body_eq_skeleton]; unfold cc0_body_skel
  simp only [wp_bind, Prog.lift]
  unfold bodyPre Φ₀ start ghost invs reacheds positions payToks
  simp only [bigSep_fin7]
  iintro ⟨⟨⟨⟨⟨%K, ⟨#HIb, ⟨#HIs0, #HIs1, #HIs2, #HIs3, #HIs4, #HIs5, #HIs6⟩, ⟨#HIr0, #HIr1, #HIr2, #HIr3, #HIr4, #HIr5, #HIr6⟩, ⟨#HIpb0, #HIpb1, #HIpb2, #HIpb3, #HIpb4, #HIpb5, #HIpb6⟩, ⟨#HIpr0, #HIpr1, #HIpr2, #HIpr3, #HIpr4, #HIpr5, #HIpr6⟩⟩, ⟨⟨#HRb0, #HRb1, #HRb2, #HRb3, #HRb4, #HRb5, #HRb6⟩, ⟨#HRs0, #HRs1, #HRs2, #HRs3, #HRs4, #HRs5, #HRs6⟩, ⟨#HRr0, #HRr1, #HRr2, #HRr3, #HRr4, #HRr5, #HRr6⟩⟩, ⟨HatB, ⟨HatS0, HatS1, HatS2, HatS3, HatS4, HatS5, HatS6⟩, ⟨HatR0, HatR1, HatR2, HatR3, HatR4, HatR5, HatR6⟩⟩, ⟨⟨HtB0, HtB1, HtB2, HtB3, HtB4, HtB5, HtB6⟩, ⟨HtS0, HtS1, HtS2, HtS3, HtS4, HtS5, HtS6⟩, ⟨HtR0, HtR1, HtR2, HtR3, HtR4, HtR5, HtR6⟩⟩⟩, HcB, ⟨HcR0, HcR1, HcR2, HcR3, HcR4, HcR5, HcR6⟩, #Hlev, HsvU⟩, ⟨%f0, Htab⟩⟩, Ho, ⟨%d0, %g0, %hg0, Hx⟩, ⟨%d1, %g1, %hg1, Hout⟩⟩, Hk⟩
  unfold Dat.owesAt Pipeline.owesWithin
  icases Ho with ⟨%W, %hW, HO⟩
  rw [show (dats m 0 c).owed t0_0.castSucc = owe c 14 from rfl]
  have hx : g0 = xblk m c := by rw [hg0]; unfold Dat.before; rw [if_pos (fetch0_0 t0_0)]; rfl
  subst hx
  ihave Hsl := (split_table c f0) $$ Htab
  icases Hsl with ⟨Hown, Hs0, Hs1, Hs2, Hs3, Hs4, Hs5, Hs6⟩
  -- the seven signals
  rw [owe_peel0 c, owe_peel1 c]
  iapply (part1_spec m K c _ f0 (owe c 12) W)
  isplitr; · iexact HIpb0
  isplitr; · iexact HIpb1
  isplitr; · iexact HRb0
  isplitr; · iexact HRb1
  isplitl [HO]; · iexact HO
  isplitl [HtB0]; · iexact HtB0
  isplitl [HtB1]; · iexact HtB1
  isplitl [Hs0]; · iexact Hs0
  isplitl [Hs1]; · iexact Hs1
  iintro %r1 %hr1 HO
  obtain ⟨d0, v2, v3, v30, c8, v31⟩ := r1
  obtain ⟨hd0, hv3⟩ := hr1
  simp only at hd0 hv3
  subst d0 v3
  rw [owe_peel2 c, owe_peel3 c]
  iapply (part2_spec m K c _ f0 (owe c 10) W v2 v30 c8 v31)
  isplitr; · iexact HIpb2
  isplitr; · iexact HIpb3
  isplitr; · iexact HRb2
  isplitr; · iexact HRb3
  isplitl [HO]; · iexact HO
  isplitl [HtB2]; · iexact HtB2
  isplitl [HtB3]; · iexact HtB3
  isplitl [Hs2]; · iexact Hs2
  isplitl [Hs3]; · iexact Hs3
  iintro %r2 HO
  rw [owe_peel4 c, owe_peel5 c, owe_peel6 c]
  iapply (part3_spec m K c _ f0 (owe c 7) W v2 r2.1 r2.2.2 r2.2.1)
  isplitr; · iexact HIpb4
  isplitr; · iexact HIpb5
  isplitr; · iexact HIpb6
  isplitr; · iexact HRb4
  isplitr; · iexact HRb5
  isplitr; · iexact HRb6
  isplitl [HO]; · iexact HO
  isplitl [HtB4]; · iexact HtB4
  isplitl [HtB5]; · iexact HtB5
  isplitl [HtB6]; · iexact HtB6
  isplitl [Hs4]; · iexact Hs4
  isplitl [Hs5]; · iexact Hs5
  isplitl [Hs6]; · iexact Hs6
  iintro %r3 %hr3 HO
  obtain ⟨v96, v98⟩ := r3
  obtain ⟨h96, h98⟩ := hr3
  simp only at h96 h98
  subst v96 v98
  try dsimp only
  iapply (part4_spec m K c _ v2 g1 f0 W)
  isplitr; · iexact HIb
  isplitr; · iexact Hlev
  isplitl [Hx]; · iexact Hx
  isplitl [Hout]; · iexact Hout
  isplitl [Hown]; · iexact Hown
  isplitl [HcB]; · iexact HcB
  isplitl [HO]; · iexact HO
  isplitl [HatB]; · iexact HatB
  iintro %r4 %hr4 Hx Hout Hown HO HatB Hpeers
  obtain ⟨v101, v113⟩ := r4
  obtain ⟨h101, h113⟩ := hr4
  simp only at h101 h113
  subst v101 v113
  ihave Hps := (peers_slots (F := F) c) $$ Hpeers
  icases Hps with ⟨⟨%fd0, Hp0⟩, ⟨%fd1, Hp1⟩, ⟨%fd2, Hp2⟩, ⟨%fd3, Hp3⟩, ⟨%fd4, Hp4⟩, ⟨%fd5, Hp5⟩, ⟨%fd6, Hp6⟩⟩
  ihave Hl := (lend_own m c) $$ Hown
  icases Hl with ⟨HownL, HownR7, Hsh0, Hsh1, Hsh2, Hsh3, Hsh4, Hsh5, Hsh6⟩
  -- the seven copies out
  try dsimp only
  rw [owe_peel7 c, owe_peel8 c]
  iapply (part5_spec m K c _ v2 fd0 fd1 (owe c 5) (insert (SemLoc.reg barS, ()) W))
  isplitr; · iexact HIs0
  isplitr; · iexact HIpr0
  isplitr; · iexact HIs1
  isplitr; · iexact HIpr1
  isplitr; · iexact HRs0
  isplitr; · iexact HRr0
  isplitr; · iexact HRs1
  isplitr; · iexact HRr1
  isplitl [HO]; · iexact HO
  isplitl [HtS0]; · iexact HtS0
  isplitl [HtR0]; · iexact HtR0
  isplitl [HtS1]; · iexact HtS1
  isplitl [HtR1]; · iexact HtR1
  isplitl [Hsh0]; · iexact Hsh0
  isplitl [Hsh1]; · iexact Hsh1
  isplitl [Hp0]; · iexact Hp0
  isplitl [Hp1]; · iexact Hp1
  iintro %r5 HcS0 HcS1 HO
  rw [owe_peel9 c, owe_peel10 c]
  iapply (part6_spec m K c _ v2 r5.1 r5.2.1 r5.2.2.1 r5.2.2.2 fd2 fd3 (owe c 3) (insert (SemLoc.reg barS, ()) W))
  isplitr; · iexact HIs2
  isplitr; · iexact HIpr2
  isplitr; · iexact HIs3
  isplitr; · iexact HIpr3
  isplitr; · iexact HRs2
  isplitr; · iexact HRr2
  isplitr; · iexact HRs3
  isplitr; · iexact HRr3
  isplitl [HO]; · iexact HO
  isplitl [HtS2]; · iexact HtS2
  isplitl [HtR2]; · iexact HtR2
  isplitl [HtS3]; · iexact HtS3
  isplitl [HtR3]; · iexact HtR3
  isplitl [Hsh2]; · iexact Hsh2
  isplitl [Hsh3]; · iexact Hsh3
  isplitl [Hp2]; · iexact Hp2
  isplitl [Hp3]; · iexact Hp3
  iintro %r6 HcS2 HcS3 HO
  rw [owe_peel11 c]
  iapply (part7_spec m K c _ v2 r6.1 r6.2 fd4 (owe c 2) (insert (SemLoc.reg barS, ()) W))
  isplitr; · iexact HIs4
  isplitr; · iexact HIpr4
  isplitr; · iexact HRs4
  isplitr; · iexact HRr4
  isplitl [HO]; · iexact HO
  isplitl [HtS4]; · iexact HtS4
  isplitl [HtR4]; · iexact HtR4
  isplitl [Hsh4]; · iexact Hsh4
  isplitl [Hp4]; · iexact Hp4
  iintro HcS4 HO
  rw [owe_peel12 c, owe_peel13 c]
  iapply (part8_spec m K c _ v2 fd5 fd6 (owe c 0) (insert (SemLoc.reg barS, ()) W))
  isplitr; · iexact HIs5
  isplitr; · iexact HIpr5
  isplitr; · iexact HIs6
  isplitr; · iexact HIpr6
  isplitr; · iexact HRs5
  isplitr; · iexact HRr5
  isplitr; · iexact HRs6
  isplitr; · iexact HRr6
  isplitl [HO]; · iexact HO
  isplitl [HtS5]; · iexact HtS5
  isplitl [HtR5]; · iexact HtR5
  isplitl [HtS6]; · iexact HtS6
  isplitl [HtR6]; · iexact HtR6
  isplitl [Hsh5]; · iexact Hsh5
  isplitl [Hsh6]; · iexact Hsh6
  isplitl [Hp5]; · iexact Hp5
  isplitl [Hp6]; · iexact Hp6
  iintro %r8 HcS5 HcS6 HO
  rw [owe_zero c]
  -- the seven copies in
  try dsimp only
  iapply (part9_spec m K c _ v2 r8.1 r8.2.1 r8.2.2.1 r8.2.2.2 _)
  isplitr; · iexact HIr0
  isplitr; · iexact HIr1
  isplitl [HcR0]; · iexact HcR0
  isplitl [HcR1]; · iexact HcR1
  isplitl [HO]; · iexact HO
  isplitl [HatR0]; · iexact HatR0
  isplitl [HatR1]; · iexact HatR1
  iintro %r9 HO HatR0 HatR1 Hsl0 Hsl1
  iapply (part10_spec m K c _ v2 r9.1 r9.2 _)
  isplitr; · iexact HIr2
  isplitl [HcR2]; · iexact HcR2
  isplitl [HO]; · iexact HO
  isplitl [HatR2]; · iexact HatR2
  iintro HO HatR2 Hsl2
  iapply (part11_spec m K c _ v2 _)
  isplitr; · iexact HIr3
  isplitr; · iexact HIr4
  isplitl [HcR3]; · iexact HcR3
  isplitl [HcR4]; · iexact HcR4
  isplitl [HO]; · iexact HO
  isplitl [HatR3]; · iexact HatR3
  isplitl [HatR4]; · iexact HatR4
  iintro HO HatR3 HatR4 Hsl3 Hsl4
  iapply (part12_spec m K c _ v2 (Fn.stats (xblk m c)) _ iprop(slotPts m c (from_ 0 c) fullShare.right ∗ slotPts m c (from_ 1 c) fullShare.right ∗ slotPts m c (from_ 2 c) fullShare.right ∗ slotPts m c (from_ 3 c) fullShare.right ∗ slotPts m c (from_ 4 c) fullShare.right ∗ slotPts m c (from_ 5 c) fullShare.right ∗ slotPts m c (from_ 6 c) fullShare.right))
  isplitr; · iexact HIr5
  isplitr; · iexact HIr6
  isplitl [HcR5]; · iexact HcR5
  isplitl [HcR6]; · iexact HcR6
  isplitl [HO]; · iexact HO
  isplitl [HatR5]; · iexact HatR5
  isplitl [HatR6]; · iexact HatR6
  isplitl [HownL Hsl0 Hsl1 Hsl2 Hsl3 Hsl4]
  · iintro Hsl5 Hsl6
    iapply (table_for_load m c)
    isplitl [HownL]; · iexact HownL
    isplitl [Hsl0]; · iexact Hsl0
    isplitl [Hsl1]; · iexact Hsl1
    isplitl [Hsl2]; · iexact Hsl2
    isplitl [Hsl3]; · iexact Hsl3
    isplitl [Hsl4]; · iexact Hsl4
    isplitl [Hsl5]; · iexact Hsl5
    iexact Hsl6
  iintro %r12 %hr12 HO HatR5 HatR6 Htbl HB
  obtain ⟨v407, v409⟩ := r12
  obtain ⟨h407, h409⟩ := hr12
  simp only at h407 h409
  subst v407 v409
  -- the last of the softmax, and the first three waits for the copies out
  try dsimp only
  iapply (part13_spec m K c _ Fn.eye (k0_pay10 (tblAll m)) (k0_pay11 (Fn.stats (xblk m c)) (tblAll m)) (k0_pay5 (xblk m c)) _)
  isplitr; · iexact HIs0
  isplitr; · iexact HIs1
  isplitr; · iexact HIs2
  isplitl [HcS0]; · iexact HcS0
  isplitl [HcS1]; · iexact HcS1
  isplitl [HcS2]; · iexact HcS2
  isplitl [HatS0]; · iexact HatS0
  isplitl [HatS1]; · iexact HatS1
  isplitl [HatS2]; · iexact HatS2
  isplitl [HO]; · iexact HO
  isplitl [Hout]; · iexact Hout
  iintro ⟨HO, HatS0, HatS1, HatS2, Hsh0, Hsh1, Hsh2, Hout⟩
  -- the last four waits for the copies out
  iapply (send_wait_step m K c 3 _ (sendS_3) _ _ _) $$ [HcS3 HO HatS3]
  · isplitr; · iexact HIs3
    isplitl [HcS3]; · iexact HcS3
    isplitl [HO]; · iexact HO
    iexact HatS3
  iintro ⟨HO, HatS3, Hsh3⟩
  rw [wp_ret]; imodintro
  iapply (send_wait_step m K c 4 _ (sendS_4) _ _ _) $$ [HcS4 HO HatS4]
  · isplitr; · iexact HIs4
    isplitl [HcS4]; · iexact HcS4
    isplitl [HO]; · iexact HO
    iexact HatS4
  iintro ⟨HO, HatS4, Hsh4⟩
  rw [wp_ret]; imodintro
  iapply (send_wait_step m K c 5 _ (sendS_5) _ _ _) $$ [HcS5 HO HatS5]
  · isplitr; · iexact HIs5
    isplitl [HcS5]; · iexact HcS5
    isplitl [HO]; · iexact HO
    iexact HatS5
  iintro ⟨HO, HatS5, Hsh5⟩
  rw [wp_ret]; imodintro
  iapply (send_wait_step m K c 6 _ (sendS_6) _ _ _) $$ [HcS6 HO HatS6]
  · isplitr; · iexact HIs6
    isplitl [HcS6]; · iexact HcS6
    isplitl [HO]; · iexact HO
    iexact HatS6
  iintro ⟨HO, HatS6, Hsh6⟩
  rw [wp_ret]; imodintro
  -- the table whole again; the fourteen cells closed
  ihave Htab := (table_back m c) $$ [Htbl HB HownR7 Hsh0 Hsh1 Hsh2 Hsh3 Hsh4 Hsh5 Hsh6]
  · isplitl [Htbl]; · iexact Htbl
    isplitl [HB]; · iexact HB
    isplitl [HownR7]; · iexact HownR7
    isplitl [Hsh0]; · iexact Hsh0
    isplitl [Hsh1]; · iexact Hsh1
    isplitl [Hsh2]; · iexact Hsh2
    isplitl [Hsh3]; · iexact Hsh3
    isplitl [Hsh4]; · iexact Hsh4
    isplitl [Hsh5]; · iexact Hsh5
    iexact Hsh6
  imod (close_send m K c 0) $$ [HatS0] with HzS0
  · isplitr; · iexact HIs0
    iexact HatS0
  imod (close_send m K c 1) $$ [HatS1] with HzS1
  · isplitr; · iexact HIs1
    iexact HatS1
  imod (close_send m K c 2) $$ [HatS2] with HzS2
  · isplitr; · iexact HIs2
    iexact HatS2
  imod (close_send m K c 3) $$ [HatS3] with HzS3
  · isplitr; · iexact HIs3
    iexact HatS3
  imod (close_send m K c 4) $$ [HatS4] with HzS4
  · isplitr; · iexact HIs4
    iexact HatS4
  imod (close_send m K c 5) $$ [HatS5] with HzS5
  · isplitr; · iexact HIs5
    iexact HatS5
  imod (close_send m K c 6) $$ [HatS6] with HzS6
  · isplitr; · iexact HIs6
    iexact HatS6
  imod (close_recv m K c 0) $$ [HatR0] with HzR0
  · isplitr; · iexact HIr0
    iexact HatR0
  imod (close_recv m K c 1) $$ [HatR1] with HzR1
  · isplitr; · iexact HIr1
    iexact HatR1
  imod (close_recv m K c 2) $$ [HatR2] with HzR2
  · isplitr; · iexact HIr2
    iexact HatR2
  imod (close_recv m K c 3) $$ [HatR3] with HzR3
  · isplitr; · iexact HIr3
    iexact HatR3
  imod (close_recv m K c 4) $$ [HatR4] with HzR4
  · isplitr; · iexact HIr4
    iexact HatR4
  imod (close_recv m K c 5) $$ [HatR5] with HzR5
  · isplitr; · iexact HIr5
    iexact HatR5
  imod (close_recv m K c 6) $$ [HatR6] with HzR6
  · isplitr; · iexact HIr6
    iexact HatR6
  -- hand everything back
  sl_step
  iapply Hk
  unfold bodyPost Φ₁ Dat.owesAt Pipeline.owesWithin
  rw [show (dats m 0 c).owed t0_0.succ = 0 from rfl, bigSep_dev_froms c (fun s : Dev nD => (semVal (recvCell c s) 0 : sProp 𝕄))]
  simp only [bigSep_fin7]
  isplitl [Htab HzS0 HzS1 HzS2 HzS3 HzS4 HzS5 HzS6 HsvU HzR0 HzR1 HzR2 HzR3 HzR4 HzR5 HzR6]
  · isplitl [Htab]; · iexact Htab
    isplitl [HzS0 HzS1 HzS2 HzS3 HzS4 HzS5 HzS6]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    isplitl [HsvU]; · iexact HsvU
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    iexact HzR6
  isplitl [HO]
  · iexists _
    isplitr
    rotate_left
    · iexact HO
    · ipureintro; exact fun _ _ => Or.inl trivial
  isplitl [Hx]
  · iexists _; isplitr; · (ipureintro; rfl)
    iexact Hx
  iexists (k0_pay12 Fn.eye (k0_pay10 (tblAll m)) (k0_pay11 (Fn.stats (xblk m c)) (tblAll m)) (k0_pay5 (xblk m c)))
  isplitr; · (ipureintro; rfl)
  iexact Hout

set_option maxRecDepth 4000 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ
    (cc0_body (F := F) xM (Memref.isWhole_whole _) oM (Memref.isWhole_whole _) tM (Memref.isWhole_whole _) cc0_scratch1 cc0_scratch2)
    (fun _ => bodyPost m c)
  iintro H
  iapply (sound_body m c fun _ => bodyPost m c)
  isplitl [H]; · iexact H
  iintro H; iexact H

/-- info: 'Cert.KernelProto.body_obligation' depends on axioms: [propext, Classical.choice, Quot.sound] -/
#guard_msgs in #print axioms body_obligation

end Cert.KernelProto

end
-- ==== Proof.lean ====
/-
  The column-sharded softmax on eight devices against the one-device softmax of the whole array.

  Each device holds a 1024 x 1024 block of columns. It computes its row maxima `m_c` and row sums `s_c` of
  `exp (x - m_c)`, the devices exchange these, and device `c` returns `exp (x - m_c) * (exp (m_c - gmax) / gsum)` with
  `gmax = max_s m_s` and `gsum = sum_s s_s * exp (m_s - gmax)`. Over the extended reals with every input finite this
  is `exp (X - rowmax X) / rowsum (exp (X - rowmax X))` restricted to the block: `gmax` is the whole row's maximum,
  `s_s * exp (m_s - gmax)` is the shard's sum of `exp (X - gmax)` because `exp a * exp b = exp (a + b)` on the reals, and
  `e * (a / b) = (e * a) / b` for the positive total `b`.

  The exchange is one round: a signal to a peer hands it the signaller's table slot for that peer; a copy fills that
  slot and returns it on the peer's receive semaphore; a device waits for seven signals before it copies and for seven
  copies before it reads the table, so no slot is read or written while a copy on it is pending. The frames of both
  printed kernels come from one run generic in the float instance; the value claim reads that run at the extended reals.
-/
import proofs.«901054_g7700000000001055_dist_softmax_colshard_i_m1024_n1024_v7x_i8_f32_1_alg».proof.Proof.Runs
import proofs.«901054_g7700000000001055_dist_softmax_colshard_i_m1024_n1024_v7x_i8_f32_1_alg».proof.Proof.Body
import proofs.«901054_g7700000000001055_dist_softmax_colshard_i_m1024_n1024_v7x_i8_f32_1_alg».proof.Proof.Bits.Body

noncomputable section

namespace Cert.Proof

open Idealize.ShloMosaic Idealize.SL.Sem

theorem claim : Cert.Claim :=
  Cert.Proof.Runs.claim_of_bodies (fun m c => Cert.KernelIdealProto.body_obligation m c) (fun m c => Cert.KernelProto.body_obligation m c)

end Cert.Proof

end
